-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x32 : Shape := ⟨2, ![40000, 32]⟩
abbrev S2x640000 : Shape := ⟨2, ![2, 640000]⟩
abbrev S40000 : Shape := ⟨1, ![40000]⟩
abbrev S32x128 : Shape := ⟨2, ![32, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S40000x32 : S_.BroadcastsInDim S40000x32 (![] : Fin 0 → Fin S40000x32.rank)
  reducesTo_S40000x32_S_d0_1 : S40000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S16 .f32) (main_arg14 : FVec F S32x16 .f32) (main_arg15 : FVec F S16x1 .f32) (main_arg16 : FVec F S1 .f32) (main_v48 : IVec S_ 1) (main_v49 : FVec F S32x16 .f32) (main_v50 : FVec F S32x16 .f32) : IVec S_ 1 :=
  let main_v51 : IVec S32x16 1 := cmpf .olt main_v49 main_v50
  let main_c_19 : IVec S_ 1 := constantI S_ 1 1#1
  let main_v52 : IVec S_ 1 := (fun x v => Host.reduce IntOp.andi x v reducesTo_S32x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S32x16 .f32 := Host.absf main_arg14
  let main_cst_22 : FVec F S_ .f32 := constant S_ .f32 0x7F800000#32
  let main_v60 : FVec F S32x16 .f32 := broadcastInDim S32x16 ![] bcast_S_S32x16 main_cst_22
  let main_v61 : IVec S32x16 1 := cmpf .olt main_v59 main_v60
  let main_c_23 : IVec S_ 1 := constantI S_ 1 1#1
  let main_v62 : IVec S_ 1 := (fun x v => Host.reduce IntOp.andi x v reducesTo_S32x16_S_d0_1 h_S_) main_v61 main_c_23
  let main_v63 : IVec S_ 1 := andi main_v58 main_v62
  let main_v64 : FVec F S16x1 .f32 := Host.absf main_arg15
  let main_cst_24 : FVec F S_ .f32 := constant S_ .f32 0x7F800000#32
  let main_v65 : FVec F S16x1 .f32 := broadcastInDim S16x1 ![] bcast_S_S16x1 main_cst_24
  let main_v66 : IVec S16x1 1 := cmpf .olt main_v64 main_v65
  let main_c_25 : IVec S_ 1 := constantI S_ 1 1#1
  let main_v67 : IVec S_ 1 := (fun x v => Host.reduce IntOp.andi x v reducesTo_S16x1_S_d0_1 h_S_) main_v66 main_c_25
  fn_part4 (F := F) main_arg16 main_v63 main_v67

def fn_part2 {F : FTy → Type} [FloatOps F] (main_arg9 : FVec F S64x32 .f32) (main_arg10 : FVec F S32 .f32) (main_arg11 : FVec F S64x32 .f32) (main_arg12 : FVec F S32x16 .f32) (main_arg13 : FVec F S16 .f32) (main_arg14 : FVec F S32x16 .f32) (main_arg15 : FVec F S16x1 .f32) (main_arg16 : FVec F S1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32x16 .f32 := Host.absf main_arg12
  let main_cst_18 : FVec F S_ .f32 := constant S_ .f32 0x7F800000#32
  let main_v50 : FVec F S32x16 .f32 := broadcastInDim S32x16 ![] bcast_S_S32x16 main_cst_18
  fn_part3 (F := F) main_arg13 main_arg14 main_arg15 main_arg16 main_v48 main_v49 main_v50

def fn_part1 {F : FTy → Type} [FloatOps F] (main_arg6 : FVec F S128x64 .f32) (main_arg7 : FVec F S64 .f32) (main_arg8 : FVec F S128x64 .f32) (main_arg9 : FVec F S64x32 .f32) (main_arg10 : FVec F S32 .f32) (main_arg11 : FVec F S64x32 .f32) (main_arg12 : FVec F S32x16 .f32) (main_arg13 : FVec F S16 .f32) (main_arg14 : FVec F S32x16 .f32) (main_arg15 : FVec F S16x1 .f32) (main_arg16 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S40000x32 .f32) (main_arg1 : IVec S2x640000 32) (main_arg2 : IVec S40000 32) (main_arg3 : FVec F S32x128 .f32) (main_arg4 : FVec F S128 .f32) (main_arg5 : FVec F S32x128 .f32) (main_arg6 : FVec F S128x64 .f32) (main_arg7 : FVec F S64 .f32) (main_arg8 : FVec F S128x64 .f32) (main_arg9 : FVec F S64x32 .f32) (main_arg10 : FVec F S32 .f32) (main_arg11 : FVec F S64x32 .f32) (main_arg12 : FVec F S32x16 .f32) (main_arg13 : FVec F S16 .f32) (main_arg14 : FVec F S32x16 .f32) (main_arg15 : FVec F S16x1 .f32) (main_arg16 : FVec F S1 .f32) : IVec S_ 1 :=
  let main_v0 : FVec F S40000x32 .f32 := Host.absf main_arg0
  let main_cst : FVec F S_ .f32 := constant S_ .f32 0x7F800000#32
  let main_v1 : FVec F S40000x32 .f32 := broadcastInDim S40000x32 ![] bcast_S_S40000x32 main_cst
  let main_v2 : IVec S40000x32 1 := cmpf .olt main_v0 main_v1
  let main_c : IVec S_ 1 := constantI S_ 1 1#1
  let main_v3 : IVec S_ 1 := (fun x v => Host.reduce IntOp.andi x v reducesTo_S40000x32_S_d0_1 h_S_) main_v2 main_c
  let main_v4 : FVec F S32x128 .f32 := Host.absf main_arg3
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S32x128 .f32 := Host.absf main_arg5
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S40000x32 : Shape := ⟨2, ![40000, 32]⟩
abbrev S2x640000 : Shape := ⟨2, ![2, 640000]⟩
abbrev S40000 : Shape := ⟨1, ![40000]⟩
abbrev S32x128 : Shape := ⟨2, ![32, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x640000 : Shape := ⟨2, ![1, 640000]⟩
abbrev S640000 : Shape := ⟨1, ![640000]⟩
abbrev S40000x1 : Shape := ⟨2, ![40000, 1]⟩
abbrev S_ : Shape := ⟨0, ![]⟩
abbrev S640000x1 : Shape := ⟨2, ![640000, 1]⟩
abbrev S640000x32 : Shape := ⟨2, ![640000, 32]⟩
abbrev S1x128 : Shape := ⟨2, ![1, 128]⟩
abbrev S40000x128 : Shape := ⟨2, ![40000, 128]⟩
abbrev S5000x32 : Shape := ⟨2, ![5000, 32]⟩
abbrev S5000x128 : Shape := ⟨2, ![5000, 128]⟩
abbrev S640000x128 : Shape := ⟨2, ![640000, 128]⟩
abbrev S1x64 : Shape := ⟨2, ![1, 64]⟩
abbrev S40000x64 : Shape := ⟨2, ![40000, 64]⟩
abbrev S5000x64 : Shape := ⟨2, ![5000, 64]⟩
abbrev S640000x64 : Shape := ⟨2, ![640000, 64]⟩
abbrev S1x32 : Shape := ⟨2, ![1, 32]⟩
abbrev S1x16 : Shape := ⟨2, ![1, 16]⟩
abbrev S40000x16 : Shape := ⟨2, ![40000, 16]⟩
abbrev S5000x16 : Shape := ⟨2, ![5000, 16]⟩
abbrev S1x1 : Shape := ⟨2, ![1, 1]⟩
abbrev S64x1 : Shape := ⟨2, ![64, 1]⟩
abbrev S5000x1 : Shape := ⟨2, ![5000, 1]⟩
abbrev S64x16 : Shape := ⟨2, ![64, 16]⟩

abbrev nBuf : Space → Nat
  | .hbm => 84
  | .vmem => 45
  | .smem => 0
  | _ => 0

abbrev bufTy : (tb : Table) → Fin (tcTables nBuf tb) → BufTy
  | .hbm, ⟨0, _⟩ => ⟨S40000x32, .f32⟩
  | .hbm, ⟨1, _⟩ => ⟨S2x640000, .i32⟩
  | .hbm, ⟨2, _⟩ => ⟨S40000, .i32⟩
  | .hbm, ⟨3, _⟩ => ⟨S32x128, .f32⟩
  | .hbm, ⟨4, _⟩ => ⟨S128, .f32⟩
  | .hbm, ⟨5, _⟩ => ⟨S32x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64x32, .f32⟩
  | .hbm, ⟨10, _⟩ => ⟨S32, .f32⟩
  | .hbm, ⟨11, _⟩ => ⟨S64x32, .f32⟩
  | .hbm, ⟨12, _⟩ => ⟨S32x16, .f32⟩
  | .hbm, ⟨13, _⟩ => ⟨S16, .f32⟩
  | .hbm, ⟨14, _⟩ => ⟨S32x16, .f32⟩
  | .hbm, ⟨15, _⟩ => ⟨S16x1, .f32⟩
  | .hbm, ⟨16, _⟩ => ⟨S1, .f32⟩
  | .hbm, ⟨17, _⟩ => ⟨S1x640000, .i32⟩
  | .hbm, ⟨18, _⟩ => ⟨S640000, .i32⟩
  | .hbm, ⟨19, _⟩ => ⟨S1x640000, .i32⟩
  | .hbm, ⟨20, _⟩ => ⟨S640000, .i32⟩
  | .hbm, ⟨21, _⟩ => ⟨S40000x1, .i32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x32, .f32⟩
  | .hbm, ⟨31, _⟩ => ⟨S_, .f32⟩
  | .hbm, ⟨32, _⟩ => ⟨S40000x32, .f32⟩
  | .hbm, ⟨33, _⟩ => ⟨S640000x1, .i32⟩
  | .hbm, ⟨34, _⟩ => ⟨S40000x32, .f32⟩
  | .hbm, ⟨35, _⟩ => ⟨S1x128, .f32⟩
  | .hbm, ⟨36, _⟩ => ⟨S40000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .f32⟩
  | .hbm, ⟨47, _⟩ => ⟨S40000x128, .f32⟩
  | .hbm, ⟨48, _⟩ => ⟨S640000x1, .i32⟩
  | .hbm, ⟨49, _⟩ => ⟨S40000x128, .f32⟩
  | .hbm, ⟨50, _⟩ => ⟨S1x64, .f32⟩
  | .hbm, ⟨51, _⟩ => ⟨S40000x64, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x64, .f32⟩
  | .hbm, ⟨61, _⟩ => ⟨S_, .f32⟩
  | .hbm, ⟨62, _⟩ => ⟨S40000x64, .f32⟩
  | .hbm, ⟨63, _⟩ => ⟨S640000x1, .i32⟩
  | .hbm, ⟨64, _⟩ => ⟨S40000x64, .f32⟩
  | .hbm, ⟨65, _⟩ => ⟨S1x32, .f32⟩
  | .hbm, ⟨66, _⟩ => ⟨S40000x32, .f32⟩
  | .hbm, ⟨67, _⟩ => ⟨S_, .i32⟩
  | .hbm, ⟨68, _⟩ => ⟨S640000, .i32⟩
  | .hbm, ⟨69, _⟩ => ⟨S640000, .i1⟩
  | .hbm, ⟨70, _⟩ => ⟨S_, .i32⟩
  | .hbm, ⟨71, _⟩ => ⟨S640000, .i32⟩
  | .hbm, ⟨72, _⟩ => ⟨S640000, .i32⟩
  | .hbm, ⟨73, _⟩ => ⟨S640000, .i32⟩
  | .hbm, ⟨74, _⟩ => ⟨S640000x1, .i32⟩
  | .hbm, ⟨75, _⟩ => ⟨S640000x32, .f32⟩
  | .hbm, ⟨76, _⟩ => ⟨S_, .f32⟩
  | .hbm, ⟨77, _⟩ => ⟨S40000x32, .f32⟩
  | .hbm, ⟨78, _⟩ => ⟨S640000x1, .i32⟩
  | .hbm, ⟨79, _⟩ => ⟨S40000x32, .f32⟩
  | .hbm, ⟨80, _⟩ => ⟨S1x16, .f32⟩
  | .hbm, ⟨81, _⟩ => ⟨S40000x16, .f32⟩
  | .hbm, ⟨82, _⟩ => ⟨S1x1, .f32⟩
  | .hbm, ⟨83, _⟩ => ⟨S64x1, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x128, .f32⟩
  | .local _ .vmem, ⟨5, _⟩ => ⟨S32x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x32, .f32⟩
  | .local _ .vmem, ⟨23, _⟩ => ⟨S64x32, .f32⟩
  | .local _ .vmem, ⟨24, _⟩ => ⟨S1x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S32x16, .f32⟩
  | .local _ .vmem, ⟨32, _⟩ => ⟨S32x16, .f32⟩
  | .local _ .vmem, ⟨33, _⟩ => ⟨S1x16, .f32⟩
  | .local _ .vmem, ⟨34, _⟩ => ⟨S5000x16, .f32⟩
  | .local _ .vmem, ⟨35, _⟩ => ⟨S5000x16, .f32⟩
  | .local _ .vmem, ⟨36, _⟩ => ⟨S5000x16, .f32⟩
  | .local _ .vmem, ⟨37, _⟩ => ⟨S5000x16, .f32⟩
  | .local _ .vmem, ⟨38, _⟩ => ⟨S5000x1, .i32⟩
  | .local _ .vmem, ⟨39, _⟩ => ⟨S5000x1, .i32⟩
  | .local _ .vmem, ⟨40, _⟩ => ⟨S16x1, .f32⟩
  | .local _ .vmem, ⟨41, _⟩ => ⟨S1x1, .f32⟩
  | .local _ .vmem, ⟨42, _⟩ => ⟨S64x1, .f32⟩
  | .local _ .vmem, ⟨43, _⟩ => ⟨S64x16, .f32⟩
  | .local _ .vmem, ⟨44, _⟩ => ⟨S64x1, .f32⟩
  | _, _ => ⟨S40000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_7 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_scratch0 : Ref sig .tc := ⟨.vmem, 43, rfl⟩
abbrev cc4_scratch1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def k4_cond2 (i : grid4.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_14 : BitVec 32 := 0#32
  let v29 : BitVec 1 := Scalar.cmpi .ne v28 c0_i32_14
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S40000_S40000x1 : S40000.ShapeCasts S40000x1
  bcast_S_S640000 : S_.BroadcastsInDim S640000 (![] : Fin 0 → Fin S640000.rank)
  bcast_S640000_S640000x1_0 : S640000.BroadcastsInDim S640000x1 (![0] : Fin 1 → Fin S640000x1.rank)
  bcast_S_S40000x32 : S_.BroadcastsInDim S40000x32 (![] : Fin 0 → Fin S40000x32.rank)
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S40000x128 : S_.BroadcastsInDim S40000x128 (![] : Fin 0 → Fin S40000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S40000x64 : S_.BroadcastsInDim S40000x64 (![] : Fin 0 → Fin S40000x64.rank)
  shapeCasts_S32_S1x32 : S32.ShapeCasts S1x32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  shapeCasts_S1_S1x1 : S1.ShapeCasts S1x1
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  broadcasts_S64x1_S64x16 : S64x1.Broadcasts S64x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  gather_S40000x32_S640000x1_S640000x32_1_0_n_n_0_1_132_wf : GatherDims.WF S40000x32 S640000x1 S640000x32 [1] [0] [] [0] [] 1 ![1, 32]
  scatter_S40000x32_S640000x1_S640000x32_1_0_0_1_wf : ScatterDims.WF S40000x32 S640000x1 S640000x32 [1] [0] [0] 1
  dot_S5000x32_S32x128_S5000x128_1_0_0_1_n_n_wf : DotDims.WF S5000x32 S32x128 S5000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x64_S5000x64_1_0_0_1_n_n_wf : DotDims.WF S5000x128 S128x64 S5000x64 [1] [0] [0] [1] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S5000x64_S64x32_S5000x32_1_0_0_1_n_n_wf : DotDims.WF S5000x64 S64x32 S5000x32 [1] [0] [0] [1] [] []
  dot_S5000x32_S32x16_S5000x16_1_0_0_1_n_n_wf : DotDims.WF S5000x32 S32x16 S5000x16 [1] [0] [0] [1] [] []
  dot_S5000x64_S5000x16_S64x16_0_0_1_1_n_n_wf : DotDims.WF S5000x64 S5000x16 S64x16 [0] [0] [1] [1] [] []
  dot_S5000x64_S5000x1_S64x1_0_0_1_1_n_n_wf : DotDims.WF S5000x64 S5000x1 S64x1 [0] [0] [1] [1] [] []
  dot_S64x16_S16x1_S64x1_1_0_0_1_n_n_wf : DotDims.WF S64x16 S16x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S40000x32.size a
  hwx0_0 : ∀ i : grid0.Coords, EltTy.bits .f32 = 32 ∨ (Rect.block (s := S40000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S40000x32.size a
  hwx0_1 : ∀ i : grid0.Coords, EltTy.bits .f32 = 32 ∨ (Rect.block (s := S40000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S40000x128.size a
  hwx0_5 : ∀ i : grid0.Coords, EltTy.bits .f32 = 32 ∨ (Rect.block (s := S40000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S40000x64.size a
  hwx1_5 : ∀ i : grid1.Coords, EltTy.bits .f32 = 32 ∨ (Rect.block (s := S40000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S40000x64.size a
  hwx2_0 : ∀ i : grid2.Coords, EltTy.bits .f32 = 32 ∨ (Rect.block (s := S40000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S40000x64.size a
  hwx2_1 : ∀ i : grid2.Coords, EltTy.bits .f32 = 32 ∨ (Rect.block (s := S40000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S40000x32.size a
  hwx2_5 : ∀ i : grid2.Coords, EltTy.bits .f32 = 32 ∨ (Rect.block (s := S40000x32) S5000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S40000x32.size a
  hwx3_0 : ∀ i : grid3.Coords, EltTy.bits .f32 = 32 ∨ (Rect.block (s := S40000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S40000x32.size a
  hwx3_1 : ∀ i : grid3.Coords, EltTy.bits .f32 = 32 ∨ (Rect.block (s := S40000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x16.size a ≤ S32x16.size a
  hwx3_2 : ∀ i : grid3.Coords, EltTy.bits .f32 = 32 ∨ (Rect.block (s := S32x16) S32x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x16.size a ≤ S32x16.size a
  hwx3_3 : ∀ i : grid3.Coords, EltTy.bits .f32 = 32 ∨ (Rect.block (s := S32x16) S32x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x16.size a ≤ S40000x16.size a
  hwx3_5 : ∀ i : grid3.Coords, EltTy.bits .f32 = 32 ∨ (Rect.block (s := S40000x16) S5000x16.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S40000x16.size a
  hwx4_0 : ∀ i : grid4.Coords, EltTy.bits .f32 = 32 ∨ (Rect.block (s := S40000x16) S5000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S40000x1.size a
  hwx4_1 : ∀ i : grid4.Coords, EltTy.bits .i32 = 32 ∨ (Rect.block (s := S40000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x1.size a ≤ S16x1.size a
  hwx4_2 : ∀ i : grid4.Coords, EltTy.bits .f32 = 32 ∨ (Rect.block (s := S16x1) S16x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)

variable [Facts₀]

def gather_S40000x32_S640000x1_S640000x32_1_0_n_n_0_1_132 : GatherDims S40000x32 S640000x1 S640000x32 where
  offsetDims := [1]
  collapsedSliceDims := [0]
  operandBatchingDims := []
  startIndicesBatchingDims := []
  startIndexMap := [0]
  indexVectorDim := 1
  sliceSizes := ![1, 32]
  wf := gather_S40000x32_S640000x1_S640000x32_1_0_n_n_0_1_132_wf
def scatter_S40000x32_S640000x1_S640000x32_1_0_0_1 : ScatterDims S40000x32 S640000x1 S640000x32 where
  updateWindowDims := [1]
  insertedWindowDims := [0]
  scatterDimsToOperandDims := [0]
  indexVectorDim := 1
  wf := scatter_S40000x32_S640000x1_S640000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x64_S5000x16_S64x16_0_0_1_1_n_n : DotDims S5000x64 S5000x16 S64x16 where
  lhsContracting := [0]
  rhsContracting := [0]
  lhsNonContracting := [1]
  rhsNonContracting := [1]
  lhsBatch := []
  rhsBatch := []
  wf := dot_S5000x64_S5000x16_S64x16_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

abbrev win0_0 : Pipeline.Window sig grid0 :=
  Pipeline.Window.ofSpec (Memref.whole main_v14) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S32x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S32x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S5000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v52) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S16x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v54) S64x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S40000x32 : Shape := ⟨2, ![40000, 32]⟩
abbrev S2x640000 : Shape := ⟨2, ![2, 640000]⟩
abbrev S40000 : Shape := ⟨1, ![40000]⟩
abbrev S32x128 : Shape := ⟨2, ![32, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x32 : Shape := ⟨2, ![640000, 32]⟩
abbrev S40000x128 : Shape := ⟨2, ![40000, 128]⟩
abbrev S1x128 : Shape := ⟨2, ![1, 128]⟩
abbrev S640000x128 : Shape := ⟨2, ![640000, 128]⟩
abbrev S40000x64 : Shape := ⟨2, ![40000, 64]⟩
abbrev S1x64 : Shape := ⟨2, ![1, 64]⟩
abbrev S640000x64 : Shape := ⟨2, ![640000, 64]⟩
abbrev S1x32 : Shape := ⟨2, ![1, 32]⟩
abbrev S40000x16 : Shape := ⟨2, ![40000, 16]⟩
abbrev S1x16 : Shape := ⟨2, ![1, 16]⟩
abbrev S64x16 : Shape := ⟨2, ![64, 16]⟩
abbrev S40000x1 : Shape := ⟨2, ![40000, 1]⟩
abbrev S64x1 : Shape := ⟨2, ![64, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S40000x32, .f32⟩
  | .hbm, ⟨1, _⟩ => ⟨S2x640000, .i32⟩
  | .hbm, ⟨2, _⟩ => ⟨S40000, .i32⟩
  | .hbm, ⟨3, _⟩ => ⟨S32x128, .f32⟩
  | .hbm, ⟨4, _⟩ => ⟨S128, .f32⟩
  | .hbm, ⟨5, _⟩ => ⟨S32x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64x32, .f32⟩
  | .hbm, ⟨10, _⟩ => ⟨S32, .f32⟩
  | .hbm, ⟨11, _⟩ => ⟨S64x32, .f32⟩
  | .hbm, ⟨12, _⟩ => ⟨S32x16, .f32⟩
  | .hbm, ⟨13, _⟩ => ⟨S16, .f32⟩
  | .hbm, ⟨14, _⟩ => ⟨S32x16, .f32⟩
  | .hbm, ⟨15, _⟩ => ⟨S16x1, .f32⟩
  | .hbm, ⟨16, _⟩ => ⟨S1, .f32⟩
  | .hbm, ⟨17, _⟩ => ⟨S1x640000, .i32⟩
  | .hbm, ⟨18, _⟩ => ⟨S640000, .i32⟩
  | .hbm, ⟨19, _⟩ => ⟨S1x640000, .i32⟩
  | .hbm, ⟨20, _⟩ => ⟨S640000, .i32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x32, .f32⟩
  | .hbm, ⟨30, _⟩ => ⟨S_, .f32⟩
  | .hbm, ⟨31, _⟩ => ⟨S40000x32, .f32⟩
  | .hbm, ⟨32, _⟩ => ⟨S640000x1, .i32⟩
  | .hbm, ⟨33, _⟩ => ⟨S40000x32, .f32⟩
  | .hbm, ⟨34, _⟩ => ⟨S40000x128, .f32⟩
  | .hbm, ⟨35, _⟩ => ⟨S1x128, .f32⟩
  | .hbm, ⟨36, _⟩ => ⟨S40000x128, .f32⟩
  | .hbm, ⟨37, _⟩ => ⟨S40000x128, .f32⟩
  | .hbm, ⟨38, _⟩ => ⟨S40000x128, .f32⟩
  | .hbm, ⟨39, _⟩ => ⟨S40000x128, .f32⟩
  | .hbm, ⟨40, _⟩ => ⟨S_, .f32⟩
  | .hbm, ⟨41, _⟩ => ⟨S40000x128, .f32⟩
  | .hbm, ⟨42, _⟩ => ⟨S40000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .f32⟩
  | .hbm, ⟨53, _⟩ => ⟨S40000x128, .f32⟩
  | .hbm, ⟨54, _⟩ => ⟨S640000x1, .i32⟩
  | .hbm, ⟨55, _⟩ => ⟨S40000x128, .f32⟩
  | .hbm, ⟨56, _⟩ => ⟨S40000x64, .f32⟩
  | .hbm, ⟨57, _⟩ => ⟨S1x64, .f32⟩
  | .hbm, ⟨58, _⟩ => ⟨S40000x64, .f32⟩
  | .hbm, ⟨59, _⟩ => ⟨S40000x64, .f32⟩
  | .hbm, ⟨60, _⟩ => ⟨S40000x64, .f32⟩
  | .hbm, ⟨61, _⟩ => ⟨S40000x64, .f32⟩
  | .hbm, ⟨62, _⟩ => ⟨S_, .f32⟩
  | .hbm, ⟨63, _⟩ => ⟨S40000x64, .f32⟩
  | .hbm, ⟨64, _⟩ => ⟨S40000x64, .f32⟩
  | .hbm, ⟨65, _⟩ => ⟨S_, .i32⟩
  | .hbm, ⟨66, _⟩ => ⟨S640000, .i32⟩
  | .hbm, ⟨67, _⟩ => ⟨S640000, .i1⟩
  | .hbm, ⟨68, _⟩ => ⟨S_, .i32⟩
  | .hbm, ⟨69, _⟩ => ⟨S640000, .i32⟩
  | .hbm, ⟨70, _⟩ => ⟨S640000, .i32⟩
  | .hbm, ⟨71, _⟩ => ⟨S640000, .i32⟩
  | .hbm, ⟨72, _⟩ => ⟨S640000x1, .i32⟩
  | .hbm, ⟨73, _⟩ => ⟨S640000x64, .f32⟩
  | .hbm, ⟨74, _⟩ => ⟨S_, .f32⟩
  | .hbm, ⟨75, _⟩ => ⟨S40000x64, .f32⟩
  | .hbm, ⟨76, _⟩ => ⟨S640000x1, .i32⟩
  | .hbm, ⟨77, _⟩ => ⟨S40000x64, .f32⟩
  | .hbm, ⟨78, _⟩ => ⟨S40000x32, .f32⟩
  | .hbm, ⟨79, _⟩ => ⟨S1x32, .f32⟩
  | .hbm, ⟨80, _⟩ => ⟨S40000x32, .f32⟩
  | .hbm, ⟨81, _⟩ => ⟨S40000x32, .f32⟩
  | .hbm, ⟨82, _⟩ => ⟨S40000x32, .f32⟩
  | .hbm, ⟨83, _⟩ => ⟨S40000x32, .f32⟩
  | .hbm, ⟨84, _⟩ => ⟨S_, .f32⟩
  | .hbm, ⟨85, _⟩ => ⟨S40000x32, .f32⟩
  | .hbm, ⟨86, _⟩ => ⟨S40000x32, .f32⟩
  | .hbm, ⟨87, _⟩ => ⟨S_, .i32⟩
  | .hbm, ⟨88, _⟩ => ⟨S640000, .i32⟩
  | .hbm, ⟨89, _⟩ => ⟨S640000, .i1⟩
  | .hbm, ⟨90, _⟩ => ⟨S_, .i32⟩
  | .hbm, ⟨91, _⟩ => ⟨S640000, .i32⟩
  | .hbm, ⟨92, _⟩ => ⟨S640000, .i32⟩
  | .hbm, ⟨93, _⟩ => ⟨S640000, .i32⟩
  | .hbm, ⟨94, _⟩ => ⟨S640000x1, .i32⟩
  | .hbm, ⟨95, _⟩ => ⟨S640000x32, .f32⟩
  | .hbm, ⟨96, _⟩ => ⟨S_, .f32⟩
  | .hbm, ⟨97, _⟩ => ⟨S40000x32, .f32⟩
  | .hbm, ⟨98, _⟩ => ⟨S640000x1, .i32⟩
  | .hbm, ⟨99, _⟩ => ⟨S40000x32, .f32⟩
  | .hbm, ⟨100, _⟩ => ⟨S40000x16, .f32⟩
  | .hbm, ⟨101, _⟩ => ⟨S1x16, .f32⟩
  | .hbm, ⟨102, _⟩ => ⟨S40000x16, .f32⟩
  | .hbm, ⟨103, _⟩ => ⟨S40000x16, .f32⟩
  | .hbm, ⟨104, _⟩ => ⟨S40000x16, .f32⟩
  | .hbm, ⟨105, _⟩ => ⟨S40000x16, .f32⟩
  | .hbm, ⟨106, _⟩ => ⟨S_, .f32⟩
  | .hbm, ⟨107, _⟩ => ⟨S64x16, .f32⟩
  | .hbm, ⟨108, _⟩ => ⟨S40000x1, .i32⟩
  | .hbm, ⟨109, _⟩ => ⟨S64x16, .f32⟩
  | .hbm, ⟨110, _⟩ => ⟨S_, .f32⟩
  | .hbm, ⟨111, _⟩ => ⟨S40000x1, .f32⟩
  | .hbm, ⟨112, _⟩ => ⟨S_, .f32⟩
  | .hbm, ⟨113, _⟩ => ⟨S64x1, .f32⟩
  | .hbm, ⟨114, _⟩ => ⟨S40000x1, .i32⟩
  | .hbm, ⟨115, _⟩ => ⟨S64x1, .f32⟩
  | .hbm, ⟨116, _⟩ => ⟨S_, .f32⟩
  | .hbm, ⟨117, _⟩ => ⟨S64x1, .f32⟩
  | .hbm, ⟨118, _⟩ => ⟨S64x1, .f32⟩
  | .hbm, ⟨119, _⟩ => ⟨S64x16, .f32⟩
  | .hbm, ⟨120, _⟩ => ⟨S64x16, .f32⟩
  | .hbm, ⟨121, _⟩ => ⟨S64x1, .f32⟩
  | .hbm, ⟨122, _⟩ => ⟨S1x1, .f32⟩
  | .hbm, ⟨123, _⟩ => ⟨S64x1, .f32⟩
  | .hbm, ⟨124, _⟩ => ⟨S64x1, .f32⟩
  | _, _ => ⟨S40000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_c_1 : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call1_cst : Ref sig .tc := ⟨.hbm, 62, rfl⟩
abbrev main_call1_v0 : Ref sig .tc := ⟨.hbm, 63, rfl⟩
abbrev main_v37 : Ref sig .tc := ⟨.hbm, 64, rfl⟩
abbrev main_c_4 : Ref sig .tc := ⟨.hbm, 65, rfl⟩
abbrev main_v38 : Ref sig .tc := ⟨.hbm, 66, rfl⟩
abbrev main_v39 : Ref sig .tc := ⟨.hbm, 67, rfl⟩
abbrev main_c_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_cst : Ref sig .tc := ⟨.hbm, 84, rfl⟩
abbrev main_call2_v0 : Ref sig .tc := ⟨.hbm, 85, rfl⟩
abbrev main_v54 : Ref sig .tc := ⟨.hbm, 86, rfl⟩
abbrev main_c_7 : Ref sig .tc := ⟨.hbm, 87, rfl⟩
abbrev main_v55 : Ref sig .tc := ⟨.hbm, 88, rfl⟩
abbrev main_v56 : Ref sig .tc := ⟨.hbm, 89, rfl⟩
abbrev main_c_8 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_10 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_11 : Ref sig .tc := ⟨.hbm, 110, rfl⟩
abbrev main_v74 : Ref sig .tc := ⟨.hbm, 111, rfl⟩
abbrev main_cst_12 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_13 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x32 : S_.BroadcastsInDim S40000x32 (![] : Fin 0 → Fin S40000x32.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S40000x128 : S_.BroadcastsInDim S40000x128 (![] : Fin 0 → Fin S40000x128.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S_S40000x64 : S_.BroadcastsInDim S40000x64 (![] : Fin 0 → Fin S40000x64.rank)
  bcast_S32_S1x32_1 : S32.BroadcastsInDim S1x32 (![1] : Fin 1 → Fin S1x32.rank)
  bcast_S1x32_S40000x32_0_1 : S1x32.BroadcastsInDim S40000x32 (![0, 1] : Fin 2 → Fin S40000x32.rank)
  bcast_S16_S1x16_1 : S16.BroadcastsInDim S1x16 (![1] : Fin 1 → Fin S1x16.rank)
  bcast_S1x16_S40000x16_0_1 : S1x16.BroadcastsInDim S40000x16 (![0, 1] : Fin 2 → Fin S40000x16.rank)
  bcast_S_S64x16 : S_.BroadcastsInDim S64x16 (![] : Fin 0 → Fin S64x16.rank)
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S_S64x1 : S_.BroadcastsInDim S64x1 (![] : Fin 0 → Fin S64x1.rank)
  bcast_S64x1_S64x16_0_1 : S64x1.BroadcastsInDim S64x16 (![0, 1] : Fin 2 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S40000x32_S640000x1_S640000x32_1_0_n_n_0_1_132_wf : GatherDims.WF S40000x32 S640000x1 S640000x32 [1] [0] [] [0] [] 1 ![1, 32]
  scatter_S40000x32_S640000x1_S640000x32_1_0_0_1_wf : ScatterDims.WF S40000x32 S640000x1 S640000x32 [1] [0] [0] 1
  dot_S40000x32_S32x128_S40000x128_1_0_0_1_n_n_wf : DotDims.WF S40000x32 S32x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x64_S40000x64_1_0_0_1_n_n_wf : DotDims.WF S40000x128 S128x64 S40000x64 [1] [0] [0] [1] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S40000x64_S64x32_S40000x32_1_0_0_1_n_n_wf : DotDims.WF S40000x64 S64x32 S40000x32 [1] [0] [0] [1] [] []
  dot_S40000x32_S32x16_S40000x16_1_0_0_1_n_n_wf : DotDims.WF S40000x32 S32x16 S40000x16 [1] [0] [0] [1] [] []
  scatter_S64x16_S40000x1_S40000x16_1_0_0_1_wf : ScatterDims.WF S64x16 S40000x1 S40000x16 [1] [0] [0] 1
  scatter_S64x1_S40000x1_S40000x1_1_0_0_1_wf : ScatterDims.WF S64x1 S40000x1 S40000x1 [1] [0] [0] 1
  dot_S64x16_S16x1_S64x1_1_0_0_1_n_n_wf : DotDims.WF S64x16 S16x1 S64x1 [1] [0] [0] [1] [] []

variable [Facts₀]

def gather_S40000x32_S640000x1_S640000x32_1_0_n_n_0_1_132 : GatherDims S40000x32 S640000x1 S640000x32 where
  offsetDims := [1]
  collapsedSliceDims := [0]
  operandBatchingDims := []
  startIndicesBatchingDims := []
  startIndexMap := [0]
  indexVectorDim := 1
  sliceSizes := ![1, 32]
  wf := gather_S40000x32_S640000x1_S640000x32_1_0_n_n_0_1_132_wf
def scatter_S40000x32_S640000x1_S640000x32_1_0_0_1 : ScatterDims S40000x32 S640000x1 S640000x32 where
  updateWindowDims := [1]
  insertedWindowDims := [0]
  scatterDimsToOperandDims := [0]
  indexVectorDim := 1
  wf := scatter_S40000x32_S640000x1_S640000x32_1_0_0_1_wf
def dot_S40000x32_S32x128_S40000x128_1_0_0_1_n_n : DotDims S40000x32 S32x128 S40000x128 where
  lhsContracting := [1]
  rhsContracting := [0]
  lhsNonContracting := [0]
  rhsNonContracting := [1]
  lhsBatch := []
  rhsBatch := []
  wf := dot_S40000x32_S32x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S40000x64_S64x32_S40000x32_1_0_0_1_n_n : DotDims S40000x64 S64x32 S40000x32 where
  lhsContracting := [1]
  rhsContracting := [0]
  lhsNonContracting := [0]
  rhsNonContracting := [1]
  lhsBatch := []
  rhsBatch := []
  wf := dot_S40000x64_S64x32_S40000x32_1_0_0_1_n_n_wf
def dot_S40000x32_S32x16_S40000x16_1_0_0_1_n_n : DotDims S40000x32 S32x16 S40000x16 where
  lhsContracting := [1]
  rhsContracting := [0]
  lhsNonContracting := [0]
  rhsNonContracting := [1]
  lhsBatch := []
  rhsBatch := []
  wf := dot_S40000x32_S32x16_S40000x16_1_0_0_1_n_n_wf
def scatter_S64x16_S40000x1_S40000x16_1_0_0_1 : ScatterDims S64x16 S40000x1 S40000x16 where
  updateWindowDims := [1]
  insertedWindowDims := [0]
  scatterDimsToOperandDims := [0]
  indexVectorDim := 1
  wf := scatter_S64x16_S40000x1_S40000x16_1_0_0_1_wf
def scatter_S64x1_S40000x1_S40000x1_1_0_0_1 : ScatterDims S64x1 S40000x1 S40000x1 where
  updateWindowDims := [1]
  insertedWindowDims := [0]
  scatterDimsToOperandDims := [0]
  indexVectorDim := 1
  wf := scatter_S64x1_S40000x1_S40000x1_1_0_0_1_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

class Facts : Prop extends Facts₀ where

variable [Facts]
-- ==== Proof.Kernel.Region0.lean ====
import proofs.«420548_j8821862826461_1_alg».proof.Proof.Kernel.Launch
import proofs.«420548_j8821862826461_1_alg».proof.Proof.Gen.Kernel.Skeleton
import proofs.«420548_j8821862826461_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Layer 1 of the network as one pipelined region: rows block times two weight matrices, plus a bias row, clamped at zero

Everything here is stated at a parameter `V`: what each buffer of the core holds when the region is entered. -/

section Layer
variable (V : (c : Dev nD) → (b : Ref sig .tc) → Buf (Elt F) ((c : Thread nD τ).loc b))

/-- The block of window `w` that belongs to grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body touches: each staging buffer whole -/

/-- A rows block (aggregated or node features), whole. -/
abbrev rowsAll0 : Rect S5000x32 := Rect.unit (s := S5000x32) ![0, 0] S5000x32.size inb_S5000x32_S5000x32_0_0
/-- A weight matrix, whole. -/
abbrev weightAll0 : Rect S32x128 := Rect.unit (s := S32x128) ![0, 0] S32x128.size inb_S32x128_S32x128_0_0
/-- The bias row, whole. -/
abbrev biasAll0 : Rect S1x128 := Rect.unit (s := S1x128) ![0, 0] S1x128.size inb_S1x128_S1x128_0_0
/-- The output block, whole. -/
abbrev resultAll0 : Rect S5000x128 := Rect.unit (s := S5000x128) ![0, 0] S5000x128.size inb_S5000x128_S5000x128_0_0

/-- What the output window's staging buffer holds after the body, as a function of the five input buffers: the body
    stores once, over the whole buffer, the layer's value on the five loaded operands. -/
def out0_5 (x0 x1 : Vec F S5000x32 .f32) (x2 x3 : Vec F S32x128 .f32) (x4 : Vec F S1x128 .f32) : Vec F S5000x128 .f32 :=
  View.canon [⟨resultAll0, k0_pay1 (View.ld x0 rowsAll0) (View.ld x1 rowsAll0) (View.ld x2 weightAll0) (View.ld x3 weightAll0) (View.ld x4 biasAll0)⟩]

/-- The region's proof data on core `c`: arrays as found; after the body at `t` every input buffer still holds its
    block and the output buffer holds the layer's value on those blocks; the invariant is the untouched rest of
    the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-! ## What the body finds in each input window's buffer

An input window's buffer holds the window's block at every point, fetched there or not: where the pipeline does
not fetch, the block index has not moved since the point before, and the body leaves every input buffer as found.
All five input windows are uncut and never idle; the three whole-array windows (both weights, the bias) have a
constant block index and are fetched at the first point only. -/

theorem held0_0 (c : Dev nD) (t : Fin cfg0.N) (d) : (dat0 V c).before 0 t d = iblk0 V c 0 t := by
  rw [(dat0 V c).before_in_eq_fetched 0 rfl (fun _ => rfl) (fun _ _ _ => rfl) (fun _ => rfl) t d]
  rfl
theorem held0_1 (c : Dev nD) (t : Fin cfg0.N) (d) : (dat0 V c).before 1 t d = iblk0 V c 1 t := by
  rw [(dat0 V c).before_in_eq_fetched 1 rfl (fun _ => rfl) (fun _ _ _ => rfl) (fun _ => rfl) t d]
  rfl
theorem held0_2 (c : Dev nD) (t : Fin cfg0.N) (d) : (dat0 V c).before 2 t d = iblk0 V c 2 t := by
  rw [(dat0 V c).before_in_eq_fetched 2 rfl (fun _ => rfl) (fun _ _ _ => rfl) (fun _ => rfl) t d]
  rfl
theorem held0_3 (c : Dev nD) (t : Fin cfg0.N) (d) : (dat0 V c).before 3 t d = iblk0 V c 3 t := by
  rw [(dat0 V c).before_in_eq_fetched 3 rfl (fun _ => rfl) (fun _ _ _ => rfl) (fun _ => rfl) t d]
  rfl
theorem held0_4 (c : Dev nD) (t : Fin cfg0.N) (d) : (dat0 V c).before 4 t d = iblk0 V c 4 t := by
  rw [(dat0 V c).before_in_eq_fetched 4 rfl (fun _ => rfl) (fun _ _ _ => rfl) (fun _ => rfl) t d]
  rfl

/-! ## The body's one store fills the output buffer -/

/-- The output block's whole rectangle holds every index of the buffer, whatever is stored through it. -/
theorem covered0_5 (p : Vec F S5000x128 .f32) (y : S5000x128.Idx) :
    ∃ pc ∈ ([⟨resultAll0, p⟩] : List (View.Piece (Elt F) S5000x128 .f32)), y ∈ pc.1.set :=
  View.cover_of_tiled [⟨resultAll0, p⟩] S5000x128.size (by rfl) y

/-! ## The kernel function on whole buffers -/

set_option maxHeartbeats 1000000 in
/-- Called at any grid coordinate on six whole buffers — the five inputs at contents `x0 … x4`, the output at anything —
    the kernel function returns every input buffer as it was and the output buffer at `out0_5 x0 x1 x2 x3 x4`:
    five whole-buffer loads, a load of the output buffer whose value nothing reads, and one whole-buffer store of the
    layer's value on the five loaded operands, which covers the buffer. -/
theorem kernel_runs0 (c : Dev nD) (E : Set ℕ) (i : grid0.Coords)
    (a1 : Memref sig .tc .vmem S5000x32 .f32) (h1 : a1.IsWhole) (a2 : Memref sig .tc .vmem S5000x32 .f32) (h2 : a2.IsWhole)
    (a3 : Memref sig .tc .vmem S32x128 .f32) (h3 : a3.IsWhole) (a4 : Memref sig .tc .vmem S32x128 .f32) (h4 : a4.IsWhole)
    (a5 : Memref sig .tc .vmem S1x128 .f32) (h5 : a5.IsWhole) (a6 : Memref sig .tc .vmem S5000x128 .f32) (h6 : a6.IsWhole)
    (x0 x1 : Vec F S5000x32 .f32) (x2 x3 : Vec F S32x128 .f32) (x4 : Vec F S1x128 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ (∃ d, owns (c : Thread nD τ) a6 fullShare d)
        ∗ (iprop(owns (c : Thread nD τ) a1 fullShare x0 ∗ owns (c : Thread nD τ) a2 fullShare x1
              ∗ owns (c : Thread nD τ) a3 fullShare x2 ∗ owns (c : Thread nD τ) a4 fullShare x3
              ∗ owns (c : Thread nD τ) a5 fullShare x4
              ∗ owns (c : Thread nD τ) a6 fullShare (out0_5 x0 x1 x2 x3 x4)) -∗ K ⟨⟩))
      ⊢ wp frame (wpE (defs₀ (F := F)) Variants.none c none) E (cc0_kernel i a1 h1 a2 h2 a3 h3 a4 h4 a5 h5 a6 h6) K := by
  simp only [cc0_kernel_eq_skeleton]; unfold cc0_kernel_skel
  unfold owns
  iintro ⟨⟨%f1, %e1, B1⟩, ⟨%f2, %e2, B2⟩, ⟨%f3, %e3, B3⟩, ⟨%f4, %e4, B4⟩, ⟨%f5, %e5, B5⟩, ⟨%d6, %f6, -, B6⟩, Back⟩
  subst e1 e2 e3 e4 e5
  sl_exec
  sl_step
  iapply Back
  -- the five input buffers were only read: each comes back at the contents it came with
  isplitl [B1]
  · iexists f1; isplitr
    · ipureintro; rfl
    · iexact B1
  isplitl [B2]
  · iexists f2; isplitr
    · ipureintro; rfl
    · iexact B2
  isplitl [B3]
  · iexists f3; isplitr
    · ipureintro; rfl
    · iexact B3
  isplitl [B4]
  · iexists f4; isplitr
    · ipureintro; rfl
    · iexact B4
  isplitl [B5]
  · iexists f5; isplitr
    · ipureintro; rfl
    · iexact B5
  -- the output buffer after its one store: a load of a whole buffer is the buffer read through its whole rectangle,
  -- and a covering store reads back as the canon of its one piece
  iexists a6.view.writes (Elt F) f6
    [⟨resultAll0, k0_pay1 (View.ld (a1.view.read (Elt F) f1) rowsAll0) (View.ld (a2.view.read (Elt F) f2) rowsAll0)
      (View.ld (a3.view.read (Elt F) f3) weightAll0) (View.ld (a4.view.read (Elt F) f4) weightAll0)
      (View.ld (a5.view.read (Elt F) f5) biasAll0)⟩]
  isplitr
  · ipureintro
    exact View.read_writes_eq_canon _ _ _ (covered0_5 _)
  · iexact B6

/-! ## The body at a grid point -/

/-- The after-the-body contents of each input window: its block (the proof data's table read at the window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- The invariant and the dues do not depend on the point: the body neither touches the rest of the core nor owes anyone. -/
theorem inv_const0 (c : Dev nD) (k k' : Fin (cfg0.N + 1)) : (dat0 V c).Φ k = (dat0 V c).Φ k' := rfl
theorem dues_const0 (c : Dev nD) (k k' : Fin (cfg0.N + 1)) : (dat0 V c).owesAt () k = (dat0 V c).owesAt () k' := rfl

/-- What the pipeline hands the body at point `t`: the invariant, the core's dues, and the current staging buffer of
    each of the six windows at what the schedule has left in it. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body hands back: the same, each buffer at the proof data's after-the-body contents. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: every input buffer holds its window's block there, so the kernel function's triple applies
    at those five blocks; the invariant and the dues pass by untouched. -/
theorem body_runs0 (c : Dev nD) (t : Fin cfg0.N) :
    handed0 V c t ⊢ wp frame (wpE (defs₀ (F := F)) Variants.none c none) Set.univ (bodyAt0 t) (fun _ => returned0 V c t) := by
  unfold handed0 returned0 bodyAt0
  simp only [held0_0, held0_1, held0_2, held0_3, held0_4]
  rw [inv_const0 V c t.succ t.castSucc, dues_const0 V c t.succ t.castSucc,
    after0_0, after0_1, after0_2, after0_3, after0_4, after0_5]
  iintro ⟨Inv, Dues, ⟨%d0, W0⟩, ⟨%d1, W1⟩, ⟨%d2, W2⟩, ⟨%d3, W3⟩, ⟨%d4, W4⟩, ⟨%d5, W5⟩⟩
  iapply (kernel_runs0 c Set.univ _ _ _ _ _ _ _ _ _ _ _ _ _
    (iblk0 V c 0 t) (iblk0 V c 1 t) (iblk0 V c 2 t) (iblk0 V c 3 t) (iblk0 V c 4 t) _)
  isplitl [W0]; · iexact W0
  isplitl [W1]; · iexact W1
  isplitl [W2]; · iexact W2
  isplitl [W3]; · iexact W3
  isplitl [W4]; · iexact W4
  isplitl [W5]; · iexists _; iexact W5
  iintro ⟨R0, R1, R2, R3, R4, R5⟩
  isplitl [Inv]; · iexact Inv
  isplitl [Dues]; · iexact Dues
  isplitl [R0]; · iexact R0
  isplitl [R1]; · iexact R1
  isplitl [R2]; · iexact R2
  isplitl [R3]; · iexact R3
  isplitl [R4]; · iexact R4
  iexact R5

/-- The region's body obligation: the library's statement over all windows at once is, window by window, the statement above. -/
theorem body_obligation0 (c : Dev nD) : BodyObligation (dat0 (F := F) V c) (defs₀ (F := F)) Variants.none () Set.univ := fun t => by
  rw [bigSep_W0, bigSep_W0]
  exact body_runs0 V c t

end Layer
end Cert.Kernel.H
-- ==== Proof.Kernel.Region1.lean ====
import proofs.«420548_j8821862826461_1_alg».proof.Proof.Kernel.Launch
import proofs.«420548_j8821862826461_1_alg».proof.Proof.Gen.Kernel.Skeleton
import proofs.«420548_j8821862826461_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Layer 2 of the network as one pipelined region: rows block times two weight matrices, plus a bias row, clamped at zero

Everything here is stated at a parameter `V`: what each buffer of the core holds when the region is entered. -/

section Layer
variable (V : (c : Dev nD) → (b : Ref sig .tc) → Buf (Elt F) ((c : Thread nD τ).loc b))

/-- The block of window `w` that belongs to grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body touches: each staging buffer whole -/

/-- A rows block (aggregated or node features), whole. -/
abbrev rowsAll1 : Rect S5000x128 := Rect.unit (s := S5000x128) ![0, 0] S5000x128.size inb_S5000x128_S5000x128_0_0
/-- A weight matrix, whole. -/
abbrev weightAll1 : Rect S128x64 := Rect.unit (s := S128x64) ![0, 0] S128x64.size inb_S128x64_S128x64_0_0
/-- The bias row, whole. -/
abbrev biasAll1 : Rect S1x64 := Rect.unit (s := S1x64) ![0, 0] S1x64.size inb_S1x64_S1x64_0_0
/-- The output block, whole. -/
abbrev resultAll1 : Rect S5000x64 := Rect.unit (s := S5000x64) ![0, 0] S5000x64.size inb_S5000x64_S5000x64_0_0

/-- What the output window's staging buffer holds after the body, as a function of the five input buffers: the body
    stores once, over the whole buffer, the layer's value on the five loaded operands. -/
def out1_5 (x0 x1 : Vec F S5000x128 .f32) (x2 x3 : Vec F S128x64 .f32) (x4 : Vec F S1x64 .f32) : Vec F S5000x64 .f32 :=
  View.canon [⟨resultAll1, k1_pay1 (View.ld x0 rowsAll1) (View.ld x1 rowsAll1) (View.ld x2 weightAll1) (View.ld x3 weightAll1) (View.ld x4 biasAll1)⟩]

/-- The region's proof data on core `c`: arrays as found; after the body at `t` every input buffer still holds its
    block and the output buffer holds the layer's value on those blocks; the invariant is the untouched rest of
    the core; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## What the body finds in each input window's buffer

An input window's buffer holds the window's block at every point, fetched there or not: where the pipeline does
not fetch, the block index has not moved since the point before, and the body leaves every input buffer as found.
All five input windows are uncut and never idle; the three whole-array windows (both weights, the bias) have a
constant block index and are fetched at the first point only. -/

theorem held1_0 (c : Dev nD) (t : Fin cfg1.N) (d) : (dat1 V c).before 0 t d = iblk1 V c 0 t := by
  rw [(dat1 V c).before_in_eq_fetched 0 rfl (fun _ => rfl) (fun _ _ _ => rfl) (fun _ => rfl) t d]
  rfl
theorem held1_1 (c : Dev nD) (t : Fin cfg1.N) (d) : (dat1 V c).before 1 t d = iblk1 V c 1 t := by
  rw [(dat1 V c).before_in_eq_fetched 1 rfl (fun _ => rfl) (fun _ _ _ => rfl) (fun _ => rfl) t d]
  rfl
theorem held1_2 (c : Dev nD) (t : Fin cfg1.N) (d) : (dat1 V c).before 2 t d = iblk1 V c 2 t := by
  rw [(dat1 V c).before_in_eq_fetched 2 rfl (fun _ => rfl) (fun _ _ _ => rfl) (fun _ => rfl) t d]
  rfl
theorem held1_3 (c : Dev nD) (t : Fin cfg1.N) (d) : (dat1 V c).before 3 t d = iblk1 V c 3 t := by
  rw [(dat1 V c).before_in_eq_fetched 3 rfl (fun _ => rfl) (fun _ _ _ => rfl) (fun _ => rfl) t d]
  rfl
theorem held1_4 (c : Dev nD) (t : Fin cfg1.N) (d) : (dat1 V c).before 4 t d = iblk1 V c 4 t := by
  rw [(dat1 V c).before_in_eq_fetched 4 rfl (fun _ => rfl) (fun _ _ _ => rfl) (fun _ => rfl) t d]
  rfl

/-! ## The body's one store fills the output buffer -/

/-- The output block's whole rectangle holds every index of the buffer, whatever is stored through it. -/
theorem covered1_5 (p : Vec F S5000x64 .f32) (y : S5000x64.Idx) :
    ∃ pc ∈ ([⟨resultAll1, p⟩] : List (View.Piece (Elt F) S5000x64 .f32)), y ∈ pc.1.set :=
  View.cover_of_tiled [⟨resultAll1, p⟩] S5000x64.size (by rfl) y

/-! ## The kernel function on whole buffers -/

set_option maxHeartbeats 1000000 in
/-- Called at any grid coordinate on six whole buffers — the five inputs at contents `x0 … x4`, the output at anything —
    the kernel function returns every input buffer as it was and the output buffer at `out1_5 x0 x1 x2 x3 x4`:
    five whole-buffer loads, a load of the output buffer whose value nothing reads, and one whole-buffer store of the
    layer's value on the five loaded operands, which covers the buffer. -/
theorem kernel_runs1 (c : Dev nD) (E : Set ℕ) (i : grid1.Coords)
    (a1 : Memref sig .tc .vmem S5000x128 .f32) (h1 : a1.IsWhole) (a2 : Memref sig .tc .vmem S5000x128 .f32) (h2 : a2.IsWhole)
    (a3 : Memref sig .tc .vmem S128x64 .f32) (h3 : a3.IsWhole) (a4 : Memref sig .tc .vmem S128x64 .f32) (h4 : a4.IsWhole)
    (a5 : Memref sig .tc .vmem S1x64 .f32) (h5 : a5.IsWhole) (a6 : Memref sig .tc .vmem S5000x64 .f32) (h6 : a6.IsWhole)
    (x0 x1 : Vec F S5000x128 .f32) (x2 x3 : Vec F S128x64 .f32) (x4 : Vec F S1x64 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ (∃ d, owns (c : Thread nD τ) a6 fullShare d)
        ∗ (iprop(owns (c : Thread nD τ) a1 fullShare x0 ∗ owns (c : Thread nD τ) a2 fullShare x1
              ∗ owns (c : Thread nD τ) a3 fullShare x2 ∗ owns (c : Thread nD τ) a4 fullShare x3
              ∗ owns (c : Thread nD τ) a5 fullShare x4
              ∗ owns (c : Thread nD τ) a6 fullShare (out1_5 x0 x1 x2 x3 x4)) -∗ K ⟨⟩))
      ⊢ wp frame (wpE (defs₀ (F := F)) Variants.none c none) E (cc1_kernel i a1 h1 a2 h2 a3 h3 a4 h4 a5 h5 a6 h6) K := by
  simp only [cc1_kernel_eq_skeleton]; unfold cc1_kernel_skel
  unfold owns
  iintro ⟨⟨%f1, %e1, B1⟩, ⟨%f2, %e2, B2⟩, ⟨%f3, %e3, B3⟩, ⟨%f4, %e4, B4⟩, ⟨%f5, %e5, B5⟩, ⟨%d6, %f6, -, B6⟩, Back⟩
  subst e1 e2 e3 e4 e5
  sl_exec
  sl_step
  iapply Back
  -- the five input buffers were only read: each comes back at the contents it came with
  isplitl [B1]
  · iexists f1; isplitr
    · ipureintro; rfl
    · iexact B1
  isplitl [B2]
  · iexists f2; isplitr
    · ipureintro; rfl
    · iexact B2
  isplitl [B3]
  · iexists f3; isplitr
    · ipureintro; rfl
    · iexact B3
  isplitl [B4]
  · iexists f4; isplitr
    · ipureintro; rfl
    · iexact B4
  isplitl [B5]
  · iexists f5; isplitr
    · ipureintro; rfl
    · iexact B5
  -- the output buffer after its one store: a load of a whole buffer is the buffer read through its whole rectangle,
  -- and a covering store reads back as the canon of its one piece
  iexists a6.view.writes (Elt F) f6
    [⟨resultAll1, k1_pay1 (View.ld (a1.view.read (Elt F) f1) rowsAll1) (View.ld (a2.view.read (Elt F) f2) rowsAll1)
      (View.ld (a3.view.read (Elt F) f3) weightAll1) (View.ld (a4.view.read (Elt F) f4) weightAll1)
      (View.ld (a5.view.read (Elt F) f5) biasAll1)⟩]
  isplitr
  · ipureintro
    exact View.read_writes_eq_canon _ _ _ (covered1_5 _)
  · iexact B6

/-! ## The body at a grid point -/

/-- The after-the-body contents of each input window: its block (the proof data's table read at the window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- The invariant and the dues do not depend on the point: the body neither touches the rest of the core nor owes anyone. -/
theorem inv_const1 (c : Dev nD) (k k' : Fin (cfg1.N + 1)) : (dat1 V c).Φ k = (dat1 V c).Φ k' := rfl
theorem dues_const1 (c : Dev nD) (k k' : Fin (cfg1.N + 1)) : (dat1 V c).owesAt () k = (dat1 V c).owesAt () k' := rfl

/-- What the pipeline hands the body at point `t`: the invariant, the core's dues, and the current staging buffer of
    each of the six windows at what the schedule has left in it. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body hands back: the same, each buffer at the proof data's after-the-body contents. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: every input buffer holds its window's block there, so the kernel function's triple applies
    at those five blocks; the invariant and the dues pass by untouched. -/
theorem body_runs1 (c : Dev nD) (t : Fin cfg1.N) :
    handed1 V c t ⊢ wp frame (wpE (defs₀ (F := F)) Variants.none c none) Set.univ (bodyAt1 t) (fun _ => returned1 V c t) := by
  unfold handed1 returned1 bodyAt1
  simp only [held1_0, held1_1, held1_2, held1_3, held1_4]
  rw [inv_const1 V c t.succ t.castSucc, dues_const1 V c t.succ t.castSucc,
    after1_0, after1_1, after1_2, after1_3, after1_4, after1_5]
  iintro ⟨Inv, Dues, ⟨%d0, W0⟩, ⟨%d1, W1⟩, ⟨%d2, W2⟩, ⟨%d3, W3⟩, ⟨%d4, W4⟩, ⟨%d5, W5⟩⟩
  iapply (kernel_runs1 c Set.univ _ _ _ _ _ _ _ _ _ _ _ _ _
    (iblk1 V c 0 t) (iblk1 V c 1 t) (iblk1 V c 2 t) (iblk1 V c 3 t) (iblk1 V c 4 t) _)
  isplitl [W0]; · iexact W0
  isplitl [W1]; · iexact W1
  isplitl [W2]; · iexact W2
  isplitl [W3]; · iexact W3
  isplitl [W4]; · iexact W4
  isplitl [W5]; · iexists _; iexact W5
  iintro ⟨R0, R1, R2, R3, R4, R5⟩
  isplitl [Inv]; · iexact Inv
  isplitl [Dues]; · iexact Dues
  isplitl [R0]; · iexact R0
  isplitl [R1]; · iexact R1
  isplitl [R2]; · iexact R2
  isplitl [R3]; · iexact R3
  isplitl [R4]; · iexact R4
  iexact R5

/-- The region's body obligation: the library's statement over all windows at once is, window by window, the statement above. -/
theorem body_obligation1 (c : Dev nD) : BodyObligation (dat1 (F := F) V c) (defs₀ (F := F)) Variants.none () Set.univ := fun t => by
  rw [bigSep_W1, bigSep_W1]
  exact body_runs1 V c t

end Layer
end Cert.Kernel.H
-- ==== Proof.Kernel.Region2.lean ====
import proofs.«420548_j8821862826461_1_alg».proof.Proof.Kernel.Launch
import proofs.«420548_j8821862826461_1_alg».proof.Proof.Gen.Kernel.Skeleton
import proofs.«420548_j8821862826461_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Layer 3 of the network as one pipelined region: rows block times two weight matrices, plus a bias row, clamped at zero

Everything here is stated at a parameter `V`: what each buffer of the core holds when the region is entered. -/

section Layer
variable (V : (c : Dev nD) → (b : Ref sig .tc) → Buf (Elt F) ((c : Thread nD τ).loc b))

/-- The block of window `w` that belongs to grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles the body touches: each staging buffer whole -/

/-- A rows block (aggregated or node features), whole. -/
abbrev rowsAll2 : Rect S5000x64 := Rect.unit (s := S5000x64) ![0, 0] S5000x64.size inb_S5000x64_S5000x64_0_0
/-- A weight matrix, whole. -/
abbrev weightAll2 : Rect S64x32 := Rect.unit (s := S64x32) ![0, 0] S64x32.size inb_S64x32_S64x32_0_0
/-- The bias row, whole. -/
abbrev biasAll2 : Rect S1x32 := Rect.unit (s := S1x32) ![0, 0] S1x32.size inb_S1x32_S1x32_0_0
/-- The output block, whole. -/
abbrev resultAll2 : Rect S5000x32 := Rect.unit (s := S5000x32) ![0, 0] S5000x32.size inb_S5000x32_S5000x32_0_0

/-- What the output window's staging buffer holds after the body, as a function of the five input buffers: the body
    stores once, over the whole buffer, the layer's value on the five loaded operands. -/
def out2_5 (x0 x1 : Vec F S5000x64 .f32) (x2 x3 : Vec F S64x32 .f32) (x4 : Vec F S1x32 .f32) : Vec F S5000x32 .f32 :=
  View.canon [⟨resultAll2, k2_pay1 (View.ld x0 rowsAll2) (View.ld x1 rowsAll2) (View.ld x2 weightAll2) (View.ld x3 weightAll2) (View.ld x4 biasAll2)⟩]

/-- The region's proof data on core `c`: arrays as found; after the body at `t` every input buffer still holds its
    block and the output buffer holds the layer's value on those blocks; the invariant is the untouched rest of
    the core; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-! ## What the body finds in each input window's buffer

An input window's buffer holds the window's block at every point, fetched there or not: where the pipeline does
not fetch, the block index has not moved since the point before, and the body leaves every input buffer as found.
All five input windows are uncut and never idle; the three whole-array windows (both weights, the bias) have a
constant block index and are fetched at the first point only. -/

theorem held2_0 (c : Dev nD) (t : Fin cfg2.N) (d) : (dat2 V c).before 0 t d = iblk2 V c 0 t := by
  rw [(dat2 V c).before_in_eq_fetched 0 rfl (fun _ => rfl) (fun _ _ _ => rfl) (fun _ => rfl) t d]
  rfl
theorem held2_1 (c : Dev nD) (t : Fin cfg2.N) (d) : (dat2 V c).before 1 t d = iblk2 V c 1 t := by
  rw [(dat2 V c).before_in_eq_fetched 1 rfl (fun _ => rfl) (fun _ _ _ => rfl) (fun _ => rfl) t d]
  rfl
theorem held2_2 (c : Dev nD) (t : Fin cfg2.N) (d) : (dat2 V c).before 2 t d = iblk2 V c 2 t := by
  rw [(dat2 V c).before_in_eq_fetched 2 rfl (fun _ => rfl) (fun _ _ _ => rfl) (fun _ => rfl) t d]
  rfl
theorem held2_3 (c : Dev nD) (t : Fin cfg2.N) (d) : (dat2 V c).before 3 t d = iblk2 V c 3 t := by
  rw [(dat2 V c).before_in_eq_fetched 3 rfl (fun _ => rfl) (fun _ _ _ => rfl) (fun _ => rfl) t d]
  rfl
theorem held2_4 (c : Dev nD) (t : Fin cfg2.N) (d) : (dat2 V c).before 4 t d = iblk2 V c 4 t := by
  rw [(dat2 V c).before_in_eq_fetched 4 rfl (fun _ => rfl) (fun _ _ _ => rfl) (fun _ => rfl) t d]
  rfl

/-! ## The body's one store fills the output buffer -/

/-- The output block's whole rectangle holds every index of the buffer, whatever is stored through it. -/
theorem covered2_5 (p : Vec F S5000x32 .f32) (y : S5000x32.Idx) :
    ∃ pc ∈ ([⟨resultAll2, p⟩] : List (View.Piece (Elt F) S5000x32 .f32)), y ∈ pc.1.set :=
  View.cover_of_tiled [⟨resultAll2, p⟩] S5000x32.size (by rfl) y

/-! ## The kernel function on whole buffers -/

set_option maxHeartbeats 1000000 in
/-- Called at any grid coordinate on six whole buffers — the five inputs at contents `x0 … x4`, the output at anything —
    the kernel function returns every input buffer as it was and the output buffer at `out2_5 x0 x1 x2 x3 x4`:
    five whole-buffer loads, a load of the output buffer whose value nothing reads, and one whole-buffer store of the
    layer's value on the five loaded operands, which covers the buffer. -/
theorem kernel_runs2 (c : Dev nD) (E : Set ℕ) (i : grid2.Coords)
    (a1 : Memref sig .tc .vmem S5000x64 .f32) (h1 : a1.IsWhole) (a2 : Memref sig .tc .vmem S5000x64 .f32) (h2 : a2.IsWhole)
    (a3 : Memref sig .tc .vmem S64x32 .f32) (h3 : a3.IsWhole) (a4 : Memref sig .tc .vmem S64x32 .f32) (h4 : a4.IsWhole)
    (a5 : Memref sig .tc .vmem S1x32 .f32) (h5 : a5.IsWhole) (a6 : Memref sig .tc .vmem S5000x32 .f32) (h6 : a6.IsWhole)
    (x0 x1 : Vec F S5000x64 .f32) (x2 x3 : Vec F S64x32 .f32) (x4 : Vec F S1x32 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ (∃ d, owns (c : Thread nD τ) a6 fullShare d)
        ∗ (iprop(owns (c : Thread nD τ) a1 fullShare x0 ∗ owns (c : Thread nD τ) a2 fullShare x1
              ∗ owns (c : Thread nD τ) a3 fullShare x2 ∗ owns (c : Thread nD τ) a4 fullShare x3
              ∗ owns (c : Thread nD τ) a5 fullShare x4
              ∗ owns (c : Thread nD τ) a6 fullShare (out2_5 x0 x1 x2 x3 x4)) -∗ K ⟨⟩))
      ⊢ wp frame (wpE (defs₀ (F := F)) Variants.none c none) E (cc2_kernel i a1 h1 a2 h2 a3 h3 a4 h4 a5 h5 a6 h6) K := by
  simp only [cc2_kernel_eq_skeleton]; unfold cc2_kernel_skel
  unfold owns
  iintro ⟨⟨%f1, %e1, B1⟩, ⟨%f2, %e2, B2⟩, ⟨%f3, %e3, B3⟩, ⟨%f4, %e4, B4⟩, ⟨%f5, %e5, B5⟩, ⟨%d6, %f6, -, B6⟩, Back⟩
  subst e1 e2 e3 e4 e5
  sl_exec
  sl_step
  iapply Back
  -- the five input buffers were only read: each comes back at the contents it came with
  isplitl [B1]
  · iexists f1; isplitr
    · ipureintro; rfl
    · iexact B1
  isplitl [B2]
  · iexists f2; isplitr
    · ipureintro; rfl
    · iexact B2
  isplitl [B3]
  · iexists f3; isplitr
    · ipureintro; rfl
    · iexact B3
  isplitl [B4]
  · iexists f4; isplitr
    · ipureintro; rfl
    · iexact B4
  isplitl [B5]
  · iexists f5; isplitr
    · ipureintro; rfl
    · iexact B5
  -- the output buffer after its one store: a load of a whole buffer is the buffer read through its whole rectangle,
  -- and a covering store reads back as the canon of its one piece
  iexists a6.view.writes (Elt F) f6
    [⟨resultAll2, k2_pay1 (View.ld (a1.view.read (Elt F) f1) rowsAll2) (View.ld (a2.view.read (Elt F) f2) rowsAll2)
      (View.ld (a3.view.read (Elt F) f3) weightAll2) (View.ld (a4.view.read (Elt F) f4) weightAll2)
      (View.ld (a5.view.read (Elt F) f5) biasAll2)⟩]
  isplitr
  · ipureintro
    exact View.read_writes_eq_canon _ _ _ (covered2_5 _)
  · iexact B6

/-! ## The body at a grid point -/

/-- The after-the-body contents of each input window: its block (the proof data's table read at the window). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

/-- The invariant and the dues do not depend on the point: the body neither touches the rest of the core nor owes anyone. -/
theorem inv_const2 (c : Dev nD) (k k' : Fin (cfg2.N + 1)) : (dat2 V c).Φ k = (dat2 V c).Φ k' := rfl
theorem dues_const2 (c : Dev nD) (k k' : Fin (cfg2.N + 1)) : (dat2 V c).owesAt () k = (dat2 V c).owesAt () k' := rfl

/-- What the pipeline hands the body at point `t`: the invariant, the core's dues, and the current staging buffer of
    each of the six windows at what the schedule has left in it. -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body hands back: the same, each buffer at the proof data's after-the-body contents. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: every input buffer holds its window's block there, so the kernel function's triple applies
    at those five blocks; the invariant and the dues pass by untouched. -/
theorem body_runs2 (c : Dev nD) (t : Fin cfg2.N) :
    handed2 V c t ⊢ wp frame (wpE (defs₀ (F := F)) Variants.none c none) Set.univ (bodyAt2 t) (fun _ => returned2 V c t) := by
  unfold handed2 returned2 bodyAt2
  simp only [held2_0, held2_1, held2_2, held2_3, held2_4]
  rw [inv_const2 V c t.succ t.castSucc, dues_const2 V c t.succ t.castSucc,
    after2_0, after2_1, after2_2, after2_3, after2_4, after2_5]
  iintro ⟨Inv, Dues, ⟨%d0, W0⟩, ⟨%d1, W1⟩, ⟨%d2, W2⟩, ⟨%d3, W3⟩, ⟨%d4, W4⟩, ⟨%d5, W5⟩⟩
  iapply (kernel_runs2 c Set.univ _ _ _ _ _ _ _ _ _ _ _ _ _
    (iblk2 V c 0 t) (iblk2 V c 1 t) (iblk2 V c 2 t) (iblk2 V c 3 t) (iblk2 V c 4 t) _)
  isplitl [W0]; · iexact W0
  isplitl [W1]; · iexact W1
  isplitl [W2]; · iexact W2
  isplitl [W3]; · iexact W3
  isplitl [W4]; · iexact W4
  isplitl [W5]; · iexists _; iexact W5
  iintro ⟨R0, R1, R2, R3, R4, R5⟩
  isplitl [Inv]; · iexact Inv
  isplitl [Dues]; · iexact Dues
  isplitl [R0]; · iexact R0
  isplitl [R1]; · iexact R1
  isplitl [R2]; · iexact R2
  isplitl [R3]; · iexact R3
  isplitl [R4]; · iexact R4
  iexact R5

/-- The region's body obligation: the library's statement over all windows at once is, window by window, the statement above. -/
theorem body_obligation2 (c : Dev nD) : BodyObligation (dat2 (F := F) V c) (defs₀ (F := F)) Variants.none () Set.univ := fun t => by
  rw [bigSep_W2, bigSep_W2]
  exact body_runs2 V c t

end Layer
end Cert.Kernel.H
-- ==== Proof.Kernel.Region3.lean ====
import proofs.«420548_j8821862826461_1_alg».proof.Proof.Kernel.Launch
import proofs.«420548_j8821862826461_1_alg».proof.Proof.Gen.Kernel.Skeleton
import proofs.«420548_j8821862826461_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Layer 4 of the network as one pipelined region: rows block times two weight matrices, plus a bias row

Everything here is stated at a parameter `V`: what each buffer of the core holds when the region is entered. -/

section Layer
variable (V : (c : Dev nD) → (b : Ref sig .tc) → Buf (Elt F) ((c : Thread nD τ).loc b))

/-- The block of window `w` that belongs to grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The rectangles the body touches: each staging buffer whole -/

/-- A rows block (aggregated or node features), whole. -/
abbrev rowsAll3 : Rect S5000x32 := Rect.unit (s := S5000x32) ![0, 0] S5000x32.size inb_S5000x32_S5000x32_0_0
/-- A weight matrix, whole. -/
abbrev weightAll3 : Rect S32x16 := Rect.unit (s := S32x16) ![0, 0] S32x16.size inb_S32x16_S32x16_0_0
/-- The bias row, whole. -/
abbrev biasAll3 : Rect S1x16 := Rect.unit (s := S1x16) ![0, 0] S1x16.size inb_S1x16_S1x16_0_0
/-- The output block, whole. -/
abbrev resultAll3 : Rect S5000x16 := Rect.unit (s := S5000x16) ![0, 0] S5000x16.size inb_S5000x16_S5000x16_0_0

/-- What the output window's staging buffer holds after the body, as a function of the five input buffers: the body
    stores once, over the whole buffer, the layer's value on the five loaded operands. -/
def out3_5 (x0 x1 : Vec F S5000x32 .f32) (x2 x3 : Vec F S32x16 .f32) (x4 : Vec F S1x16 .f32) : Vec F S5000x16 .f32 :=
  View.canon [⟨resultAll3, k3_pay1 (View.ld x0 rowsAll3) (View.ld x1 rowsAll3) (View.ld x2 weightAll3) (View.ld x3 weightAll3) (View.ld x4 biasAll3)⟩]

/-- The region's proof data on core `c`: arrays as found; after the body at `t` every input buffer still holds its
    block and the output buffer holds the layer's value on those blocks; the invariant is the untouched rest of
    the core; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by
  dsimp only [dat3]

/-! ## What the body finds in each input window's buffer

An input window's buffer holds the window's block at every point, fetched there or not: where the pipeline does
not fetch, the block index has not moved since the point before, and the body leaves every input buffer as found.
All five input windows are uncut and never idle; the three whole-array windows (both weights, the bias) have a
constant block index and are fetched at the first point only. -/

theorem held3_0 (c : Dev nD) (t : Fin cfg3.N) (d) : (dat3 V c).before 0 t d = iblk3 V c 0 t := by
  rw [(dat3 V c).before_in_eq_fetched 0 rfl (fun _ => rfl) (fun _ _ _ => rfl) (fun _ => rfl) t d]
  rfl
theorem held3_1 (c : Dev nD) (t : Fin cfg3.N) (d) : (dat3 V c).before 1 t d = iblk3 V c 1 t := by
  rw [(dat3 V c).before_in_eq_fetched 1 rfl (fun _ => rfl) (fun _ _ _ => rfl) (fun _ => rfl) t d]
  rfl
theorem held3_2 (c : Dev nD) (t : Fin cfg3.N) (d) : (dat3 V c).before 2 t d = iblk3 V c 2 t := by
  rw [(dat3 V c).before_in_eq_fetched 2 rfl (fun _ => rfl) (fun _ _ _ => rfl) (fun _ => rfl) t d]
  rfl
theorem held3_3 (c : Dev nD) (t : Fin cfg3.N) (d) : (dat3 V c).before 3 t d = iblk3 V c 3 t := by
  rw [(dat3 V c).before_in_eq_fetched 3 rfl (fun _ => rfl) (fun _ _ _ => rfl) (fun _ => rfl) t d]
  rfl
theorem held3_4 (c : Dev nD) (t : Fin cfg3.N) (d) : (dat3 V c).before 4 t d = iblk3 V c 4 t := by
  rw [(dat3 V c).before_in_eq_fetched 4 rfl (fun _ => rfl) (fun _ _ _ => rfl) (fun _ => rfl) t d]
  rfl

/-! ## The body's one store fills the output buffer -/

/-- The output block's whole rectangle holds every index of the buffer, whatever is stored through it. -/
theorem covered3_5 (p : Vec F S5000x16 .f32) (y : S5000x16.Idx) :
    ∃ pc ∈ ([⟨resultAll3, p⟩] : List (View.Piece (Elt F) S5000x16 .f32)), y ∈ pc.1.set :=
  View.cover_of_tiled [⟨resultAll3, p⟩] S5000x16.size (by rfl) y

/-! ## The kernel function on whole buffers -/

set_option maxHeartbeats 1000000 in
/-- Called at any grid coordinate on six whole buffers — the five inputs at contents `x0 … x4`, the output at anything —
    the kernel function returns every input buffer as it was and the output buffer at `out3_5 x0 x1 x2 x3 x4`:
    five whole-buffer loads, a load of the output buffer whose value nothing reads, and one whole-buffer store of the
    layer's value on the five loaded operands, which covers the buffer. -/
theorem kernel_runs3 (c : Dev nD) (E : Set ℕ) (i : grid3.Coords)
    (a1 : Memref sig .tc .vmem S5000x32 .f32) (h1 : a1.IsWhole) (a2 : Memref sig .tc .vmem S5000x32 .f32) (h2 : a2.IsWhole)
    (a3 : Memref sig .tc .vmem S32x16 .f32) (h3 : a3.IsWhole) (a4 : Memref sig .tc .vmem S32x16 .f32) (h4 : a4.IsWhole)
    (a5 : Memref sig .tc .vmem S1x16 .f32) (h5 : a5.IsWhole) (a6 : Memref sig .tc .vmem S5000x16 .f32) (h6 : a6.IsWhole)
    (x0 x1 : Vec F S5000x32 .f32) (x2 x3 : Vec F S32x16 .f32) (x4 : Vec F S1x16 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ (∃ d, owns (c : Thread nD τ) a6 fullShare d)
        ∗ (iprop(owns (c : Thread nD τ) a1 fullShare x0 ∗ owns (c : Thread nD τ) a2 fullShare x1
              ∗ owns (c : Thread nD τ) a3 fullShare x2 ∗ owns (c : Thread nD τ) a4 fullShare x3
              ∗ owns (c : Thread nD τ) a5 fullShare x4
              ∗ owns (c : Thread nD τ) a6 fullShare (out3_5 x0 x1 x2 x3 x4)) -∗ K ⟨⟩))
      ⊢ wp frame (wpE (defs₀ (F := F)) Variants.none c none) E (cc3_kernel i a1 h1 a2 h2 a3 h3 a4 h4 a5 h5 a6 h6) K := by
  simp only [cc3_kernel_eq_skeleton]; unfold cc3_kernel_skel
  unfold owns
  iintro ⟨⟨%f1, %e1, B1⟩, ⟨%f2, %e2, B2⟩, ⟨%f3, %e3, B3⟩, ⟨%f4, %e4, B4⟩, ⟨%f5, %e5, B5⟩, ⟨%d6, %f6, -, B6⟩, Back⟩
  subst e1 e2 e3 e4 e5
  sl_exec
  sl_step
  iapply Back
  -- the five input buffers were only read: each comes back at the contents it came with
  isplitl [B1]
  · iexists f1; isplitr
    · ipureintro; rfl
    · iexact B1
  isplitl [B2]
  · iexists f2; isplitr
    · ipureintro; rfl
    · iexact B2
  isplitl [B3]
  · iexists f3; isplitr
    · ipureintro; rfl
    · iexact B3
  isplitl [B4]
  · iexists f4; isplitr
    · ipureintro; rfl
    · iexact B4
  isplitl [B5]
  · iexists f5; isplitr
    · ipureintro; rfl
    · iexact B5
  -- the output buffer after its one store: a load of a whole buffer is the buffer read through its whole rectangle,
  -- and a covering store reads back as the canon of its one piece
  iexists a6.view.writes (Elt F) f6
    [⟨resultAll3, k3_pay1 (View.ld (a1.view.read (Elt F) f1) rowsAll3) (View.ld (a2.view.read (Elt F) f2) rowsAll3)
      (View.ld (a3.view.read (Elt F) f3) weightAll3) (View.ld (a4.view.read (Elt F) f4) weightAll3)
      (View.ld (a5.view.read (Elt F) f5) biasAll3)⟩]
  isplitr
  · ipureintro
    exact View.read_writes_eq_canon _ _ _ (covered3_5 _)
  · iexact B6

/-! ## The body at a grid point -/

/-- The after-the-body contents of each input window: its block (the proof data's table read at the window). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]

/-- The invariant and the dues do not depend on the point: the body neither touches the rest of the core nor owes anyone. -/
theorem inv_const3 (c : Dev nD) (k k' : Fin (cfg3.N + 1)) : (dat3 V c).Φ k = (dat3 V c).Φ k' := rfl
theorem dues_const3 (c : Dev nD) (k k' : Fin (cfg3.N + 1)) : (dat3 V c).owesAt () k = (dat3 V c).owesAt () k' := rfl

/-- What the pipeline hands the body at point `t`: the invariant, the core's dues, and the current staging buffer of
    each of the six windows at what the schedule has left in it. -/
def handed3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What the body hands back: the same, each buffer at the proof data's after-the-body contents. -/
def returned3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: every input buffer holds its window's block there, so the kernel function's triple applies
    at those five blocks; the invariant and the dues pass by untouched. -/
theorem body_runs3 (c : Dev nD) (t : Fin cfg3.N) :
    handed3 V c t ⊢ wp frame (wpE (defs₀ (F := F)) Variants.none c none) Set.univ (bodyAt3 t) (fun _ => returned3 V c t) := by
  unfold handed3 returned3 bodyAt3
  simp only [held3_0, held3_1, held3_2, held3_3, held3_4]
  rw [inv_const3 V c t.succ t.castSucc, dues_const3 V c t.succ t.castSucc,
    after3_0, after3_1, after3_2, after3_3, after3_4, after3_5]
  iintro ⟨Inv, Dues, ⟨%d0, W0⟩, ⟨%d1, W1⟩, ⟨%d2, W2⟩, ⟨%d3, W3⟩, ⟨%d4, W4⟩, ⟨%d5, W5⟩⟩
  iapply (kernel_runs3 c Set.univ _ _ _ _ _ _ _ _ _ _ _ _ _
    (iblk3 V c 0 t) (iblk3 V c 1 t) (iblk3 V c 2 t) (iblk3 V c 3 t) (iblk3 V c 4 t) _)
  isplitl [W0]; · iexact W0
  isplitl [W1]; · iexact W1
  isplitl [W2]; · iexact W2
  isplitl [W3]; · iexact W3
  isplitl [W4]; · iexact W4
  isplitl [W5]; · iexists _; iexact W5
  iintro ⟨R0, R1, R2, R3, R4, R5⟩
  isplitl [Inv]; · iexact Inv
  isplitl [Dues]; · iexact Dues
  isplitl [R0]; · iexact R0
  isplitl [R1]; · iexact R1
  isplitl [R2]; · iexact R2
  isplitl [R3]; · iexact R3
  isplitl [R4]; · iexact R4
  iexact R5

/-- The region's body obligation: the library's statement over all windows at once is, window by window, the statement above. -/
theorem body_obligation3 (c : Dev nD) : BodyObligation (dat3 (F := F) V c) (defs₀ (F := F)) Variants.none () Set.univ := fun t => by
  rw [bigSep_W3, bigSep_W3]
  exact body_runs3 V c t

end Layer
end Cert.Kernel.H
-- ==== Proof.Kernel.Pool.Body.lean ====
import proofs.«420548_j8821862826461_1_alg».proof.Proof.Kernel.Launch
import proofs.«420548_j8821862826461_1_alg».proof.Proof.Gen.Kernel.Skeleton
import proofs.«420548_j8821862826461_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # The pool kernel's body, in its three control cases

The body runs at each of the grid's 8 points. It has two guarded blocks: the first (zero both
scratch buffers) is entered exactly at point 0, the second (divide the sums by the clamped counts,
multiply by the head's weights, add its bias, store the output block) exactly at point 7. Between
them every point adds its block's one-hot-weighted row sums into scratch 0 and its one-hot column
sums into scratch 1. -/

/-- The first guard's condition at grid point `i`: the point's coordinate compared with 0, widened,
    compared with 0 again. -/
abbrev cond4_0 (i : grid4.Coords) : Prop :=
  (Scalar.cmpi .ne (Scalar.extui (Scalar.cmpi .eq (BitVec.ofNat 32 (i 0).val) 0#32)) 0#32) = 1#1

/-- The second guard's condition at grid point `i`. -/
abbrev cond4_1 (i : grid4.Coords) : Prop := k4_cond2 i = 1#1

/-- The first guard holds exactly at the first point. -/
theorem hcond4_0 : ∀ t : Fin cfg4.N, cond4_0 (grid4.coords t) ↔ t.val = 0 :=
  (by decide +kernel : ∀ t : Fin grid4.N, cond4_0 (grid4.coords t) ↔ t.val = 0)

/-- The second guard holds exactly at the last point. -/
theorem hcond4_1 : ∀ t : Fin cfg4.N, cond4_1 (grid4.coords t) ↔ t.val = 7 :=
  (by decide +kernel : ∀ t : Fin grid4.N, cond4_1 (grid4.coords t) ↔ t.val = 7)

/-- What point 0 first stores into scratch 0 (the sums): all zeros. -/
def zero0 : Vec F S64x16 .f32 := k4_pay1

/-- What point 0 first stores into scratch 1 (the counts): all zeros. -/
def zero1 : Vec F S64x1 .f32 := k4_pay2

/-- Scratch 0 after a point: what it held plus the one-hot matrix of the point's batch ids,
    transposed, times the point's rows. -/
def acc0 (x0 : Vec F S5000x16 .f32) (x1 : Vec F S5000x1 .i32) (s0 : Vec F S64x16 .f32) : Vec F S64x16 .f32 :=
  k4_pay4 x0 x1 s0

/-- Scratch 1 after a point: what it held plus the one-hot matrix's column sums. -/
def acc1 (x1 : Vec F S5000x1 .i32) (s1 : Vec F S64x1 .f32) : Vec F S64x1 .f32 := k4_pay5 x1 s1

/-- The output block the last point stores: sums over counts clamped below by 1, times the head's
    weights, plus its bias. -/
def head4 (s0 : Vec F S64x16 .f32) (s1 : Vec F S64x1 .f32) (x2 : Vec F S16x1 .f32) (x3 : Vec F S1x1 .f32) : Vec F S64x1 .f32 :=
  k4_pay6 s0 s1 x2 x3

/-- The zero offsets of a whole-buffer access, as the constant function. -/
private theorem pool_hz : (![0, 0] : Fin 2 → Nat) = fun _ => 0 := funext fun a => by fin_cases a <;> rfl

/-- A list of stores into a 64x16 buffer whose last is a whole-buffer store covers the buffer. -/
private theorem pool_cover64x16 (w : S64x16.Idx → Elt F .f32) (L : List (View.Piece (Elt F) S64x16 .f32)) (y : S64x16.Idx) :
    ∃ p ∈ ((⟨Rect.unit ![0, 0] S64x16.size inb_S64x16_S64x16_0_0, w⟩ : View.Piece (Elt F) S64x16 .f32) :: L), y ∈ p.1.set :=
  ⟨_, List.mem_cons.mpr (Or.inl rfl), View.mem_set_unit_zero (S := S64x16) pool_hz inb_S64x16_S64x16_0_0 y⟩

/-- The same for a 64x1 buffer. -/
private theorem pool_cover64x1 (w : S64x1.Idx → Elt F .f32) (L : List (View.Piece (Elt F) S64x1 .f32)) (y : S64x1.Idx) :
    ∃ p ∈ ((⟨Rect.unit ![0, 0] S64x1.size inb_S64x1_S64x1_0_0, w⟩ : View.Piece (Elt F) S64x1 .f32) :: L), y ∈ p.1.set :=
  ⟨_, List.mem_cons.mpr (Or.inl rfl), View.mem_set_unit_zero (S := S64x1) pool_hz inb_S64x1_S64x1_0_0 y⟩

set_option maxHeartbeats 1000000 in
/-- The first point: both scratch buffers hold anything on entry; they are zeroed, then accumulated
    into, so they end at the accumulation from zero. The output buffer is not touched. -/
theorem sound_kernel4_A (c : Dev nD) (E : Set ℕ) (i : grid4.Coords) (arg1 : Memref sig .tc .vmem S5000x16 .f32) (harg1 : arg1.IsWhole) (arg2 : Memref sig .tc .vmem S5000x1 .i32) (harg2 : arg2.IsWhole) (arg3 : Memref sig .tc .vmem S16x1 .f32) (harg3 : arg3.IsWhole) (arg4 : Memref sig .tc .vmem S1x1 .f32) (harg4 : arg4.IsWhole) (arg5 : Memref sig .tc .vmem S64x1 .f32) (harg5 : arg5.IsWhole) (arg6 : Memref sig .tc .vmem S64x16 .f32) (harg6 : arg6.IsWhole) (arg7 : Memref sig .tc .vmem S64x1 .f32) (harg7 : arg7.IsWhole)
    (hc0 : cond4_0 i) (hc1 : ¬cond4_1 i) (x0 : Vec F S5000x16 .f32) (x1 : Vec F S5000x1 .i32) (x2 : Vec F S16x1 .f32) (x3 : Vec F S1x1 .f32) (xi4 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (acc0 x0 x1 zero0) ∗ owns (c : Thread nD τ) arg7 fullShare (acc1 x1 zero1)) -∗ K ⟨⟩))
      ⊢ wp frame (wpE (defs₀ (F := F)) Variants.none c none) E (cc4__pool_fc_kernel i arg1 harg1 arg2 harg2 arg3 harg3 arg4 harg4 arg5 harg5 arg6 harg6 arg7 harg7) K := by
  simp only [cc4__pool_fc_kernel_eq_skeleton]; unfold cc4__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · -- scratch 0 was stored twice, zeros and then the accumulation: the later store covers the
    -- buffer, so the buffer reads back as its payload, and the scratch value that payload was
    -- computed from is the read-back of the zeros alone
    iexists _; isplitr
    swap; · iexact HS0
    ipureintro
    sl_unfold_words
    rw [View.read_writes_eq_canon _ _ _ (pool_cover64x16 _ _), View.canon_cons_unit_zero (S := S64x16) pool_hz]
    simp only [View.readAt_eq_ld, View.ld_unit_zero (S := S5000x16) pool_hz, View.ld_unit_zero (S := S5000x1) pool_hz,
      View.readCov_unit_zero (S := S64x16) _ pool_hz]
    rfl
  -- scratch 1: the same two stores, zeros and then the counts' accumulation
  iexists _; isplitr
  swap; · iexact HS1
  ipureintro
  sl_unfold_words
  rw [View.read_writes_eq_canon _ _ _ (pool_cover64x1 _ _), View.canon_cons_unit_zero (S := S64x1) pool_hz]
  simp only [View.readAt_eq_ld, View.ld_unit_zero (S := S5000x1) pool_hz, View.readCov_unit_zero (S := S64x1) _ pool_hz]
  rfl

set_option maxHeartbeats 1000000 in
/-- A middle point: neither guarded block runs; the scratch buffers go from what they held to the
    accumulation over it. The output buffer is not touched. -/
theorem sound_kernel4_B (c : Dev nD) (E : Set ℕ) (i : grid4.Coords) (arg1 : Memref sig .tc .vmem S5000x16 .f32) (harg1 : arg1.IsWhole) (arg2 : Memref sig .tc .vmem S5000x1 .i32) (harg2 : arg2.IsWhole) (arg3 : Memref sig .tc .vmem S16x1 .f32) (harg3 : arg3.IsWhole) (arg4 : Memref sig .tc .vmem S1x1 .f32) (harg4 : arg4.IsWhole) (arg5 : Memref sig .tc .vmem S64x1 .f32) (harg5 : arg5.IsWhole) (arg6 : Memref sig .tc .vmem S64x16 .f32) (harg6 : arg6.IsWhole) (arg7 : Memref sig .tc .vmem S64x1 .f32) (harg7 : arg7.IsWhole)
    (hc0 : ¬cond4_0 i) (hc1 : ¬cond4_1 i) (x0 : Vec F S5000x16 .f32) (x1 : Vec F S5000x1 .i32) (x2 : Vec F S16x1 .f32) (x3 : Vec F S1x1 .f32) (xi4 : Vec F S64x1 .f32) (xs0 : Vec F S64x16 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (acc0 x0 x1 xs0) ∗ owns (c : Thread nD τ) arg7 fullShare (acc1 x1 xs1)) -∗ K ⟨⟩))
      ⊢ wp frame (wpE (defs₀ (F := F)) Variants.none c none) E (cc4__pool_fc_kernel i arg1 harg1 arg2 harg2 arg3 harg3 arg4 harg4 arg5 harg5 arg6 harg6 arg7 harg7) K := by
  simp only [cc4__pool_fc_kernel_eq_skeleton]; unfold cc4__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0 hf1 hf2 hf3 hf4 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · -- scratch 0: its one store covers the buffer, so it reads back as the store's payload, whose
    -- loads were whole-buffer reads of the point's blocks and of what the scratch held
    iexists _; isplitr
    swap; · iexact HS0
    ipureintro
    rw [View.read_writes_eq_canon _ _ _ (pool_cover64x16 _ _),
      View.canon_unit_zero pool_hz]
    simp only [View.readAt_eq_ld, View.ld_unit_zero (S := S5000x16) pool_hz, View.ld_unit_zero (S := S5000x1) pool_hz,
      View.ld_unit_zero (S := S64x16) pool_hz]
    rfl
  -- scratch 1: the same, with the batch ids' block and what the counts held
  iexists _; isplitr
  swap; · iexact HS1
  ipureintro
  rw [View.read_writes_eq_canon _ _ _ (pool_cover64x1 _ _),
    View.canon_unit_zero pool_hz]
  simp only [View.readAt_eq_ld, View.ld_unit_zero (S := S5000x1) pool_hz, View.ld_unit_zero (S := S64x1) pool_hz]
  rfl

set_option maxHeartbeats 1000000 in
/-- The last point: the scratch buffers are accumulated into, then the head reads them back and
    stores the output block, which held anything on entry. -/
theorem sound_kernel4_C (c : Dev nD) (E : Set ℕ) (i : grid4.Coords) (arg1 : Memref sig .tc .vmem S5000x16 .f32) (harg1 : arg1.IsWhole) (arg2 : Memref sig .tc .vmem S5000x1 .i32) (harg2 : arg2.IsWhole) (arg3 : Memref sig .tc .vmem S16x1 .f32) (harg3 : arg3.IsWhole) (arg4 : Memref sig .tc .vmem S1x1 .f32) (harg4 : arg4.IsWhole) (arg5 : Memref sig .tc .vmem S64x1 .f32) (harg5 : arg5.IsWhole) (arg6 : Memref sig .tc .vmem S64x16 .f32) (harg6 : arg6.IsWhole) (arg7 : Memref sig .tc .vmem S64x1 .f32) (harg7 : arg7.IsWhole)
    (hc0 : ¬cond4_0 i) (hc1 : cond4_1 i) (x0 : Vec F S5000x16 .f32) (x1 : Vec F S5000x1 .i32) (x2 : Vec F S16x1 .f32) (x3 : Vec F S1x1 .f32) (xs0 : Vec F S64x16 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (head4 (acc0 x0 x1 xs0) (acc1 x1 xs1) x2 x3) ∗ owns (c : Thread nD τ) arg6 fullShare (acc0 x0 x1 xs0) ∗ owns (c : Thread nD τ) arg7 fullShare (acc1 x1 xs1)) -∗ K ⟨⟩))
      ⊢ wp frame (wpE (defs₀ (F := F)) Variants.none c none) E (cc4__pool_fc_kernel i arg1 harg1 arg2 harg2 arg3 harg3 arg4 harg4 arg5 harg5 arg6 harg6 arg7 harg7) K := by
  simp only [cc4__pool_fc_kernel_eq_skeleton]; unfold cc4__pool_fc_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  subst hf0 hf1 hf2 hf3 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · -- the output block: its one store covers the buffer; the store's payload was computed from
    -- the two scratch buffers read back after their accumulating stores, and from the head's
    -- weights and bias read whole
    iexists _; isplitr
    swap; · iexact H4
    ipureintro
    sl_unfold_words
    rw [View.read_writes_eq_canon _ _ _ (pool_cover64x1 _ _), View.canon_unit_zero pool_hz]
    simp only [View.readAt_eq_ld, View.ld_unit_zero (S := S5000x16) pool_hz, View.ld_unit_zero (S := S5000x1) pool_hz,
      View.ld_unit_zero (S := S64x16) pool_hz, View.ld_unit_zero (S := S64x1) pool_hz, View.ld_unit_zero (S := S16x1) pool_hz,
      View.ld_unit_zero (S := S1x1) pool_hz, View.readCov_unit_zero (S := S64x16) _ pool_hz,
      View.readCov_unit_zero (S := S64x1) _ pool_hz]
    rfl
  isplitl [HS0]
  · -- scratch 0: one accumulating store over what it held
    iexists _; isplitr
    swap; · iexact HS0
    ipureintro
    sl_unfold_words
    rw [View.read_writes_eq_canon _ _ _ (pool_cover64x16 _ _), View.canon_unit_zero pool_hz]
    simp only [View.readAt_eq_ld, View.ld_unit_zero (S := S5000x16) pool_hz, View.ld_unit_zero (S := S5000x1) pool_hz,
      View.ld_unit_zero (S := S64x16) pool_hz]
    rfl
  -- scratch 1: one accumulating store over what it held
  iexists _; isplitr
  swap; · iexact HS1
  ipureintro
  sl_unfold_words
  rw [View.read_writes_eq_canon _ _ _ (pool_cover64x1 _ _), View.canon_unit_zero pool_hz]
  simp only [View.readAt_eq_ld, View.ld_unit_zero (S := S5000x1) pool_hz, View.ld_unit_zero (S := S64x1) pool_hz]
  rfl

end Cert.Kernel.H
end
-- ==== Proof.Kernel.Region4.lean ====
import proofs.«420548_j8821862826461_1_alg».proof.Proof.Kernel.Pool.Body
set_option maxRecDepth 16384
noncomputable section
namespace Cert.Kernel.H
open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 4: the pool over the grid's 8 points

The kernel keeps two buffers of its own between points: the per-graph row sums (64x16) and the
per-graph row counts (64x1). Point 0 zeroes both; every point adds its block's contribution; the
last point divides, applies the head and stores the one output block (64x1). The output window is
idle at every other point: its buffer is handed back as found and not written back there. -/

section Region4

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The per-graph sums after point `n`: the accumulation of the blocks of points `0 … n` from zero
    (constant past the last point). -/
def sc0At (c : Dev nD) : ℕ → Vec F S64x16 .f32
  | 0 => acc0 (iblk4 V c 0 t4_0) (iblk4 V c 1 t4_0) zero0
  | n + 1 => if h : n + 1 < cfg4.N then acc0 (iblk4 V c 0 ⟨n + 1, h⟩) (iblk4 V c 1 ⟨n + 1, h⟩) (sc0At c n) else sc0At c n

/-- The per-graph counts after point `n`, likewise. -/
def sc1At (c : Dev nD) : ℕ → Vec F S64x1 .f32
  | 0 => acc1 (iblk4 V c 1 t4_0) zero1
  | n + 1 => if h : n + 1 < cfg4.N then acc1 (iblk4 V c 1 ⟨n + 1, h⟩) (sc1At c n) else sc1At c n

/-- The head applied to the sums and counts after point `t`, at the weights and bias blocks of `t`:
    what the output window's buffer holds after the last point, the only one that stores it. At any
    other point the window is idle and not written back, and this value is consulted by nothing. -/
def out4At (c : Dev nD) (t : Fin cfg4.N) : Vec F S64x1 .f32 :=
  head4 (sc0At V c t.val) (sc1At V c t.val) (iblk4 V c 2 t) (iblk4 V c 3 t)

theorem sc0At_succ (c : Dev nD) (n : ℕ) (h : n + 1 < cfg4.N) :
    sc0At V c (n + 1) = acc0 (iblk4 V c 0 ⟨n + 1, h⟩) (iblk4 V c 1 ⟨n + 1, h⟩) (sc0At V c n) := by
  rw [sc0At, dif_pos h]

theorem sc1At_succ (c : Dev nD) (n : ℕ) (h : n + 1 < cfg4.N) :
    sc1At V c (n + 1) = acc1 (iblk4 V c 1 ⟨n + 1, h⟩) (sc1At V c n) := by
  rw [sc1At, dif_pos h]

/-- At the first point the sums are one accumulation step from zero, -/
theorem sc0At_first (c : Dev nD) (t : Fin cfg4.N) (hz : t.val = 0) :
    sc0At V c t.val = acc0 (iblk4 V c 0 t) (iblk4 V c 1 t) zero0 := by
  obtain ⟨n, hn⟩ := t
  cases n with
  | zero => rfl
  | succ n => exact absurd hz (Nat.succ_ne_zero n)

/-- and at any later point one step from what the point before left. -/
theorem sc0At_later (c : Dev nD) (t : Fin cfg4.N) (hz : t.val ≠ 0) :
    sc0At V c t.val = acc0 (iblk4 V c 0 t) (iblk4 V c 1 t) (sc0At V c (t.val - 1)) := by
  obtain ⟨n, hn⟩ := t
  cases n with
  | zero => exact absurd rfl hz
  | succ n => exact sc0At_succ V c n hn

/-- The counts, likewise. -/
theorem sc1At_first (c : Dev nD) (t : Fin cfg4.N) (hz : t.val = 0) :
    sc1At V c t.val = acc1 (iblk4 V c 1 t) zero1 := by
  obtain ⟨n, hn⟩ := t
  cases n with
  | zero => rfl
  | succ n => exact absurd hz (Nat.succ_ne_zero n)

theorem sc1At_later (c : Dev nD) (t : Fin cfg4.N) (hz : t.val ≠ 0) :
    sc1At V c t.val = acc1 (iblk4 V c 1 t) (sc1At V c (t.val - 1)) := by
  obtain ⟨n, hn⟩ := t
  cases n with
  | zero => exact absurd rfl hz
  | succ n => exact sc1At_succ V c n hn

/-- The two buffers the kernel carries between points, as whole memrefs. -/
abbrev scM4_0 : Memref sig .tc .vmem S64x16 .f32 := Memref.whole cc4_scratch0
abbrev scM4_1 : Memref sig .tc .vmem S64x1 .f32 := Memref.whole cc4_scratch1

/-- What the region is entered with, opened at the kernel's two own buffers: each at some contents,
    every other scoped buffer unopened, the generator register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

/-- The invariant before point `n`: before the first point what the region is entered with; afterwards
    the sums and counts at what the point before left, every other scoped buffer unopened, the
    generator register at some state. -/
def Phi4 (c : Dev nD) : ℕ → sProp 𝕄
  | 0 => Pipeline.ΦA spec4 c
  | n + 1 => iprop(iprop(iprop(owns (c : Thread nD τ) scM4_0 fullShare (sc0At V c n) ∗ owns (c : Thread nD τ) scM4_1 fullShare (sc1At V c n))
      ∗ Pipeline.scopedRestBut spec4 c [cc4_scratch0, cc4_scratch1]) ∗ (∃ r, prngReg c r))

theorem Phi4_zero (c : Dev nD) (n : ℕ) (hz : n = 0) : Phi4 V c n = Pipeline.ΦA spec4 c := by
  subst hz; rfl

/-- After point `n`: both carried buffers at that point's contents. -/
theorem Phi4_succ (c : Dev nD) (n : ℕ) :
    Phi4 V c (n + 1) = iprop(iprop(iprop(owns (c : Thread nD τ) scM4_0 fullShare (sc0At V c n) ∗ owns (c : Thread nD τ) scM4_1 fullShare (sc1At V c n))
      ∗ Pipeline.scopedRestBut spec4 c [cc4_scratch0, cc4_scratch1]) ∗ (∃ r, prngReg c r)) := rfl

/-- Before a point that is not the first: both carried buffers at what the point before left. -/
theorem Phi4_pos (c : Dev nD) (n : ℕ) (hz : n ≠ 0) :
    Phi4 V c n = iprop(iprop(iprop(owns (c : Thread nD τ) scM4_0 fullShare (sc0At V c (n - 1)) ∗ owns (c : Thread nD τ) scM4_1 fullShare (sc1At V c (n - 1)))
      ∗ Pipeline.scopedRestBut spec4 c [cc4_scratch0, cc4_scratch1]) ∗ (∃ r, prngReg c r)) := by
  cases n with
  | zero => exact absurd rfl hz
  | succ n => rfl

/-- The proof data of the pool's pipeline on core `c`: the arrays as the region finds them; after the
    body each input's buffer at its block, the output's at the head of the accumulation so far; the
    invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4At V c t
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4At V c t := by dsimp only [dat4]

/-- The invariant at a point's start and end, restated at the point's position. -/
theorem Phi4_castSucc (c : Dev nD) (t : Fin cfg4.N) : (dat4 V c).Φ t.castSucc = Phi4 V c t.val := by
  dsimp only [dat4]; simp only [Fin.coe_castSucc]

theorem Phi4_fin_succ (c : Dev nD) (t : Fin cfg4.N) : (dat4 V c).Φ t.succ = Phi4 V c (t.val + 1) := by
  dsimp only [dat4]; simp only [Fin.val_succ]

/-! ## What the input windows' buffers hold when the body runs

Each input's block index is a function of the point alone and its blocks tile its array, so whether
or not the point fetches it (the weights and the bias are fetched at point 0 only), the current
buffer holds the window's block at the point. -/

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-! ## Where the output window is idle -/

/-- The inputs are never idle. -/
theorem liveAt4_0 (t : Fin cfg4.N) : cfg4.idle 0 (grid4.coords t) = false := rfl
theorem liveAt4_1 (t : Fin cfg4.N) : cfg4.idle 1 (grid4.coords t) = false := rfl
theorem liveAt4_2 (t : Fin cfg4.N) : cfg4.idle 2 (grid4.coords t) = false := rfl
theorem liveAt4_3 (t : Fin cfg4.N) : cfg4.idle 3 (grid4.coords t) = false := rfl
/-- Off the last point the output window is idle, and its block is not written back; -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- at the last point it is live. -/
theorem liveAt4_4 : ∀ t : Fin cfg4.N, cond4_1 (grid4.coords t) → cfg4.idle 4 (grid4.coords t) = false := by decide +kernel

/-! ## The body at a generic point -/

/-- Each window's current staging memref at point `t`, as the pipeline passes it to the body. -/
abbrev ms4_0 (t : Fin cfg4.N) : Memref sig .tc .vmem S5000x16 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S16x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x1 .f32 := win4_4.stage (cfg4.slots t 4)
abbrev hs4_4 (t : Fin cfg4.N) : (ms4_4 t).IsWhole := hstage4_4 ((cfg4.slots t 4).cast nbuf4_4)

/-- What the body is called with at point `t`: the invariant, the core's dues, every window's current buffer. -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- What it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 1600000 in
/-- The body at any point. The inputs' buffers hold their blocks. At the first point both carried
    buffers are at anything and end one accumulation step from zero; at a later point they are at
    what the point before left and end one step further; at the last point the output buffer, at
    anything, ends at the head of the accumulation. Off the last point the output buffer is handed
    back as found. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [Phi4_fin_succ, Phi4_castSucc, Phi4_succ]
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  rw [show (dat4 V c).leavesExact 3 t = owns (c : Thread nD τ) (ms4_3 t) fullShare ((dat4 V c).after 3 t) from by
      unfold Dat.leavesExact; rw [liveAt4_3 t], after4_3]
  have hN : t.val < 8 := lt_of_lt_of_eq t.isLt (show cfg4.N = 8 from N_4)
  by_cases hz : t.val = 0
  · -- the first point: both guards decided, the carried buffers at anything
    have hc0 : cond4_0 (grid4.coords t) := (hcond4_0 t).mpr hz
    have hc1 : ¬cond4_1 (grid4.coords t) := fun h => by have := (hcond4_1 t).mp h; omega
    rw [Dat.leavesExact_idle (dat4 V c) 4 t (idleAt4_4 t hc1) (noFlush4_4 t hc1)]
    rw [Phi4_zero V c t.val hz, PhiA4_eq, sc0At_first V c t hz, sc1At_first V c t hz]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (sound_kernel4_A c Set.univ (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (iblk4 V c 0 t) (iblk4 V c 1 t) (iblk4 V c 2 t) (iblk4 V c 3 t) ((dat4 V c).before 4 t d4) _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    iexists _; iexact H4
  · have hc0 : ¬cond4_0 (grid4.coords t) := fun h => hz ((hcond4_0 t).mp h)
    rw [Phi4_pos V c t.val hz]
    by_cases h7 : t.val = 7
    · -- the last point: the carried buffers at what point 6 left, the output buffer at anything
      have hc1 : cond4_1 (grid4.coords t) := (hcond4_1 t).mpr h7
      rw [show (dat4 V c).leavesExact 4 t = owns (c : Thread nD τ) (ms4_4 t) fullShare ((dat4 V c).after 4 t) from by
          unfold Dat.leavesExact; rw [liveAt4_4 t hc1], after4_4]
      unfold out4At
      rw [sc0At_later V c t hz, sc1At_later V c t hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel4_C c Set.univ (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (iblk4 V c 0 t) (iblk4 V c 1 t) (iblk4 V c 2 t) (iblk4 V c 3 t) (sc0At V c (t.val - 1)) (sc1At V c (t.val - 1)) _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      iexact H4
    · -- a middle point: neither guard holds, the output buffer handed back as found
      have hc1 : ¬cond4_1 (grid4.coords t) := fun h => h7 ((hcond4_1 t).mp h)
      rw [Dat.leavesExact_idle (dat4 V c) 4 t (idleAt4_4 t hc1) (noFlush4_4 t hc1)]
      rw [sc0At_later V c t hz, sc1At_later V c t hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel4_B c Set.univ (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (iblk4 V c 0 t) (iblk4 V c 1 t) (iblk4 V c 2 t) (iblk4 V c 3 t) ((dat4 V c).before 4 t d4) (sc0At V c (t.val - 1)) (sc1At V c (t.val - 1)) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = Phi4 V c 0 from rfl, Phi4_zero V c 0 rfl]
  try exact Idealize.SL.BI.Entails.refl _

/-- After any point the invariant gives back what the region was entered with: the carried buffers'
    named contents are forgotten. -/
theorem Phi4_out (c : Dev nD) (n : ℕ) (hn : n ≠ 0) : Phi4 V c n ⊢ (Pipeline.ΦA spec4 c : sProp 𝕄) := by
  rw [Phi4_pos V c n hn, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

theorem hout4 (c : Dev nD) : (dat4 V c).Φ (Fin.last cfg4.N) ⊢ (Pipeline.ΦA spec4 c : sProp 𝕄) := by
  rw [show (dat4 V c).Φ (Fin.last cfg4.N) = Phi4 V c (Fin.last cfg4.N).val from rfl]
  exact Phi4_out V c _ (by rw [Fin.val_last]; have : cfg4.N = 8 := N_4; omega)

end Region4

end Cert.Kernel.H
end
-- ==== Proof.Kernel.RunCond.lean ====
import proofs.«420548_j8821862826461_1_alg».proof.Proof.Kernel.Regions
import Idealize.ShloMosaic.Lib.Pipeline.Frame
import Idealize.ShloMosaic.Lib.Pipeline.Regions
set_option maxRecDepth 16384
noncomputable section
namespace Cert.Kernel.H
open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
variable {F : FTy → Type} [FloatOps F]

/-! # The conditional run, with every unscoped buffer read off the last valuation

The program is ten items in a row: a host stretch, then a kernel region, five times over. Between
two items each core holds every unscoped buffer whole at that point's valuation, beside a rest of
the caller's choosing. Given one segment record per region, entered from the state before it and
left at the state after it, the run terminates, and in every final memory each core's unscoped
buffers hold the last valuation — all of them, not only the program's arguments. -/

set_option backward.isDefEq.respectTransparency.types false in
/-- THE CONDITIONAL RUN. For any user algebra, level assignment, launch dues and ghost resources,
    any rest states `E` the launch makes on every core at once (`hE0`) and that end owing nothing
    (`hE5`), any contents the regions leave (`outs`) and any proof data: given, per region K, a
    segment record entered from the thread state before it and left at the one after it, every
    weakly fair execution of the program from memory `m` with zero counters terminates, and every
    final memory holds every unscoped buffer of every core at the last valuation. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c)) :
    θ_run defs (onTc (τ := τ) (main (F := F))) ⟨m, fun _ => 0, ρ⟩ (fun r => ∀ c : Dev nD,
      ∀ b ∈ Pipeline.ucRefs τ sig, r.2.mem ((c.tc : Thread nD τ).1, b) = GenP.V10 m outs c b) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      -- the program is the chain of its ten items' programs
      rewrite [main_chain c, Seg.run_eq_chain,
        show (segs m outs 𝒱₀ L lv E ι pdats R0 R1 R2 R3 R4 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, hpre0 c, hpost0 c, hpre1 c, hpost1 c, hpre2 c, hpost2 c, hpre3 c, hpost3 c, hpre4 c, (hpost4 c).trans (sep_mono .rfl (hE5 c))⟩)
    (hinit := ?_)
    (QY := fun c s => ∀ b ∈ Pipeline.ucRefs τ sig, s.mem ((c.tc : Thread nD τ).1, b) = V10 m outs c b)
    (hfin := fun c s' => ?_) (hQ := fun _ h => h)
  · -- the launch: each core's unscoped buffers are held at the launch valuation; what is left over
    -- on all cores together makes the first rest state
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: owning every unscoped buffer at the last valuation, beside the memory's state
    -- interpretation, says the memory holds that valuation at each of them
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact h
    · iexact HSI

end Cert.Kernel.H
end
-- ==== Proof.Kernel.Run.lean ====
import proofs.«420548_j8821862826461_1_alg».proof.Proof.Kernel.Launch
import proofs.«420548_j8821862826461_1_alg».proof.Proof.Gen.Kernel.Skeleton
import proofs.«420548_j8821862826461_1_alg».proof.Proof.Gen.Kernel.Points
import proofs.«420548_j8821862826461_1_alg».proof.Proof.Kernel.Regions
import proofs.«420548_j8821862826461_1_alg».proof.Proof.Kernel.Region0
import proofs.«420548_j8821862826461_1_alg».proof.Proof.Kernel.Region1
import proofs.«420548_j8821862826461_1_alg».proof.Proof.Kernel.Region2
import proofs.«420548_j8821862826461_1_alg».proof.Proof.Kernel.Region3
import proofs.«420548_j8821862826461_1_alg».proof.Proof.Kernel.Region4
import proofs.«420548_j8821862826461_1_alg».proof.Proof.Kernel.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # The program's run

@main is ten items: five stretches of host operations alternating with five kernel regions (four graph-network
layers, then the mean pool with its linear head). Between two items a core's unscoped buffers hold a known
valuation; a host stretch advances it by the stretch's own meaning, a region replaces its windows' arrays by what
its write-backs leave and touches nothing else. Of a region's arrays only the output window's is written, so a
region changes exactly one buffer. -/

variable (m : (ℓ : Loc nD τ sig) → Buf (Elt F) ℓ) (ρ : Dev nD → PrngReg)

/-! ## The buffers' contents between items -/

/-- A valuation with a pipeline's arrays replaced agrees with the old one at every buffer that is no array of the
    pipeline. -/
theorem withArrays_of_not {gr W : Nat} (win : Fin W → Pipeline.WinSpec sig gr) (c : Dev nD) (V : Valuation τ sig (Elt F))
    (A : (w : Fin W) → Buf (Elt F) ((win w).arr.view.loc (c.tc : Thread nD τ))) (b : DevRef τ sig)
    (h : ¬ ∃ w, Proc.devRef .tc (Pipeline.arrRef win w) = b) : Pipeline.withArrays win c V A b = V b := by
  unfold Pipeline.withArrays; exact dif_neg h

/-- Core c's unscoped buffers after the first host stretch (the edge lists split, the neighbours' rows of the
    input features gathered and summed per node, the first bias as a row). -/
abbrev W1 (c : Dev nD) : Valuation τ sig (Elt F) := GenP.V1 m c
/-- After layer 1's region: its arrays at what the pipeline leaves, every other buffer as before. -/
def W2 (c : Dev nD) : Valuation τ sig (Elt F) :=
  Pipeline.withArrays spec0 c (W1 m c) fun w => (dat0 (fun c b => W1 m c b) c).arrAt w cfg0.N
/-- After the second host stretch (layer 1's rows aggregated over the edges). -/
abbrev W3 (c : Dev nD) : Valuation τ sig (Elt F) := StableHlo.after hostOps1 (W2 m c)
/-- After layer 2's region. -/
def W4 (c : Dev nD) : Valuation τ sig (Elt F) :=
  Pipeline.withArrays spec1 c (W3 m c) fun w => (dat1 (fun c b => W3 m c b) c).arrAt w cfg1.N
/-- After the third host stretch. -/
abbrev W5 (c : Dev nD) : Valuation τ sig (Elt F) := StableHlo.after hostOps2 (W4 m c)
/-- After layer 3's region. -/
def W6 (c : Dev nD) : Valuation τ sig (Elt F) :=
  Pipeline.withArrays spec2 c (W5 m c) fun w => (dat2 (fun c b => W5 m c b) c).arrAt w cfg2.N
/-- After the fourth host stretch. -/
abbrev W7 (c : Dev nD) : Valuation τ sig (Elt F) := StableHlo.after hostOps3 (W6 m c)
/-- After layer 4's region. -/
def W8 (c : Dev nD) : Valuation τ sig (Elt F) :=
  Pipeline.withArrays spec3 c (W7 m c) fun w => (dat3 (fun c b => W7 m c b) c).arrAt w cfg3.N
/-- After the fifth host stretch (the head's bias as a 1x1 array). -/
abbrev W9 (c : Dev nD) : Valuation τ sig (Elt F) := StableHlo.after hostOps4 (W8 m c)
/-- After the pooling region: the program's last valuation. -/
def W10 (c : Dev nD) : Valuation τ sig (Elt F) :=
  Pipeline.withArrays spec4 c (W9 m c) fun w => (dat4 (fun c b => W9 m c b) c).arrAt w cfg4.N

/-! ### A region's output array holds the fold of its write-backs -/

theorem W2_out (c : Dev nD) : W2 m c main_v16 = (dat0 (fun c b => W1 m c b) c).arrAt 5 cfg0.N := by
  unfold W2; exact Pipeline.withArrays_arr spec0 launch0.win.arr_inj c _ _ 5
theorem W4_out (c : Dev nD) : W4 m c main_v28 = (dat1 (fun c b => W3 m c b) c).arrAt 5 cfg1.N := by
  unfold W4; exact Pipeline.withArrays_arr spec1 launch1.win.arr_inj c _ _ 5
theorem W6_out (c : Dev nD) : W6 m c main_v40 = (dat2 (fun c b => W5 m c b) c).arrAt 5 cfg2.N := by
  unfold W6; exact Pipeline.withArrays_arr spec2 launch2.win.arr_inj c _ _ 5
theorem W8_out (c : Dev nD) : W8 m c main_v52 = (dat3 (fun c b => W7 m c b) c).arrAt 5 cfg3.N := by
  unfold W8; exact Pipeline.withArrays_arr spec3 launch3.win.arr_inj c _ _ 5
theorem W10_out (c : Dev nD) : W10 m c main_v54 = (dat4 (fun c b => W9 m c b) c).arrAt 4 cfg4.N := by
  unfold W10; exact Pipeline.withArrays_arr spec4 launch4.win.arr_inj c _ _ 4

/-! ### A region changes only its output array

An array of an input window is never written back, so it keeps its entry contents, which the proof data read off the
entry valuation; a buffer that is no array of the region bypasses it. -/

theorem W2_of_ne' (c : Dev nD) (b : DevRef τ sig) (hb : b ≠ Proc.devRef .tc main_v16) : W2 m c b = W1 m c b := by
  by_cases h : ∃ w, Proc.devRef .tc (Pipeline.arrRef spec0 w) = b
  · obtain ⟨w, rfl⟩ := h
    have hin : (cfg0.win w).isOut = false :=
      (by decide : ∀ w : Fin 6, Pipeline.arrRef spec0 w ≠ main_v16 → (cfg0.win w).isOut = false) w fun e => hb (congrArg _ e)
    unfold W2
    rw [Pipeline.withArrays_arr spec0 launch0.win.arr_inj c _ _ w]
    exact ((dat0 (fun c b => W1 m c b) c).arrAt_in w hin _).trans (A_eq0 (fun c b => W1 m c b) c w)
  · unfold W2; exact withArrays_of_not spec0 c _ _ b h
theorem W4_of_ne' (c : Dev nD) (b : DevRef τ sig) (hb : b ≠ Proc.devRef .tc main_v28) : W4 m c b = W3 m c b := by
  by_cases h : ∃ w, Proc.devRef .tc (Pipeline.arrRef spec1 w) = b
  · obtain ⟨w, rfl⟩ := h
    have hin : (cfg1.win w).isOut = false :=
      (by decide : ∀ w : Fin 6, Pipeline.arrRef spec1 w ≠ main_v28 → (cfg1.win w).isOut = false) w fun e => hb (congrArg _ e)
    unfold W4
    rw [Pipeline.withArrays_arr spec1 launch1.win.arr_inj c _ _ w]
    exact ((dat1 (fun c b => W3 m c b) c).arrAt_in w hin _).trans (A_eq1 (fun c b => W3 m c b) c w)
  · unfold W4; exact withArrays_of_not spec1 c _ _ b h
theorem W6_of_ne' (c : Dev nD) (b : DevRef τ sig) (hb : b ≠ Proc.devRef .tc main_v40) : W6 m c b = W5 m c b := by
  by_cases h : ∃ w, Proc.devRef .tc (Pipeline.arrRef spec2 w) = b
  · obtain ⟨w, rfl⟩ := h
    have hin : (cfg2.win w).isOut = false :=
      (by decide : ∀ w : Fin 6, Pipeline.arrRef spec2 w ≠ main_v40 → (cfg2.win w).isOut = false) w fun e => hb (congrArg _ e)
    unfold W6
    rw [Pipeline.withArrays_arr spec2 launch2.win.arr_inj c _ _ w]
    exact ((dat2 (fun c b => W5 m c b) c).arrAt_in w hin _).trans (A_eq2 (fun c b => W5 m c b) c w)
  · unfold W6; exact withArrays_of_not spec2 c _ _ b h
theorem W8_of_ne' (c : Dev nD) (b : DevRef τ sig) (hb : b ≠ Proc.devRef .tc main_v52) : W8 m c b = W7 m c b := by
  by_cases h : ∃ w, Proc.devRef .tc (Pipeline.arrRef spec3 w) = b
  · obtain ⟨w, rfl⟩ := h
    have hin : (cfg3.win w).isOut = false :=
      (by decide : ∀ w : Fin 6, Pipeline.arrRef spec3 w ≠ main_v52 → (cfg3.win w).isOut = false) w fun e => hb (congrArg _ e)
    unfold W8
    rw [Pipeline.withArrays_arr spec3 launch3.win.arr_inj c _ _ w]
    exact ((dat3 (fun c b => W7 m c b) c).arrAt_in w hin _).trans (A_eq3 (fun c b => W7 m c b) c w)
  · unfold W8; exact withArrays_of_not spec3 c _ _ b h
theorem W10_of_ne' (c : Dev nD) (b : DevRef τ sig) (hb : b ≠ Proc.devRef .tc main_v54) : W10 m c b = W9 m c b := by
  by_cases h : ∃ w, Proc.devRef .tc (Pipeline.arrRef spec4 w) = b
  · obtain ⟨w, rfl⟩ := h
    have hin : (cfg4.win w).isOut = false :=
      (by decide : ∀ w : Fin 5, Pipeline.arrRef spec4 w ≠ main_v54 → (cfg4.win w).isOut = false) w fun e => hb (congrArg _ e)
    unfold W10
    rw [Pipeline.withArrays_arr spec4 launch4.win.arr_inj c _ _ w]
    exact ((dat4 (fun c b => W9 m c b) c).arrAt_in w hin _).trans (A_eq4 (fun c b => W9 m c b) c w)
  · unfold W10; exact withArrays_of_not spec4 c _ _ b h

theorem W2_of_ne (c : Dev nD) (b : Ref sig .tc) (hb : b ≠ main_v16) : W2 m c b = W1 m c b :=
  W2_of_ne' m c _ (StableHlo.devRef_ne_of_ne hb)
theorem W4_of_ne (c : Dev nD) (b : Ref sig .tc) (hb : b ≠ main_v28) : W4 m c b = W3 m c b :=
  W4_of_ne' m c _ (StableHlo.devRef_ne_of_ne hb)
theorem W6_of_ne (c : Dev nD) (b : Ref sig .tc) (hb : b ≠ main_v40) : W6 m c b = W5 m c b :=
  W6_of_ne' m c _ (StableHlo.devRef_ne_of_ne hb)
theorem W8_of_ne (c : Dev nD) (b : Ref sig .tc) (hb : b ≠ main_v52) : W8 m c b = W7 m c b :=
  W8_of_ne' m c _ (StableHlo.devRef_ne_of_ne hb)
theorem W10_of_ne (c : Dev nD) (b : Ref sig .tc) (hb : b ≠ main_v54) : W10 m c b = W9 m c b :=
  W10_of_ne' m c _ (StableHlo.devRef_ne_of_ne hb)

/-! ## What the regions leave -/

/-- What each region leaves in the one buffer it changes, read off the valuations above: the unknowns the conditional
    frame is stated over, instantiated. -/
def outs : GenP.Outs (F := F) := fun J r c =>
  match J with
  | 2 => W2 m c r
  | 4 => W4 m c r
  | 6 => W6 m c r
  | 8 => W8 m c r
  | _ => W10 m c r

/-! ## The conditional frame's valuations are these

The conditional frame writes the valuation after a region as the one before it updated at the region's output array.
Since a region changes nothing else, that update is the region's exit valuation; a host stretch's meaning carries
the equation across. -/

/-- A valuation updated at one buffer to another's value there is the other, when the two agree everywhere else. -/
theorem run_update_eq (V W : Valuation τ sig (Elt F)) (r : DevRef τ sig) (h : ∀ b, b ≠ r → W b = V b) :
    Function.update V r (W r) = W := by
  funext b
  by_cases hb : b = r
  · subst hb; exact Function.update_self _ _ _
  · rw [Function.update_of_ne hb]; exact (h b hb).symm

theorem V2_eq (c : Dev nD) : GenP.V2 m (outs m) c = W2 m c :=
  run_update_eq (GenP.V1 m c) (W2 m c) (Proc.devRef .tc main_v16) (W2_of_ne' m c)
theorem V3_eq (c : Dev nD) : GenP.V3 m (outs m) c = W3 m c :=
  congrArg (StableHlo.after hostOps1) (V2_eq m c)
theorem V4_eq (c : Dev nD) : GenP.V4 m (outs m) c = W4 m c := by
  show Function.update (GenP.V3 m (outs m) c) (Proc.devRef .tc main_v28) (W4 m c main_v28) = W4 m c
  rw [V3_eq]; exact run_update_eq (W3 m c) (W4 m c) (Proc.devRef .tc main_v28) (W4_of_ne' m c)
theorem V5_eq (c : Dev nD) : GenP.V5 m (outs m) c = W5 m c :=
  congrArg (StableHlo.after hostOps2) (V4_eq m c)
theorem V6_eq (c : Dev nD) : GenP.V6 m (outs m) c = W6 m c := by
  show Function.update (GenP.V5 m (outs m) c) (Proc.devRef .tc main_v40) (W6 m c main_v40) = W6 m c
  rw [V5_eq]; exact run_update_eq (W5 m c) (W6 m c) (Proc.devRef .tc main_v40) (W6_of_ne' m c)
theorem V7_eq (c : Dev nD) : GenP.V7 m (outs m) c = W7 m c :=
  congrArg (StableHlo.after hostOps3) (V6_eq m c)
theorem V8_eq (c : Dev nD) : GenP.V8 m (outs m) c = W8 m c := by
  show Function.update (GenP.V7 m (outs m) c) (Proc.devRef .tc main_v52) (W8 m c main_v52) = W8 m c
  rw [V7_eq]; exact run_update_eq (W7 m c) (W8 m c) (Proc.devRef .tc main_v52) (W8_of_ne' m c)
theorem V9_eq (c : Dev nD) : GenP.V9 m (outs m) c = W9 m c :=
  congrArg (StableHlo.after hostOps4) (V8_eq m c)
theorem V10_eq (c : Dev nD) : GenP.V10 m (outs m) c = W10 m c := by
  show Function.update (GenP.V9 m (outs m) c) (Proc.devRef .tc main_v54) (W10 m c main_v54) = W10 m c
  rw [V9_eq]; exact run_update_eq (W9 m c) (W10 m c) (Proc.devRef .tc main_v54) (W10_of_ne' m c)

/-! ## The proof data, and what rides beside the buffers -/

/-- Every pipeline's proof data, each read off the valuation its region is entered from. -/
def pdats : (p : Fin 5) → (c : Dev nD) → Dat τ (Elt F) Unit ℕ (UR sig nD τ) ℕ (cfgs p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c

/-- Beside the buffers, through every item: the core's generator register at some state, and the core owing nothing. -/
abbrev restR (c : Dev nD) : sProp 𝕄 :=
  iprop((∃ r, prngReg c r) ∗ ∃ W, owes (c : Thread nD τ) (0 : CellTallies nD τ sig Unit) W)
/-- No core owes another anything, so no level is assigned. -/
abbrev noLv : GSem nD τ sig → Finset Unit := fun _ => ∅
abbrev lvl0 : GSem nD τ sig → Unit → ℕ := fun _ _ => 0

/-- A core owing nothing is what a pipeline takes at a point where its body owes nothing and bounds no recorded pair. -/
theorem run_owes_in {cfg : Cfg sig Λ₀} {c : Dev nD} (dat : Dat τ (Elt F) Unit ℕ (UR sig nD τ) ℕ cfg c) (t : Fin (cfg.N + 1))
    (h : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h]
  iintro ⟨%W, HO⟩
  iexists W
  isplitr
  · ipureintro; intro x _; exact Or.inl (hr ▸ Set.mem_univ x)
  iexact HO

/-- and what it gives back at such a point. -/
theorem run_owes_out {cfg : Cfg sig Λ₀} {c : Dev nD} (dat : Dat τ (Elt F) Unit ℕ (UR sig nD τ) ℕ cfg c) (t : Fin (cfg.N + 1))
    (h : dat.owed t = 0) :
    dat.owesAt () t ⊢ (iprop(∃ W, owes (c : Thread nD τ) (0 : CellTallies nD τ sig Unit) W) : sProp 𝕄) := by
  unfold Pipeline.Dat.owesAt Pipeline.owesWithin
  rw [h]
  iintro ⟨%W, -, HO⟩
  iexists W
  iexact HO

/-- The generator register and the scoped buffers no window stages make the class's region invariant (anything else
    offered is dropped), -/
theorem run_ΦA_in {gr W : Nat} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hs⟩
  isplitl [Hs]
  · iexact Hs
  iexact Hp

/-- and the invariant gives both back. -/
theorem run_ΦA_out {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hs, Hp⟩
  isplitl [Hp]
  · iexact Hp
  isplitr
  · iempintro
  iexact Hs

/-! ## A region's entry and exit over the thread state

Between items the thread state is "every unscoped buffer at the boundary's valuation, the generator register at some
state, nothing owed". A region's entry splits its windows' arrays out of the buffers at the proof data's entry contents;
its exit puts them back at the exit valuation, which has the arrays at the fold of the write-backs and every other
buffer as entered. -/

theorem W2_arr (c : Dev nD) (w : Fin cfg0.W) :
    W2 m c (Proc.devRef .tc (Pipeline.arrRef spec0 w)) = (dat0 (fun c b => W1 m c b) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (dat1 (fun c b => W3 m c b) c).arrAt w cfg1.N := by
  unfold W4; exact Pipeline.withArrays_arr spec1 launch1.win.arr_inj c _ _ w
theorem W6_arr (c : Dev nD) (w : Fin cfg2.W) :
    W6 m c (Proc.devRef .tc (Pipeline.arrRef spec2 w)) = (dat2 (fun c b => W5 m c b) c).arrAt w cfg2.N := by
  unfold W6; exact Pipeline.withArrays_arr spec2 launch2.win.arr_inj c _ _ w
theorem W8_arr (c : Dev nD) (w : Fin cfg3.W) :
    W8 m c (Proc.devRef .tc (Pipeline.arrRef spec3 w)) = (dat3 (fun c b => W7 m c b) c).arrAt w cfg3.N := by
  unfold W8; exact Pipeline.withArrays_arr spec3 launch3.win.arr_inj c _ _ w
theorem W10_arr (c : Dev nD) (w : Fin cfg4.W) :
    W10 m c (Proc.devRef .tc (Pipeline.arrRef spec4 w)) = (dat4 (fun c b => W9 m c b) c).arrAt w cfg4.N := by
  unfold W10; exact Pipeline.withArrays_arr spec4 launch4.win.arr_inj c _ _ w

set_option backward.isDefEq.respectTransparency.types false in
/-- ENTRY of pipeline p from the valuation Wv: the windows' arrays at the proof data's entry contents (which are
    read off Wv), no prefetched table, the core owing nothing, the generator register, and the unscoped buffers that
    are no array of the pipeline, still at Wv. -/
theorem run_entry (p : Fin 5) (kit : Pipeline.LaunchFacts (nD := nD) (τ := τ) cfgs p) (c : Dev nD) (Wv : Valuation τ sig (Elt F))
    (hq : ∀ w, (pdats m p c).q w = fullShare)
    (hA : ∀ w, (pdats m p c).A w = Wv (Proc.devRef .tc (Pipeline.arrRef (cfgs p).spec w)))
    (ho : (pdats m p c).owed 0 = 0) (hr : (pdats m p c).recorded 0 = Set.univ) :
    iprop(iprop(StableHlo.held (c : Thread nD τ) (Pipeline.ucRefs τ sig) Wv ∗ restR c)
        ∗ Pipeline.ownSems0 (fun k : PEmpty => k.elim) c ∗ levAts noLv lvl0)
      ⊢ (|={Set.univ}=> iprop((pdats m p c).arrays ((pdats m p c).arrAt · 0)
          ∗ Pipeline.prefHeld (pcfgs (F := F) p).pre c (fun _ => fullShare) (adm p).1
          ∗ (pdats m p c).owesAt () 0 ∗ (∃ r, prngReg c r)
          ∗ Pipeline.unscopedRest (Ix := Unit) (Name := ℕ) (U := UR sig nD τ) (Lvl := ℕ) (cfgs p).spec c (fun b => Wv b)) : sProp 𝕄) := by
  have hsplit := Pipeline.arrays_of_unscopedBufs (p := p) (pcfgs (F := F)) adm (pdats m) kit.win kit.arr_whole c
    ((pdats m p c).share_full hq) (fun b => Wv b) hA
  rw [Pipeline.unscopedBufs_held (Ix := Unit) (Name := ℕ) (U := UR sig nD τ) (Lvl := ℕ) c Wv] at hsplit
  have hO := run_owes_in (pdats m p c) 0 ho hr
  iintro ⟨⟨Hheld, Hprng, Howes⟩, -, -⟩
  ihave Hs := hsplit $$ Hheld
  icases Hs with ⟨Harr, Hrest⟩
  imodintro
  isplitl [Harr]
  · iexact Harr
  isplitr
  · unfold Pipeline.prefHeld
    rw [show (Finset.univ : Finset (Fin 0)) = ∅ from rfl, BI.bigSep_empty]
    iempintro
  isplitl [Howes]
  · iapply hO; iexact Howes
  isplitl [Hprng]
  · iexact Hprng
  iexact Hrest

set_option backward.isDefEq.respectTransparency.types false in
/-- EXIT of pipeline p to the valuation Wv': the arrays at the fold of the write-backs, which is what Wv' holds at them,
    and the bypassing buffers at Wv, with which Wv' agrees off the arrays, are every unscoped buffer at Wv'; the
    generator register and the core owing nothing ride on. -/
theorem run_exit (p : Fin 5) (kit : Pipeline.LaunchFacts (nD := nD) (τ := τ) cfgs p) (c : Dev nD) (Wv Wv' : Valuation τ sig (Elt F))
    (hq : ∀ w, (pdats m p c).q w = fullShare)
    (hF : ∀ w, (pdats m p c).arrAt w (cfgs p).N = Wv' (Proc.devRef .tc (Pipeline.arrRef (cfgs p).spec w)))
    (hrest : ∀ b : Ref sig .tc, b ∉ Finset.univ.image (Pipeline.arrRef (cfgs p).spec) → Wv' (Proc.devRef .tc b) = Wv (Proc.devRef .tc b))
    (ho : (pdats m p c).owed (Fin.last (cfgs p).N) = 0) :
    iprop((pdats m p c).arrays ((pdats m p c).arrAt · (cfgs p).N) ∗ (pdats m p c).owesAt () (Fin.last (cfgs p).N)
        ∗ (∃ r, prngReg c r)
        ∗ Pipeline.unscopedRest (Ix := Unit) (Name := ℕ) (U := UR sig nD τ) (Lvl := ℕ) (cfgs p).spec c (fun b => Wv b))
      ⊢ (|={Set.univ}=> iprop(StableHlo.held (c : Thread nD τ) (Pipeline.ucRefs τ sig) Wv' ∗ restR c) : sProp 𝕄) := by
  have hjoin := Pipeline.unscopedBufs_of_arrays (p := p) (pcfgs (F := F)) adm (Ix := Unit) (Name := ℕ) (U := UR sig nD τ) (Lvl := ℕ)
    kit.win kit.arr_whole c (pdats m) ((pdats m p c).share_full hq) (fun b => Wv b) (fun b => Wv' b)
    ((pdats m p c).arrAt · (cfgs p).N) hF hrest
  rw [Pipeline.unscopedBufs_held (Ix := Unit) (Name := ℕ) (U := UR sig nD τ) (Lvl := ℕ) c Wv'] at hjoin
  have hO := run_owes_out (pdats m p c) (Fin.last (cfgs p).N) ho
  iintro ⟨Harr, Howes, Hprng, Hrest⟩
  imodintro
  isplitl [Harr Hrest]
  · iapply hjoin
    isplitl [Harr]
    · iexact Harr
    iexact Hrest
  isplitl [Hprng]
  · iexact Hprng
  iapply hO; iexact Howes

/-! ## The regions as segments -/

set_option backward.isDefEq.respectTransparency.types false in
/-- LAYER 1's region over the thread state: entered from every unscoped buffer at W1, left at W2. The generator
    register goes into the class's invariant and comes back; nothing is owed; the kernel has no semaphore of its own. -/
def reg0 : Pipeline.RegionSeg (pcfgs (F := F)) adm (pdats m) () defs₀ Variants.none noLv lvl0 0 where
  win := launch0.win.to₀
  block_pos := launch0.block_pos
  stage_whole := launch0.stage_whole
  K := PEmpty
  osem k := k.elim
  ho := Pipeline.OwnSemFacts.none _
  hbody c := (body_obligation0 (fun c b => W1 m c b) c).loose
  hwaits := Pipeline.hwaits_of_owed_zero _ _ _ _ noLv lvl0 0 fun _ _ => rfl
  pre c := iprop(StableHlo.held (c : Thread nD τ) (Pipeline.ucRefs τ sig) (W1 m c) ∗ restR c)
  post c := iprop(StableHlo.held (c : Thread nD τ) (Pipeline.ucRefs τ sig) (W2 m c) ∗ restR c)
  X c := iprop(∃ r, prngReg c r)
  Y c := iprop(∃ r, prngReg c r)
  Z c := Pipeline.unscopedRest (Ix := Unit) (Name := ℕ) (U := UR sig nD τ) (Lvl := ℕ) spec0 c (fun b => W1 m c b)
  hentry c := run_entry m 0 launch0 c (W1 m c) (fun _ => rfl) (A_eq0 (fun c b => W1 m c b) c) rfl rfl
  hin c := run_ΦA_in spec0 c _
  hout c := by rw [Pipeline.ownSems0_none]; exact run_ΦA_out spec0 c
  hexit c := run_exit m 0 launch0 c (W1 m c) (W2 m c) (fun _ => rfl) (fun w => (W2_arr m c w).symm)
    (fun b hb => Pipeline.withArrays_of_ne spec0 c _ _ b fun w e => hb (Finset.mem_image.mpr ⟨w, Finset.mem_univ _, e⟩)) rfl

set_option backward.isDefEq.respectTransparency.types false in
/-- LAYER 2's region over the thread state: entered from every unscoped buffer at W3, left at W4. -/
def reg1 : Pipeline.RegionSeg (pcfgs (F := F)) adm (pdats m) () defs₀ Variants.none noLv lvl0 1 where
  win := launch1.win.to₀
  block_pos := launch1.block_pos
  stage_whole := launch1.stage_whole
  K := PEmpty
  osem k := k.elim
  ho := Pipeline.OwnSemFacts.none _
  hbody c := (body_obligation1 (fun c b => W3 m c b) c).loose
  hwaits := Pipeline.hwaits_of_owed_zero _ _ _ _ noLv lvl0 1 fun _ _ => rfl
  pre c := iprop(StableHlo.held (c : Thread nD τ) (Pipeline.ucRefs τ sig) (W3 m c) ∗ restR c)
  post c := iprop(StableHlo.held (c : Thread nD τ) (Pipeline.ucRefs τ sig) (W4 m c) ∗ restR c)
  X c := iprop(∃ r, prngReg c r)
  Y c := iprop(∃ r, prngReg c r)
  Z c := Pipeline.unscopedRest (Ix := Unit) (Name := ℕ) (U := UR sig nD τ) (Lvl := ℕ) spec1 c (fun b => W3 m c b)
  hentry c := run_entry m 1 launch1 c (W3 m c) (fun _ => rfl) (A_eq1 (fun c b => W3 m c b) c) rfl rfl
  hin c := run_ΦA_in spec1 c _
  hout c := by rw [Pipeline.ownSems0_none]; exact run_ΦA_out spec1 c
  hexit c := run_exit m 1 launch1 c (W3 m c) (W4 m c) (fun _ => rfl) (fun w => (W4_arr m c w).symm)
    (fun b hb => Pipeline.withArrays_of_ne spec1 c _ _ b fun w e => hb (Finset.mem_image.mpr ⟨w, Finset.mem_univ _, e⟩)) rfl

set_option backward.isDefEq.respectTransparency.types false in
/-- LAYER 3's region over the thread state: entered from every unscoped buffer at W5, left at W6. -/
def reg2 : Pipeline.RegionSeg (pcfgs (F := F)) adm (pdats m) () defs₀ Variants.none noLv lvl0 2 where
  win := launch2.win.to₀
  block_pos := launch2.block_pos
  stage_whole := launch2.stage_whole
  K := PEmpty
  osem k := k.elim
  ho := Pipeline.OwnSemFacts.none _
  hbody c := (body_obligation2 (fun c b => W5 m c b) c).loose
  hwaits := Pipeline.hwaits_of_owed_zero _ _ _ _ noLv lvl0 2 fun _ _ => rfl
  pre c := iprop(StableHlo.held (c : Thread nD τ) (Pipeline.ucRefs τ sig) (W5 m c) ∗ restR c)
  post c := iprop(StableHlo.held (c : Thread nD τ) (Pipeline.ucRefs τ sig) (W6 m c) ∗ restR c)
  X c := iprop(∃ r, prngReg c r)
  Y c := iprop(∃ r, prngReg c r)
  Z c := Pipeline.unscopedRest (Ix := Unit) (Name := ℕ) (U := UR sig nD τ) (Lvl := ℕ) spec2 c (fun b => W5 m c b)
  hentry c := run_entry m 2 launch2 c (W5 m c) (fun _ => rfl) (A_eq2 (fun c b => W5 m c b) c) rfl rfl
  hin c := run_ΦA_in spec2 c _
  hout c := by rw [Pipeline.ownSems0_none]; exact run_ΦA_out spec2 c
  hexit c := run_exit m 2 launch2 c (W5 m c) (W6 m c) (fun _ => rfl) (fun w => (W6_arr m c w).symm)
    (fun b hb => Pipeline.withArrays_of_ne spec2 c _ _ b fun w e => hb (Finset.mem_image.mpr ⟨w, Finset.mem_univ _, e⟩)) rfl

set_option backward.isDefEq.respectTransparency.types false in
/-- LAYER 4's region over the thread state: entered from every unscoped buffer at W7, left at W8. -/
def reg3 : Pipeline.RegionSeg (pcfgs (F := F)) adm (pdats m) () defs₀ Variants.none noLv lvl0 3 where
  win := launch3.win.to₀
  block_pos := launch3.block_pos
  stage_whole := launch3.stage_whole
  K := PEmpty
  osem k := k.elim
  ho := Pipeline.OwnSemFacts.none _
  hbody c := (body_obligation3 (fun c b => W7 m c b) c).loose
  hwaits := Pipeline.hwaits_of_owed_zero _ _ _ _ noLv lvl0 3 fun _ _ => rfl
  pre c := iprop(StableHlo.held (c : Thread nD τ) (Pipeline.ucRefs τ sig) (W7 m c) ∗ restR c)
  post c := iprop(StableHlo.held (c : Thread nD τ) (Pipeline.ucRefs τ sig) (W8 m c) ∗ restR c)
  X c := iprop(∃ r, prngReg c r)
  Y c := iprop(∃ r, prngReg c r)
  Z c := Pipeline.unscopedRest (Ix := Unit) (Name := ℕ) (U := UR sig nD τ) (Lvl := ℕ) spec3 c (fun b => W7 m c b)
  hentry c := run_entry m 3 launch3 c (W7 m c) (fun _ => rfl) (A_eq3 (fun c b => W7 m c b) c) rfl rfl
  hin c := run_ΦA_in spec3 c _
  hout c := by rw [Pipeline.ownSems0_none]; exact run_ΦA_out spec3 c
  hexit c := run_exit m 3 launch3 c (W7 m c) (W8 m c) (fun _ => rfl) (fun w => (W8_arr m c w).symm)
    (fun b hb => Pipeline.withArrays_of_ne spec3 c _ _ b fun w e => hb (Finset.mem_image.mpr ⟨w, Finset.mem_univ _, e⟩)) rfl

set_option backward.isDefEq.respectTransparency.types false in
/-- THE POOLING REGION over the thread state: entered from every unscoped buffer at W9, left at W10. Its invariant
    carries the two scratch accumulators besides; it is entered from the class's invariant before the first point and
    gives the class's invariant back after the last. -/
def reg4 : Pipeline.RegionSeg (pcfgs (F := F)) adm (pdats m) () defs₀ Variants.none noLv lvl0 4 where
  win := launch4.win.to₀
  block_pos := launch4.block_pos
  stage_whole := launch4.stage_whole
  K := PEmpty
  osem k := k.elim
  ho := Pipeline.OwnSemFacts.none _
  hbody c := (body_obligation4 (fun c b => W9 m c b) c).loose
  hwaits := Pipeline.hwaits_of_owed_zero _ _ _ _ noLv lvl0 4 fun _ _ => rfl
  pre c := iprop(StableHlo.held (c : Thread nD τ) (Pipeline.ucRefs τ sig) (W9 m c) ∗ restR c)
  post c := iprop(StableHlo.held (c : Thread nD τ) (Pipeline.ucRefs τ sig) (W10 m c) ∗ restR c)
  X c := iprop(∃ r, prngReg c r)
  Y c := iprop(∃ r, prngReg c r)
  Z c := Pipeline.unscopedRest (Ix := Unit) (Name := ℕ) (U := UR sig nD τ) (Lvl := ℕ) spec4 c (fun b => W9 m c b)
  hentry c := run_entry m 4 launch4 c (W9 m c) (fun _ => rfl) (A_eq4 (fun c b => W9 m c b) c) rfl rfl
  hin c := (run_ΦA_in spec4 c _).trans (hin4 (fun c b => W9 m c b) c)
  hout c := by rw [Pipeline.ownSems0_none]; exact (hout4 (fun c b => W9 m c b) c).trans (run_ΦA_out spec4 c)
  hexit c := run_exit m 4 launch4 c (W9 m c) (W10 m c) (fun _ => rfl) (fun w => (W10_arr m c w).symm)
    (fun b hb => Pipeline.withArrays_of_ne spec4 c _ _ b fun w e => hb (Finset.mem_image.mpr ⟨w, Finset.mem_univ _, e⟩)) rfl

/-! ## The launch -/

/-- The launch's ghost element is the pipeline library's at the program's staging cells; no core takes any other
    ghost resource. -/
theorem run_hu₀ :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  rw [BI.bigSep_emp_const]
  iempintro

/-- Out of what the launch deals a core — its semaphores at zero, its owing nothing, its generator register — the rest
    state: the register at its launch state, the core owing nothing at the empty recorded set. -/
theorem run_hE0 :
    iprop((bigSep Finset.univ fun c : Dev nD => iprop(unscopedSems0 c ∗ owes (c : Thread nD τ) (0 : CellTallies nD τ sig Unit) ∅
          ∗ Pipeline.launchCred (fun _ : Dev nD => (0 : CellTallies nD τ sig Unit)) c ∗ prngReg c (ρ c) ∗ (BI.emp : sProp 𝕄)))
        ∗ levAts noLv lvl0)
      ⊢ (|={Set.univ}=> bigSep Finset.univ (fun c : Dev nD => restR (F := F) c) : sProp 𝕄) := by
  refine Pipeline.initEach noLv lvl0 fun c => ?_
  iintro ⟨⟨-, HO, -, Hp, -⟩, -⟩
  imodintro
  isplitl [Hp]
  · iexists _; iexact Hp
  iexists ∅
  iexact HO

/-- The rest state ends owing nothing. -/
theorem run_hE5 (c : Dev nD) :
    restR (F := F) c ⊢ (iprop(∃ W, owes (c : Thread nD τ) (0 : CellTallies nD τ sig Unit) W) : sProp 𝕄) := by
  iintro ⟨-, H⟩
  iexact H

/-! ## The frame and the value run -/

set_option backward.isDefEq.respectTransparency.types false in
/-- THE FRAME: every weakly fair execution of @main from memory m with zero counters terminates and every final memory
    holds each argument array as launched — the conditional frame at the five records, each entered from and left at the
    valuation the conditional frame names (the equations above). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  GenP.frame_cond m emb₁ () Variants.none noLv lvl0 (fun _ _ => rfl) ρ (outs m) (pdats m)
    (fun _ => 0) (fun _ => iprop(emp)) (initOf (Pipeline.cells cfgs cellOf_inj) (Pipeline.launchToks cfgs cellOf_inj)) run_hu₀
    (fun _ c => restR c) (run_hE0 ρ) (fun c => run_hE5 c)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)

/-- An unscoped reference of the TensorCore is among the buffers the thread state holds. -/
theorem run_mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- THE VALUE RUN: the same executions end with every unscoped buffer at the last valuation (the conditional run at the
    five records); the result array is read there, where the last valuation is the pooling region's exit, and each
    argument walks back through the valuations to the launch memory. -/
theorem run_value : θ_run defs (onTc (τ := τ) (main (F := F))) ⟨m, fun _ => 0, ρ⟩ (fun r => ∀ c : Dev nD,
      r.2.mem ((c.tc : Thread nD τ).loc main_v54) = W10 m c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs (onTc (τ := τ) (main (F := F))) ⟨m, fun _ => 0, ρ⟩).mono
    (Q := fun r => ∀ c : Dev nD, ∀ b ∈ Pipeline.ucRefs τ sig, r.2.mem ((c.tc : Thread nD τ).1, b) = GenP.V10 m (outs m) c b)
    (fun r h c => ⟨(h c _ (run_mem_uc main_v54 (by decide))).trans (congrFun (V10_eq m c) _),
      (h c _ (run_mem_uc main_arg0 (by decide))).trans (GenP.V10_main_arg0 m (outs m) c),
      (h c _ (run_mem_uc main_arg1 (by decide))).trans (GenP.V10_main_arg1 m (outs m) c),
      (h c _ (run_mem_uc main_arg2 (by decide))).trans (GenP.V10_main_arg2 m (outs m) c),
      (h c _ (run_mem_uc main_arg3 (by decide))).trans (GenP.V10_main_arg3 m (outs m) c),
      (h c _ (run_mem_uc main_arg4 (by decide))).trans (GenP.V10_main_arg4 m (outs m) c),
      (h c _ (run_mem_uc main_arg5 (by decide))).trans (GenP.V10_main_arg5 m (outs m) c),
      (h c _ (run_mem_uc main_arg6 (by decide))).trans (GenP.V10_main_arg6 m (outs m) c),
      (h c _ (run_mem_uc main_arg7 (by decide))).trans (GenP.V10_main_arg7 m (outs m) c),
      (h c _ (run_mem_uc main_arg8 (by decide))).trans (GenP.V10_main_arg8 m (outs m) c),
      (h c _ (run_mem_uc main_arg9 (by decide))).trans (GenP.V10_main_arg9 m (outs m) c),
      (h c _ (run_mem_uc main_arg10 (by decide))).trans (GenP.V10_main_arg10 m (outs m) c),
      (h c _ (run_mem_uc main_arg11 (by decide))).trans (GenP.V10_main_arg11 m (outs m) c),
      (h c _ (run_mem_uc main_arg12 (by decide))).trans (GenP.V10_main_arg12 m (outs m) c),
      (h c _ (run_mem_uc main_arg13 (by decide))).trans (GenP.V10_main_arg13 m (outs m) c),
      (h c _ (run_mem_uc main_arg14 (by decide))).trans (GenP.V10_main_arg14 m (outs m) c),
      (h c _ (run_mem_uc main_arg15 (by decide))).trans (GenP.V10_main_arg15 m (outs m) c),
      (h c _ (run_mem_uc main_arg16 (by decide))).trans (GenP.V10_main_arg16 m (outs m) c)⟩)
    (run_cond m emb₁ () Variants.none noLv lvl0 (fun _ _ => rfl) ρ (outs m) (pdats m)
      (fun _ => 0) (fun _ => iprop(emp)) (initOf (Pipeline.cells cfgs cellOf_inj) (Pipeline.launchToks cfgs cellOf_inj)) run_hu₀
      (fun _ c => restR c) (run_hE0 ρ) (fun c => run_hE5 c)
      (reg0 m) (fun c => .rfl) (fun c => by rw [V2_eq]; exact .rfl)
      (reg1 m) (fun c => by rw [V3_eq]; exact .rfl) (fun c => by rw [V4_eq]; exact .rfl)
      (reg2 m) (fun c => by rw [V5_eq]; exact .rfl) (fun c => by rw [V6_eq]; exact .rfl)
      (reg3 m) (fun c => by rw [V7_eq]; exact .rfl) (fun c => by rw [V8_eq]; exact .rfl)
      (reg4 m) (fun c => by rw [V9_eq]; exact .rfl) (fun c => by rw [V10_eq]; exact .rfl))

end Cert.Kernel.H

end
-- ==== Proof.KernelIdeal.Region0.lean ====
import proofs.«420548_j8821862826461_1_alg».proof.Proof.KernelIdeal.Launch
import proofs.«420548_j8821862826461_1_alg».proof.Proof.Gen.KernelIdeal.Skeleton
import proofs.«420548_j8821862826461_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Layer 1 of the network as one pipelined region: rows block times two weight matrices, plus a bias row, clamped at zero

Everything here is stated at a parameter `V`: what each buffer of the core holds when the region is entered. -/

section Layer
variable (V : (c : Dev nD) → (b : Ref sig .tc) → Buf (Elt F) ((c : Thread nD τ).loc b))

/-- The block of window `w` that belongs to grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body touches: each staging buffer whole -/

/-- A rows block (aggregated or node features), whole. -/
abbrev rowsAll0 : Rect S5000x32 := Rect.unit (s := S5000x32) ![0, 0] S5000x32.size inb_S5000x32_S5000x32_0_0
/-- A weight matrix, whole. -/
abbrev weightAll0 : Rect S32x128 := Rect.unit (s := S32x128) ![0, 0] S32x128.size inb_S32x128_S32x128_0_0
/-- The bias row, whole. -/
abbrev biasAll0 : Rect S1x128 := Rect.unit (s := S1x128) ![0, 0] S1x128.size inb_S1x128_S1x128_0_0
/-- The output block, whole. -/
abbrev resultAll0 : Rect S5000x128 := Rect.unit (s := S5000x128) ![0, 0] S5000x128.size inb_S5000x128_S5000x128_0_0

/-- What the output window's staging buffer holds after the body, as a function of the five input buffers: the body
    stores once, over the whole buffer, the layer's value on the five loaded operands. -/
def out0_5 (x0 x1 : Vec F S5000x32 .f32) (x2 x3 : Vec F S32x128 .f32) (x4 : Vec F S1x128 .f32) : Vec F S5000x128 .f32 :=
  View.canon [⟨resultAll0, k0_pay1 (View.ld x0 rowsAll0) (View.ld x1 rowsAll0) (View.ld x2 weightAll0) (View.ld x3 weightAll0) (View.ld x4 biasAll0)⟩]

/-- The region's proof data on core `c`: arrays as found; after the body at `t` every input buffer still holds its
    block and the output buffer holds the layer's value on those blocks; the invariant is the untouched rest of
    the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-! ## What the body finds in each input window's buffer

An input window's buffer holds the window's block at every point, fetched there or not: where the pipeline does
not fetch, the block index has not moved since the point before, and the body leaves every input buffer as found.
All five input windows are uncut and never idle; the three whole-array windows (both weights, the bias) have a
constant block index and are fetched at the first point only. -/

theorem held0_0 (c : Dev nD) (t : Fin cfg0.N) (d) : (dat0 V c).before 0 t d = iblk0 V c 0 t := by
  rw [(dat0 V c).before_in_eq_fetched 0 rfl (fun _ => rfl) (fun _ _ _ => rfl) (fun _ => rfl) t d]
  rfl
theorem held0_1 (c : Dev nD) (t : Fin cfg0.N) (d) : (dat0 V c).before 1 t d = iblk0 V c 1 t := by
  rw [(dat0 V c).before_in_eq_fetched 1 rfl (fun _ => rfl) (fun _ _ _ => rfl) (fun _ => rfl) t d]
  rfl
theorem held0_2 (c : Dev nD) (t : Fin cfg0.N) (d) : (dat0 V c).before 2 t d = iblk0 V c 2 t := by
  rw [(dat0 V c).before_in_eq_fetched 2 rfl (fun _ => rfl) (fun _ _ _ => rfl) (fun _ => rfl) t d]
  rfl
theorem held0_3 (c : Dev nD) (t : Fin cfg0.N) (d) : (dat0 V c).before 3 t d = iblk0 V c 3 t := by
  rw [(dat0 V c).before_in_eq_fetched 3 rfl (fun _ => rfl) (fun _ _ _ => rfl) (fun _ => rfl) t d]
  rfl
theorem held0_4 (c : Dev nD) (t : Fin cfg0.N) (d) : (dat0 V c).before 4 t d = iblk0 V c 4 t := by
  rw [(dat0 V c).before_in_eq_fetched 4 rfl (fun _ => rfl) (fun _ _ _ => rfl) (fun _ => rfl) t d]
  rfl

/-! ## The body's one store fills the output buffer -/

/-- The output block's whole rectangle holds every index of the buffer, whatever is stored through it. -/
theorem covered0_5 (p : Vec F S5000x128 .f32) (y : S5000x128.Idx) :
    ∃ pc ∈ ([⟨resultAll0, p⟩] : List (View.Piece (Elt F) S5000x128 .f32)), y ∈ pc.1.set :=
  View.cover_of_tiled [⟨resultAll0, p⟩] S5000x128.size (by rfl) y

/-! ## The kernel function on whole buffers -/

set_option maxHeartbeats 1000000 in
/-- Called at any grid coordinate on six whole buffers — the five inputs at contents `x0 … x4`, the output at anything —
    the kernel function returns every input buffer as it was and the output buffer at `out0_5 x0 x1 x2 x3 x4`:
    five whole-buffer loads, a load of the output buffer whose value nothing reads, and one whole-buffer store of the
    layer's value on the five loaded operands, which covers the buffer. -/
theorem kernel_runs0 (c : Dev nD) (E : Set ℕ) (i : grid0.Coords)
    (a1 : Memref sig .tc .vmem S5000x32 .f32) (h1 : a1.IsWhole) (a2 : Memref sig .tc .vmem S5000x32 .f32) (h2 : a2.IsWhole)
    (a3 : Memref sig .tc .vmem S32x128 .f32) (h3 : a3.IsWhole) (a4 : Memref sig .tc .vmem S32x128 .f32) (h4 : a4.IsWhole)
    (a5 : Memref sig .tc .vmem S1x128 .f32) (h5 : a5.IsWhole) (a6 : Memref sig .tc .vmem S5000x128 .f32) (h6 : a6.IsWhole)
    (x0 x1 : Vec F S5000x32 .f32) (x2 x3 : Vec F S32x128 .f32) (x4 : Vec F S1x128 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ (∃ d, owns (c : Thread nD τ) a6 fullShare d)
        ∗ (iprop(owns (c : Thread nD τ) a1 fullShare x0 ∗ owns (c : Thread nD τ) a2 fullShare x1
              ∗ owns (c : Thread nD τ) a3 fullShare x2 ∗ owns (c : Thread nD τ) a4 fullShare x3
              ∗ owns (c : Thread nD τ) a5 fullShare x4
              ∗ owns (c : Thread nD τ) a6 fullShare (out0_5 x0 x1 x2 x3 x4)) -∗ K ⟨⟩))
      ⊢ wp frame (wpE (defs₀ (F := F)) Variants.none c none) E (cc0_kernel i a1 h1 a2 h2 a3 h3 a4 h4 a5 h5 a6 h6) K := by
  simp only [cc0_kernel_eq_skeleton]; unfold cc0_kernel_skel
  unfold owns
  iintro ⟨⟨%f1, %e1, B1⟩, ⟨%f2, %e2, B2⟩, ⟨%f3, %e3, B3⟩, ⟨%f4, %e4, B4⟩, ⟨%f5, %e5, B5⟩, ⟨%d6, %f6, -, B6⟩, Back⟩
  subst e1 e2 e3 e4 e5
  sl_exec
  sl_step
  iapply Back
  -- the five input buffers were only read: each comes back at the contents it came with
  isplitl [B1]
  · iexists f1; isplitr
    · ipureintro; rfl
    · iexact B1
  isplitl [B2]
  · iexists f2; isplitr
    · ipureintro; rfl
    · iexact B2
  isplitl [B3]
  · iexists f3; isplitr
    · ipureintro; rfl
    · iexact B3
  isplitl [B4]
  · iexists f4; isplitr
    · ipureintro; rfl
    · iexact B4
  isplitl [B5]
  · iexists f5; isplitr
    · ipureintro; rfl
    · iexact B5
  -- the output buffer after its one store: a load of a whole buffer is the buffer read through its whole rectangle,
  -- and a covering store reads back as the canon of its one piece
  iexists a6.view.writes (Elt F) f6
    [⟨resultAll0, k0_pay1 (View.ld (a1.view.read (Elt F) f1) rowsAll0) (View.ld (a2.view.read (Elt F) f2) rowsAll0)
      (View.ld (a3.view.read (Elt F) f3) weightAll0) (View.ld (a4.view.read (Elt F) f4) weightAll0)
      (View.ld (a5.view.read (Elt F) f5) biasAll0)⟩]
  isplitr
  · ipureintro
    exact View.read_writes_eq_canon _ _ _ (covered0_5 _)
  · iexact B6

/-! ## The body at a grid point -/

/-- The after-the-body contents of each input window: its block (the proof data's table read at the window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- The invariant and the dues do not depend on the point: the body neither touches the rest of the core nor owes anyone. -/
theorem inv_const0 (c : Dev nD) (k k' : Fin (cfg0.N + 1)) : (dat0 V c).Φ k = (dat0 V c).Φ k' := rfl
theorem dues_const0 (c : Dev nD) (k k' : Fin (cfg0.N + 1)) : (dat0 V c).owesAt () k = (dat0 V c).owesAt () k' := rfl

/-- What the pipeline hands the body at point `t`: the invariant, the core's dues, and the current staging buffer of
    each of the six windows at what the schedule has left in it. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body hands back: the same, each buffer at the proof data's after-the-body contents. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: every input buffer holds its window's block there, so the kernel function's triple applies
    at those five blocks; the invariant and the dues pass by untouched. -/
theorem body_runs0 (c : Dev nD) (t : Fin cfg0.N) :
    handed0 V c t ⊢ wp frame (wpE (defs₀ (F := F)) Variants.none c none) Set.univ (bodyAt0 t) (fun _ => returned0 V c t) := by
  unfold handed0 returned0 bodyAt0
  simp only [held0_0, held0_1, held0_2, held0_3, held0_4]
  rw [inv_const0 V c t.succ t.castSucc, dues_const0 V c t.succ t.castSucc,
    after0_0, after0_1, after0_2, after0_3, after0_4, after0_5]
  iintro ⟨Inv, Dues, ⟨%d0, W0⟩, ⟨%d1, W1⟩, ⟨%d2, W2⟩, ⟨%d3, W3⟩, ⟨%d4, W4⟩, ⟨%d5, W5⟩⟩
  iapply (kernel_runs0 c Set.univ _ _ _ _ _ _ _ _ _ _ _ _ _
    (iblk0 V c 0 t) (iblk0 V c 1 t) (iblk0 V c 2 t) (iblk0 V c 3 t) (iblk0 V c 4 t) _)
  isplitl [W0]; · iexact W0
  isplitl [W1]; · iexact W1
  isplitl [W2]; · iexact W2
  isplitl [W3]; · iexact W3
  isplitl [W4]; · iexact W4
  isplitl [W5]; · iexists _; iexact W5
  iintro ⟨R0, R1, R2, R3, R4, R5⟩
  isplitl [Inv]; · iexact Inv
  isplitl [Dues]; · iexact Dues
  isplitl [R0]; · iexact R0
  isplitl [R1]; · iexact R1
  isplitl [R2]; · iexact R2
  isplitl [R3]; · iexact R3
  isplitl [R4]; · iexact R4
  iexact R5

/-- The region's body obligation: the library's statement over all windows at once is, window by window, the statement above. -/
theorem body_obligation0 (c : Dev nD) : BodyObligation (dat0 (F := F) V c) (defs₀ (F := F)) Variants.none () Set.univ := fun t => by
  rw [bigSep_W0, bigSep_W0]
  exact body_runs0 V c t

end Layer
end Cert.KernelIdeal.H
-- ==== Proof.KernelIdeal.Region1.lean ====
import proofs.«420548_j8821862826461_1_alg».proof.Proof.KernelIdeal.Launch
import proofs.«420548_j8821862826461_1_alg».proof.Proof.Gen.KernelIdeal.Skeleton
import proofs.«420548_j8821862826461_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Layer 2 of the network as one pipelined region: rows block times two weight matrices, plus a bias row, clamped at zero

Everything here is stated at a parameter `V`: what each buffer of the core holds when the region is entered. -/

section Layer
variable (V : (c : Dev nD) → (b : Ref sig .tc) → Buf (Elt F) ((c : Thread nD τ).loc b))

/-- The block of window `w` that belongs to grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body touches: each staging buffer whole -/

/-- A rows block (aggregated or node features), whole. -/
abbrev rowsAll1 : Rect S5000x128 := Rect.unit (s := S5000x128) ![0, 0] S5000x128.size inb_S5000x128_S5000x128_0_0
/-- A weight matrix, whole. -/
abbrev weightAll1 : Rect S128x64 := Rect.unit (s := S128x64) ![0, 0] S128x64.size inb_S128x64_S128x64_0_0
/-- The bias row, whole. -/
abbrev biasAll1 : Rect S1x64 := Rect.unit (s := S1x64) ![0, 0] S1x64.size inb_S1x64_S1x64_0_0
/-- The output block, whole. -/
abbrev resultAll1 : Rect S5000x64 := Rect.unit (s := S5000x64) ![0, 0] S5000x64.size inb_S5000x64_S5000x64_0_0

/-- What the output window's staging buffer holds after the body, as a function of the five input buffers: the body
    stores once, over the whole buffer, the layer's value on the five loaded operands. -/
def out1_5 (x0 x1 : Vec F S5000x128 .f32) (x2 x3 : Vec F S128x64 .f32) (x4 : Vec F S1x64 .f32) : Vec F S5000x64 .f32 :=
  View.canon [⟨resultAll1, k1_pay1 (View.ld x0 rowsAll1) (View.ld x1 rowsAll1) (View.ld x2 weightAll1) (View.ld x3 weightAll1) (View.ld x4 biasAll1)⟩]

/-- The region's proof data on core `c`: arrays as found; after the body at `t` every input buffer still holds its
    block and the output buffer holds the layer's value on those blocks; the invariant is the untouched rest of
    the core; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## What the body finds in each input window's buffer

An input window's buffer holds the window's block at every point, fetched there or not: where the pipeline does
not fetch, the block index has not moved since the point before, and the body leaves every input buffer as found.
All five input windows are uncut and never idle; the three whole-array windows (both weights, the bias) have a
constant block index and are fetched at the first point only. -/

theorem held1_0 (c : Dev nD) (t : Fin cfg1.N) (d) : (dat1 V c).before 0 t d = iblk1 V c 0 t := by
  rw [(dat1 V c).before_in_eq_fetched 0 rfl (fun _ => rfl) (fun _ _ _ => rfl) (fun _ => rfl) t d]
  rfl
theorem held1_1 (c : Dev nD) (t : Fin cfg1.N) (d) : (dat1 V c).before 1 t d = iblk1 V c 1 t := by
  rw [(dat1 V c).before_in_eq_fetched 1 rfl (fun _ => rfl) (fun _ _ _ => rfl) (fun _ => rfl) t d]
  rfl
theorem held1_2 (c : Dev nD) (t : Fin cfg1.N) (d) : (dat1 V c).before 2 t d = iblk1 V c 2 t := by
  rw [(dat1 V c).before_in_eq_fetched 2 rfl (fun _ => rfl) (fun _ _ _ => rfl) (fun _ => rfl) t d]
  rfl
theorem held1_3 (c : Dev nD) (t : Fin cfg1.N) (d) : (dat1 V c).before 3 t d = iblk1 V c 3 t := by
  rw [(dat1 V c).before_in_eq_fetched 3 rfl (fun _ => rfl) (fun _ _ _ => rfl) (fun _ => rfl) t d]
  rfl
theorem held1_4 (c : Dev nD) (t : Fin cfg1.N) (d) : (dat1 V c).before 4 t d = iblk1 V c 4 t := by
  rw [(dat1 V c).before_in_eq_fetched 4 rfl (fun _ => rfl) (fun _ _ _ => rfl) (fun _ => rfl) t d]
  rfl

/-! ## The body's one store fills the output buffer -/

/-- The output block's whole rectangle holds every index of the buffer, whatever is stored through it. -/
theorem covered1_5 (p : Vec F S5000x64 .f32) (y : S5000x64.Idx) :
    ∃ pc ∈ ([⟨resultAll1, p⟩] : List (View.Piece (Elt F) S5000x64 .f32)), y ∈ pc.1.set :=
  View.cover_of_tiled [⟨resultAll1, p⟩] S5000x64.size (by rfl) y

/-! ## The kernel function on whole buffers -/

set_option maxHeartbeats 1000000 in
/-- Called at any grid coordinate on six whole buffers — the five inputs at contents `x0 … x4`, the output at anything —
    the kernel function returns every input buffer as it was and the output buffer at `out1_5 x0 x1 x2 x3 x4`:
    five whole-buffer loads, a load of the output buffer whose value nothing reads, and one whole-buffer store of the
    layer's value on the five loaded operands, which covers the buffer. -/
theorem kernel_runs1 (c : Dev nD) (E : Set ℕ) (i : grid1.Coords)
    (a1 : Memref sig .tc .vmem S5000x128 .f32) (h1 : a1.IsWhole) (a2 : Memref sig .tc .vmem S5000x128 .f32) (h2 : a2.IsWhole)
    (a3 : Memref sig .tc .vmem S128x64 .f32) (h3 : a3.IsWhole) (a4 : Memref sig .tc .vmem S128x64 .f32) (h4 : a4.IsWhole)
    (a5 : Memref sig .tc .vmem S1x64 .f32) (h5 : a5.IsWhole) (a6 : Memref sig .tc .vmem S5000x64 .f32) (h6 : a6.IsWhole)
    (x0 x1 : Vec F S5000x128 .f32) (x2 x3 : Vec F S128x64 .f32) (x4 : Vec F S1x64 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ (∃ d, owns (c : Thread nD τ) a6 fullShare d)
        ∗ (iprop(owns (c : Thread nD τ) a1 fullShare x0 ∗ owns (c : Thread nD τ) a2 fullShare x1
              ∗ owns (c : Thread nD τ) a3 fullShare x2 ∗ owns (c : Thread nD τ) a4 fullShare x3
              ∗ owns (c : Thread nD τ) a5 fullShare x4
              ∗ owns (c : Thread nD τ) a6 fullShare (out1_5 x0 x1 x2 x3 x4)) -∗ K ⟨⟩))
      ⊢ wp frame (wpE (defs₀ (F := F)) Variants.none c none) E (cc1_kernel i a1 h1 a2 h2 a3 h3 a4 h4 a5 h5 a6 h6) K := by
  simp only [cc1_kernel_eq_skeleton]; unfold cc1_kernel_skel
  unfold owns
  iintro ⟨⟨%f1, %e1, B1⟩, ⟨%f2, %e2, B2⟩, ⟨%f3, %e3, B3⟩, ⟨%f4, %e4, B4⟩, ⟨%f5, %e5, B5⟩, ⟨%d6, %f6, -, B6⟩, Back⟩
  subst e1 e2 e3 e4 e5
  sl_exec
  sl_step
  iapply Back
  -- the five input buffers were only read: each comes back at the contents it came with
  isplitl [B1]
  · iexists f1; isplitr
    · ipureintro; rfl
    · iexact B1
  isplitl [B2]
  · iexists f2; isplitr
    · ipureintro; rfl
    · iexact B2
  isplitl [B3]
  · iexists f3; isplitr
    · ipureintro; rfl
    · iexact B3
  isplitl [B4]
  · iexists f4; isplitr
    · ipureintro; rfl
    · iexact B4
  isplitl [B5]
  · iexists f5; isplitr
    · ipureintro; rfl
    · iexact B5
  -- the output buffer after its one store: a load of a whole buffer is the buffer read through its whole rectangle,
  -- and a covering store reads back as the canon of its one piece
  iexists a6.view.writes (Elt F) f6
    [⟨resultAll1, k1_pay1 (View.ld (a1.view.read (Elt F) f1) rowsAll1) (View.ld (a2.view.read (Elt F) f2) rowsAll1)
      (View.ld (a3.view.read (Elt F) f3) weightAll1) (View.ld (a4.view.read (Elt F) f4) weightAll1)
      (View.ld (a5.view.read (Elt F) f5) biasAll1)⟩]
  isplitr
  · ipureintro
    exact View.read_writes_eq_canon _ _ _ (covered1_5 _)
  · iexact B6

/-! ## The body at a grid point -/

/-- The after-the-body contents of each input window: its block (the proof data's table read at the window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- The invariant and the dues do not depend on the point: the body neither touches the rest of the core nor owes anyone. -/
theorem inv_const1 (c : Dev nD) (k k' : Fin (cfg1.N + 1)) : (dat1 V c).Φ k = (dat1 V c).Φ k' := rfl
theorem dues_const1 (c : Dev nD) (k k' : Fin (cfg1.N + 1)) : (dat1 V c).owesAt () k = (dat1 V c).owesAt () k' := rfl

/-- What the pipeline hands the body at point `t`: the invariant, the core's dues, and the current staging buffer of
    each of the six windows at what the schedule has left in it. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body hands back: the same, each buffer at the proof data's after-the-body contents. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: every input buffer holds its window's block there, so the kernel function's triple applies
    at those five blocks; the invariant and the dues pass by untouched. -/
theorem body_runs1 (c : Dev nD) (t : Fin cfg1.N) :
    handed1 V c t ⊢ wp frame (wpE (defs₀ (F := F)) Variants.none c none) Set.univ (bodyAt1 t) (fun _ => returned1 V c t) := by
  unfold handed1 returned1 bodyAt1
  simp only [held1_0, held1_1, held1_2, held1_3, held1_4]
  rw [inv_const1 V c t.succ t.castSucc, dues_const1 V c t.succ t.castSucc,
    after1_0, after1_1, after1_2, after1_3, after1_4, after1_5]
  iintro ⟨Inv, Dues, ⟨%d0, W0⟩, ⟨%d1, W1⟩, ⟨%d2, W2⟩, ⟨%d3, W3⟩, ⟨%d4, W4⟩, ⟨%d5, W5⟩⟩
  iapply (kernel_runs1 c Set.univ _ _ _ _ _ _ _ _ _ _ _ _ _
    (iblk1 V c 0 t) (iblk1 V c 1 t) (iblk1 V c 2 t) (iblk1 V c 3 t) (iblk1 V c 4 t) _)
  isplitl [W0]; · iexact W0
  isplitl [W1]; · iexact W1
  isplitl [W2]; · iexact W2
  isplitl [W3]; · iexact W3
  isplitl [W4]; · iexact W4
  isplitl [W5]; · iexists _; iexact W5
  iintro ⟨R0, R1, R2, R3, R4, R5⟩
  isplitl [Inv]; · iexact Inv
  isplitl [Dues]; · iexact Dues
  isplitl [R0]; · iexact R0
  isplitl [R1]; · iexact R1
  isplitl [R2]; · iexact R2
  isplitl [R3]; · iexact R3
  isplitl [R4]; · iexact R4
  iexact R5

/-- The region's body obligation: the library's statement over all windows at once is, window by window, the statement above. -/
theorem body_obligation1 (c : Dev nD) : BodyObligation (dat1 (F := F) V c) (defs₀ (F := F)) Variants.none () Set.univ := fun t => by
  rw [bigSep_W1, bigSep_W1]
  exact body_runs1 V c t

end Layer
end Cert.KernelIdeal.H
-- ==== Proof.KernelIdeal.Region2.lean ====
import proofs.«420548_j8821862826461_1_alg».proof.Proof.KernelIdeal.Launch
import proofs.«420548_j8821862826461_1_alg».proof.Proof.Gen.KernelIdeal.Skeleton
import proofs.«420548_j8821862826461_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Layer 3 of the network as one pipelined region: rows block times two weight matrices, plus a bias row, clamped at zero

Everything here is stated at a parameter `V`: what each buffer of the core holds when the region is entered. -/

section Layer
variable (V : (c : Dev nD) → (b : Ref sig .tc) → Buf (Elt F) ((c : Thread nD τ).loc b))

/-- The block of window `w` that belongs to grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles the body touches: each staging buffer whole -/

/-- A rows block (aggregated or node features), whole. -/
abbrev rowsAll2 : Rect S5000x64 := Rect.unit (s := S5000x64) ![0, 0] S5000x64.size inb_S5000x64_S5000x64_0_0
/-- A weight matrix, whole. -/
abbrev weightAll2 : Rect S64x32 := Rect.unit (s := S64x32) ![0, 0] S64x32.size inb_S64x32_S64x32_0_0
/-- The bias row, whole. -/
abbrev biasAll2 : Rect S1x32 := Rect.unit (s := S1x32) ![0, 0] S1x32.size inb_S1x32_S1x32_0_0
/-- The output block, whole. -/
abbrev resultAll2 : Rect S5000x32 := Rect.unit (s := S5000x32) ![0, 0] S5000x32.size inb_S5000x32_S5000x32_0_0

/-- What the output window's staging buffer holds after the body, as a function of the five input buffers: the body
    stores once, over the whole buffer, the layer's value on the five loaded operands. -/
def out2_5 (x0 x1 : Vec F S5000x64 .f32) (x2 x3 : Vec F S64x32 .f32) (x4 : Vec F S1x32 .f32) : Vec F S5000x32 .f32 :=
  View.canon [⟨resultAll2, k2_pay1 (View.ld x0 rowsAll2) (View.ld x1 rowsAll2) (View.ld x2 weightAll2) (View.ld x3 weightAll2) (View.ld x4 biasAll2)⟩]

/-- The region's proof data on core `c`: arrays as found; after the body at `t` every input buffer still holds its
    block and the output buffer holds the layer's value on those blocks; the invariant is the untouched rest of
    the core; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-! ## What the body finds in each input window's buffer

An input window's buffer holds the window's block at every point, fetched there or not: where the pipeline does
not fetch, the block index has not moved since the point before, and the body leaves every input buffer as found.
All five input windows are uncut and never idle; the three whole-array windows (both weights, the bias) have a
constant block index and are fetched at the first point only. -/

theorem held2_0 (c : Dev nD) (t : Fin cfg2.N) (d) : (dat2 V c).before 0 t d = iblk2 V c 0 t := by
  rw [(dat2 V c).before_in_eq_fetched 0 rfl (fun _ => rfl) (fun _ _ _ => rfl) (fun _ => rfl) t d]
  rfl
theorem held2_1 (c : Dev nD) (t : Fin cfg2.N) (d) : (dat2 V c).before 1 t d = iblk2 V c 1 t := by
  rw [(dat2 V c).before_in_eq_fetched 1 rfl (fun _ => rfl) (fun _ _ _ => rfl) (fun _ => rfl) t d]
  rfl
theorem held2_2 (c : Dev nD) (t : Fin cfg2.N) (d) : (dat2 V c).before 2 t d = iblk2 V c 2 t := by
  rw [(dat2 V c).before_in_eq_fetched 2 rfl (fun _ => rfl) (fun _ _ _ => rfl) (fun _ => rfl) t d]
  rfl
theorem held2_3 (c : Dev nD) (t : Fin cfg2.N) (d) : (dat2 V c).before 3 t d = iblk2 V c 3 t := by
  rw [(dat2 V c).before_in_eq_fetched 3 rfl (fun _ => rfl) (fun _ _ _ => rfl) (fun _ => rfl) t d]
  rfl
theorem held2_4 (c : Dev nD) (t : Fin cfg2.N) (d) : (dat2 V c).before 4 t d = iblk2 V c 4 t := by
  rw [(dat2 V c).before_in_eq_fetched 4 rfl (fun _ => rfl) (fun _ _ _ => rfl) (fun _ => rfl) t d]
  rfl

/-! ## The body's one store fills the output buffer -/

/-- The output block's whole rectangle holds every index of the buffer, whatever is stored through it. -/
theorem covered2_5 (p : Vec F S5000x32 .f32) (y : S5000x32.Idx) :
    ∃ pc ∈ ([⟨resultAll2, p⟩] : List (View.Piece (Elt F) S5000x32 .f32)), y ∈ pc.1.set :=
  View.cover_of_tiled [⟨resultAll2, p⟩] S5000x32.size (by rfl) y

/-! ## The kernel function on whole buffers -/

set_option maxHeartbeats 1000000 in
/-- Called at any grid coordinate on six whole buffers — the five inputs at contents `x0 … x4`, the output at anything —
    the kernel function returns every input buffer as it was and the output buffer at `out2_5 x0 x1 x2 x3 x4`:
    five whole-buffer loads, a load of the output buffer whose value nothing reads, and one whole-buffer store of the
    layer's value on the five loaded operands, which covers the buffer. -/
theorem kernel_runs2 (c : Dev nD) (E : Set ℕ) (i : grid2.Coords)
    (a1 : Memref sig .tc .vmem S5000x64 .f32) (h1 : a1.IsWhole) (a2 : Memref sig .tc .vmem S5000x64 .f32) (h2 : a2.IsWhole)
    (a3 : Memref sig .tc .vmem S64x32 .f32) (h3 : a3.IsWhole) (a4 : Memref sig .tc .vmem S64x32 .f32) (h4 : a4.IsWhole)
    (a5 : Memref sig .tc .vmem S1x32 .f32) (h5 : a5.IsWhole) (a6 : Memref sig .tc .vmem S5000x32 .f32) (h6 : a6.IsWhole)
    (x0 x1 : Vec F S5000x64 .f32) (x2 x3 : Vec F S64x32 .f32) (x4 : Vec F S1x32 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ (∃ d, owns (c : Thread nD τ) a6 fullShare d)
        ∗ (iprop(owns (c : Thread nD τ) a1 fullShare x0 ∗ owns (c : Thread nD τ) a2 fullShare x1
              ∗ owns (c : Thread nD τ) a3 fullShare x2 ∗ owns (c : Thread nD τ) a4 fullShare x3
              ∗ owns (c : Thread nD τ) a5 fullShare x4
              ∗ owns (c : Thread nD τ) a6 fullShare (out2_5 x0 x1 x2 x3 x4)) -∗ K ⟨⟩))
      ⊢ wp frame (wpE (defs₀ (F := F)) Variants.none c none) E (cc2_kernel i a1 h1 a2 h2 a3 h3 a4 h4 a5 h5 a6 h6) K := by
  simp only [cc2_kernel_eq_skeleton]; unfold cc2_kernel_skel
  unfold owns
  iintro ⟨⟨%f1, %e1, B1⟩, ⟨%f2, %e2, B2⟩, ⟨%f3, %e3, B3⟩, ⟨%f4, %e4, B4⟩, ⟨%f5, %e5, B5⟩, ⟨%d6, %f6, -, B6⟩, Back⟩
  subst e1 e2 e3 e4 e5
  sl_exec
  sl_step
  iapply Back
  -- the five input buffers were only read: each comes back at the contents it came with
  isplitl [B1]
  · iexists f1; isplitr
    · ipureintro; rfl
    · iexact B1
  isplitl [B2]
  · iexists f2; isplitr
    · ipureintro; rfl
    · iexact B2
  isplitl [B3]
  · iexists f3; isplitr
    · ipureintro; rfl
    · iexact B3
  isplitl [B4]
  · iexists f4; isplitr
    · ipureintro; rfl
    · iexact B4
  isplitl [B5]
  · iexists f5; isplitr
    · ipureintro; rfl
    · iexact B5
  -- the output buffer after its one store: a load of a whole buffer is the buffer read through its whole rectangle,
  -- and a covering store reads back as the canon of its one piece
  iexists a6.view.writes (Elt F) f6
    [⟨resultAll2, k2_pay1 (View.ld (a1.view.read (Elt F) f1) rowsAll2) (View.ld (a2.view.read (Elt F) f2) rowsAll2)
      (View.ld (a3.view.read (Elt F) f3) weightAll2) (View.ld (a4.view.read (Elt F) f4) weightAll2)
      (View.ld (a5.view.read (Elt F) f5) biasAll2)⟩]
  isplitr
  · ipureintro
    exact View.read_writes_eq_canon _ _ _ (covered2_5 _)
  · iexact B6

/-! ## The body at a grid point -/

/-- The after-the-body contents of each input window: its block (the proof data's table read at the window). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

/-- The invariant and the dues do not depend on the point: the body neither touches the rest of the core nor owes anyone. -/
theorem inv_const2 (c : Dev nD) (k k' : Fin (cfg2.N + 1)) : (dat2 V c).Φ k = (dat2 V c).Φ k' := rfl
theorem dues_const2 (c : Dev nD) (k k' : Fin (cfg2.N + 1)) : (dat2 V c).owesAt () k = (dat2 V c).owesAt () k' := rfl

/-- What the pipeline hands the body at point `t`: the invariant, the core's dues, and the current staging buffer of
    each of the six windows at what the schedule has left in it. -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body hands back: the same, each buffer at the proof data's after-the-body contents. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: every input buffer holds its window's block there, so the kernel function's triple applies
    at those five blocks; the invariant and the dues pass by untouched. -/
theorem body_runs2 (c : Dev nD) (t : Fin cfg2.N) :
    handed2 V c t ⊢ wp frame (wpE (defs₀ (F := F)) Variants.none c none) Set.univ (bodyAt2 t) (fun _ => returned2 V c t) := by
  unfold handed2 returned2 bodyAt2
  simp only [held2_0, held2_1, held2_2, held2_3, held2_4]
  rw [inv_const2 V c t.succ t.castSucc, dues_const2 V c t.succ t.castSucc,
    after2_0, after2_1, after2_2, after2_3, after2_4, after2_5]
  iintro ⟨Inv, Dues, ⟨%d0, W0⟩, ⟨%d1, W1⟩, ⟨%d2, W2⟩, ⟨%d3, W3⟩, ⟨%d4, W4⟩, ⟨%d5, W5⟩⟩
  iapply (kernel_runs2 c Set.univ _ _ _ _ _ _ _ _ _ _ _ _ _
    (iblk2 V c 0 t) (iblk2 V c 1 t) (iblk2 V c 2 t) (iblk2 V c 3 t) (iblk2 V c 4 t) _)
  isplitl [W0]; · iexact W0
  isplitl [W1]; · iexact W1
  isplitl [W2]; · iexact W2
  isplitl [W3]; · iexact W3
  isplitl [W4]; · iexact W4
  isplitl [W5]; · iexists _; iexact W5
  iintro ⟨R0, R1, R2, R3, R4, R5⟩
  isplitl [Inv]; · iexact Inv
  isplitl [Dues]; · iexact Dues
  isplitl [R0]; · iexact R0
  isplitl [R1]; · iexact R1
  isplitl [R2]; · iexact R2
  isplitl [R3]; · iexact R3
  isplitl [R4]; · iexact R4
  iexact R5

/-- The region's body obligation: the library's statement over all windows at once is, window by window, the statement above. -/
theorem body_obligation2 (c : Dev nD) : BodyObligation (dat2 (F := F) V c) (defs₀ (F := F)) Variants.none () Set.univ := fun t => by
  rw [bigSep_W2, bigSep_W2]
  exact body_runs2 V c t

end Layer
end Cert.KernelIdeal.H
-- ==== Proof.KernelIdeal.Region3.lean ====
import proofs.«420548_j8821862826461_1_alg».proof.Proof.KernelIdeal.Launch
import proofs.«420548_j8821862826461_1_alg».proof.Proof.Gen.KernelIdeal.Skeleton
import proofs.«420548_j8821862826461_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Layer 4 of the network as one pipelined region: rows block times two weight matrices, plus a bias row

Everything here is stated at a parameter `V`: what each buffer of the core holds when the region is entered. -/

section Layer
variable (V : (c : Dev nD) → (b : Ref sig .tc) → Buf (Elt F) ((c : Thread nD τ).loc b))

/-- The block of window `w` that belongs to grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The rectangles the body touches: each staging buffer whole -/

/-- A rows block (aggregated or node features), whole. -/
abbrev rowsAll3 : Rect S5000x32 := Rect.unit (s := S5000x32) ![0, 0] S5000x32.size inb_S5000x32_S5000x32_0_0
/-- A weight matrix, whole. -/
abbrev weightAll3 : Rect S32x16 := Rect.unit (s := S32x16) ![0, 0] S32x16.size inb_S32x16_S32x16_0_0
/-- The bias row, whole. -/
abbrev biasAll3 : Rect S1x16 := Rect.unit (s := S1x16) ![0, 0] S1x16.size inb_S1x16_S1x16_0_0
/-- The output block, whole. -/
abbrev resultAll3 : Rect S5000x16 := Rect.unit (s := S5000x16) ![0, 0] S5000x16.size inb_S5000x16_S5000x16_0_0

/-- What the output window's staging buffer holds after the body, as a function of the five input buffers: the body
    stores once, over the whole buffer, the layer's value on the five loaded operands. -/
def out3_5 (x0 x1 : Vec F S5000x32 .f32) (x2 x3 : Vec F S32x16 .f32) (x4 : Vec F S1x16 .f32) : Vec F S5000x16 .f32 :=
  View.canon [⟨resultAll3, k3_pay1 (View.ld x0 rowsAll3) (View.ld x1 rowsAll3) (View.ld x2 weightAll3) (View.ld x3 weightAll3) (View.ld x4 biasAll3)⟩]

/-- The region's proof data on core `c`: arrays as found; after the body at `t` every input buffer still holds its
    block and the output buffer holds the layer's value on those blocks; the invariant is the untouched rest of
    the core; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by
  dsimp only [dat3]

/-! ## What the body finds in each input window's buffer

An input window's buffer holds the window's block at every point, fetched there or not: where the pipeline does
not fetch, the block index has not moved since the point before, and the body leaves every input buffer as found.
All five input windows are uncut and never idle; the three whole-array windows (both weights, the bias) have a
constant block index and are fetched at the first point only. -/

theorem held3_0 (c : Dev nD) (t : Fin cfg3.N) (d) : (dat3 V c).before 0 t d = iblk3 V c 0 t := by
  rw [(dat3 V c).before_in_eq_fetched 0 rfl (fun _ => rfl) (fun _ _ _ => rfl) (fun _ => rfl) t d]
  rfl
theorem held3_1 (c : Dev nD) (t : Fin cfg3.N) (d) : (dat3 V c).before 1 t d = iblk3 V c 1 t := by
  rw [(dat3 V c).before_in_eq_fetched 1 rfl (fun _ => rfl) (fun _ _ _ => rfl) (fun _ => rfl) t d]
  rfl
theorem held3_2 (c : Dev nD) (t : Fin cfg3.N) (d) : (dat3 V c).before 2 t d = iblk3 V c 2 t := by
  rw [(dat3 V c).before_in_eq_fetched 2 rfl (fun _ => rfl) (fun _ _ _ => rfl) (fun _ => rfl) t d]
  rfl
theorem held3_3 (c : Dev nD) (t : Fin cfg3.N) (d) : (dat3 V c).before 3 t d = iblk3 V c 3 t := by
  rw [(dat3 V c).before_in_eq_fetched 3 rfl (fun _ => rfl) (fun _ _ _ => rfl) (fun _ => rfl) t d]
  rfl
theorem held3_4 (c : Dev nD) (t : Fin cfg3.N) (d) : (dat3 V c).before 4 t d = iblk3 V c 4 t := by
  rw [(dat3 V c).before_in_eq_fetched 4 rfl (fun _ => rfl) (fun _ _ _ => rfl) (fun _ => rfl) t d]
  rfl

/-! ## The body's one store fills the output buffer -/

/-- The output block's whole rectangle holds every index of the buffer, whatever is stored through it. -/
theorem covered3_5 (p : Vec F S5000x16 .f32) (y : S5000x16.Idx) :
    ∃ pc ∈ ([⟨resultAll3, p⟩] : List (View.Piece (Elt F) S5000x16 .f32)), y ∈ pc.1.set :=
  View.cover_of_tiled [⟨resultAll3, p⟩] S5000x16.size (by rfl) y

/-! ## The kernel function on whole buffers -/

set_option maxHeartbeats 1000000 in
/-- Called at any grid coordinate on six whole buffers — the five inputs at contents `x0 … x4`, the output at anything —
    the kernel function returns every input buffer as it was and the output buffer at `out3_5 x0 x1 x2 x3 x4`:
    five whole-buffer loads, a load of the output buffer whose value nothing reads, and one whole-buffer store of the
    layer's value on the five loaded operands, which covers the buffer. -/
theorem kernel_runs3 (c : Dev nD) (E : Set ℕ) (i : grid3.Coords)
    (a1 : Memref sig .tc .vmem S5000x32 .f32) (h1 : a1.IsWhole) (a2 : Memref sig .tc .vmem S5000x32 .f32) (h2 : a2.IsWhole)
    (a3 : Memref sig .tc .vmem S32x16 .f32) (h3 : a3.IsWhole) (a4 : Memref sig .tc .vmem S32x16 .f32) (h4 : a4.IsWhole)
    (a5 : Memref sig .tc .vmem S1x16 .f32) (h5 : a5.IsWhole) (a6 : Memref sig .tc .vmem S5000x16 .f32) (h6 : a6.IsWhole)
    (x0 x1 : Vec F S5000x32 .f32) (x2 x3 : Vec F S32x16 .f32) (x4 : Vec F S1x16 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ (∃ d, owns (c : Thread nD τ) a6 fullShare d)
        ∗ (iprop(owns (c : Thread nD τ) a1 fullShare x0 ∗ owns (c : Thread nD τ) a2 fullShare x1
              ∗ owns (c : Thread nD τ) a3 fullShare x2 ∗ owns (c : Thread nD τ) a4 fullShare x3
              ∗ owns (c : Thread nD τ) a5 fullShare x4
              ∗ owns (c : Thread nD τ) a6 fullShare (out3_5 x0 x1 x2 x3 x4)) -∗ K ⟨⟩))
      ⊢ wp frame (wpE (defs₀ (F := F)) Variants.none c none) E (cc3_kernel i a1 h1 a2 h2 a3 h3 a4 h4 a5 h5 a6 h6) K := by
  simp only [cc3_kernel_eq_skeleton]; unfold cc3_kernel_skel
  unfold owns
  iintro ⟨⟨%f1, %e1, B1⟩, ⟨%f2, %e2, B2⟩, ⟨%f3, %e3, B3⟩, ⟨%f4, %e4, B4⟩, ⟨%f5, %e5, B5⟩, ⟨%d6, %f6, -, B6⟩, Back⟩
  subst e1 e2 e3 e4 e5
  sl_exec
  sl_step
  iapply Back
  -- the five input buffers were only read: each comes back at the contents it came with
  isplitl [B1]
  · iexists f1; isplitr
    · ipureintro; rfl
    · iexact B1
  isplitl [B2]
  · iexists f2; isplitr
    · ipureintro; rfl
    · iexact B2
  isplitl [B3]
  · iexists f3; isplitr
    · ipureintro; rfl
    · iexact B3
  isplitl [B4]
  · iexists f4; isplitr
    · ipureintro; rfl
    · iexact B4
  isplitl [B5]
  · iexists f5; isplitr
    · ipureintro; rfl
    · iexact B5
  -- the output buffer after its one store: a load of a whole buffer is the buffer read through its whole rectangle,
  -- and a covering store reads back as the canon of its one piece
  iexists a6.view.writes (Elt F) f6
    [⟨resultAll3, k3_pay1 (View.ld (a1.view.read (Elt F) f1) rowsAll3) (View.ld (a2.view.read (Elt F) f2) rowsAll3)
      (View.ld (a3.view.read (Elt F) f3) weightAll3) (View.ld (a4.view.read (Elt F) f4) weightAll3)
      (View.ld (a5.view.read (Elt F) f5) biasAll3)⟩]
  isplitr
  · ipureintro
    exact View.read_writes_eq_canon _ _ _ (covered3_5 _)
  · iexact B6

/-! ## The body at a grid point -/

/-- The after-the-body contents of each input window: its block (the proof data's table read at the window). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]

/-- The invariant and the dues do not depend on the point: the body neither touches the rest of the core nor owes anyone. -/
theorem inv_const3 (c : Dev nD) (k k' : Fin (cfg3.N + 1)) : (dat3 V c).Φ k = (dat3 V c).Φ k' := rfl
theorem dues_const3 (c : Dev nD) (k k' : Fin (cfg3.N + 1)) : (dat3 V c).owesAt () k = (dat3 V c).owesAt () k' := rfl

/-- What the pipeline hands the body at point `t`: the invariant, the core's dues, and the current staging buffer of
    each of the six windows at what the schedule has left in it. -/
def handed3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What the body hands back: the same, each buffer at the proof data's after-the-body contents. -/
def returned3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: every input buffer holds its window's block there, so the kernel function's triple applies
    at those five blocks; the invariant and the dues pass by untouched. -/
theorem body_runs3 (c : Dev nD) (t : Fin cfg3.N) :
    handed3 V c t ⊢ wp frame (wpE (defs₀ (F := F)) Variants.none c none) Set.univ (bodyAt3 t) (fun _ => returned3 V c t) := by
  unfold handed3 returned3 bodyAt3
  simp only [held3_0, held3_1, held3_2, held3_3, held3_4]
  rw [inv_const3 V c t.succ t.castSucc, dues_const3 V c t.succ t.castSucc,
    after3_0, after3_1, after3_2, after3_3, after3_4, after3_5]
  iintro ⟨Inv, Dues, ⟨%d0, W0⟩, ⟨%d1, W1⟩, ⟨%d2, W2⟩, ⟨%d3, W3⟩, ⟨%d4, W4⟩, ⟨%d5, W5⟩⟩
  iapply (kernel_runs3 c Set.univ _ _ _ _ _ _ _ _ _ _ _ _ _
    (iblk3 V c 0 t) (iblk3 V c 1 t) (iblk3 V c 2 t) (iblk3 V c 3 t) (iblk3 V c 4 t) _)
  isplitl [W0]; · iexact W0
  isplitl [W1]; · iexact W1
  isplitl [W2]; · iexact W2
  isplitl [W3]; · iexact W3
  isplitl [W4]; · iexact W4
  isplitl [W5]; · iexists _; iexact W5
  iintro ⟨R0, R1, R2, R3, R4, R5⟩
  isplitl [Inv]; · iexact Inv
  isplitl [Dues]; · iexact Dues
  isplitl [R0]; · iexact R0
  isplitl [R1]; · iexact R1
  isplitl [R2]; · iexact R2
  isplitl [R3]; · iexact R3
  isplitl [R4]; · iexact R4
  iexact R5

/-- The region's body obligation: the library's statement over all windows at once is, window by window, the statement above. -/
theorem body_obligation3 (c : Dev nD) : BodyObligation (dat3 (F := F) V c) (defs₀ (F := F)) Variants.none () Set.univ := fun t => by
  rw [bigSep_W3, bigSep_W3]
  exact body_runs3 V c t

end Layer
end Cert.KernelIdeal.H
-- ==== Proof.KernelIdeal.Pool.Body.lean ====
import proofs.«420548_j8821862826461_1_alg».proof.Proof.KernelIdeal.Launch
import proofs.«420548_j8821862826461_1_alg».proof.Proof.Gen.KernelIdeal.Skeleton
import proofs.«420548_j8821862826461_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # The pool kernel's body, in its three control cases

The body runs at each of the grid's 8 points. It has two guarded blocks: the first (zero both
scratch buffers) is entered exactly at point 0, the second (divide the sums by the clamped counts,
multiply by the head's weights, add its bias, store the output block) exactly at point 7. Between
them every point adds its block's one-hot-weighted row sums into scratch 0 and its one-hot column
sums into scratch 1. -/

/-- The first guard's condition at grid point `i`: the point's coordinate compared with 0, widened,
    compared with 0 again. -/
abbrev cond4_0 (i : grid4.Coords) : Prop :=
  (Scalar.cmpi .ne (Scalar.extui (Scalar.cmpi .eq (BitVec.ofNat 32 (i 0).val) 0#32)) 0#32) = 1#1

/-- The second guard's condition at grid point `i`. -/
abbrev cond4_1 (i : grid4.Coords) : Prop := k4_cond2 i = 1#1

/-- The first guard holds exactly at the first point. -/
theorem hcond4_0 : ∀ t : Fin cfg4.N, cond4_0 (grid4.coords t) ↔ t.val = 0 :=
  (by decide +kernel : ∀ t : Fin grid4.N, cond4_0 (grid4.coords t) ↔ t.val = 0)

/-- The second guard holds exactly at the last point. -/
theorem hcond4_1 : ∀ t : Fin cfg4.N, cond4_1 (grid4.coords t) ↔ t.val = 7 :=
  (by decide +kernel : ∀ t : Fin grid4.N, cond4_1 (grid4.coords t) ↔ t.val = 7)

/-- What point 0 first stores into scratch 0 (the sums): all zeros. -/
def zero0 : Vec F S64x16 .f32 := k4_pay1

/-- What point 0 first stores into scratch 1 (the counts): all zeros. -/
def zero1 : Vec F S64x1 .f32 := k4_pay2

/-- Scratch 0 after a point: what it held plus the one-hot matrix of the point's batch ids,
    transposed, times the point's rows. -/
def acc0 (x0 : Vec F S5000x16 .f32) (x1 : Vec F S5000x1 .i32) (s0 : Vec F S64x16 .f32) : Vec F S64x16 .f32 :=
  k4_pay4 x0 x1 s0

/-- Scratch 1 after a point: what it held plus the one-hot matrix's column sums. -/
def acc1 (x1 : Vec F S5000x1 .i32) (s1 : Vec F S64x1 .f32) : Vec F S64x1 .f32 := k4_pay5 x1 s1

/-- The output block the last point stores: sums over counts clamped below by 1, times the head's
    weights, plus its bias. -/
def head4 (s0 : Vec F S64x16 .f32) (s1 : Vec F S64x1 .f32) (x2 : Vec F S16x1 .f32) (x3 : Vec F S1x1 .f32) : Vec F S64x1 .f32 :=
  k4_pay6 s0 s1 x2 x3

/-- The zero offsets of a whole-buffer access, as the constant function. -/
private theorem pool_hz : (![0, 0] : Fin 2 → Nat) = fun _ => 0 := funext fun a => by fin_cases a <;> rfl

/-- A list of stores into a 64x16 buffer whose last is a whole-buffer store covers the buffer. -/
private theorem pool_cover64x16 (w : S64x16.Idx → Elt F .f32) (L : List (View.Piece (Elt F) S64x16 .f32)) (y : S64x16.Idx) :
    ∃ p ∈ ((⟨Rect.unit ![0, 0] S64x16.size inb_S64x16_S64x16_0_0, w⟩ : View.Piece (Elt F) S64x16 .f32) :: L), y ∈ p.1.set :=
  ⟨_, List.mem_cons.mpr (Or.inl rfl), View.mem_set_unit_zero (S := S64x16) pool_hz inb_S64x16_S64x16_0_0 y⟩

/-- The same for a 64x1 buffer. -/
private theorem pool_cover64x1 (w : S64x1.Idx → Elt F .f32) (L : List (View.Piece (Elt F) S64x1 .f32)) (y : S64x1.Idx) :
    ∃ p ∈ ((⟨Rect.unit ![0, 0] S64x1.size inb_S64x1_S64x1_0_0, w⟩ : View.Piece (Elt F) S64x1 .f32) :: L), y ∈ p.1.set :=
  ⟨_, List.mem_cons.mpr (Or.inl rfl), View.mem_set_unit_zero (S := S64x1) pool_hz inb_S64x1_S64x1_0_0 y⟩

set_option maxHeartbeats 1000000 in
/-- The first point: both scratch buffers hold anything on entry; they are zeroed, then accumulated
    into, so they end at the accumulation from zero. The output buffer is not touched. -/
theorem sound_kernel4_A (c : Dev nD) (E : Set ℕ) (i : grid4.Coords) (arg1 : Memref sig .tc .vmem S5000x16 .f32) (harg1 : arg1.IsWhole) (arg2 : Memref sig .tc .vmem S5000x1 .i32) (harg2 : arg2.IsWhole) (arg3 : Memref sig .tc .vmem S16x1 .f32) (harg3 : arg3.IsWhole) (arg4 : Memref sig .tc .vmem S1x1 .f32) (harg4 : arg4.IsWhole) (arg5 : Memref sig .tc .vmem S64x1 .f32) (harg5 : arg5.IsWhole) (arg6 : Memref sig .tc .vmem S64x16 .f32) (harg6 : arg6.IsWhole) (arg7 : Memref sig .tc .vmem S64x1 .f32) (harg7 : arg7.IsWhole)
    (hc0 : cond4_0 i) (hc1 : ¬cond4_1 i) (x0 : Vec F S5000x16 .f32) (x1 : Vec F S5000x1 .i32) (x2 : Vec F S16x1 .f32) (x3 : Vec F S1x1 .f32) (xi4 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (acc0 x0 x1 zero0) ∗ owns (c : Thread nD τ) arg7 fullShare (acc1 x1 zero1)) -∗ K ⟨⟩))
      ⊢ wp frame (wpE (defs₀ (F := F)) Variants.none c none) E (cc4__pool_fc_kernel i arg1 harg1 arg2 harg2 arg3 harg3 arg4 harg4 arg5 harg5 arg6 harg6 arg7 harg7) K := by
  simp only [cc4__pool_fc_kernel_eq_skeleton]; unfold cc4__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · -- scratch 0 was stored twice, zeros and then the accumulation: the later store covers the
    -- buffer, so the buffer reads back as its payload, and the scratch value that payload was
    -- computed from is the read-back of the zeros alone
    iexists _; isplitr
    swap; · iexact HS0
    ipureintro
    sl_unfold_words
    rw [View.read_writes_eq_canon _ _ _ (pool_cover64x16 _ _), View.canon_cons_unit_zero (S := S64x16) pool_hz]
    simp only [View.readAt_eq_ld, View.ld_unit_zero (S := S5000x16) pool_hz, View.ld_unit_zero (S := S5000x1) pool_hz,
      View.readCov_unit_zero (S := S64x16) _ pool_hz]
    rfl
  -- scratch 1: the same two stores, zeros and then the counts' accumulation
  iexists _; isplitr
  swap; · iexact HS1
  ipureintro
  sl_unfold_words
  rw [View.read_writes_eq_canon _ _ _ (pool_cover64x1 _ _), View.canon_cons_unit_zero (S := S64x1) pool_hz]
  simp only [View.readAt_eq_ld, View.ld_unit_zero (S := S5000x1) pool_hz, View.readCov_unit_zero (S := S64x1) _ pool_hz]
  rfl

set_option maxHeartbeats 1000000 in
/-- A middle point: neither guarded block runs; the scratch buffers go from what they held to the
    accumulation over it. The output buffer is not touched. -/
theorem sound_kernel4_B (c : Dev nD) (E : Set ℕ) (i : grid4.Coords) (arg1 : Memref sig .tc .vmem S5000x16 .f32) (harg1 : arg1.IsWhole) (arg2 : Memref sig .tc .vmem S5000x1 .i32) (harg2 : arg2.IsWhole) (arg3 : Memref sig .tc .vmem S16x1 .f32) (harg3 : arg3.IsWhole) (arg4 : Memref sig .tc .vmem S1x1 .f32) (harg4 : arg4.IsWhole) (arg5 : Memref sig .tc .vmem S64x1 .f32) (harg5 : arg5.IsWhole) (arg6 : Memref sig .tc .vmem S64x16 .f32) (harg6 : arg6.IsWhole) (arg7 : Memref sig .tc .vmem S64x1 .f32) (harg7 : arg7.IsWhole)
    (hc0 : ¬cond4_0 i) (hc1 : ¬cond4_1 i) (x0 : Vec F S5000x16 .f32) (x1 : Vec F S5000x1 .i32) (x2 : Vec F S16x1 .f32) (x3 : Vec F S1x1 .f32) (xi4 : Vec F S64x1 .f32) (xs0 : Vec F S64x16 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (acc0 x0 x1 xs0) ∗ owns (c : Thread nD τ) arg7 fullShare (acc1 x1 xs1)) -∗ K ⟨⟩))
      ⊢ wp frame (wpE (defs₀ (F := F)) Variants.none c none) E (cc4__pool_fc_kernel i arg1 harg1 arg2 harg2 arg3 harg3 arg4 harg4 arg5 harg5 arg6 harg6 arg7 harg7) K := by
  simp only [cc4__pool_fc_kernel_eq_skeleton]; unfold cc4__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0 hf1 hf2 hf3 hf4 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · -- scratch 0: its one store covers the buffer, so it reads back as the store's payload, whose
    -- loads were whole-buffer reads of the point's blocks and of what the scratch held
    iexists _; isplitr
    swap; · iexact HS0
    ipureintro
    rw [View.read_writes_eq_canon _ _ _ (pool_cover64x16 _ _),
      View.canon_unit_zero pool_hz]
    simp only [View.readAt_eq_ld, View.ld_unit_zero (S := S5000x16) pool_hz, View.ld_unit_zero (S := S5000x1) pool_hz,
      View.ld_unit_zero (S := S64x16) pool_hz]
    rfl
  -- scratch 1: the same, with the batch ids' block and what the counts held
  iexists _; isplitr
  swap; · iexact HS1
  ipureintro
  rw [View.read_writes_eq_canon _ _ _ (pool_cover64x1 _ _),
    View.canon_unit_zero pool_hz]
  simp only [View.readAt_eq_ld, View.ld_unit_zero (S := S5000x1) pool_hz, View.ld_unit_zero (S := S64x1) pool_hz]
  rfl

set_option maxHeartbeats 1000000 in
/-- The last point: the scratch buffers are accumulated into, then the head reads them back and
    stores the output block, which held anything on entry. -/
theorem sound_kernel4_C (c : Dev nD) (E : Set ℕ) (i : grid4.Coords) (arg1 : Memref sig .tc .vmem S5000x16 .f32) (harg1 : arg1.IsWhole) (arg2 : Memref sig .tc .vmem S5000x1 .i32) (harg2 : arg2.IsWhole) (arg3 : Memref sig .tc .vmem S16x1 .f32) (harg3 : arg3.IsWhole) (arg4 : Memref sig .tc .vmem S1x1 .f32) (harg4 : arg4.IsWhole) (arg5 : Memref sig .tc .vmem S64x1 .f32) (harg5 : arg5.IsWhole) (arg6 : Memref sig .tc .vmem S64x16 .f32) (harg6 : arg6.IsWhole) (arg7 : Memref sig .tc .vmem S64x1 .f32) (harg7 : arg7.IsWhole)
    (hc0 : ¬cond4_0 i) (hc1 : cond4_1 i) (x0 : Vec F S5000x16 .f32) (x1 : Vec F S5000x1 .i32) (x2 : Vec F S16x1 .f32) (x3 : Vec F S1x1 .f32) (xs0 : Vec F S64x16 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (head4 (acc0 x0 x1 xs0) (acc1 x1 xs1) x2 x3) ∗ owns (c : Thread nD τ) arg6 fullShare (acc0 x0 x1 xs0) ∗ owns (c : Thread nD τ) arg7 fullShare (acc1 x1 xs1)) -∗ K ⟨⟩))
      ⊢ wp frame (wpE (defs₀ (F := F)) Variants.none c none) E (cc4__pool_fc_kernel i arg1 harg1 arg2 harg2 arg3 harg3 arg4 harg4 arg5 harg5 arg6 harg6 arg7 harg7) K := by
  simp only [cc4__pool_fc_kernel_eq_skeleton]; unfold cc4__pool_fc_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  subst hf0 hf1 hf2 hf3 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · -- the output block: its one store covers the buffer; the store's payload was computed from
    -- the two scratch buffers read back after their accumulating stores, and from the head's
    -- weights and bias read whole
    iexists _; isplitr
    swap; · iexact H4
    ipureintro
    sl_unfold_words
    rw [View.read_writes_eq_canon _ _ _ (pool_cover64x1 _ _), View.canon_unit_zero pool_hz]
    simp only [View.readAt_eq_ld, View.ld_unit_zero (S := S5000x16) pool_hz, View.ld_unit_zero (S := S5000x1) pool_hz,
      View.ld_unit_zero (S := S64x16) pool_hz, View.ld_unit_zero (S := S64x1) pool_hz, View.ld_unit_zero (S := S16x1) pool_hz,
      View.ld_unit_zero (S := S1x1) pool_hz, View.readCov_unit_zero (S := S64x16) _ pool_hz,
      View.readCov_unit_zero (S := S64x1) _ pool_hz]
    rfl
  isplitl [HS0]
  · -- scratch 0: one accumulating store over what it held
    iexists _; isplitr
    swap; · iexact HS0
    ipureintro
    sl_unfold_words
    rw [View.read_writes_eq_canon _ _ _ (pool_cover64x16 _ _), View.canon_unit_zero pool_hz]
    simp only [View.readAt_eq_ld, View.ld_unit_zero (S := S5000x16) pool_hz, View.ld_unit_zero (S := S5000x1) pool_hz,
      View.ld_unit_zero (S := S64x16) pool_hz]
    rfl
  -- scratch 1: one accumulating store over what it held
  iexists _; isplitr
  swap; · iexact HS1
  ipureintro
  sl_unfold_words
  rw [View.read_writes_eq_canon _ _ _ (pool_cover64x1 _ _), View.canon_unit_zero pool_hz]
  simp only [View.readAt_eq_ld, View.ld_unit_zero (S := S5000x1) pool_hz, View.ld_unit_zero (S := S64x1) pool_hz]
  rfl

end Cert.KernelIdeal.H
end
-- ==== Proof.KernelIdeal.Region4.lean ====
import proofs.«420548_j8821862826461_1_alg».proof.Proof.KernelIdeal.Pool.Body
set_option maxRecDepth 16384
noncomputable section
namespace Cert.KernelIdeal.H
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 4: the pool over the grid's 8 points

The kernel keeps two buffers of its own between points: the per-graph row sums (64x16) and the
per-graph row counts (64x1). Point 0 zeroes both; every point adds its block's contribution; the
last point divides, applies the head and stores the one output block (64x1). The output window is
idle at every other point: its buffer is handed back as found and not written back there. -/

section Region4

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The per-graph sums after point `n`: the accumulation of the blocks of points `0 … n` from zero
    (constant past the last point). -/
def sc0At (c : Dev nD) : ℕ → Vec F S64x16 .f32
  | 0 => acc0 (iblk4 V c 0 t4_0) (iblk4 V c 1 t4_0) zero0
  | n + 1 => if h : n + 1 < cfg4.N then acc0 (iblk4 V c 0 ⟨n + 1, h⟩) (iblk4 V c 1 ⟨n + 1, h⟩) (sc0At c n) else sc0At c n

/-- The per-graph counts after point `n`, likewise. -/
def sc1At (c : Dev nD) : ℕ → Vec F S64x1 .f32
  | 0 => acc1 (iblk4 V c 1 t4_0) zero1
  | n + 1 => if h : n + 1 < cfg4.N then acc1 (iblk4 V c 1 ⟨n + 1, h⟩) (sc1At c n) else sc1At c n

/-- The head applied to the sums and counts after point `t`, at the weights and bias blocks of `t`:
    what the output window's buffer holds after the last point, the only one that stores it. At any
    other point the window is idle and not written back, and this value is consulted by nothing. -/
def out4At (c : Dev nD) (t : Fin cfg4.N) : Vec F S64x1 .f32 :=
  head4 (sc0At V c t.val) (sc1At V c t.val) (iblk4 V c 2 t) (iblk4 V c 3 t)

theorem sc0At_succ (c : Dev nD) (n : ℕ) (h : n + 1 < cfg4.N) :
    sc0At V c (n + 1) = acc0 (iblk4 V c 0 ⟨n + 1, h⟩) (iblk4 V c 1 ⟨n + 1, h⟩) (sc0At V c n) := by
  rw [sc0At, dif_pos h]

theorem sc1At_succ (c : Dev nD) (n : ℕ) (h : n + 1 < cfg4.N) :
    sc1At V c (n + 1) = acc1 (iblk4 V c 1 ⟨n + 1, h⟩) (sc1At V c n) := by
  rw [sc1At, dif_pos h]

/-- At the first point the sums are one accumulation step from zero, -/
theorem sc0At_first (c : Dev nD) (t : Fin cfg4.N) (hz : t.val = 0) :
    sc0At V c t.val = acc0 (iblk4 V c 0 t) (iblk4 V c 1 t) zero0 := by
  obtain ⟨n, hn⟩ := t
  cases n with
  | zero => rfl
  | succ n => exact absurd hz (Nat.succ_ne_zero n)

/-- and at any later point one step from what the point before left. -/
theorem sc0At_later (c : Dev nD) (t : Fin cfg4.N) (hz : t.val ≠ 0) :
    sc0At V c t.val = acc0 (iblk4 V c 0 t) (iblk4 V c 1 t) (sc0At V c (t.val - 1)) := by
  obtain ⟨n, hn⟩ := t
  cases n with
  | zero => exact absurd rfl hz
  | succ n => exact sc0At_succ V c n hn

/-- The counts, likewise. -/
theorem sc1At_first (c : Dev nD) (t : Fin cfg4.N) (hz : t.val = 0) :
    sc1At V c t.val = acc1 (iblk4 V c 1 t) zero1 := by
  obtain ⟨n, hn⟩ := t
  cases n with
  | zero => rfl
  | succ n => exact absurd hz (Nat.succ_ne_zero n)

theorem sc1At_later (c : Dev nD) (t : Fin cfg4.N) (hz : t.val ≠ 0) :
    sc1At V c t.val = acc1 (iblk4 V c 1 t) (sc1At V c (t.val - 1)) := by
  obtain ⟨n, hn⟩ := t
  cases n with
  | zero => exact absurd rfl hz
  | succ n => exact sc1At_succ V c n hn

/-- The two buffers the kernel carries between points, as whole memrefs. -/
abbrev scM4_0 : Memref sig .tc .vmem S64x16 .f32 := Memref.whole cc4_scratch0
abbrev scM4_1 : Memref sig .tc .vmem S64x1 .f32 := Memref.whole cc4_scratch1

/-- What the region is entered with, opened at the kernel's two own buffers: each at some contents,
    every other scoped buffer unopened, the generator register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

/-- The invariant before point `n`: before the first point what the region is entered with; afterwards
    the sums and counts at what the point before left, every other scoped buffer unopened, the
    generator register at some state. -/
def Phi4 (c : Dev nD) : ℕ → sProp 𝕄
  | 0 => Pipeline.ΦA spec4 c
  | n + 1 => iprop(iprop(iprop(owns (c : Thread nD τ) scM4_0 fullShare (sc0At V c n) ∗ owns (c : Thread nD τ) scM4_1 fullShare (sc1At V c n))
      ∗ Pipeline.scopedRestBut spec4 c [cc4_scratch0, cc4_scratch1]) ∗ (∃ r, prngReg c r))

theorem Phi4_zero (c : Dev nD) (n : ℕ) (hz : n = 0) : Phi4 V c n = Pipeline.ΦA spec4 c := by
  subst hz; rfl

/-- After point `n`: both carried buffers at that point's contents. -/
theorem Phi4_succ (c : Dev nD) (n : ℕ) :
    Phi4 V c (n + 1) = iprop(iprop(iprop(owns (c : Thread nD τ) scM4_0 fullShare (sc0At V c n) ∗ owns (c : Thread nD τ) scM4_1 fullShare (sc1At V c n))
      ∗ Pipeline.scopedRestBut spec4 c [cc4_scratch0, cc4_scratch1]) ∗ (∃ r, prngReg c r)) := rfl

/-- Before a point that is not the first: both carried buffers at what the point before left. -/
theorem Phi4_pos (c : Dev nD) (n : ℕ) (hz : n ≠ 0) :
    Phi4 V c n = iprop(iprop(iprop(owns (c : Thread nD τ) scM4_0 fullShare (sc0At V c (n - 1)) ∗ owns (c : Thread nD τ) scM4_1 fullShare (sc1At V c (n - 1)))
      ∗ Pipeline.scopedRestBut spec4 c [cc4_scratch0, cc4_scratch1]) ∗ (∃ r, prngReg c r)) := by
  cases n with
  | zero => exact absurd rfl hz
  | succ n => rfl

/-- The proof data of the pool's pipeline on core `c`: the arrays as the region finds them; after the
    body each input's buffer at its block, the output's at the head of the accumulation so far; the
    invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4At V c t
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4At V c t := by dsimp only [dat4]

/-- The invariant at a point's start and end, restated at the point's position. -/
theorem Phi4_castSucc (c : Dev nD) (t : Fin cfg4.N) : (dat4 V c).Φ t.castSucc = Phi4 V c t.val := by
  dsimp only [dat4]; simp only [Fin.coe_castSucc]

theorem Phi4_fin_succ (c : Dev nD) (t : Fin cfg4.N) : (dat4 V c).Φ t.succ = Phi4 V c (t.val + 1) := by
  dsimp only [dat4]; simp only [Fin.val_succ]

/-! ## What the input windows' buffers hold when the body runs

Each input's block index is a function of the point alone and its blocks tile its array, so whether
or not the point fetches it (the weights and the bias are fetched at point 0 only), the current
buffer holds the window's block at the point. -/

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-! ## Where the output window is idle -/

/-- The inputs are never idle. -/
theorem liveAt4_0 (t : Fin cfg4.N) : cfg4.idle 0 (grid4.coords t) = false := rfl
theorem liveAt4_1 (t : Fin cfg4.N) : cfg4.idle 1 (grid4.coords t) = false := rfl
theorem liveAt4_2 (t : Fin cfg4.N) : cfg4.idle 2 (grid4.coords t) = false := rfl
theorem liveAt4_3 (t : Fin cfg4.N) : cfg4.idle 3 (grid4.coords t) = false := rfl
/-- Off the last point the output window is idle, and its block is not written back; -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- at the last point it is live. -/
theorem liveAt4_4 : ∀ t : Fin cfg4.N, cond4_1 (grid4.coords t) → cfg4.idle 4 (grid4.coords t) = false := by decide +kernel

/-! ## The body at a generic point -/

/-- Each window's current staging memref at point `t`, as the pipeline passes it to the body. -/
abbrev ms4_0 (t : Fin cfg4.N) : Memref sig .tc .vmem S5000x16 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S16x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x1 .f32 := win4_4.stage (cfg4.slots t 4)
abbrev hs4_4 (t : Fin cfg4.N) : (ms4_4 t).IsWhole := hstage4_4 ((cfg4.slots t 4).cast nbuf4_4)

/-- What the body is called with at point `t`: the invariant, the core's dues, every window's current buffer. -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- What it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 1600000 in
/-- The body at any point. The inputs' buffers hold their blocks. At the first point both carried
    buffers are at anything and end one accumulation step from zero; at a later point they are at
    what the point before left and end one step further; at the last point the output buffer, at
    anything, ends at the head of the accumulation. Off the last point the output buffer is handed
    back as found. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [Phi4_fin_succ, Phi4_castSucc, Phi4_succ]
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  rw [show (dat4 V c).leavesExact 3 t = owns (c : Thread nD τ) (ms4_3 t) fullShare ((dat4 V c).after 3 t) from by
      unfold Dat.leavesExact; rw [liveAt4_3 t], after4_3]
  have hN : t.val < 8 := lt_of_lt_of_eq t.isLt (show cfg4.N = 8 from N_4)
  by_cases hz : t.val = 0
  · -- the first point: both guards decided, the carried buffers at anything
    have hc0 : cond4_0 (grid4.coords t) := (hcond4_0 t).mpr hz
    have hc1 : ¬cond4_1 (grid4.coords t) := fun h => by have := (hcond4_1 t).mp h; omega
    rw [Dat.leavesExact_idle (dat4 V c) 4 t (idleAt4_4 t hc1) (noFlush4_4 t hc1)]
    rw [Phi4_zero V c t.val hz, PhiA4_eq, sc0At_first V c t hz, sc1At_first V c t hz]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (sound_kernel4_A c Set.univ (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (iblk4 V c 0 t) (iblk4 V c 1 t) (iblk4 V c 2 t) (iblk4 V c 3 t) ((dat4 V c).before 4 t d4) _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    iexists _; iexact H4
  · have hc0 : ¬cond4_0 (grid4.coords t) := fun h => hz ((hcond4_0 t).mp h)
    rw [Phi4_pos V c t.val hz]
    by_cases h7 : t.val = 7
    · -- the last point: the carried buffers at what point 6 left, the output buffer at anything
      have hc1 : cond4_1 (grid4.coords t) := (hcond4_1 t).mpr h7
      rw [show (dat4 V c).leavesExact 4 t = owns (c : Thread nD τ) (ms4_4 t) fullShare ((dat4 V c).after 4 t) from by
          unfold Dat.leavesExact; rw [liveAt4_4 t hc1], after4_4]
      unfold out4At
      rw [sc0At_later V c t hz, sc1At_later V c t hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel4_C c Set.univ (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (iblk4 V c 0 t) (iblk4 V c 1 t) (iblk4 V c 2 t) (iblk4 V c 3 t) (sc0At V c (t.val - 1)) (sc1At V c (t.val - 1)) _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      iexact H4
    · -- a middle point: neither guard holds, the output buffer handed back as found
      have hc1 : ¬cond4_1 (grid4.coords t) := fun h => h7 ((hcond4_1 t).mp h)
      rw [Dat.leavesExact_idle (dat4 V c) 4 t (idleAt4_4 t hc1) (noFlush4_4 t hc1)]
      rw [sc0At_later V c t hz, sc1At_later V c t hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel4_B c Set.univ (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (iblk4 V c 0 t) (iblk4 V c 1 t) (iblk4 V c 2 t) (iblk4 V c 3 t) ((dat4 V c).before 4 t d4) (sc0At V c (t.val - 1)) (sc1At V c (t.val - 1)) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = Phi4 V c 0 from rfl, Phi4_zero V c 0 rfl]
  try exact Idealize.SL.BI.Entails.refl _

/-- After any point the invariant gives back what the region was entered with: the carried buffers'
    named contents are forgotten. -/
theorem Phi4_out (c : Dev nD) (n : ℕ) (hn : n ≠ 0) : Phi4 V c n ⊢ (Pipeline.ΦA spec4 c : sProp 𝕄) := by
  rw [Phi4_pos V c n hn, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

theorem hout4 (c : Dev nD) : (dat4 V c).Φ (Fin.last cfg4.N) ⊢ (Pipeline.ΦA spec4 c : sProp 𝕄) := by
  rw [show (dat4 V c).Φ (Fin.last cfg4.N) = Phi4 V c (Fin.last cfg4.N).val from rfl]
  exact Phi4_out V c _ (by rw [Fin.val_last]; have : cfg4.N = 8 := N_4; omega)

end Region4

end Cert.KernelIdeal.H
end
-- ==== Proof.KernelIdeal.RunCond.lean ====
import proofs.«420548_j8821862826461_1_alg».proof.Proof.KernelIdeal.Regions
import Idealize.ShloMosaic.Lib.Pipeline.Frame
import Idealize.ShloMosaic.Lib.Pipeline.Regions
set_option maxRecDepth 16384
noncomputable section
namespace Cert.KernelIdeal.H
open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
variable {F : FTy → Type} [FloatOps F]

/-! # The conditional run, with every unscoped buffer read off the last valuation

The program is ten items in a row: a host stretch, then a kernel region, five times over. Between
two items each core holds every unscoped buffer whole at that point's valuation, beside a rest of
the caller's choosing. Given one segment record per region, entered from the state before it and
left at the state after it, the run terminates, and in every final memory each core's unscoped
buffers hold the last valuation — all of them, not only the program's arguments. -/

set_option backward.isDefEq.respectTransparency.types false in
/-- THE CONDITIONAL RUN. For any user algebra, level assignment, launch dues and ghost resources,
    any rest states `E` the launch makes on every core at once (`hE0`) and that end owing nothing
    (`hE5`), any contents the regions leave (`outs`) and any proof data: given, per region K, a
    segment record entered from the thread state before it and left at the one after it, every
    weakly fair execution of the program from memory `m` with zero counters terminates, and every
    final memory holds every unscoped buffer of every core at the last valuation. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c)) :
    θ_run defs (onTc (τ := τ) (main (F := F))) ⟨m, fun _ => 0, ρ⟩ (fun r => ∀ c : Dev nD,
      ∀ b ∈ Pipeline.ucRefs τ sig, r.2.mem ((c.tc : Thread nD τ).1, b) = GenP.V10 m outs c b) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      -- the program is the chain of its ten items' programs
      rewrite [main_chain c, Seg.run_eq_chain,
        show (segs m outs 𝒱₀ L lv E ι pdats R0 R1 R2 R3 R4 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, hpre0 c, hpost0 c, hpre1 c, hpost1 c, hpre2 c, hpost2 c, hpre3 c, hpost3 c, hpre4 c, (hpost4 c).trans (sep_mono .rfl (hE5 c))⟩)
    (hinit := ?_)
    (QY := fun c s => ∀ b ∈ Pipeline.ucRefs τ sig, s.mem ((c.tc : Thread nD τ).1, b) = V10 m outs c b)
    (hfin := fun c s' => ?_) (hQ := fun _ h => h)
  · -- the launch: each core's unscoped buffers are held at the launch valuation; what is left over
    -- on all cores together makes the first rest state
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: owning every unscoped buffer at the last valuation, beside the memory's state
    -- interpretation, says the memory holds that valuation at each of them
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact h
    · iexact HSI

end Cert.KernelIdeal.H
end
-- ==== Proof.KernelIdeal.Run.lean ====
import proofs.«420548_j8821862826461_1_alg».proof.Proof.KernelIdeal.Launch
import proofs.«420548_j8821862826461_1_alg».proof.Proof.Gen.KernelIdeal.Skeleton
import proofs.«420548_j8821862826461_1_alg».proof.Proof.Gen.KernelIdeal.Points
import proofs.«420548_j8821862826461_1_alg».proof.Proof.KernelIdeal.Regions
import proofs.«420548_j8821862826461_1_alg».proof.Proof.KernelIdeal.Region0
import proofs.«420548_j8821862826461_1_alg».proof.Proof.KernelIdeal.Region1
import proofs.«420548_j8821862826461_1_alg».proof.Proof.KernelIdeal.Region2
import proofs.«420548_j8821862826461_1_alg».proof.Proof.KernelIdeal.Region3
import proofs.«420548_j8821862826461_1_alg».proof.Proof.KernelIdeal.Region4
import proofs.«420548_j8821862826461_1_alg».proof.Proof.KernelIdeal.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # The program's run

@main is ten items: five stretches of host operations alternating with five kernel regions (four graph-network
layers, then the mean pool with its linear head). Between two items a core's unscoped buffers hold a known
valuation; a host stretch advances it by the stretch's own meaning, a region replaces its windows' arrays by what
its write-backs leave and touches nothing else. Of a region's arrays only the output window's is written, so a
region changes exactly one buffer. -/

variable (m : (ℓ : Loc nD τ sig) → Buf (Elt F) ℓ) (ρ : Dev nD → PrngReg)

/-! ## The buffers' contents between items -/

/-- A valuation with a pipeline's arrays replaced agrees with the old one at every buffer that is no array of the
    pipeline. -/
theorem withArrays_of_not {gr W : Nat} (win : Fin W → Pipeline.WinSpec sig gr) (c : Dev nD) (V : Valuation τ sig (Elt F))
    (A : (w : Fin W) → Buf (Elt F) ((win w).arr.view.loc (c.tc : Thread nD τ))) (b : DevRef τ sig)
    (h : ¬ ∃ w, Proc.devRef .tc (Pipeline.arrRef win w) = b) : Pipeline.withArrays win c V A b = V b := by
  unfold Pipeline.withArrays; exact dif_neg h

/-- Core c's unscoped buffers after the first host stretch (the edge lists split, the neighbours' rows of the
    input features gathered and summed per node, the first bias as a row). -/
abbrev W1 (c : Dev nD) : Valuation τ sig (Elt F) := GenP.V1 m c
/-- After layer 1's region: its arrays at what the pipeline leaves, every other buffer as before. -/
def W2 (c : Dev nD) : Valuation τ sig (Elt F) :=
  Pipeline.withArrays spec0 c (W1 m c) fun w => (dat0 (fun c b => W1 m c b) c).arrAt w cfg0.N
/-- After the second host stretch (layer 1's rows aggregated over the edges). -/
abbrev W3 (c : Dev nD) : Valuation τ sig (Elt F) := StableHlo.after hostOps1 (W2 m c)
/-- After layer 2's region. -/
def W4 (c : Dev nD) : Valuation τ sig (Elt F) :=
  Pipeline.withArrays spec1 c (W3 m c) fun w => (dat1 (fun c b => W3 m c b) c).arrAt w cfg1.N
/-- After the third host stretch. -/
abbrev W5 (c : Dev nD) : Valuation τ sig (Elt F) := StableHlo.after hostOps2 (W4 m c)
/-- After layer 3's region. -/
def W6 (c : Dev nD) : Valuation τ sig (Elt F) :=
  Pipeline.withArrays spec2 c (W5 m c) fun w => (dat2 (fun c b => W5 m c b) c).arrAt w cfg2.N
/-- After the fourth host stretch. -/
abbrev W7 (c : Dev nD) : Valuation τ sig (Elt F) := StableHlo.after hostOps3 (W6 m c)
/-- After layer 4's region. -/
def W8 (c : Dev nD) : Valuation τ sig (Elt F) :=
  Pipeline.withArrays spec3 c (W7 m c) fun w => (dat3 (fun c b => W7 m c b) c).arrAt w cfg3.N
/-- After the fifth host stretch (the head's bias as a 1x1 array). -/
abbrev W9 (c : Dev nD) : Valuation τ sig (Elt F) := StableHlo.after hostOps4 (W8 m c)
/-- After the pooling region: the program's last valuation. -/
def W10 (c : Dev nD) : Valuation τ sig (Elt F) :=
  Pipeline.withArrays spec4 c (W9 m c) fun w => (dat4 (fun c b => W9 m c b) c).arrAt w cfg4.N

/-! ### A region's output array holds the fold of its write-backs -/

theorem W2_out (c : Dev nD) : W2 m c main_v16 = (dat0 (fun c b => W1 m c b) c).arrAt 5 cfg0.N := by
  unfold W2; exact Pipeline.withArrays_arr spec0 launch0.win.arr_inj c _ _ 5
theorem W4_out (c : Dev nD) : W4 m c main_v28 = (dat1 (fun c b => W3 m c b) c).arrAt 5 cfg1.N := by
  unfold W4; exact Pipeline.withArrays_arr spec1 launch1.win.arr_inj c _ _ 5
theorem W6_out (c : Dev nD) : W6 m c main_v40 = (dat2 (fun c b => W5 m c b) c).arrAt 5 cfg2.N := by
  unfold W6; exact Pipeline.withArrays_arr spec2 launch2.win.arr_inj c _ _ 5
theorem W8_out (c : Dev nD) : W8 m c main_v52 = (dat3 (fun c b => W7 m c b) c).arrAt 5 cfg3.N := by
  unfold W8; exact Pipeline.withArrays_arr spec3 launch3.win.arr_inj c _ _ 5
theorem W10_out (c : Dev nD) : W10 m c main_v54 = (dat4 (fun c b => W9 m c b) c).arrAt 4 cfg4.N := by
  unfold W10; exact Pipeline.withArrays_arr spec4 launch4.win.arr_inj c _ _ 4

/-! ### A region changes only its output array

An array of an input window is never written back, so it keeps its entry contents, which the proof data read off the
entry valuation; a buffer that is no array of the region bypasses it. -/

theorem W2_of_ne' (c : Dev nD) (b : DevRef τ sig) (hb : b ≠ Proc.devRef .tc main_v16) : W2 m c b = W1 m c b := by
  by_cases h : ∃ w, Proc.devRef .tc (Pipeline.arrRef spec0 w) = b
  · obtain ⟨w, rfl⟩ := h
    have hin : (cfg0.win w).isOut = false :=
      (by decide : ∀ w : Fin 6, Pipeline.arrRef spec0 w ≠ main_v16 → (cfg0.win w).isOut = false) w fun e => hb (congrArg _ e)
    unfold W2
    rw [Pipeline.withArrays_arr spec0 launch0.win.arr_inj c _ _ w]
    exact ((dat0 (fun c b => W1 m c b) c).arrAt_in w hin _).trans (A_eq0 (fun c b => W1 m c b) c w)
  · unfold W2; exact withArrays_of_not spec0 c _ _ b h
theorem W4_of_ne' (c : Dev nD) (b : DevRef τ sig) (hb : b ≠ Proc.devRef .tc main_v28) : W4 m c b = W3 m c b := by
  by_cases h : ∃ w, Proc.devRef .tc (Pipeline.arrRef spec1 w) = b
  · obtain ⟨w, rfl⟩ := h
    have hin : (cfg1.win w).isOut = false :=
      (by decide : ∀ w : Fin 6, Pipeline.arrRef spec1 w ≠ main_v28 → (cfg1.win w).isOut = false) w fun e => hb (congrArg _ e)
    unfold W4
    rw [Pipeline.withArrays_arr spec1 launch1.win.arr_inj c _ _ w]
    exact ((dat1 (fun c b => W3 m c b) c).arrAt_in w hin _).trans (A_eq1 (fun c b => W3 m c b) c w)
  · unfold W4; exact withArrays_of_not spec1 c _ _ b h
theorem W6_of_ne' (c : Dev nD) (b : DevRef τ sig) (hb : b ≠ Proc.devRef .tc main_v40) : W6 m c b = W5 m c b := by
  by_cases h : ∃ w, Proc.devRef .tc (Pipeline.arrRef spec2 w) = b
  · obtain ⟨w, rfl⟩ := h
    have hin : (cfg2.win w).isOut = false :=
      (by decide : ∀ w : Fin 6, Pipeline.arrRef spec2 w ≠ main_v40 → (cfg2.win w).isOut = false) w fun e => hb (congrArg _ e)
    unfold W6
    rw [Pipeline.withArrays_arr spec2 launch2.win.arr_inj c _ _ w]
    exact ((dat2 (fun c b => W5 m c b) c).arrAt_in w hin _).trans (A_eq2 (fun c b => W5 m c b) c w)
  · unfold W6; exact withArrays_of_not spec2 c _ _ b h
theorem W8_of_ne' (c : Dev nD) (b : DevRef τ sig) (hb : b ≠ Proc.devRef .tc main_v52) : W8 m c b = W7 m c b := by
  by_cases h : ∃ w, Proc.devRef .tc (Pipeline.arrRef spec3 w) = b
  · obtain ⟨w, rfl⟩ := h
    have hin : (cfg3.win w).isOut = false :=
      (by decide : ∀ w : Fin 6, Pipeline.arrRef spec3 w ≠ main_v52 → (cfg3.win w).isOut = false) w fun e => hb (congrArg _ e)
    unfold W8
    rw [Pipeline.withArrays_arr spec3 launch3.win.arr_inj c _ _ w]
    exact ((dat3 (fun c b => W7 m c b) c).arrAt_in w hin _).trans (A_eq3 (fun c b => W7 m c b) c w)
  · unfold W8; exact withArrays_of_not spec3 c _ _ b h
theorem W10_of_ne' (c : Dev nD) (b : DevRef τ sig) (hb : b ≠ Proc.devRef .tc main_v54) : W10 m c b = W9 m c b := by
  by_cases h : ∃ w, Proc.devRef .tc (Pipeline.arrRef spec4 w) = b
  · obtain ⟨w, rfl⟩ := h
    have hin : (cfg4.win w).isOut = false :=
      (by decide : ∀ w : Fin 5, Pipeline.arrRef spec4 w ≠ main_v54 → (cfg4.win w).isOut = false) w fun e => hb (congrArg _ e)
    unfold W10
    rw [Pipeline.withArrays_arr spec4 launch4.win.arr_inj c _ _ w]
    exact ((dat4 (fun c b => W9 m c b) c).arrAt_in w hin _).trans (A_eq4 (fun c b => W9 m c b) c w)
  · unfold W10; exact withArrays_of_not spec4 c _ _ b h

theorem W2_of_ne (c : Dev nD) (b : Ref sig .tc) (hb : b ≠ main_v16) : W2 m c b = W1 m c b :=
  W2_of_ne' m c _ (StableHlo.devRef_ne_of_ne hb)
theorem W4_of_ne (c : Dev nD) (b : Ref sig .tc) (hb : b ≠ main_v28) : W4 m c b = W3 m c b :=
  W4_of_ne' m c _ (StableHlo.devRef_ne_of_ne hb)
theorem W6_of_ne (c : Dev nD) (b : Ref sig .tc) (hb : b ≠ main_v40) : W6 m c b = W5 m c b :=
  W6_of_ne' m c _ (StableHlo.devRef_ne_of_ne hb)
theorem W8_of_ne (c : Dev nD) (b : Ref sig .tc) (hb : b ≠ main_v52) : W8 m c b = W7 m c b :=
  W8_of_ne' m c _ (StableHlo.devRef_ne_of_ne hb)
theorem W10_of_ne (c : Dev nD) (b : Ref sig .tc) (hb : b ≠ main_v54) : W10 m c b = W9 m c b :=
  W10_of_ne' m c _ (StableHlo.devRef_ne_of_ne hb)

/-! ## What the regions leave -/

/-- What each region leaves in the one buffer it changes, read off the valuations above: the unknowns the conditional
    frame is stated over, instantiated. -/
def outs : GenP.Outs (F := F) := fun J r c =>
  match J with
  | 2 => W2 m c r
  | 4 => W4 m c r
  | 6 => W6 m c r
  | 8 => W8 m c r
  | _ => W10 m c r

/-! ## The conditional frame's valuations are these

The conditional frame writes the valuation after a region as the one before it updated at the region's output array.
Since a region changes nothing else, that update is the region's exit valuation; a host stretch's meaning carries
the equation across. -/

/-- A valuation updated at one buffer to another's value there is the other, when the two agree everywhere else. -/
theorem run_update_eq (V W : Valuation τ sig (Elt F)) (r : DevRef τ sig) (h : ∀ b, b ≠ r → W b = V b) :
    Function.update V r (W r) = W := by
  funext b
  by_cases hb : b = r
  · subst hb; exact Function.update_self _ _ _
  · rw [Function.update_of_ne hb]; exact (h b hb).symm

theorem V2_eq (c : Dev nD) : GenP.V2 m (outs m) c = W2 m c :=
  run_update_eq (GenP.V1 m c) (W2 m c) (Proc.devRef .tc main_v16) (W2_of_ne' m c)
theorem V3_eq (c : Dev nD) : GenP.V3 m (outs m) c = W3 m c :=
  congrArg (StableHlo.after hostOps1) (V2_eq m c)
theorem V4_eq (c : Dev nD) : GenP.V4 m (outs m) c = W4 m c := by
  show Function.update (GenP.V3 m (outs m) c) (Proc.devRef .tc main_v28) (W4 m c main_v28) = W4 m c
  rw [V3_eq]; exact run_update_eq (W3 m c) (W4 m c) (Proc.devRef .tc main_v28) (W4_of_ne' m c)
theorem V5_eq (c : Dev nD) : GenP.V5 m (outs m) c = W5 m c :=
  congrArg (StableHlo.after hostOps2) (V4_eq m c)
theorem V6_eq (c : Dev nD) : GenP.V6 m (outs m) c = W6 m c := by
  show Function.update (GenP.V5 m (outs m) c) (Proc.devRef .tc main_v40) (W6 m c main_v40) = W6 m c
  rw [V5_eq]; exact run_update_eq (W5 m c) (W6 m c) (Proc.devRef .tc main_v40) (W6_of_ne' m c)
theorem V7_eq (c : Dev nD) : GenP.V7 m (outs m) c = W7 m c :=
  congrArg (StableHlo.after hostOps3) (V6_eq m c)
theorem V8_eq (c : Dev nD) : GenP.V8 m (outs m) c = W8 m c := by
  show Function.update (GenP.V7 m (outs m) c) (Proc.devRef .tc main_v52) (W8 m c main_v52) = W8 m c
  rw [V7_eq]; exact run_update_eq (W7 m c) (W8 m c) (Proc.devRef .tc main_v52) (W8_of_ne' m c)
theorem V9_eq (c : Dev nD) : GenP.V9 m (outs m) c = W9 m c :=
  congrArg (StableHlo.after hostOps4) (V8_eq m c)
theorem V10_eq (c : Dev nD) : GenP.V10 m (outs m) c = W10 m c := by
  show Function.update (GenP.V9 m (outs m) c) (Proc.devRef .tc main_v54) (W10 m c main_v54) = W10 m c
  rw [V9_eq]; exact run_update_eq (W9 m c) (W10 m c) (Proc.devRef .tc main_v54) (W10_of_ne' m c)

/-! ## The proof data, and what rides beside the buffers -/

/-- Every pipeline's proof data, each read off the valuation its region is entered from. -/
def pdats : (p : Fin 5) → (c : Dev nD) → Dat τ (Elt F) Unit ℕ (UR sig nD τ) ℕ (cfgs p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c

/-- Beside the buffers, through every item: the core's generator register at some state, and the core owing nothing. -/
abbrev restR (c : Dev nD) : sProp 𝕄 :=
  iprop((∃ r, prngReg c r) ∗ ∃ W, owes (c : Thread nD τ) (0 : CellTallies nD τ sig Unit) W)
/-- No core owes another anything, so no level is assigned. -/
abbrev noLv : GSem nD τ sig → Finset Unit := fun _ => ∅
abbrev lvl0 : GSem nD τ sig → Unit → ℕ := fun _ _ => 0

/-- A core owing nothing is what a pipeline takes at a point where its body owes nothing and bounds no recorded pair. -/
theorem run_owes_in {cfg : Cfg sig Λ₀} {c : Dev nD} (dat : Dat τ (Elt F) Unit ℕ (UR sig nD τ) ℕ cfg c) (t : Fin (cfg.N + 1))
    (h : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h]
  iintro ⟨%W, HO⟩
  iexists W
  isplitr
  · ipureintro; intro x _; exact Or.inl (hr ▸ Set.mem_univ x)
  iexact HO

/-- and what it gives back at such a point. -/
theorem run_owes_out {cfg : Cfg sig Λ₀} {c : Dev nD} (dat : Dat τ (Elt F) Unit ℕ (UR sig nD τ) ℕ cfg c) (t : Fin (cfg.N + 1))
    (h : dat.owed t = 0) :
    dat.owesAt () t ⊢ (iprop(∃ W, owes (c : Thread nD τ) (0 : CellTallies nD τ sig Unit) W) : sProp 𝕄) := by
  unfold Pipeline.Dat.owesAt Pipeline.owesWithin
  rw [h]
  iintro ⟨%W, -, HO⟩
  iexists W
  iexact HO

/-- The generator register and the scoped buffers no window stages make the class's region invariant (anything else
    offered is dropped), -/
theorem run_ΦA_in {gr W : Nat} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hs⟩
  isplitl [Hs]
  · iexact Hs
  iexact Hp

/-- and the invariant gives both back. -/
theorem run_ΦA_out {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hs, Hp⟩
  isplitl [Hp]
  · iexact Hp
  isplitr
  · iempintro
  iexact Hs

/-! ## A region's entry and exit over the thread state

Between items the thread state is "every unscoped buffer at the boundary's valuation, the generator register at some
state, nothing owed". A region's entry splits its windows' arrays out of the buffers at the proof data's entry contents;
its exit puts them back at the exit valuation, which has the arrays at the fold of the write-backs and every other
buffer as entered. -/

theorem W2_arr (c : Dev nD) (w : Fin cfg0.W) :
    W2 m c (Proc.devRef .tc (Pipeline.arrRef spec0 w)) = (dat0 (fun c b => W1 m c b) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (dat1 (fun c b => W3 m c b) c).arrAt w cfg1.N := by
  unfold W4; exact Pipeline.withArrays_arr spec1 launch1.win.arr_inj c _ _ w
theorem W6_arr (c : Dev nD) (w : Fin cfg2.W) :
    W6 m c (Proc.devRef .tc (Pipeline.arrRef spec2 w)) = (dat2 (fun c b => W5 m c b) c).arrAt w cfg2.N := by
  unfold W6; exact Pipeline.withArrays_arr spec2 launch2.win.arr_inj c _ _ w
theorem W8_arr (c : Dev nD) (w : Fin cfg3.W) :
    W8 m c (Proc.devRef .tc (Pipeline.arrRef spec3 w)) = (dat3 (fun c b => W7 m c b) c).arrAt w cfg3.N := by
  unfold W8; exact Pipeline.withArrays_arr spec3 launch3.win.arr_inj c _ _ w
theorem W10_arr (c : Dev nD) (w : Fin cfg4.W) :
    W10 m c (Proc.devRef .tc (Pipeline.arrRef spec4 w)) = (dat4 (fun c b => W9 m c b) c).arrAt w cfg4.N := by
  unfold W10; exact Pipeline.withArrays_arr spec4 launch4.win.arr_inj c _ _ w

set_option backward.isDefEq.respectTransparency.types false in
/-- ENTRY of pipeline p from the valuation Wv: the windows' arrays at the proof data's entry contents (which are
    read off Wv), no prefetched table, the core owing nothing, the generator register, and the unscoped buffers that
    are no array of the pipeline, still at Wv. -/
theorem run_entry (p : Fin 5) (kit : Pipeline.LaunchFacts (nD := nD) (τ := τ) cfgs p) (c : Dev nD) (Wv : Valuation τ sig (Elt F))
    (hq : ∀ w, (pdats m p c).q w = fullShare)
    (hA : ∀ w, (pdats m p c).A w = Wv (Proc.devRef .tc (Pipeline.arrRef (cfgs p).spec w)))
    (ho : (pdats m p c).owed 0 = 0) (hr : (pdats m p c).recorded 0 = Set.univ) :
    iprop(iprop(StableHlo.held (c : Thread nD τ) (Pipeline.ucRefs τ sig) Wv ∗ restR c)
        ∗ Pipeline.ownSems0 (fun k : PEmpty => k.elim) c ∗ levAts noLv lvl0)
      ⊢ (|={Set.univ}=> iprop((pdats m p c).arrays ((pdats m p c).arrAt · 0)
          ∗ Pipeline.prefHeld (pcfgs (F := F) p).pre c (fun _ => fullShare) (adm p).1
          ∗ (pdats m p c).owesAt () 0 ∗ (∃ r, prngReg c r)
          ∗ Pipeline.unscopedRest (Ix := Unit) (Name := ℕ) (U := UR sig nD τ) (Lvl := ℕ) (cfgs p).spec c (fun b => Wv b)) : sProp 𝕄) := by
  have hsplit := Pipeline.arrays_of_unscopedBufs (p := p) (pcfgs (F := F)) adm (pdats m) kit.win kit.arr_whole c
    ((pdats m p c).share_full hq) (fun b => Wv b) hA
  rw [Pipeline.unscopedBufs_held (Ix := Unit) (Name := ℕ) (U := UR sig nD τ) (Lvl := ℕ) c Wv] at hsplit
  have hO := run_owes_in (pdats m p c) 0 ho hr
  iintro ⟨⟨Hheld, Hprng, Howes⟩, -, -⟩
  ihave Hs := hsplit $$ Hheld
  icases Hs with ⟨Harr, Hrest⟩
  imodintro
  isplitl [Harr]
  · iexact Harr
  isplitr
  · unfold Pipeline.prefHeld
    rw [show (Finset.univ : Finset (Fin 0)) = ∅ from rfl, BI.bigSep_empty]
    iempintro
  isplitl [Howes]
  · iapply hO; iexact Howes
  isplitl [Hprng]
  · iexact Hprng
  iexact Hrest

set_option backward.isDefEq.respectTransparency.types false in
/-- EXIT of pipeline p to the valuation Wv': the arrays at the fold of the write-backs, which is what Wv' holds at them,
    and the bypassing buffers at Wv, with which Wv' agrees off the arrays, are every unscoped buffer at Wv'; the
    generator register and the core owing nothing ride on. -/
theorem run_exit (p : Fin 5) (kit : Pipeline.LaunchFacts (nD := nD) (τ := τ) cfgs p) (c : Dev nD) (Wv Wv' : Valuation τ sig (Elt F))
    (hq : ∀ w, (pdats m p c).q w = fullShare)
    (hF : ∀ w, (pdats m p c).arrAt w (cfgs p).N = Wv' (Proc.devRef .tc (Pipeline.arrRef (cfgs p).spec w)))
    (hrest : ∀ b : Ref sig .tc, b ∉ Finset.univ.image (Pipeline.arrRef (cfgs p).spec) → Wv' (Proc.devRef .tc b) = Wv (Proc.devRef .tc b))
    (ho : (pdats m p c).owed (Fin.last (cfgs p).N) = 0) :
    iprop((pdats m p c).arrays ((pdats m p c).arrAt · (cfgs p).N) ∗ (pdats m p c).owesAt () (Fin.last (cfgs p).N)
        ∗ (∃ r, prngReg c r)
        ∗ Pipeline.unscopedRest (Ix := Unit) (Name := ℕ) (U := UR sig nD τ) (Lvl := ℕ) (cfgs p).spec c (fun b => Wv b))
      ⊢ (|={Set.univ}=> iprop(StableHlo.held (c : Thread nD τ) (Pipeline.ucRefs τ sig) Wv' ∗ restR c) : sProp 𝕄) := by
  have hjoin := Pipeline.unscopedBufs_of_arrays (p := p) (pcfgs (F := F)) adm (Ix := Unit) (Name := ℕ) (U := UR sig nD τ) (Lvl := ℕ)
    kit.win kit.arr_whole c (pdats m) ((pdats m p c).share_full hq) (fun b => Wv b) (fun b => Wv' b)
    ((pdats m p c).arrAt · (cfgs p).N) hF hrest
  rw [Pipeline.unscopedBufs_held (Ix := Unit) (Name := ℕ) (U := UR sig nD τ) (Lvl := ℕ) c Wv'] at hjoin
  have hO := run_owes_out (pdats m p c) (Fin.last (cfgs p).N) ho
  iintro ⟨Harr, Howes, Hprng, Hrest⟩
  imodintro
  isplitl [Harr Hrest]
  · iapply hjoin
    isplitl [Harr]
    · iexact Harr
    iexact Hrest
  isplitl [Hprng]
  · iexact Hprng
  iapply hO; iexact Howes

/-! ## The regions as segments -/

set_option backward.isDefEq.respectTransparency.types false in
/-- LAYER 1's region over the thread state: entered from every unscoped buffer at W1, left at W2. The generator
    register goes into the class's invariant and comes back; nothing is owed; the kernel has no semaphore of its own. -/
def reg0 : Pipeline.RegionSeg (pcfgs (F := F)) adm (pdats m) () defs₀ Variants.none noLv lvl0 0 where
  win := launch0.win.to₀
  block_pos := launch0.block_pos
  stage_whole := launch0.stage_whole
  K := PEmpty
  osem k := k.elim
  ho := Pipeline.OwnSemFacts.none _
  hbody c := (body_obligation0 (fun c b => W1 m c b) c).loose
  hwaits := Pipeline.hwaits_of_owed_zero _ _ _ _ noLv lvl0 0 fun _ _ => rfl
  pre c := iprop(StableHlo.held (c : Thread nD τ) (Pipeline.ucRefs τ sig) (W1 m c) ∗ restR c)
  post c := iprop(StableHlo.held (c : Thread nD τ) (Pipeline.ucRefs τ sig) (W2 m c) ∗ restR c)
  X c := iprop(∃ r, prngReg c r)
  Y c := iprop(∃ r, prngReg c r)
  Z c := Pipeline.unscopedRest (Ix := Unit) (Name := ℕ) (U := UR sig nD τ) (Lvl := ℕ) spec0 c (fun b => W1 m c b)
  hentry c := run_entry m 0 launch0 c (W1 m c) (fun _ => rfl) (A_eq0 (fun c b => W1 m c b) c) rfl rfl
  hin c := run_ΦA_in spec0 c _
  hout c := by rw [Pipeline.ownSems0_none]; exact run_ΦA_out spec0 c
  hexit c := run_exit m 0 launch0 c (W1 m c) (W2 m c) (fun _ => rfl) (fun w => (W2_arr m c w).symm)
    (fun b hb => Pipeline.withArrays_of_ne spec0 c _ _ b fun w e => hb (Finset.mem_image.mpr ⟨w, Finset.mem_univ _, e⟩)) rfl

set_option backward.isDefEq.respectTransparency.types false in
/-- LAYER 2's region over the thread state: entered from every unscoped buffer at W3, left at W4. -/
def reg1 : Pipeline.RegionSeg (pcfgs (F := F)) adm (pdats m) () defs₀ Variants.none noLv lvl0 1 where
  win := launch1.win.to₀
  block_pos := launch1.block_pos
  stage_whole := launch1.stage_whole
  K := PEmpty
  osem k := k.elim
  ho := Pipeline.OwnSemFacts.none _
  hbody c := (body_obligation1 (fun c b => W3 m c b) c).loose
  hwaits := Pipeline.hwaits_of_owed_zero _ _ _ _ noLv lvl0 1 fun _ _ => rfl
  pre c := iprop(StableHlo.held (c : Thread nD τ) (Pipeline.ucRefs τ sig) (W3 m c) ∗ restR c)
  post c := iprop(StableHlo.held (c : Thread nD τ) (Pipeline.ucRefs τ sig) (W4 m c) ∗ restR c)
  X c := iprop(∃ r, prngReg c r)
  Y c := iprop(∃ r, prngReg c r)
  Z c := Pipeline.unscopedRest (Ix := Unit) (Name := ℕ) (U := UR sig nD τ) (Lvl := ℕ) spec1 c (fun b => W3 m c b)
  hentry c := run_entry m 1 launch1 c (W3 m c) (fun _ => rfl) (A_eq1 (fun c b => W3 m c b) c) rfl rfl
  hin c := run_ΦA_in spec1 c _
  hout c := by rw [Pipeline.ownSems0_none]; exact run_ΦA_out spec1 c
  hexit c := run_exit m 1 launch1 c (W3 m c) (W4 m c) (fun _ => rfl) (fun w => (W4_arr m c w).symm)
    (fun b hb => Pipeline.withArrays_of_ne spec1 c _ _ b fun w e => hb (Finset.mem_image.mpr ⟨w, Finset.mem_univ _, e⟩)) rfl

set_option backward.isDefEq.respectTransparency.types false in
/-- LAYER 3's region over the thread state: entered from every unscoped buffer at W5, left at W6. -/
def reg2 : Pipeline.RegionSeg (pcfgs (F := F)) adm (pdats m) () defs₀ Variants.none noLv lvl0 2 where
  win := launch2.win.to₀
  block_pos := launch2.block_pos
  stage_whole := launch2.stage_whole
  K := PEmpty
  osem k := k.elim
  ho := Pipeline.OwnSemFacts.none _
  hbody c := (body_obligation2 (fun c b => W5 m c b) c).loose
  hwaits := Pipeline.hwaits_of_owed_zero _ _ _ _ noLv lvl0 2 fun _ _ => rfl
  pre c := iprop(StableHlo.held (c : Thread nD τ) (Pipeline.ucRefs τ sig) (W5 m c) ∗ restR c)
  post c := iprop(StableHlo.held (c : Thread nD τ) (Pipeline.ucRefs τ sig) (W6 m c) ∗ restR c)
  X c := iprop(∃ r, prngReg c r)
  Y c := iprop(∃ r, prngReg c r)
  Z c := Pipeline.unscopedRest (Ix := Unit) (Name := ℕ) (U := UR sig nD τ) (Lvl := ℕ) spec2 c (fun b => W5 m c b)
  hentry c := run_entry m 2 launch2 c (W5 m c) (fun _ => rfl) (A_eq2 (fun c b => W5 m c b) c) rfl rfl
  hin c := run_ΦA_in spec2 c _
  hout c := by rw [Pipeline.ownSems0_none]; exact run_ΦA_out spec2 c
  hexit c := run_exit m 2 launch2 c (W5 m c) (W6 m c) (fun _ => rfl) (fun w => (W6_arr m c w).symm)
    (fun b hb => Pipeline.withArrays_of_ne spec2 c _ _ b fun w e => hb (Finset.mem_image.mpr ⟨w, Finset.mem_univ _, e⟩)) rfl

set_option backward.isDefEq.respectTransparency.types false in
/-- LAYER 4's region over the thread state: entered from every unscoped buffer at W7, left at W8. -/
def reg3 : Pipeline.RegionSeg (pcfgs (F := F)) adm (pdats m) () defs₀ Variants.none noLv lvl0 3 where
  win := launch3.win.to₀
  block_pos := launch3.block_pos
  stage_whole := launch3.stage_whole
  K := PEmpty
  osem k := k.elim
  ho := Pipeline.OwnSemFacts.none _
  hbody c := (body_obligation3 (fun c b => W7 m c b) c).loose
  hwaits := Pipeline.hwaits_of_owed_zero _ _ _ _ noLv lvl0 3 fun _ _ => rfl
  pre c := iprop(StableHlo.held (c : Thread nD τ) (Pipeline.ucRefs τ sig) (W7 m c) ∗ restR c)
  post c := iprop(StableHlo.held (c : Thread nD τ) (Pipeline.ucRefs τ sig) (W8 m c) ∗ restR c)
  X c := iprop(∃ r, prngReg c r)
  Y c := iprop(∃ r, prngReg c r)
  Z c := Pipeline.unscopedRest (Ix := Unit) (Name := ℕ) (U := UR sig nD τ) (Lvl := ℕ) spec3 c (fun b => W7 m c b)
  hentry c := run_entry m 3 launch3 c (W7 m c) (fun _ => rfl) (A_eq3 (fun c b => W7 m c b) c) rfl rfl
  hin c := run_ΦA_in spec3 c _
  hout c := by rw [Pipeline.ownSems0_none]; exact run_ΦA_out spec3 c
  hexit c := run_exit m 3 launch3 c (W7 m c) (W8 m c) (fun _ => rfl) (fun w => (W8_arr m c w).symm)
    (fun b hb => Pipeline.withArrays_of_ne spec3 c _ _ b fun w e => hb (Finset.mem_image.mpr ⟨w, Finset.mem_univ _, e⟩)) rfl

set_option backward.isDefEq.respectTransparency.types false in
/-- THE POOLING REGION over the thread state: entered from every unscoped buffer at W9, left at W10. Its invariant
    carries the two scratch accumulators besides; it is entered from the class's invariant before the first point and
    gives the class's invariant back after the last. -/
def reg4 : Pipeline.RegionSeg (pcfgs (F := F)) adm (pdats m) () defs₀ Variants.none noLv lvl0 4 where
  win := launch4.win.to₀
  block_pos := launch4.block_pos
  stage_whole := launch4.stage_whole
  K := PEmpty
  osem k := k.elim
  ho := Pipeline.OwnSemFacts.none _
  hbody c := (body_obligation4 (fun c b => W9 m c b) c).loose
  hwaits := Pipeline.hwaits_of_owed_zero _ _ _ _ noLv lvl0 4 fun _ _ => rfl
  pre c := iprop(StableHlo.held (c : Thread nD τ) (Pipeline.ucRefs τ sig) (W9 m c) ∗ restR c)
  post c := iprop(StableHlo.held (c : Thread nD τ) (Pipeline.ucRefs τ sig) (W10 m c) ∗ restR c)
  X c := iprop(∃ r, prngReg c r)
  Y c := iprop(∃ r, prngReg c r)
  Z c := Pipeline.unscopedRest (Ix := Unit) (Name := ℕ) (U := UR sig nD τ) (Lvl := ℕ) spec4 c (fun b => W9 m c b)
  hentry c := run_entry m 4 launch4 c (W9 m c) (fun _ => rfl) (A_eq4 (fun c b => W9 m c b) c) rfl rfl
  hin c := (run_ΦA_in spec4 c _).trans (hin4 (fun c b => W9 m c b) c)
  hout c := by rw [Pipeline.ownSems0_none]; exact (hout4 (fun c b => W9 m c b) c).trans (run_ΦA_out spec4 c)
  hexit c := run_exit m 4 launch4 c (W9 m c) (W10 m c) (fun _ => rfl) (fun w => (W10_arr m c w).symm)
    (fun b hb => Pipeline.withArrays_of_ne spec4 c _ _ b fun w e => hb (Finset.mem_image.mpr ⟨w, Finset.mem_univ _, e⟩)) rfl

/-! ## The launch -/

/-- The launch's ghost element is the pipeline library's at the program's staging cells; no core takes any other
    ghost resource. -/
theorem run_hu₀ :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  rw [BI.bigSep_emp_const]
  iempintro

/-- Out of what the launch deals a core — its semaphores at zero, its owing nothing, its generator register — the rest
    state: the register at its launch state, the core owing nothing at the empty recorded set. -/
theorem run_hE0 :
    iprop((bigSep Finset.univ fun c : Dev nD => iprop(unscopedSems0 c ∗ owes (c : Thread nD τ) (0 : CellTallies nD τ sig Unit) ∅
          ∗ Pipeline.launchCred (fun _ : Dev nD => (0 : CellTallies nD τ sig Unit)) c ∗ prngReg c (ρ c) ∗ (BI.emp : sProp 𝕄)))
        ∗ levAts noLv lvl0)
      ⊢ (|={Set.univ}=> bigSep Finset.univ (fun c : Dev nD => restR (F := F) c) : sProp 𝕄) := by
  refine Pipeline.initEach noLv lvl0 fun c => ?_
  iintro ⟨⟨-, HO, -, Hp, -⟩, -⟩
  imodintro
  isplitl [Hp]
  · iexists _; iexact Hp
  iexists ∅
  iexact HO

/-- The rest state ends owing nothing. -/
theorem run_hE5 (c : Dev nD) :
    restR (F := F) c ⊢ (iprop(∃ W, owes (c : Thread nD τ) (0 : CellTallies nD τ sig Unit) W) : sProp 𝕄) := by
  iintro ⟨-, H⟩
  iexact H

/-! ## The frame and the value run -/

set_option backward.isDefEq.respectTransparency.types false in
/-- THE FRAME: every weakly fair execution of @main from memory m with zero counters terminates and every final memory
    holds each argument array as launched — the conditional frame at the five records, each entered from and left at the
    valuation the conditional frame names (the equations above). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  GenP.frame_cond m emb₁ () Variants.none noLv lvl0 (fun _ _ => rfl) ρ (outs m) (pdats m)
    (fun _ => 0) (fun _ => iprop(emp)) (initOf (Pipeline.cells cfgs cellOf_inj) (Pipeline.launchToks cfgs cellOf_inj)) run_hu₀
    (fun _ c => restR c) (run_hE0 ρ) (fun c => run_hE5 c)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)

/-- An unscoped reference of the TensorCore is among the buffers the thread state holds. -/
theorem run_mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- THE VALUE RUN: the same executions end with every unscoped buffer at the last valuation (the conditional run at the
    five records); the result array is read there, where the last valuation is the pooling region's exit, and each
    argument walks back through the valuations to the launch memory. -/
theorem run_value : θ_run defs (onTc (τ := τ) (main (F := F))) ⟨m, fun _ => 0, ρ⟩ (fun r => ∀ c : Dev nD,
      r.2.mem ((c.tc : Thread nD τ).loc main_v54) = W10 m c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs (onTc (τ := τ) (main (F := F))) ⟨m, fun _ => 0, ρ⟩).mono
    (Q := fun r => ∀ c : Dev nD, ∀ b ∈ Pipeline.ucRefs τ sig, r.2.mem ((c.tc : Thread nD τ).1, b) = GenP.V10 m (outs m) c b)
    (fun r h c => ⟨(h c _ (run_mem_uc main_v54 (by decide))).trans (congrFun (V10_eq m c) _),
      (h c _ (run_mem_uc main_arg0 (by decide))).trans (GenP.V10_main_arg0 m (outs m) c),
      (h c _ (run_mem_uc main_arg1 (by decide))).trans (GenP.V10_main_arg1 m (outs m) c),
      (h c _ (run_mem_uc main_arg2 (by decide))).trans (GenP.V10_main_arg2 m (outs m) c),
      (h c _ (run_mem_uc main_arg3 (by decide))).trans (GenP.V10_main_arg3 m (outs m) c),
      (h c _ (run_mem_uc main_arg4 (by decide))).trans (GenP.V10_main_arg4 m (outs m) c),
      (h c _ (run_mem_uc main_arg5 (by decide))).trans (GenP.V10_main_arg5 m (outs m) c),
      (h c _ (run_mem_uc main_arg6 (by decide))).trans (GenP.V10_main_arg6 m (outs m) c),
      (h c _ (run_mem_uc main_arg7 (by decide))).trans (GenP.V10_main_arg7 m (outs m) c),
      (h c _ (run_mem_uc main_arg8 (by decide))).trans (GenP.V10_main_arg8 m (outs m) c),
      (h c _ (run_mem_uc main_arg9 (by decide))).trans (GenP.V10_main_arg9 m (outs m) c),
      (h c _ (run_mem_uc main_arg10 (by decide))).trans (GenP.V10_main_arg10 m (outs m) c),
      (h c _ (run_mem_uc main_arg11 (by decide))).trans (GenP.V10_main_arg11 m (outs m) c),
      (h c _ (run_mem_uc main_arg12 (by decide))).trans (GenP.V10_main_arg12 m (outs m) c),
      (h c _ (run_mem_uc main_arg13 (by decide))).trans (GenP.V10_main_arg13 m (outs m) c),
      (h c _ (run_mem_uc main_arg14 (by decide))).trans (GenP.V10_main_arg14 m (outs m) c),
      (h c _ (run_mem_uc main_arg15 (by decide))).trans (GenP.V10_main_arg15 m (outs m) c),
      (h c _ (run_mem_uc main_arg16 (by decide))).trans (GenP.V10_main_arg16 m (outs m) c)⟩)
    (run_cond m emb₁ () Variants.none noLv lvl0 (fun _ _ => rfl) ρ (outs m) (pdats m)
      (fun _ => 0) (fun _ => iprop(emp)) (initOf (Pipeline.cells cfgs cellOf_inj) (Pipeline.launchToks cfgs cellOf_inj)) run_hu₀
      (fun _ c => restR c) (run_hE0 ρ) (fun c => run_hE5 c)
      (reg0 m) (fun c => .rfl) (fun c => by rw [V2_eq]; exact .rfl)
      (reg1 m) (fun c => by rw [V3_eq]; exact .rfl) (fun c => by rw [V4_eq]; exact .rfl)
      (reg2 m) (fun c => by rw [V5_eq]; exact .rfl) (fun c => by rw [V6_eq]; exact .rfl)
      (reg3 m) (fun c => by rw [V7_eq]; exact .rfl) (fun c => by rw [V8_eq]; exact .rfl)
      (reg4 m) (fun c => by rw [V9_eq]; exact .rfl) (fun c => by rw [V10_eq]; exact .rfl))

end Cert.KernelIdeal.H

end
-- ==== Proof.RefImports.lean ====
/-
  The reference program's run and its operations read one at a time (generated modules), re-exported for the
  value side of this certificate.
-/
import proofs.«420548_j8821862826461_1_alg».proof.Proof.Gen.ReferenceIdeal.Run
import proofs.«420548_j8821862826461_1_alg».proof.Proof.Gen.ReferenceIdeal.Read
-- ==== Proof.RefFns.lean ====
/-
  The mathematics both programs compute, as functions of whole arrays, written with the host operations' own
  names: per graph-convolution layer the aggregated rows times one weight matrix plus the bias plus the node rows
  times the other weight matrix (and the maximum with zero on the first three layers); the aggregation itself, a sum
  of gathered rows per destination node; and the head: per graph the mean of its nodes' rows (the sum divided by the
  larger of the node count and one), times the head's weights, plus its bias.
-/
import proofs.«420548_j8821862826461_1_alg».proof.Proof.Gen.ReferenceIdeal

noncomputable section

namespace Cert.RefFns

open Cert.ReferenceIdeal Cert.ReferenceIdeal.Gen Idealize.ShloMosaic Idealize.ShloMosaic.TcCoe Idealize.SL.Sem Idealize.ShloMosaic.StableHlo

variable {F : FTy → Type} [FloatOps F]

/-- Each node's sum of the rows of `x` gathered along the edges that end at it (32 columns). -/
def agg32 (x : (⟨S40000x32, .f32⟩ : BufTy).Contents (Elt F)) (gi si : (⟨S640000x1, .i32⟩ : BufTy).Contents (Elt F)) : (⟨S40000x32, .f32⟩ : BufTy).Contents (Elt F) :=
  Host.scatterAdd scatter_S40000x32_S640000x1_S640000x32_1_0_0_1 (broadcastInDim S40000x32 ![] bcast_S_S40000x32 (constant (F := F) S_ .f32 0x00000000#32)) si
    (Host.gather gather_S40000x32_S640000x1_S640000x32_1_0_n_n_0_1_132 x gi)

/-- Each node's sum of the rows of `x` gathered along the edges that end at it (128 columns). -/
def agg128 (x : (⟨S40000x128, .f32⟩ : BufTy).Contents (Elt F)) (gi si : (⟨S640000x1, .i32⟩ : BufTy).Contents (Elt F)) : (⟨S40000x128, .f32⟩ : BufTy).Contents (Elt F) :=
  Host.scatterAdd scatter_S40000x128_S640000x1_S640000x128_1_0_0_1 (broadcastInDim S40000x128 ![] bcast_S_S40000x128 (constant (F := F) S_ .f32 0x00000000#32)) si
    (Host.gather gather_S40000x128_S640000x1_S640000x128_1_0_n_n_0_1_1128 x gi)

/-- Each node's sum of the rows of `x` gathered along the edges that end at it (64 columns). -/
def agg64 (x : (⟨S40000x64, .f32⟩ : BufTy).Contents (Elt F)) (gi si : (⟨S640000x1, .i32⟩ : BufTy).Contents (Elt F)) : (⟨S40000x64, .f32⟩ : BufTy).Contents (Elt F) :=
  Host.scatterAdd scatter_S40000x64_S640000x1_S640000x64_1_0_0_1 (broadcastInDim S40000x64 ![] bcast_S_S40000x64 (constant (F := F) S_ .f32 0x00000000#32)) si
    (Host.gather gather_S40000x64_S640000x1_S640000x64_1_0_n_n_0_1_164 x gi)

/-- Layer 1 on whole arrays: the aggregated rows times `Wr`, plus the bias row, plus the node rows times `Wo`, then the maximum with zero. -/
def layer1 (agg h : (⟨S40000x32, .f32⟩ : BufTy).Contents (Elt F)) (Wr Wo : (⟨S32x128, .f32⟩ : BufTy).Contents (Elt F)) (b : (⟨S1x128, .f32⟩ : BufTy).Contents (Elt F)) : (⟨S40000x128, .f32⟩ : BufTy).Contents (Elt F) :=
  maximumf (addf (addf (Host.dotGeneral dot_S40000x32_S32x128_S40000x128_1_0_0_1_n_n none agg Wr) (broadcastInDim S40000x128 ![0, 1] bcast_S1x128_S40000x128_0_1 b)) (Host.dotGeneral dot_S40000x32_S32x128_S40000x128_1_0_0_1_n_n none h Wo)) (broadcastInDim S40000x128 ![] bcast_S_S40000x128 (constant (F := F) S_ .f32 0x00000000#32))

/-- Layer 2 on whole arrays: the aggregated rows times `Wr`, plus the bias row, plus the node rows times `Wo`, then the maximum with zero. -/
def layer2 (agg h : (⟨S40000x128, .f32⟩ : BufTy).Contents (Elt F)) (Wr Wo : (⟨S128x64, .f32⟩ : BufTy).Contents (Elt F)) (b : (⟨S1x64, .f32⟩ : BufTy).Contents (Elt F)) : (⟨S40000x64, .f32⟩ : BufTy).Contents (Elt F) :=
  maximumf (addf (addf (Host.dotGeneral dot_S40000x128_S128x64_S40000x64_1_0_0_1_n_n none agg Wr) (broadcastInDim S40000x64 ![0, 1] bcast_S1x64_S40000x64_0_1 b)) (Host.dotGeneral dot_S40000x128_S128x64_S40000x64_1_0_0_1_n_n none h Wo)) (broadcastInDim S40000x64 ![] bcast_S_S40000x64 (constant (F := F) S_ .f32 0x00000000#32))

/-- Layer 3 on whole arrays: the aggregated rows times `Wr`, plus the bias row, plus the node rows times `Wo`, then the maximum with zero. -/
def layer3 (agg h : (⟨S40000x64, .f32⟩ : BufTy).Contents (Elt F)) (Wr Wo : (⟨S64x32, .f32⟩ : BufTy).Contents (Elt F)) (b : (⟨S1x32, .f32⟩ : BufTy).Contents (Elt F)) : (⟨S40000x32, .f32⟩ : BufTy).Contents (Elt F) :=
  maximumf (addf (addf (Host.dotGeneral dot_S40000x64_S64x32_S40000x32_1_0_0_1_n_n none agg Wr) (broadcastInDim S40000x32 ![0, 1] bcast_S1x32_S40000x32_0_1 b)) (Host.dotGeneral dot_S40000x64_S64x32_S40000x32_1_0_0_1_n_n none h Wo)) (broadcastInDim S40000x32 ![] bcast_S_S40000x32 (constant (F := F) S_ .f32 0x00000000#32))

/-- Layer 4 on whole arrays: the aggregated rows times `Wr`, plus the bias row, plus the node rows times `Wo`. -/
def layer4 (agg h : (⟨S40000x32, .f32⟩ : BufTy).Contents (Elt F)) (Wr Wo : (⟨S32x16, .f32⟩ : BufTy).Contents (Elt F)) (b : (⟨S1x16, .f32⟩ : BufTy).Contents (Elt F)) : (⟨S40000x16, .f32⟩ : BufTy).Contents (Elt F) :=
  addf (addf (Host.dotGeneral dot_S40000x32_S32x16_S40000x16_1_0_0_1_n_n none agg Wr) (broadcastInDim S40000x16 ![0, 1] bcast_S1x16_S40000x16_0_1 b)) (Host.dotGeneral dot_S40000x32_S32x16_S40000x16_1_0_0_1_n_n none h Wo)

/-- The head: the rows of `h` summed per graph id, divided by the larger of the graph's node count and one, times
    `Wfc`, plus the bias. A node whose id is no graph's contributes to no sum and to no count. -/
def pool (h : (⟨S40000x16, .f32⟩ : BufTy).Contents (Elt F)) (bi : (⟨S40000x1, .i32⟩ : BufTy).Contents (Elt F)) (Wfc : (⟨S16x1, .f32⟩ : BufTy).Contents (Elt F)) (b11 : (⟨S1x1, .f32⟩ : BufTy).Contents (Elt F)) : (⟨S64x1, .f32⟩ : BufTy).Contents (Elt F) :=
  addf (Host.dotGeneral dot_S64x16_S16x1_S64x1_1_0_0_1_n_n none
      (Host.divf (Host.scatterAdd scatter_S64x16_S40000x1_S40000x16_1_0_0_1 (broadcastInDim S64x16 ![] bcast_S_S64x16 (constant (F := F) S_ .f32 0x00000000#32)) bi h)
        (broadcastInDim S64x16 ![0, 1] bcast_S64x1_S64x16_0_1
          (maximumf (Host.scatterAdd scatter_S64x1_S40000x1_S40000x1_1_0_0_1 (broadcastInDim S64x1 ![] bcast_S_S64x1 (constant (F := F) S_ .f32 0x00000000#32)) bi (broadcastInDim S40000x1 ![] bcast_S_S40000x1 (constant (F := F) S_ .f32 0x3F800000#32)))
            (broadcastInDim S64x1 ![] bcast_S_S64x1 (constant (F := F) S_ .f32 0x3F800000#32)))))
      Wfc)
    (broadcastInDim S64x1 ![0, 1] bcast_S1x1_S64x1_0_1 b11)

end Cert.RefFns

end
-- ==== Proof.Value.HostReads.lean ====
/-
  What each host stretch of the kernel program leaves in the buffers the next kernel region reads, over any
  valuation `X` of the buffers before the stretch, written with the reference's own per-operation terms:
  the aggregated rows (a sum of gathered rows per destination node), each layer's bias as one row, the graph
  ids as one column. Also the reference's terms regrouped stage by stage (aggregation, layer, head).
-/
import proofs.«420548_j8821862826461_1_alg».proof.Proof.KernelIdeal.Regions
import proofs.«420548_j8821862826461_1_alg».proof.Proof.RefFns
import proofs.«420548_j8821862826461_1_alg».proof.Proof.RefImports
import Idealize.ShloMosaic.Lib.StableHlo.Run
import Idealize.ShloMosaic.Lib.ValueLayout
import Idealize.ShloMosaic.Lib.ValueIdx

set_option maxRecDepth 16384

noncomputable section

namespace Cert.KernelIdeal.HV

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx

/-! ## A vector laid out as one row or as one column

The kernel program reshapes a vector `[a]` to `[1, a]` (a bias) or to `[a, 1]` (the graph ids); the reference
broadcasts it along the new array's last, respectively first, axis. Both read entry `i` of the vector at `(0, i)`,
respectively `(i, 0)`: row-major position `0 * a + i`, respectively `i * 1 + 0`. -/

section Layout
variable {α : Type}

/-- A vector cast to one row is its broadcast along the last axis. -/
theorem rowCast_eq_bcast {a : ℕ} (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x h = broadcastInDim ⟨2, ![1, a]⟩ ![1] hb x := by
  funext j
  have h0 : (j 0).val = 0 := Nat.lt_one_iff.mp (j 0).isLt
  have h1 : (j 1).val < a := (j 1).isLt
  rw [shapeCast_apply x h j (ix1 (n := a) (j 1)) (by
        rw [Shape.rowMajor_val_one, Shape.rowMajor_val_two]
        show (j 1).val = (j 0).val * a + (j 1).val
        rw [h0, Nat.zero_mul, Nat.zero_add]),
      broadcastInDim_apply ![1] hb x j (ix1 (n := a) (j 1)) (fun d => match d with
        | ⟨0, _⟩ => by
          show (j 1).val = if a = 1 then 0 else (j 1).val
          split <;> omega)]

/-- A vector cast to one column is its broadcast along the first axis. -/
theorem colCast_eq_bcast {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x h = broadcastInDim ⟨2, ![a, 1]⟩ ![0] hb x := by
  funext j
  have h1 : (j 1).val = 0 := Nat.lt_one_iff.mp (j 1).isLt
  have h0 : (j 0).val < a := (j 0).isLt
  rw [shapeCast_apply x h j (ix1 (n := a) (j 0)) (by
        rw [Shape.rowMajor_val_one, Shape.rowMajor_val_two]
        show (j 0).val = (j 0).val * 1 + (j 1).val
        rw [h1, Nat.mul_one, Nat.add_zero]),
      broadcastInDim_apply ![0] hb x j (ix1 (n := a) (j 0)) (fun d => match d with
        | ⟨0, _⟩ => by
          show (j 0).val = if a = 1 then 0 else (j 0).val
          split <;> omega)]

end Layout

/-! ## The index columns of an aggregation

Every layer gathers the rows named by the edges' source entries and adds them into the rows named by the edges'
destination entries. Both programs recompute the two index columns before each layer, by the same operations on the
same two rows of the edge array: a negative source entry wraps around by the number of nodes (40000), then the vector
becomes a column; the destination vector becomes a column as it is. -/

/-- The source entries as the gather's index column: a negative entry `r` reads row `r + 40000`. -/
def gcol (r : (⟨S640000, .i32⟩ : BufTy).Contents (Elt Ideal)) : (⟨S640000x1, .i32⟩ : BufTy).Contents (Elt Ideal) :=
  broadcastInDim S640000x1 ![0] bcast_S640000_S640000x1_0
    (select (cmpi .slt r (broadcastInDim S640000 ![] bcast_S_S640000 (constantI S_ 32 0#32)))
      (addi r (broadcastInDim S640000 ![] bcast_S_S640000 (constantI S_ 32 40000#32))) r)

/-- The destination entries as the scatter's index column. -/
def scol (r : (⟨S640000, .i32⟩ : BufTy).Contents (Elt Ideal)) : (⟨S640000x1, .i32⟩ : BufTy).Contents (Elt Ideal) :=
  broadcastInDim S640000x1 ![0] bcast_S640000_S640000x1_0 r

section Reference
open Cert.ReferenceIdeal.Read

/-! ### The reference's four pairs of index columns are these two functions of the edge array's two rows -/

theorem ref_gcol1 (x1) : val_main_v9 (F := Ideal) x1 = gcol (val_main_v1 (F := Ideal) x1) := rfl
theorem ref_gcol2 (x1) : val_main_v26 (F := Ideal) x1 = gcol (val_main_v1 (F := Ideal) x1) := rfl
theorem ref_gcol3 (x1) : val_main_v43 (F := Ideal) x1 = gcol (val_main_v1 (F := Ideal) x1) := rfl
theorem ref_gcol4 (x1) : val_main_v60 (F := Ideal) x1 = gcol (val_main_v1 (F := Ideal) x1) := rfl
theorem ref_scol1 (x1) : val_main_v12 (F := Ideal) x1 = scol (val_main_v3 (F := Ideal) x1) := rfl
theorem ref_scol2 (x1) : val_main_v29 (F := Ideal) x1 = scol (val_main_v3 (F := Ideal) x1) := rfl
theorem ref_scol3 (x1) : val_main_v46 (F := Ideal) x1 = scol (val_main_v3 (F := Ideal) x1) := rfl
theorem ref_scol4 (x1) : val_main_v63 (F := Ideal) x1 = scol (val_main_v3 (F := Ideal) x1) := rfl

/-! ### The reference's terms, stage by stage

Each aggregation is the scatter-add, from zero, of the gathered rows; each layer is the aggregated rows times one
weight matrix, plus the bias row, plus the node rows times the other (and the maximum with zero on the first three);
the head divides each graph's sum of rows by the larger of its node count and one, multiplies by the head's weights and
adds its bias. -/

theorem ref_agg1 (x0 x1) : val_main_v13 (F := Ideal) x0 x1
    = Cert.RefFns.agg32 x0 (val_main_v9 x1) (val_main_v12 x1) := rfl
theorem ref_layer1 (x0 x1 x3 x4 x5) : val_main_v20 (F := Ideal) x0 x1 x3 x4 x5
    = Cert.RefFns.layer1 (val_main_v13 x0 x1) x0 x3 x5 (val_main_v15 x4) := rfl
theorem ref_agg2 (x0 x1 x3 x4 x5) : val_main_v30 (F := Ideal) x0 x1 x3 x4 x5
    = Cert.RefFns.agg128 (val_main_v20 x0 x1 x3 x4 x5) (val_main_v26 x1) (val_main_v29 x1) := rfl
theorem ref_layer2 (x0 x1 x3 x4 x5 x6 x7 x8) : val_main_v37 (F := Ideal) x0 x1 x3 x4 x5 x6 x7 x8
    = Cert.RefFns.layer2 (val_main_v30 x0 x1 x3 x4 x5) (val_main_v20 x0 x1 x3 x4 x5) x6 x8 (val_main_v32 x7) := rfl
theorem ref_agg3 (x0 x1 x3 x4 x5 x6 x7 x8) : val_main_v47 (F := Ideal) x0 x1 x3 x4 x5 x6 x7 x8
    = Cert.RefFns.agg64 (val_main_v37 x0 x1 x3 x4 x5 x6 x7 x8) (val_main_v43 x1) (val_main_v46 x1) := rfl
theorem ref_layer3 (x0 x1 x3 x4 x5 x6 x7 x8 x9 x10 x11) : val_main_v54 (F := Ideal) x0 x1 x3 x4 x5 x6 x7 x8 x9 x10 x11
    = Cert.RefFns.layer3 (val_main_v47 x0 x1 x3 x4 x5 x6 x7 x8) (val_main_v37 x0 x1 x3 x4 x5 x6 x7 x8) x9 x11 (val_main_v49 x10) := rfl
theorem ref_agg4 (x0 x1 x3 x4 x5 x6 x7 x8 x9 x10 x11) : val_main_v64 (F := Ideal) x0 x1 x3 x4 x5 x6 x7 x8 x9 x10 x11
    = Cert.RefFns.agg32 (val_main_v54 x0 x1 x3 x4 x5 x6 x7 x8 x9 x10 x11) (val_main_v60 x1) (val_main_v63 x1) := rfl
theorem ref_layer4 (x0 x1 x3 x4 x5 x6 x7 x8 x9 x10 x11 x12 x13 x14) :
    val_main_v70 (F := Ideal) x0 x1 x3 x4 x5 x6 x7 x8 x9 x10 x11 x12 x13 x14
    = Cert.RefFns.layer4 (val_main_v64 x0 x1 x3 x4 x5 x6 x7 x8 x9 x10 x11) (val_main_v54 x0 x1 x3 x4 x5 x6 x7 x8 x9 x10 x11) x12 x14 (val_main_v66 x13) := rfl
theorem ref_pool (x0 x1 x2 x3 x4 x5 x6 x7 x8 x9 x10 x11 x12 x13 x14 x15 x16) :
    val_main_v85 (F := Ideal) x0 x1 x2 x3 x4 x5 x6 x7 x8 x9 x10 x11 x12 x13 x14 x15 x16
    = Cert.RefFns.pool (val_main_v70 x0 x1 x3 x4 x5 x6 x7 x8 x9 x10 x11 x12 x13 x14) (val_main_v72 x2) x15 (val_main_v83 x16) := rfl

end Reference

/-! ## What the host stretches leave, over any valuation before them -/

section Stretches
open Cert.ReferenceIdeal.Read

variable (X : Valuation τ sig (Elt Ideal))

/-! ### Stretch 0: the two rows of the edge array, the graph ids as a column, layer 1's aggregated rows and bias row -/

/-- The source entries: row 0 of the edge array. -/
theorem s0_src : StableHlo.after (hostOps0 (F := Ideal)) X (Proc.devRef .tc main_v1)
    = val_main_v1 (F := Ideal) (X (Proc.devRef .tc main_arg1)) := by
  after_results_simp; rfl

/-- The destination entries: row 1 of the edge array. -/
theorem s0_dst : StableHlo.after (hostOps0 (F := Ideal)) X (Proc.devRef .tc main_v3)
    = val_main_v3 (F := Ideal) (X (Proc.devRef .tc main_arg1)) := by
  after_results_simp; rfl

/-- The graph ids as one column. -/
theorem s0_ids : StableHlo.after (hostOps0 (F := Ideal)) X (Proc.devRef .tc main_v4)
    = val_main_v72 (F := Ideal) (X (Proc.devRef .tc main_arg2)) := by
  after_results_simp
  exact colCast_eq_bcast _ _ _

/-- Layer 1's aggregated rows: the node features gathered along the edges and summed per destination. -/
theorem s0_agg : StableHlo.after (hostOps0 (F := Ideal)) X (Proc.devRef .tc main_v14)
    = Cert.RefFns.agg32 (F := Ideal) (X (Proc.devRef .tc main_arg0))
        (val_main_v9 (F := Ideal) (X (Proc.devRef .tc main_arg1)))
        (val_main_v12 (F := Ideal) (X (Proc.devRef .tc main_arg1))) := by
  after_results_simp; rfl

/-- Layer 1's bias as one row. -/
theorem s0_bias : StableHlo.after (hostOps0 (F := Ideal)) X (Proc.devRef .tc main_v15)
    = val_main_v15 (F := Ideal) (X (Proc.devRef .tc main_arg4)) := by
  after_results_simp
  exact rowCast_eq_bcast _ _ _

/-- Stretch 0 leaves every buffer it does not write as it was. -/
theorem s0_keep (r : Ref sig .tc) (h : r ∉ hostOps0_W) :
    StableHlo.after (hostOps0 (F := Ideal)) X (Proc.devRef .tc r) = X (Proc.devRef .tc r) :=
  StableHlo.after_of_writes_sub hostOps0 _ hostOps0_writes h

/-! ### Stretch 1: layer 2's aggregated rows (of layer 1's output) and bias row -/

theorem s1_agg : StableHlo.after (hostOps1 (F := Ideal)) X (Proc.devRef .tc main_v26)
    = Cert.RefFns.agg128 (F := Ideal) (X (Proc.devRef .tc main_v16))
        (gcol (X (Proc.devRef .tc main_v1))) (scol (X (Proc.devRef .tc main_v3))) := by
  after_results_simp; rfl

theorem s1_bias : StableHlo.after (hostOps1 (F := Ideal)) X (Proc.devRef .tc main_v27)
    = val_main_v32 (F := Ideal) (X (Proc.devRef .tc main_arg7)) := by
  after_results_simp
  exact rowCast_eq_bcast _ _ _

theorem s1_keep (r : Ref sig .tc) (h : r ∉ hostOps1_W) :
    StableHlo.after (hostOps1 (F := Ideal)) X (Proc.devRef .tc r) = X (Proc.devRef .tc r) :=
  StableHlo.after_of_writes_sub hostOps1 _ hostOps1_writes h

/-! ### Stretch 2: layer 3's aggregated rows (of layer 2's output) and bias row -/

theorem s2_agg : StableHlo.after (hostOps2 (F := Ideal)) X (Proc.devRef .tc main_v38)
    = Cert.RefFns.agg64 (F := Ideal) (X (Proc.devRef .tc main_v28))
        (gcol (X (Proc.devRef .tc main_v1))) (scol (X (Proc.devRef .tc main_v3))) := by
  after_results_simp; rfl

theorem s2_bias : StableHlo.after (hostOps2 (F := Ideal)) X (Proc.devRef .tc main_v39)
    = val_main_v49 (F := Ideal) (X (Proc.devRef .tc main_arg10)) := by
  after_results_simp
  exact rowCast_eq_bcast _ _ _

theorem s2_keep (r : Ref sig .tc) (h : r ∉ hostOps2_W) :
    StableHlo.after (hostOps2 (F := Ideal)) X (Proc.devRef .tc r) = X (Proc.devRef .tc r) :=
  StableHlo.after_of_writes_sub hostOps2 _ hostOps2_writes h

/-! ### Stretch 3: layer 4's aggregated rows (of layer 3's output) and bias row -/

theorem s3_agg : StableHlo.after (hostOps3 (F := Ideal)) X (Proc.devRef .tc main_v50)
    = Cert.RefFns.agg32 (F := Ideal) (X (Proc.devRef .tc main_v40))
        (gcol (X (Proc.devRef .tc main_v1))) (scol (X (Proc.devRef .tc main_v3))) := by
  after_results_simp; rfl

theorem s3_bias : StableHlo.after (hostOps3 (F := Ideal)) X (Proc.devRef .tc main_v51)
    = val_main_v66 (F := Ideal) (X (Proc.devRef .tc main_arg13)) := by
  after_results_simp
  exact rowCast_eq_bcast _ _ _

theorem s3_keep (r : Ref sig .tc) (h : r ∉ hostOps3_W) :
    StableHlo.after (hostOps3 (F := Ideal)) X (Proc.devRef .tc r) = X (Proc.devRef .tc r) :=
  StableHlo.after_of_writes_sub hostOps3 _ hostOps3_writes h

/-! ### Stretch 4: the head's bias as a one-by-one array -/

theorem s4_bias : StableHlo.after (hostOps4 (F := Ideal)) X (Proc.devRef .tc main_v53)
    = val_main_v83 (F := Ideal) (X (Proc.devRef .tc main_arg16)) := by
  after_results_simp
  exact rowCast_eq_bcast _ _ _

theorem s4_keep (r : Ref sig .tc) (h : r ∉ hostOps4_W) :
    StableHlo.after (hostOps4 (F := Ideal)) X (Proc.devRef .tc r) = X (Proc.devRef .tc r) :=
  StableHlo.after_of_writes_sub hostOps4 _ hostOps4_writes h

end Stretches

end Cert.KernelIdeal.HV

end
-- ==== Proof.Value.Conv.lean ====
import Idealize.ShloMosaic.Lib.ValueIdx
import Idealize.ShloMosaic.PureOps.Ideal.Laws
noncomputable section
namespace Cert.KernelIdeal.HV
open Idealize.ShloMosaic Idealize.ShloMosaic.ValueIdx
open scoped BigOperators

/-! # One entry of a graph-convolution layer, before any clamp

For arrays `agg`, `h` of `N` rows and `K` columns, weight matrices `Wr`, `Wo` of `K` rows and `O` columns and a bias
row `b` of `O` columns, the entry at row `n` and column `o` is

  (∑ k, agg[n,k] · Wr[k,o]) + b[0,o] + ∑ k, h[n,k] · Wo[k,o]

over the extended reals. It depends on row `n` of `agg` and of `h` only: a block of rows of the layer is the layer of
the same block of rows of the two arrays. -/

/-- The entry at row `n`, column `o`. -/
def convEntry {N K O : Nat} (agg h : (⟨2, ![N, K]⟩ : Shape).Idx → EReal) (Wr Wo : (⟨2, ![K, O]⟩ : Shape).Idx → EReal)
    (b : (⟨2, ![1, O]⟩ : Shape).Idx → EReal) (n : Fin N) (o : Fin O) : EReal :=
  (∑ k : Fin K, agg (ix2 n k) * Wr (ix2 k o)) + b (ix2 (0 : Fin 1) o) + ∑ k : Fin K, h (ix2 n k) * Wo (ix2 k o)

/-- The entry reads the two row arrays on row `n` only: arrays of another height that agree with them on that row (at
    their own row `n'`) give the same entry. -/
theorem convEntry_congr_rows {N N' K O : Nat} (agg h : (⟨2, ![N, K]⟩ : Shape).Idx → EReal)
    (agg' h' : (⟨2, ![N', K]⟩ : Shape).Idx → EReal) (Wr Wo : (⟨2, ![K, O]⟩ : Shape).Idx → EReal)
    (b : (⟨2, ![1, O]⟩ : Shape).Idx → EReal) (n : Fin N) (n' : Fin N') (o : Fin O)
    (hagg : ∀ k : Fin K, agg (ix2 n k) = agg' (ix2 n' k)) (hh : ∀ k : Fin K, h (ix2 n k) = h' (ix2 n' k)) :
    convEntry agg h Wr Wo b n o = convEntry agg' h' Wr Wo b n' o := by
  unfold convEntry
  rw [Finset.sum_congr rfl fun k _ => congrArg (· * Wr (ix2 k o)) (hagg k),
    Finset.sum_congr rfl fun k _ => congrArg (· * Wo (ix2 k o)) (hh k)]

end Cert.KernelIdeal.HV
end
-- ==== Proof.Value.Layer1.Payload.lean ====
import proofs.«420548_j8821862826461_1_alg».proof.Proof.Gen.KernelIdeal.Skeleton
import proofs.«420548_j8821862826461_1_alg».proof.Proof.RefFns
import proofs.«420548_j8821862826461_1_alg».proof.Proof.Value.Conv
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HV
open Cert.KernelIdeal Cert.KernelIdeal.Gen
open Idealize.ShloMosaic Idealize.ShloMosaic.TcCoe Idealize.ShloMosaic.ValueIdx
open Idealize.SL.Sem
open scoped BigOperators

/-! # Layer 1 at one entry: the block the kernel's body stores, and the whole-array layer, are both the clamped entry

Both sides are read at row `p` (of a block of 5000 rows, or of the array of 40000 rows) and column `o` as the maximum
with zero of `convEntry`; the body adds the two products first and the bias last, the whole-array layer adds the bias
between the two products: one exchange of summands. -/

/-! ## The body's product of a 5000×32 block with a 32×128 matrix -/

theorem blockDot1_lhs_0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl
theorem blockDot1_lhs_1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q
theorem blockDot1_rhs_0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q
theorem blockDot1_rhs_1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- The product into a zero accumulator, at row `p` and column `o`: the sum over the 32 shared coordinates. -/
theorem blockDot1_apply (a : FVec Ideal S5000x32 .bf16) (w : FVec Ideal S32x128 .bf16) (p : Fin 5000) (o : Fin 128) :
    matmul dot_S5000x32_S32x128_S5000x128_1_0_0_1_n_n none a w (constant (F := Ideal) S5000x128 .f32 0x00000000#32) (ix2 p o)
      = ∑ k : Fin 32, a (ix2 p k) * w (ix2 k o) := by
  simp only [matmul]
  rw [Ideal.matmul_constant_zero_apply, ← Equiv.sum_comp (ValueIdx.contrEquiv1 dot_S5000x32_S32x128_S5000x128_1_0_0_1_n_n 32 rfl rfl).symm]
  refine Finset.sum_congr rfl fun k _ => ?_
  have hk := ValueIdx.contrEquiv1_symm_val dot_S5000x32_S32x128_S5000x128_1_0_0_1_n_n 32 rfl rfl k
  have el : dot_S5000x32_S32x128_S5000x128_1_0_0_1_n_n.lhsIdx (ix2 p o) ((ValueIdx.contrEquiv1 dot_S5000x32_S32x128_S5000x128_1_0_0_1_n_n 32 rfl rfl).symm k) = ix2 p k := funext fun a => Fin.ext (by
    match a with
    | ⟨0, _⟩ => exact blockDot1_lhs_0 _ _
    | ⟨1, _⟩ => exact (blockDot1_lhs_1 _ _).trans hk)
  have er : dot_S5000x32_S32x128_S5000x128_1_0_0_1_n_n.rhsIdx (ix2 p o) ((ValueIdx.contrEquiv1 dot_S5000x32_S32x128_S5000x128_1_0_0_1_n_n 32 rfl rfl).symm k) = ix2 k o := funext fun a => Fin.ext (by
    match a with
    | ⟨0, _⟩ => exact (blockDot1_rhs_0 _ _).trans hk
    | ⟨1, _⟩ => exact blockDot1_rhs_1 _ _)
  rw [el, er]

/-- THE BODY'S BLOCK AT AN ENTRY: the clamped entry of the layer on the five loaded operands. -/
theorem k0_pay1_apply (x0 x1 : Vec Ideal S5000x32 .f32) (x2 x3 : Vec Ideal S32x128 .f32) (x4 : Vec Ideal S1x128 .f32)
    (p : Fin 5000) (o : Fin 128) :
    k0_pay1 (F := Ideal) x0 x1 x2 x3 x4 (ix2 p o) = max (convEntry (N := 5000) (K := 32) (O := 128) x0 x1 x2 x3 x4 p o) 0 := by
  unfold k0_pay1
  simp only [maximumf_apply, addf_apply, broadcast_apply, shapeCast_self]
  rw [blockDot1_apply, blockDot1_apply, broadcastTo_1b_ab_apply]
  simp only [truncf_apply]
  rw [Ideal.ofBits_def, Ideal.ofBits_zero_f32]
  unfold convEntry
  exact congrArg (max · 0) (add_right_comm _ _ _)

/-! ## The whole-array layer's product of the 40000×32 array with a 32×128 matrix -/

theorem arrayDot1_lhs_0 (i : Cert.ReferenceIdeal.S40000x128.Idx) (q : Cert.ReferenceIdeal.dot_S40000x32_S32x128_S40000x128_1_0_0_1_n_n.contr.Idx) :
    (Cert.ReferenceIdeal.dot_S40000x32_S32x128_S40000x128_1_0_0_1_n_n.lhsIdx i q 0).val = (i 0).val := by
  unfold DotDims.lhsIdx
  rw [dif_neg (show ¬(0 : Fin Cert.ReferenceIdeal.S40000x32.rank) ∈ Cert.ReferenceIdeal.dot_S40000x32_S32x128_S40000x128_1_0_0_1_n_n.lhsBatch by decide), dif_pos (show (0 : Fin Cert.ReferenceIdeal.S40000x32.rank) ∈ Cert.ReferenceIdeal.dot_S40000x32_S32x128_S40000x128_1_0_0_1_n_n.lhsNonContracting by decide)]
  rfl
theorem arrayDot1_lhs_1 (i : Cert.ReferenceIdeal.S40000x128.Idx) (q : Cert.ReferenceIdeal.dot_S40000x32_S32x128_S40000x128_1_0_0_1_n_n.contr.Idx) :
    (Cert.ReferenceIdeal.dot_S40000x32_S32x128_S40000x128_1_0_0_1_n_n.lhsIdx i q 1).val = (q ⟨0, by decide⟩).val :=
  Cert.ReferenceIdeal.dot_S40000x32_S32x128_S40000x128_1_0_0_1_n_n.lhsIdx_val_of_single rfl i q
theorem arrayDot1_rhs_0 (i : Cert.ReferenceIdeal.S40000x128.Idx) (q : Cert.ReferenceIdeal.dot_S40000x32_S32x128_S40000x128_1_0_0_1_n_n.contr.Idx) :
    (Cert.ReferenceIdeal.dot_S40000x32_S32x128_S40000x128_1_0_0_1_n_n.rhsIdx i q 0).val = (q ⟨0, by decide⟩).val :=
  Cert.ReferenceIdeal.dot_S40000x32_S32x128_S40000x128_1_0_0_1_n_n.rhsIdx_val_of_single rfl i q
theorem arrayDot1_rhs_1 (i : Cert.ReferenceIdeal.S40000x128.Idx) (q : Cert.ReferenceIdeal.dot_S40000x32_S32x128_S40000x128_1_0_0_1_n_n.contr.Idx) :
    (Cert.ReferenceIdeal.dot_S40000x32_S32x128_S40000x128_1_0_0_1_n_n.rhsIdx i q 1).val = (i 1).val := by
  unfold DotDims.rhsIdx
  rw [dif_neg (show ¬(1 : Fin Cert.ReferenceIdeal.S32x128.rank) ∈ Cert.ReferenceIdeal.dot_S40000x32_S32x128_S40000x128_1_0_0_1_n_n.rhsBatch by decide), dif_pos (show (1 : Fin Cert.ReferenceIdeal.S32x128.rank) ∈ Cert.ReferenceIdeal.dot_S40000x32_S32x128_S40000x128_1_0_0_1_n_n.rhsNonContracting by decide)]
  rfl

/-- The whole-array product at row `n` and column `o`: the sum over the 32 shared coordinates. -/
theorem arrayDot1_apply (a : FVec Ideal Cert.ReferenceIdeal.S40000x32 .f32) (w : FVec Ideal Cert.ReferenceIdeal.S32x128 .f32) (n : Fin 40000) (o : Fin 128) :
    Host.dotGeneral (F := Ideal) Cert.ReferenceIdeal.dot_S40000x32_S32x128_S40000x128_1_0_0_1_n_n none a w (ix2 n o)
      = ∑ k : Fin 32, a (ix2 n k) * w (ix2 k o) := by
  simp only [Host.dotGeneral]
  rw [Ideal.dotGeneral_apply, ← Equiv.sum_comp (ValueIdx.contrEquiv1 Cert.ReferenceIdeal.dot_S40000x32_S32x128_S40000x128_1_0_0_1_n_n 32 rfl rfl).symm]
  refine Finset.sum_congr rfl fun k _ => ?_
  have hk := ValueIdx.contrEquiv1_symm_val Cert.ReferenceIdeal.dot_S40000x32_S32x128_S40000x128_1_0_0_1_n_n 32 rfl rfl k
  have el : Cert.ReferenceIdeal.dot_S40000x32_S32x128_S40000x128_1_0_0_1_n_n.lhsIdx (ix2 n o) ((ValueIdx.contrEquiv1 Cert.ReferenceIdeal.dot_S40000x32_S32x128_S40000x128_1_0_0_1_n_n 32 rfl rfl).symm k) = ix2 n k := funext fun a => Fin.ext (by
    match a with
    | ⟨0, _⟩ => exact arrayDot1_lhs_0 _ _
    | ⟨1, _⟩ => exact (arrayDot1_lhs_1 _ _).trans hk)
  have er : Cert.ReferenceIdeal.dot_S40000x32_S32x128_S40000x128_1_0_0_1_n_n.rhsIdx (ix2 n o) ((ValueIdx.contrEquiv1 Cert.ReferenceIdeal.dot_S40000x32_S32x128_S40000x128_1_0_0_1_n_n 32 rfl rfl).symm k) = ix2 k o := funext fun a => Fin.ext (by
    match a with
    | ⟨0, _⟩ => exact (arrayDot1_rhs_0 _ _).trans hk
    | ⟨1, _⟩ => exact arrayDot1_rhs_1 _ _)
  rw [el, er]

/-- The bias row laid under every row of the array reads, at row `n` and column `o`, the bias at `o`. -/
theorem biasRows1_apply (b : Vec Ideal Cert.ReferenceIdeal.S1x128 .f32) (n : Fin 40000) (o : Fin 128) :
    broadcastInDim Cert.ReferenceIdeal.S40000x128 ![0, 1] Cert.ReferenceIdeal.Gen.bcast_S1x128_S40000x128_0_1 b (ix2 n o) = b (ix2 (0 : Fin 1) o) :=
  broadcastInDim_apply _ Cert.ReferenceIdeal.Gen.bcast_S1x128_S40000x128_0_1 b (ix2 n o) (ix2 (0 : Fin 1) o) (fun a => match a with
    | ⟨0, _⟩ => by show 0 = if (1 : Nat) = 1 then 0 else n.val; rw [if_pos rfl]
    | ⟨1, _⟩ => by show o.val = if (128 : Nat) = 1 then 0 else o.val; rw [if_neg (by decide)])

/-- The zero laid over the whole array reads zero at every entry. -/
theorem zeros1_apply (i : Cert.ReferenceIdeal.S40000x128.Idx) :
    broadcastInDim Cert.ReferenceIdeal.S40000x128 ![] Cert.ReferenceIdeal.Gen.bcast_S_S40000x128 (constant (F := Ideal) Cert.ReferenceIdeal.S_ .f32 0x00000000#32) i = 0 := by
  rw [broadcastInDim_apply _ Cert.ReferenceIdeal.Gen.bcast_S_S40000x128 _ i ix0 (fun a => a.elim0), constant_apply, Ideal.ofBits_zero_f32]

/-- THE WHOLE-ARRAY LAYER AT AN ENTRY: the clamped entry. -/
theorem layer1_apply (agg h : Vec Ideal Cert.ReferenceIdeal.S40000x32 .f32) (Wr Wo : Vec Ideal Cert.ReferenceIdeal.S32x128 .f32)
    (b : Vec Ideal Cert.ReferenceIdeal.S1x128 .f32) (n : Fin 40000) (o : Fin 128) :
    Cert.RefFns.layer1 (F := Ideal) agg h Wr Wo b (ix2 n o) = max (convEntry (N := 40000) (K := 32) (O := 128) agg h Wr Wo b n o) 0 := by
  unfold Cert.RefFns.layer1
  simp only [maximumf_apply, addf_apply]
  rw [arrayDot1_apply, arrayDot1_apply, biasRows1_apply, zeros1_apply]
  rfl

end Cert.KernelIdeal.HV
end
-- ==== Proof.Value.Layer1.lean ====
import proofs.«420548_j8821862826461_1_alg».proof.Proof.KernelIdeal.Region0
import proofs.«420548_j8821862826461_1_alg».proof.Proof.RefFns
import proofs.«420548_j8821862826461_1_alg».proof.Proof.Value.Layer1.Payload
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HV
open Cert.KernelIdeal Cert.KernelIdeal.Gen Cert.KernelIdeal.GenP Cert.KernelIdeal.H
open Idealize.ShloMosaic Idealize.ShloMosaic.TcCoe Idealize.ShloMosaic.ValueIdx
open Idealize.SL.Sem
open Idealize.ShloMosaic.Pipeline (Dat Cfg Window)
open scoped BigOperators

/-! # Layer 1 as one function of the arrays the region finds

The region's grid has 8 points; point `t` reads rows 5000·t … 5000·t+4999 of the aggregated rows and of the node rows,
the two weight matrices and the bias row whole, and writes back rows 5000·t … 5000·t+4999 of the output. Each entry
of a written block is the clamped entry of the layer on the block's rows, which is the layer's entry on the arrays'
rows; the eight blocks tile the 40000 rows; so the output array ends holding the whole-array layer. -/

theorem zeroOffsets1 : (![0, 0] : Fin 2 → Nat) = fun _ => 0 := funext fun a => by fin_cases a <;> rfl

/-- What the body leaves in the output buffer is the block the body stores: one store over the whole buffer, of
    the loads of the five input buffers, each whole. -/
theorem out0_5_eq (x0 x1 : Vec Ideal S5000x32 .f32) (x2 x3 : Vec Ideal S32x128 .f32) (x4 : Vec Ideal S1x128 .f32) :
    out0_5 (F := Ideal) x0 x1 x2 x3 x4 = k0_pay1 (F := Ideal) x0 x1 x2 x3 x4 := by
  unfold out0_5
  rw [View.canon_unit_zero zeroOffsets1]
  simp only [View.ld_unit_zero (S := S5000x32) zeroOffsets1, View.ld_unit_zero (S := S32x128) zeroOffsets1, View.ld_unit_zero (S := S1x128) zeroOffsets1]

/-- ONE ENTRY OF A WRITTEN BLOCK. Blocks `x0`, `x1` that are rows `T·5000 …` of `agg`, `h`, and `x2`, `x3`, `x4` that
    are `Wr`, `Wo`, `b`: the body's block at `j` is the whole-array layer at the entry `i` of row `T·5000 + j₀` and
    column `j₁`. -/
theorem blockEntry1 (x0 x1 : Vec Ideal S5000x32 .f32) (x2 x3 : Vec Ideal S32x128 .f32) (x4 : Vec Ideal S1x128 .f32)
    (agg h : Vec Ideal S40000x32 .f32) (Wr Wo : Vec Ideal S32x128 .f32) (b : Vec Ideal S1x128 .f32)
    (T : Nat) (j : S5000x128.Idx) (i : S40000x128.Idx)
    (hi0 : (i 0).val = T * 5000 + (j 0).val) (hi1 : (i 1).val = (j 1).val)
    (h0 : ∀ (y : S5000x32.Idx) (y' : S40000x32.Idx), (y' 0).val = T * 5000 + (y 0).val → (y' 1).val = (y 1).val → x0 y = agg y')
    (h1 : ∀ (y : S5000x32.Idx) (y' : S40000x32.Idx), (y' 0).val = T * 5000 + (y 0).val → (y' 1).val = (y 1).val → x1 y = h y')
    (h2 : ∀ y : S32x128.Idx, x2 y = Wr y) (h3 : ∀ y : S32x128.Idx, x3 y = Wo y) (h4 : ∀ y : S1x128.Idx, x4 y = b y) :
    k0_pay1 (F := Ideal) x0 x1 x2 x3 x4 j = Cert.RefFns.layer1 (F := Ideal) agg h Wr Wo b i := by
  obtain ⟨p, o, rfl⟩ : ∃ (p : Fin 5000) (o : Fin 128), j = ix2 p o := ⟨j 0, j 1, eq_ix2 j⟩
  obtain ⟨n, o', rfl⟩ : ∃ (n : Fin 40000) (o' : Fin 128), i = ix2 n o' := ⟨i 0, i 1, eq_ix2 i⟩
  have hn : n.val = T * 5000 + p.val := hi0
  have ho : o' = o := Fin.ext hi1
  subst ho
  obtain rfl : x2 = Wr := funext h2
  obtain rfl : x3 = Wo := funext h3
  obtain rfl : x4 = b := funext h4
  rw [k0_pay1_apply, layer1_apply]
  exact congrArg (max · 0) (convEntry_congr_rows x0 x1 agg h x2 x3 x4 p n o'
    (fun k => h0 (ix2 p k) (ix2 n k) hn rfl) (fun k => h1 (ix2 p k) (ix2 n k) hn rfl))

section Region
variable (V : (c : Dev nD) → (b : Ref sig .tc) → Buf (Elt Ideal) ((c : Thread nD τ).loc b))

/-- The windows' block indices at point `t`, decided over the grid: the row windows and the output window are at
    block `t` of the rows and block 0 of the columns; the weights and the bias are at block 0 on both axes. -/
theorem blockIndex1 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the whole-array layer of the arrays as the region finds them. -/
theorem flushed0_eq (c : Dev nD) (t : Fin cfg0.N) :
    (dat0 (F := Ideal) V c).flushed 5 t = ((cfg0.win 5).blk t).view.read (Elt Ideal)
      (Cert.RefFns.layer1 (F := Ideal) (V c main_v14) (V c main_arg0) (V c main_arg3) (V c main_arg5) (V c main_v15)) := by
  show (cfg0.win 5).cut (grid0.coords t) ((dat0 (F := Ideal) V c).after 5 t) = _
  rw [after0_5, out0_5_eq]
  obtain ⟨e00, e01, e10, e11, e20, e21, e30, e31, e40, e41, e50, e51⟩ := blockIndex1 t
  funext j
  show k0_pay1 (F := Ideal) (iblk0 V c 0 t) (iblk0 V c 1 t) (iblk0 V c 2 t) (iblk0 V c 3 t) (iblk0 V c 4 t) j
    = Cert.RefFns.layer1 (F := Ideal) (V c main_v14) (V c main_arg0) (V c main_arg3) (V c main_arg5) (V c main_v15) (((cfg0.win 5).blk t).view.emb j)
  refine blockEntry1 (iblk0 V c 0 t) (iblk0 V c 1 t) (iblk0 V c 2 t) (iblk0 V c 3 t) (iblk0 V c 4 t)
    (V c main_v14) (V c main_arg0) (V c main_arg3) (V c main_arg5) (V c main_v15) t.val j (((cfg0.win 5).blk t).view.emb j) ?_ ?_ ?_ ?_ ?_ ?_ ?_
  · show win0_5.index t (0 : Fin 2) * 5000 + 1 * (j 0).val = t.val * 5000 + (j 0).val; omega
  · show win0_5.index t (1 : Fin 2) * 128 + 1 * (j 1).val = (j 1).val; omega
  · intro y y' hy0 hy1
    show V c main_v14 (((cfg0.win 0).blk t).view.emb y) = V c main_v14 y'
    refine congrArg _ (funext fun a => Fin.ext ?_)
    match a with
    | ⟨0, _⟩ => show win0_0.index t (0 : Fin 2) * 5000 + 1 * (y 0).val = (y' 0).val; omega
    | ⟨1, _⟩ => show win0_0.index t (1 : Fin 2) * 32 + 1 * (y 1).val = (y' 1).val; omega
  · intro y y' hy0 hy1
    show V c main_arg0 (((cfg0.win 1).blk t).view.emb y) = V c main_arg0 y'
    refine congrArg _ (funext fun a => Fin.ext ?_)
    match a with
    | ⟨0, _⟩ => show win0_1.index t (0 : Fin 2) * 5000 + 1 * (y 0).val = (y' 0).val; omega
    | ⟨1, _⟩ => show win0_1.index t (1 : Fin 2) * 32 + 1 * (y 1).val = (y' 1).val; omega
  · intro y
    show V c main_arg3 (((cfg0.win 2).blk t).view.emb y) = V c main_arg3 y
    refine congrArg _ (funext fun a => Fin.ext ?_)
    match a with
    | ⟨0, _⟩ => show win0_2.index t (0 : Fin 2) * 32 + 1 * (y 0).val = (y 0).val; omega
    | ⟨1, _⟩ => show win0_2.index t (1 : Fin 2) * 128 + 1 * (y 1).val = (y 1).val; omega
  · intro y
    show V c main_arg5 (((cfg0.win 3).blk t).view.emb y) = V c main_arg5 y
    refine congrArg _ (funext fun a => Fin.ext ?_)
    match a with
    | ⟨0, _⟩ => show win0_3.index t (0 : Fin 2) * 32 + 1 * (y 0).val = (y 0).val; omega
    | ⟨1, _⟩ => show win0_3.index t (1 : Fin 2) * 128 + 1 * (y 1).val = (y 1).val; omega
  · intro y
    show V c main_v15 (((cfg0.win 4).blk t).view.emb y) = V c main_v15 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega

end Region

/-- An entry of the output array is in point `t`'s block iff its row is among the block's 5000 rows (and its column
    among the 128). -/
theorem mem_block1 (t : Fin cfg0.N) (i : S40000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v16).slice (win0_5.rect t)).set ↔ _
  rw [View.set_slice_whole, Rect.mem_set_unit]
  exact Iff.rfl

/-- THE EIGHT BLOCKS TILE THE ARRAY: row `n` lies in the block of point `n / 5000`. -/
theorem cover1 (i : S40000x128.Idx) : ∃ t : Fin cfg0.N, (cfg0.win 5).flush t = true ∧ i ∈ ((cfg0.win 5).blk t).view.set := by
  have hi0 : (i 0).val < 40000 := (i 0).isLt
  have hi1 : (i 1).val < 128 := (i 1).isLt
  have hN : grid0.N = 8 := N_0
  let t : Fin cfg0.N := ⟨(i 0).val / 5000, by show (i 0).val / 5000 < grid0.N; omega⟩
  obtain ⟨-, -, -, -, -, -, -, -, -, -, e50, e51⟩ := blockIndex1 t
  have ht : t.val = (i 0).val / 5000 := rfl
  refine ⟨t, flush0_5 t, ?_⟩
  rw [mem_block1]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY AFTER THE REGION: the whole-array layer of the arrays the region found. -/
theorem final0 (V : (c : Dev nD) → (b : Ref sig .tc) → Buf (Elt Ideal) ((c : Thread nD τ).loc b)) (c : Dev nD) :
    (dat0 (F := Ideal) V c).arrAt 5 cfg0.N = Cert.RefFns.layer1 (F := Ideal) (V c main_v14) (V c main_arg0) (V c main_arg3) (V c main_arg5) (V c main_v15) :=
  (dat0 (F := Ideal) V c).arrAt_eq_of_cover 5 _ (fun t _ => flushed0_eq V c t) cover1

end Cert.KernelIdeal.HV
end
-- ==== Proof.Value.Layer2.Payload.lean ====
import proofs.«420548_j8821862826461_1_alg».proof.Proof.Gen.KernelIdeal.Skeleton
import proofs.«420548_j8821862826461_1_alg».proof.Proof.RefFns
import proofs.«420548_j8821862826461_1_alg».proof.Proof.Value.Conv
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HV
open Cert.KernelIdeal Cert.KernelIdeal.Gen
open Idealize.ShloMosaic Idealize.ShloMosaic.TcCoe Idealize.ShloMosaic.ValueIdx
open Idealize.SL.Sem
open scoped BigOperators

/-! # Layer 2 at one entry: the block the kernel's body stores, and the whole-array layer, are both the clamped entry

Both sides are read at row `p` (of a block of 5000 rows, or of the array of 40000 rows) and column `o` as the maximum
with zero of `convEntry`; the body adds the two products first and the bias last, the whole-array layer adds the bias
between the two products: one exchange of summands. -/

/-! ## The body's product of a 5000×128 block with a 128×64 matrix -/

theorem blockDot2_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blockDot2_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem blockDot2_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem blockDot2_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, at row `p` and column `o`: the sum over the 128 shared coordinates. -/
theorem blockDot2_apply (a : FVec Ideal S5000x128 .bf16) (w : FVec Ideal S128x64 .bf16) (p : Fin 5000) (o : Fin 64) :
    matmul dot_S5000x128_S128x64_S5000x64_1_0_0_1_n_n none a w (constant (F := Ideal) S5000x64 .f32 0x00000000#32) (ix2 p o)
      = ∑ k : Fin 128, a (ix2 p k) * w (ix2 k o) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p o) ((ValueIdx.contrEquiv1 dot_S5000x128_S128x64_S5000x64_1_0_0_1_n_n 128 rfl rfl).symm k) = ix2 p k := funext fun a => Fin.ext (by
    match a with
    | ⟨0, _⟩ => exact blockDot2_lhs_0 _ _
    | ⟨1, _⟩ => exact (blockDot2_lhs_1 _ _).trans hk)
  have er : dot_S5000x128_S128x64_S5000x64_1_0_0_1_n_n.rhsIdx (ix2 p o) ((ValueIdx.contrEquiv1 dot_S5000x128_S128x64_S5000x64_1_0_0_1_n_n 128 rfl rfl).symm k) = ix2 k o := funext fun a => Fin.ext (by
    match a with
    | ⟨0, _⟩ => exact (blockDot2_rhs_0 _ _).trans hk
    | ⟨1, _⟩ => exact blockDot2_rhs_1 _ _)
  rw [el, er]

/-- THE BODY'S BLOCK AT AN ENTRY: the clamped entry of the layer on the five loaded operands. -/
theorem k1_pay1_apply (x0 x1 : Vec Ideal S5000x128 .f32) (x2 x3 : Vec Ideal S128x64 .f32) (x4 : Vec Ideal S1x64 .f32)
    (p : Fin 5000) (o : Fin 64) :
    k1_pay1 (F := Ideal) x0 x1 x2 x3 x4 (ix2 p o) = max (convEntry (N := 5000) (K := 128) (O := 64) x0 x1 x2 x3 x4 p o) 0 := by
  unfold k1_pay1
  simp only [maximumf_apply, addf_apply, broadcast_apply, shapeCast_self]
  rw [blockDot2_apply, blockDot2_apply, broadcastTo_1b_ab_apply]
  simp only [truncf_apply]
  rw [Ideal.ofBits_def, Ideal.ofBits_zero_f32]
  unfold convEntry
  exact congrArg (max · 0) (add_right_comm _ _ _)

/-! ## The whole-array layer's product of the 40000×128 array with a 128×64 matrix -/

theorem arrayDot2_lhs_0 (i : Cert.ReferenceIdeal.S40000x64.Idx) (q : Cert.ReferenceIdeal.dot_S40000x128_S128x64_S40000x64_1_0_0_1_n_n.contr.Idx) :
    (Cert.ReferenceIdeal.dot_S40000x128_S128x64_S40000x64_1_0_0_1_n_n.lhsIdx i q 0).val = (i 0).val := by
  unfold DotDims.lhsIdx
  rw [dif_neg (show ¬(0 : Fin Cert.ReferenceIdeal.S40000x128.rank) ∈ Cert.ReferenceIdeal.dot_S40000x128_S128x64_S40000x64_1_0_0_1_n_n.lhsBatch by decide), dif_pos (show (0 : Fin Cert.ReferenceIdeal.S40000x128.rank) ∈ Cert.ReferenceIdeal.dot_S40000x128_S128x64_S40000x64_1_0_0_1_n_n.lhsNonContracting by decide)]
  rfl
theorem arrayDot2_lhs_1 (i : Cert.ReferenceIdeal.S40000x64.Idx) (q : Cert.ReferenceIdeal.dot_S40000x128_S128x64_S40000x64_1_0_0_1_n_n.contr.Idx) :
    (Cert.ReferenceIdeal.dot_S40000x128_S128x64_S40000x64_1_0_0_1_n_n.lhsIdx i q 1).val = (q ⟨0, by decide⟩).val :=
  Cert.ReferenceIdeal.dot_S40000x128_S128x64_S40000x64_1_0_0_1_n_n.lhsIdx_val_of_single rfl i q
theorem arrayDot2_rhs_0 (i : Cert.ReferenceIdeal.S40000x64.Idx) (q : Cert.ReferenceIdeal.dot_S40000x128_S128x64_S40000x64_1_0_0_1_n_n.contr.Idx) :
    (Cert.ReferenceIdeal.dot_S40000x128_S128x64_S40000x64_1_0_0_1_n_n.rhsIdx i q 0).val = (q ⟨0, by decide⟩).val :=
  Cert.ReferenceIdeal.dot_S40000x128_S128x64_S40000x64_1_0_0_1_n_n.rhsIdx_val_of_single rfl i q
theorem arrayDot2_rhs_1 (i : Cert.ReferenceIdeal.S40000x64.Idx) (q : Cert.ReferenceIdeal.dot_S40000x128_S128x64_S40000x64_1_0_0_1_n_n.contr.Idx) :
    (Cert.ReferenceIdeal.dot_S40000x128_S128x64_S40000x64_1_0_0_1_n_n.rhsIdx i q 1).val = (i 1).val := by
  unfold DotDims.rhsIdx
  rw [dif_neg (show ¬(1 : Fin Cert.ReferenceIdeal.S128x64.rank) ∈ Cert.ReferenceIdeal.dot_S40000x128_S128x64_S40000x64_1_0_0_1_n_n.rhsBatch by decide), dif_pos (show (1 : Fin Cert.ReferenceIdeal.S128x64.rank) ∈ Cert.ReferenceIdeal.dot_S40000x128_S128x64_S40000x64_1_0_0_1_n_n.rhsNonContracting by decide)]
  rfl

/-- The whole-array product at row `n` and column `o`: the sum over the 128 shared coordinates. -/
theorem arrayDot2_apply (a : FVec Ideal Cert.ReferenceIdeal.S40000x128 .f32) (w : FVec Ideal Cert.ReferenceIdeal.S128x64 .f32) (n : Fin 40000) (o : Fin 64) :
    Host.dotGeneral (F := Ideal) Cert.ReferenceIdeal.dot_S40000x128_S128x64_S40000x64_1_0_0_1_n_n none a w (ix2 n o)
      = ∑ k : Fin 128, a (ix2 n k) * w (ix2 k o) := by
  simp only [Host.dotGeneral]
  rw [Ideal.dotGeneral_apply, ← Equiv.sum_comp (ValueIdx.contrEquiv1 Cert.ReferenceIdeal.dot_S40000x128_S128x64_S40000x64_1_0_0_1_n_n 128 rfl rfl).symm]
  refine Finset.sum_congr rfl fun k _ => ?_
  have hk := ValueIdx.contrEquiv1_symm_val Cert.ReferenceIdeal.dot_S40000x128_S128x64_S40000x64_1_0_0_1_n_n 128 rfl rfl k
  have el : Cert.ReferenceIdeal.dot_S40000x128_S128x64_S40000x64_1_0_0_1_n_n.lhsIdx (ix2 n o) ((ValueIdx.contrEquiv1 Cert.ReferenceIdeal.dot_S40000x128_S128x64_S40000x64_1_0_0_1_n_n 128 rfl rfl).symm k) = ix2 n k := funext fun a => Fin.ext (by
    match a with
    | ⟨0, _⟩ => exact arrayDot2_lhs_0 _ _
    | ⟨1, _⟩ => exact (arrayDot2_lhs_1 _ _).trans hk)
  have er : Cert.ReferenceIdeal.dot_S40000x128_S128x64_S40000x64_1_0_0_1_n_n.rhsIdx (ix2 n o) ((ValueIdx.contrEquiv1 Cert.ReferenceIdeal.dot_S40000x128_S128x64_S40000x64_1_0_0_1_n_n 128 rfl rfl).symm k) = ix2 k o := funext fun a => Fin.ext (by
    match a with
    | ⟨0, _⟩ => exact (arrayDot2_rhs_0 _ _).trans hk
    | ⟨1, _⟩ => exact arrayDot2_rhs_1 _ _)
  rw [el, er]

/-- The bias row laid under every row of the array reads, at row `n` and column `o`, the bias at `o`. -/
theorem biasRows2_apply (b : Vec Ideal Cert.ReferenceIdeal.S1x64 .f32) (n : Fin 40000) (o : Fin 64) :
    broadcastInDim Cert.ReferenceIdeal.S40000x64 ![0, 1] Cert.ReferenceIdeal.Gen.bcast_S1x64_S40000x64_0_1 b (ix2 n o) = b (ix2 (0 : Fin 1) o) :=
  broadcastInDim_apply _ Cert.ReferenceIdeal.Gen.bcast_S1x64_S40000x64_0_1 b (ix2 n o) (ix2 (0 : Fin 1) o) (fun a => match a with
    | ⟨0, _⟩ => by show 0 = if (1 : Nat) = 1 then 0 else n.val; rw [if_pos rfl]
    | ⟨1, _⟩ => by show o.val = if (64 : Nat) = 1 then 0 else o.val; rw [if_neg (by decide)])

/-- The zero laid over the whole array reads zero at every entry. -/
theorem zeros2_apply (i : Cert.ReferenceIdeal.S40000x64.Idx) :
    broadcastInDim Cert.ReferenceIdeal.S40000x64 ![] Cert.ReferenceIdeal.Gen.bcast_S_S40000x64 (constant (F := Ideal) Cert.ReferenceIdeal.S_ .f32 0x00000000#32) i = 0 := by
  rw [broadcastInDim_apply _ Cert.ReferenceIdeal.Gen.bcast_S_S40000x64 _ i ix0 (fun a => a.elim0), constant_apply, Ideal.ofBits_zero_f32]

/-- THE WHOLE-ARRAY LAYER AT AN ENTRY: the clamped entry. -/
theorem layer2_apply (agg h : Vec Ideal Cert.ReferenceIdeal.S40000x128 .f32) (Wr Wo : Vec Ideal Cert.ReferenceIdeal.S128x64 .f32)
    (b : Vec Ideal Cert.ReferenceIdeal.S1x64 .f32) (n : Fin 40000) (o : Fin 64) :
    Cert.RefFns.layer2 (F := Ideal) agg h Wr Wo b (ix2 n o) = max (convEntry (N := 40000) (K := 128) (O := 64) agg h Wr Wo b n o) 0 := by
  unfold Cert.RefFns.layer2
  simp only [maximumf_apply, addf_apply]
  rw [arrayDot2_apply, arrayDot2_apply, biasRows2_apply, zeros2_apply]
  rfl

end Cert.KernelIdeal.HV
end
-- ==== Proof.Value.Layer2.lean ====
import proofs.«420548_j8821862826461_1_alg».proof.Proof.KernelIdeal.Region1
import proofs.«420548_j8821862826461_1_alg».proof.Proof.RefFns
import proofs.«420548_j8821862826461_1_alg».proof.Proof.Value.Layer2.Payload
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HV
open Cert.KernelIdeal Cert.KernelIdeal.Gen Cert.KernelIdeal.GenP Cert.KernelIdeal.H
open Idealize.ShloMosaic Idealize.ShloMosaic.TcCoe Idealize.ShloMosaic.ValueIdx
open Idealize.SL.Sem
open Idealize.ShloMosaic.Pipeline (Dat Cfg Window)
open scoped BigOperators

/-! # Layer 2 as one function of the arrays the region finds

The region's grid has 8 points; point `t` reads rows 5000·t … 5000·t+4999 of the aggregated rows and of the node rows,
the two weight matrices and the bias row whole, and writes back rows 5000·t … 5000·t+4999 of the output. Each entry
of a written block is the clamped entry of the layer on the block's rows, which is the layer's entry on the arrays'
rows; the eight blocks tile the 40000 rows; so the output array ends holding the whole-array layer. -/

theorem zeroOffsets2 : (![0, 0] : Fin 2 → Nat) = fun _ => 0 := funext fun a => by fin_cases a <;> rfl

/-- What the body leaves in the output buffer is the block the body stores: one store over the whole buffer, of
    the loads of the five input buffers, each whole. -/
theorem out1_5_eq (x0 x1 : Vec Ideal S5000x128 .f32) (x2 x3 : Vec Ideal S128x64 .f32) (x4 : Vec Ideal S1x64 .f32) :
    out1_5 (F := Ideal) x0 x1 x2 x3 x4 = k1_pay1 (F := Ideal) x0 x1 x2 x3 x4 := by
  unfold out1_5
  rw [View.canon_unit_zero zeroOffsets2]
  simp only [View.ld_unit_zero (S := S5000x128) zeroOffsets2, View.ld_unit_zero (S := S128x64) zeroOffsets2, View.ld_unit_zero (S := S1x64) zeroOffsets2]

/-- ONE ENTRY OF A WRITTEN BLOCK. Blocks `x0`, `x1` that are rows `T·5000 …` of `agg`, `h`, and `x2`, `x3`, `x4` that
    are `Wr`, `Wo`, `b`: the body's block at `j` is the whole-array layer at the entry `i` of row `T·5000 + j₀` and
    column `j₁`. -/
theorem blockEntry2 (x0 x1 : Vec Ideal S5000x128 .f32) (x2 x3 : Vec Ideal S128x64 .f32) (x4 : Vec Ideal S1x64 .f32)
    (agg h : Vec Ideal S40000x128 .f32) (Wr Wo : Vec Ideal S128x64 .f32) (b : Vec Ideal S1x64 .f32)
    (T : Nat) (j : S5000x64.Idx) (i : S40000x64.Idx)
    (hi0 : (i 0).val = T * 5000 + (j 0).val) (hi1 : (i 1).val = (j 1).val)
    (h0 : ∀ (y : S5000x128.Idx) (y' : S40000x128.Idx), (y' 0).val = T * 5000 + (y 0).val → (y' 1).val = (y 1).val → x0 y = agg y')
    (h1 : ∀ (y : S5000x128.Idx) (y' : S40000x128.Idx), (y' 0).val = T * 5000 + (y 0).val → (y' 1).val = (y 1).val → x1 y = h y')
    (h2 : ∀ y : S128x64.Idx, x2 y = Wr y) (h3 : ∀ y : S128x64.Idx, x3 y = Wo y) (h4 : ∀ y : S1x64.Idx, x4 y = b y) :
    k1_pay1 (F := Ideal) x0 x1 x2 x3 x4 j = Cert.RefFns.layer2 (F := Ideal) agg h Wr Wo b i := by
  obtain ⟨p, o, rfl⟩ : ∃ (p : Fin 5000) (o : Fin 64), j = ix2 p o := ⟨j 0, j 1, eq_ix2 j⟩
  obtain ⟨n, o', rfl⟩ : ∃ (n : Fin 40000) (o' : Fin 64), i = ix2 n o' := ⟨i 0, i 1, eq_ix2 i⟩
  have hn : n.val = T * 5000 + p.val := hi0
  have ho : o' = o := Fin.ext hi1
  subst ho
  obtain rfl : x2 = Wr := funext h2
  obtain rfl : x3 = Wo := funext h3
  obtain rfl : x4 = b := funext h4
  rw [k1_pay1_apply, layer2_apply]
  exact congrArg (max · 0) (convEntry_congr_rows x0 x1 agg h x2 x3 x4 p n o'
    (fun k => h0 (ix2 p k) (ix2 n k) hn rfl) (fun k => h1 (ix2 p k) (ix2 n k) hn rfl))

section Region
variable (V : (c : Dev nD) → (b : Ref sig .tc) → Buf (Elt Ideal) ((c : Thread nD τ).loc b))

/-- The windows' block indices at point `t`, decided over the grid: the row windows and the output window are at
    block `t` of the rows and block 0 of the columns; the weights and the bias are at block 0 on both axes. -/
theorem blockIndex2 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the whole-array layer of the arrays as the region finds them. -/
theorem flushed1_eq (c : Dev nD) (t : Fin cfg1.N) :
    (dat1 (F := Ideal) V c).flushed 5 t = ((cfg1.win 5).blk t).view.read (Elt Ideal)
      (Cert.RefFns.layer2 (F := Ideal) (V c main_v26) (V c main_v16) (V c main_arg6) (V c main_arg8) (V c main_v27)) := by
  show (cfg1.win 5).cut (grid1.coords t) ((dat1 (F := Ideal) V c).after 5 t) = _
  rw [after1_5, out1_5_eq]
  obtain ⟨e00, e01, e10, e11, e20, e21, e30, e31, e40, e41, e50, e51⟩ := blockIndex2 t
  funext j
  show k1_pay1 (F := Ideal) (iblk1 V c 0 t) (iblk1 V c 1 t) (iblk1 V c 2 t) (iblk1 V c 3 t) (iblk1 V c 4 t) j
    = Cert.RefFns.layer2 (F := Ideal) (V c main_v26) (V c main_v16) (V c main_arg6) (V c main_arg8) (V c main_v27) (((cfg1.win 5).blk t).view.emb j)
  refine blockEntry2 (iblk1 V c 0 t) (iblk1 V c 1 t) (iblk1 V c 2 t) (iblk1 V c 3 t) (iblk1 V c 4 t)
    (V c main_v26) (V c main_v16) (V c main_arg6) (V c main_arg8) (V c main_v27) t.val j (((cfg1.win 5).blk t).view.emb j) ?_ ?_ ?_ ?_ ?_ ?_ ?_
  · show win1_5.index t (0 : Fin 2) * 5000 + 1 * (j 0).val = t.val * 5000 + (j 0).val; omega
  · show win1_5.index t (1 : Fin 2) * 64 + 1 * (j 1).val = (j 1).val; omega
  · intro y y' hy0 hy1
    show V c main_v26 (((cfg1.win 0).blk t).view.emb y) = V c main_v26 y'
    refine congrArg _ (funext fun a => Fin.ext ?_)
    match a with
    | ⟨0, _⟩ => show win1_0.index t (0 : Fin 2) * 5000 + 1 * (y 0).val = (y' 0).val; omega
    | ⟨1, _⟩ => show win1_0.index t (1 : Fin 2) * 128 + 1 * (y 1).val = (y' 1).val; omega
  · intro y y' hy0 hy1
    show V c main_v16 (((cfg1.win 1).blk t).view.emb y) = V c main_v16 y'
    refine congrArg _ (funext fun a => Fin.ext ?_)
    match a with
    | ⟨0, _⟩ => show win1_1.index t (0 : Fin 2) * 5000 + 1 * (y 0).val = (y' 0).val; omega
    | ⟨1, _⟩ => show win1_1.index t (1 : Fin 2) * 128 + 1 * (y 1).val = (y' 1).val; omega
  · intro y
    show V c main_arg6 (((cfg1.win 2).blk t).view.emb y) = V c main_arg6 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 64 + 1 * (y 1).val = (y 1).val; omega
  · intro y
    show V c main_arg8 (((cfg1.win 3).blk t).view.emb y) = V c main_arg8 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 64 + 1 * (y 1).val = (y 1).val; omega
  · intro y
    show V c main_v27 (((cfg1.win 4).blk t).view.emb y) = V c main_v27 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega

end Region

/-- An entry of the output array is in point `t`'s block iff its row is among the block's 5000 rows (and its column
    among the 64). -/
theorem mem_block2 (t : Fin cfg1.N) (i : S40000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v28).slice (win1_5.rect t)).set ↔ _
  rw [View.set_slice_whole, Rect.mem_set_unit]
  exact Iff.rfl

/-- THE EIGHT BLOCKS TILE THE ARRAY: row `n` lies in the block of point `n / 5000`. -/
theorem cover2 (i : S40000x64.Idx) : ∃ t : Fin cfg1.N, (cfg1.win 5).flush t = true ∧ i ∈ ((cfg1.win 5).blk t).view.set := by
  have hi0 : (i 0).val < 40000 := (i 0).isLt
  have hi1 : (i 1).val < 64 := (i 1).isLt
  have hN : grid1.N = 8 := N_1
  let t : Fin cfg1.N := ⟨(i 0).val / 5000, by show (i 0).val / 5000 < grid1.N; omega⟩
  obtain ⟨-, -, -, -, -, -, -, -, -, -, e50, e51⟩ := blockIndex2 t
  have ht : t.val = (i 0).val / 5000 := rfl
  refine ⟨t, flush1_5 t, ?_⟩
  rw [mem_block2]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE OUTPUT ARRAY AFTER THE REGION: the whole-array layer of the arrays the region found. -/
theorem final1 (V : (c : Dev nD) → (b : Ref sig .tc) → Buf (Elt Ideal) ((c : Thread nD τ).loc b)) (c : Dev nD) :
    (dat1 (F := Ideal) V c).arrAt 5 cfg1.N = Cert.RefFns.layer2 (F := Ideal) (V c main_v26) (V c main_v16) (V c main_arg6) (V c main_arg8) (V c main_v27) :=
  (dat1 (F := Ideal) V c).arrAt_eq_of_cover 5 _ (fun t _ => flushed1_eq V c t) cover2

end Cert.KernelIdeal.HV
end
-- ==== Proof.Value.Layer3.Payload.lean ====
import proofs.«420548_j8821862826461_1_alg».proof.Proof.Gen.KernelIdeal.Skeleton
import proofs.«420548_j8821862826461_1_alg».proof.Proof.RefFns
import proofs.«420548_j8821862826461_1_alg».proof.Proof.Value.Conv
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HV
open Cert.KernelIdeal Cert.KernelIdeal.Gen
open Idealize.ShloMosaic Idealize.ShloMosaic.TcCoe Idealize.ShloMosaic.ValueIdx
open Idealize.SL.Sem
open scoped BigOperators

/-! # Layer 3 at one entry: the block the kernel's body stores, and the whole-array layer, are both the clamped entry

Both sides are read at row `p` (of a block of 5000 rows, or of the array of 40000 rows) and column `o` as the maximum
with zero of `convEntry`; the body adds the two products first and the bias last, the whole-array layer adds the bias
between the two products: one exchange of summands. -/

/-! ## The body's product of a 5000×64 block with a 64×32 matrix -/

theorem blockDot3_lhs_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem blockDot3_lhs_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem blockDot3_rhs_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem blockDot3_rhs_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The product into a zero accumulator, at row `p` and column `o`: the sum over the 64 shared coordinates. -/
theorem blockDot3_apply (a : FVec Ideal S5000x64 .bf16) (w : FVec Ideal S64x32 .bf16) (p : Fin 5000) (o : Fin 32) :
    matmul dot_S5000x64_S64x32_S5000x32_1_0_0_1_n_n none a w (constant (F := Ideal) S5000x32 .f32 0x00000000#32) (ix2 p o)
      = ∑ k : Fin 64, a (ix2 p k) * w (ix2 k o) := by
  simp only [matmul]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p o) ((ValueIdx.contrEquiv1 dot_S5000x64_S64x32_S5000x32_1_0_0_1_n_n 64 rfl rfl).symm k) = ix2 p k := funext fun a => Fin.ext (by
    match a with
    | ⟨0, _⟩ => exact blockDot3_lhs_0 _ _
    | ⟨1, _⟩ => exact (blockDot3_lhs_1 _ _).trans hk)
  have er : dot_S5000x64_S64x32_S5000x32_1_0_0_1_n_n.rhsIdx (ix2 p o) ((ValueIdx.contrEquiv1 dot_S5000x64_S64x32_S5000x32_1_0_0_1_n_n 64 rfl rfl).symm k) = ix2 k o := funext fun a => Fin.ext (by
    match a with
    | ⟨0, _⟩ => exact (blockDot3_rhs_0 _ _).trans hk
    | ⟨1, _⟩ => exact blockDot3_rhs_1 _ _)
  rw [el, er]

/-- THE BODY'S BLOCK AT AN ENTRY: the clamped entry of the layer on the five loaded operands. -/
theorem k2_pay1_apply (x0 x1 : Vec Ideal S5000x64 .f32) (x2 x3 : Vec Ideal S64x32 .f32) (x4 : Vec Ideal S1x32 .f32)
    (p : Fin 5000) (o : Fin 32) :
    k2_pay1 (F := Ideal) x0 x1 x2 x3 x4 (ix2 p o) = max (convEntry (N := 5000) (K := 64) (O := 32) x0 x1 x2 x3 x4 p o) 0 := by
  unfold k2_pay1
  simp only [maximumf_apply, addf_apply, broadcast_apply, shapeCast_self]
  rw [blockDot3_apply, blockDot3_apply, broadcastTo_1b_ab_apply]
  simp only [truncf_apply]
  rw [Ideal.ofBits_def, Ideal.ofBits_zero_f32]
  unfold convEntry
  exact congrArg (max · 0) (add_right_comm _ _ _)

/-! ## The whole-array layer's product of the 40000×64 array with a 64×32 matrix -/

theorem arrayDot3_lhs_0 (i : Cert.ReferenceIdeal.S40000x32.Idx) (q : Cert.ReferenceIdeal.dot_S40000x64_S64x32_S40000x32_1_0_0_1_n_n.contr.Idx) :
    (Cert.ReferenceIdeal.dot_S40000x64_S64x32_S40000x32_1_0_0_1_n_n.lhsIdx i q 0).val = (i 0).val := by
  unfold DotDims.lhsIdx
  rw [dif_neg (show ¬(0 : Fin Cert.ReferenceIdeal.S40000x64.rank) ∈ Cert.ReferenceIdeal.dot_S40000x64_S64x32_S40000x32_1_0_0_1_n_n.lhsBatch by decide), dif_pos (show (0 : Fin Cert.ReferenceIdeal.S40000x64.rank) ∈ Cert.ReferenceIdeal.dot_S40000x64_S64x32_S40000x32_1_0_0_1_n_n.lhsNonContracting by decide)]
  rfl
theorem arrayDot3_lhs_1 (i : Cert.ReferenceIdeal.S40000x32.Idx) (q : Cert.ReferenceIdeal.dot_S40000x64_S64x32_S40000x32_1_0_0_1_n_n.contr.Idx) :
    (Cert.ReferenceIdeal.dot_S40000x64_S64x32_S40000x32_1_0_0_1_n_n.lhsIdx i q 1).val = (q ⟨0, by decide⟩).val :=
  Cert.ReferenceIdeal.dot_S40000x64_S64x32_S40000x32_1_0_0_1_n_n.lhsIdx_val_of_single rfl i q
theorem arrayDot3_rhs_0 (i : Cert.ReferenceIdeal.S40000x32.Idx) (q : Cert.ReferenceIdeal.dot_S40000x64_S64x32_S40000x32_1_0_0_1_n_n.contr.Idx) :
    (Cert.ReferenceIdeal.dot_S40000x64_S64x32_S40000x32_1_0_0_1_n_n.rhsIdx i q 0).val = (q ⟨0, by decide⟩).val :=
  Cert.ReferenceIdeal.dot_S40000x64_S64x32_S40000x32_1_0_0_1_n_n.rhsIdx_val_of_single rfl i q
theorem arrayDot3_rhs_1 (i : Cert.ReferenceIdeal.S40000x32.Idx) (q : Cert.ReferenceIdeal.dot_S40000x64_S64x32_S40000x32_1_0_0_1_n_n.contr.Idx) :
    (Cert.ReferenceIdeal.dot_S40000x64_S64x32_S40000x32_1_0_0_1_n_n.rhsIdx i q 1).val = (i 1).val := by
  unfold DotDims.rhsIdx
  rw [dif_neg (show ¬(1 : Fin Cert.ReferenceIdeal.S64x32.rank) ∈ Cert.ReferenceIdeal.dot_S40000x64_S64x32_S40000x32_1_0_0_1_n_n.rhsBatch by decide), dif_pos (show (1 : Fin Cert.ReferenceIdeal.S64x32.rank) ∈ Cert.ReferenceIdeal.dot_S40000x64_S64x32_S40000x32_1_0_0_1_n_n.rhsNonContracting by decide)]
  rfl

/-- The whole-array product at row `n` and column `o`: the sum over the 64 shared coordinates. -/
theorem arrayDot3_apply (a : FVec Ideal Cert.ReferenceIdeal.S40000x64 .f32) (w : FVec Ideal Cert.ReferenceIdeal.S64x32 .f32) (n : Fin 40000) (o : Fin 32) :
    Host.dotGeneral (F := Ideal) Cert.ReferenceIdeal.dot_S40000x64_S64x32_S40000x32_1_0_0_1_n_n none a w (ix2 n o)
      = ∑ k : Fin 64, a (ix2 n k) * w (ix2 k o) := by
  simp only [Host.dotGeneral]
  rw [Ideal.dotGeneral_apply, ← Equiv.sum_comp (ValueIdx.contrEquiv1 Cert.ReferenceIdeal.dot_S40000x64_S64x32_S40000x32_1_0_0_1_n_n 64 rfl rfl).symm]
  refine Finset.sum_congr rfl fun k _ => ?_
  have hk := ValueIdx.contrEquiv1_symm_val Cert.ReferenceIdeal.dot_S40000x64_S64x32_S40000x32_1_0_0_1_n_n 64 rfl rfl k
  have el : Cert.ReferenceIdeal.dot_S40000x64_S64x32_S40000x32_1_0_0_1_n_n.lhsIdx (ix2 n o) ((ValueIdx.contrEquiv1 Cert.ReferenceIdeal.dot_S40000x64_S64x32_S40000x32_1_0_0_1_n_n 64 rfl rfl).symm k) = ix2 n k := funext fun a => Fin.ext (by
    match a with
    | ⟨0, _⟩ => exact arrayDot3_lhs_0 _ _
    | ⟨1, _⟩ => exact (arrayDot3_lhs_1 _ _).trans hk)
  have er : Cert.ReferenceIdeal.dot_S40000x64_S64x32_S40000x32_1_0_0_1_n_n.rhsIdx (ix2 n o) ((ValueIdx.contrEquiv1 Cert.ReferenceIdeal.dot_S40000x64_S64x32_S40000x32_1_0_0_1_n_n 64 rfl rfl).symm k) = ix2 k o := funext fun a => Fin.ext (by
    match a with
    | ⟨0, _⟩ => exact (arrayDot3_rhs_0 _ _).trans hk
    | ⟨1, _⟩ => exact arrayDot3_rhs_1 _ _)
  rw [el, er]

/-- The bias row laid under every row of the array reads, at row `n` and column `o`, the bias at `o`. -/
theorem biasRows3_apply (b : Vec Ideal Cert.ReferenceIdeal.S1x32 .f32) (n : Fin 40000) (o : Fin 32) :
    broadcastInDim Cert.ReferenceIdeal.S40000x32 ![0, 1] Cert.ReferenceIdeal.Gen.bcast_S1x32_S40000x32_0_1 b (ix2 n o) = b (ix2 (0 : Fin 1) o) :=
  broadcastInDim_apply _ Cert.ReferenceIdeal.Gen.bcast_S1x32_S40000x32_0_1 b (ix2 n o) (ix2 (0 : Fin 1) o) (fun a => match a with
    | ⟨0, _⟩ => by show 0 = if (1 : Nat) = 1 then 0 else n.val; rw [if_pos rfl]
    | ⟨1, _⟩ => by show o.val = if (32 : Nat) = 1 then 0 else o.val; rw [if_neg (by decide)])

/-- The zero laid over the whole array reads zero at every entry. -/
theorem zeros3_apply (i : Cert.ReferenceIdeal.S40000x32.Idx) :
    broadcastInDim Cert.ReferenceIdeal.S40000x32 ![] Cert.ReferenceIdeal.Gen.bcast_S_S40000x32 (constant (F := Ideal) Cert.ReferenceIdeal.S_ .f32 0x00000000#32) i = 0 := by
  rw [broadcastInDim_apply _ Cert.ReferenceIdeal.Gen.bcast_S_S40000x32 _ i ix0 (fun a => a.elim0), constant_apply, Ideal.ofBits_zero_f32]

/-- THE WHOLE-ARRAY LAYER AT AN ENTRY: the clamped entry. -/
theorem layer3_apply (agg h : Vec Ideal Cert.ReferenceIdeal.S40000x64 .f32) (Wr Wo : Vec Ideal Cert.ReferenceIdeal.S64x32 .f32)
    (b : Vec Ideal Cert.ReferenceIdeal.S1x32 .f32) (n : Fin 40000) (o : Fin 32) :
    Cert.RefFns.layer3 (F := Ideal) agg h Wr Wo b (ix2 n o) = max (convEntry (N := 40000) (K := 64) (O := 32) agg h Wr Wo b n o) 0 := by
  unfold Cert.RefFns.layer3
  simp only [maximumf_apply, addf_apply]
  rw [arrayDot3_apply, arrayDot3_apply, biasRows3_apply, zeros3_apply]
  rfl

end Cert.KernelIdeal.HV
end
-- ==== Proof.Value.Layer3.lean ====
import proofs.«420548_j8821862826461_1_alg».proof.Proof.KernelIdeal.Region2
import proofs.«420548_j8821862826461_1_alg».proof.Proof.RefFns
import proofs.«420548_j8821862826461_1_alg».proof.Proof.Value.Layer3.Payload
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HV
open Cert.KernelIdeal Cert.KernelIdeal.Gen Cert.KernelIdeal.GenP Cert.KernelIdeal.H
open Idealize.ShloMosaic Idealize.ShloMosaic.TcCoe Idealize.ShloMosaic.ValueIdx
open Idealize.SL.Sem
open Idealize.ShloMosaic.Pipeline (Dat Cfg Window)
open scoped BigOperators

/-! # Layer 3 as one function of the arrays the region finds

The region's grid has 8 points; point `t` reads rows 5000·t … 5000·t+4999 of the aggregated rows and of the node rows,
the two weight matrices and the bias row whole, and writes back rows 5000·t … 5000·t+4999 of the output. Each entry
of a written block is the clamped entry of the layer on the block's rows, which is the layer's entry on the arrays'
rows; the eight blocks tile the 40000 rows; so the output array ends holding the whole-array layer. -/

theorem zeroOffsets3 : (![0, 0] : Fin 2 → Nat) = fun _ => 0 := funext fun a => by fin_cases a <;> rfl

/-- What the body leaves in the output buffer is the block the body stores: one store over the whole buffer, of
    the loads of the five input buffers, each whole. -/
theorem out2_5_eq (x0 x1 : Vec Ideal S5000x64 .f32) (x2 x3 : Vec Ideal S64x32 .f32) (x4 : Vec Ideal S1x32 .f32) :
    out2_5 (F := Ideal) x0 x1 x2 x3 x4 = k2_pay1 (F := Ideal) x0 x1 x2 x3 x4 := by
  unfold out2_5
  rw [View.canon_unit_zero zeroOffsets3]
  simp only [View.ld_unit_zero (S := S5000x64) zeroOffsets3, View.ld_unit_zero (S := S64x32) zeroOffsets3, View.ld_unit_zero (S := S1x32) zeroOffsets3]

/-- ONE ENTRY OF A WRITTEN BLOCK. Blocks `x0`, `x1` that are rows `T·5000 …` of `agg`, `h`, and `x2`, `x3`, `x4` that
    are `Wr`, `Wo`, `b`: the body's block at `j` is the whole-array layer at the entry `i` of row `T·5000 + j₀` and
    column `j₁`. -/
theorem blockEntry3 (x0 x1 : Vec Ideal S5000x64 .f32) (x2 x3 : Vec Ideal S64x32 .f32) (x4 : Vec Ideal S1x32 .f32)
    (agg h : Vec Ideal S40000x64 .f32) (Wr Wo : Vec Ideal S64x32 .f32) (b : Vec Ideal S1x32 .f32)
    (T : Nat) (j : S5000x32.Idx) (i : S40000x32.Idx)
    (hi0 : (i 0).val = T * 5000 + (j 0).val) (hi1 : (i 1).val = (j 1).val)
    (h0 : ∀ (y : S5000x64.Idx) (y' : S40000x64.Idx), (y' 0).val = T * 5000 + (y 0).val → (y' 1).val = (y 1).val → x0 y = agg y')
    (h1 : ∀ (y : S5000x64.Idx) (y' : S40000x64.Idx), (y' 0).val = T * 5000 + (y 0).val → (y' 1).val = (y 1).val → x1 y = h y')
    (h2 : ∀ y : S64x32.Idx, x2 y = Wr y) (h3 : ∀ y : S64x32.Idx, x3 y = Wo y) (h4 : ∀ y : S1x32.Idx, x4 y = b y) :
    k2_pay1 (F := Ideal) x0 x1 x2 x3 x4 j = Cert.RefFns.layer3 (F := Ideal) agg h Wr Wo b i := by
  obtain ⟨p, o, rfl⟩ : ∃ (p : Fin 5000) (o : Fin 32), j = ix2 p o := ⟨j 0, j 1, eq_ix2 j⟩
  obtain ⟨n, o', rfl⟩ : ∃ (n : Fin 40000) (o' : Fin 32), i = ix2 n o' := ⟨i 0, i 1, eq_ix2 i⟩
  have hn : n.val = T * 5000 + p.val := hi0
  have ho : o' = o := Fin.ext hi1
  subst ho
  obtain rfl : x2 = Wr := funext h2
  obtain rfl : x3 = Wo := funext h3
  obtain rfl : x4 = b := funext h4
  rw [k2_pay1_apply, layer3_apply]
  exact congrArg (max · 0) (convEntry_congr_rows x0 x1 agg h x2 x3 x4 p n o'
    (fun k => h0 (ix2 p k) (ix2 n k) hn rfl) (fun k => h1 (ix2 p k) (ix2 n k) hn rfl))

section Region
variable (V : (c : Dev nD) → (b : Ref sig .tc) → Buf (Elt Ideal) ((c : Thread nD τ).loc b))

/-- The windows' block indices at point `t`, decided over the grid: the row windows and the output window are at
    block `t` of the rows and block 0 of the columns; the weights and the bias are at block 0 on both axes. -/
theorem blockIndex3 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT `t` WRITES BACK is block `t` of the whole-array layer of the arrays as the region finds them. -/
theorem flushed2_eq (c : Dev nD) (t : Fin cfg2.N) :
    (dat2 (F := Ideal) V c).flushed 5 t = ((cfg2.win 5).blk t).view.read (Elt Ideal)
      (Cert.RefFns.layer3 (F := Ideal) (V c main_v38) (V c main_v28) (V c main_arg9) (V c main_arg11) (V c main_v39)) := by
  show (cfg2.win 5).cut (grid2.coords t) ((dat2 (F := Ideal) V c).after 5 t) = _
  rw [after2_5, out2_5_eq]
  obtain ⟨e00, e01, e10, e11, e20, e21, e30, e31, e40, e41, e50, e51⟩ := blockIndex3 t
  funext j
  show k2_pay1 (F := Ideal) (iblk2 V c 0 t) (iblk2 V c 1 t) (iblk2 V c 2 t) (iblk2 V c 3 t) (iblk2 V c 4 t) j
    = Cert.RefFns.layer3 (F := Ideal) (V c main_v38) (V c main_v28) (V c main_arg9) (V c main_arg11) (V c main_v39) (((cfg2.win 5).blk t).view.emb j)
  refine blockEntry3 (iblk2 V c 0 t) (iblk2 V c 1 t) (iblk2 V c 2 t) (iblk2 V c 3 t) (iblk2 V c 4 t)
    (V c main_v38) (V c main_v28) (V c main_arg9) (V c main_arg11) (V c main_v39) t.val j (((cfg2.win 5).blk t).view.emb j) ?_ ?_ ?_ ?_ ?_ ?_ ?_
  · show win2_5.index t (0 : Fin 2) * 5000 + 1 * (j 0).val = t.val * 5000 + (j 0).val; omega
  · show win2_5.index t (1 : Fin 2) * 32 + 1 * (j 1).val = (j 1).val; omega
  · intro y y' hy0 hy1
    show V c main_v38 (((cfg2.win 0).blk t).view.emb y) = V c main_v38 y'
    refine congrArg _ (funext fun a => Fin.ext ?_)
    match a with
    | ⟨0, _⟩ => show win2_0.index t (0 : Fin 2) * 5000 + 1 * (y 0).val = (y' 0).val; omega
    | ⟨1, _⟩ => show win2_0.index t (1 : Fin 2) * 64 + 1 * (y 1).val = (y' 1).val; omega
  · intro y y' hy0 hy1
    show V c main_v28 (((cfg2.win 1).blk t).view.emb y) = V c main_v28 y'
    refine congrArg _ (funext fun a => Fin.ext ?_)
    match a with
    | ⟨0, _⟩ => show win2_1.index t (0 : Fin 2) * 5000 + 1 * (y 0).val = (y' 0).val; omega
    | ⟨1, _⟩ => show win2_1.index t (1 : Fin 2) * 64 + 1 * (y 1).val = (y' 1).val; omega
  · intro y
    show V c main_arg9 (((cfg2.win 2).blk t).view.emb y) = V c main_arg9 y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 32 + 1 * (y 1).val = (y 1).val; omega
  · intro y
    show V c main_arg11 (((cfg2.win 3).blk t).view.emb y) = V c main_arg11 y
    refine congrArg _ (funext fun a => Fin.ext ?_)
    match a with
    | ⟨0, _⟩ => show win2_3.index t (0 : Fin 2) * 64 + 1 * (y 0).val = (y 0).val; omega
    | ⟨1, _⟩ => show win2_3.index t (1 : Fin 2) * 32 + 1 * (y 1).val = (y 1).val; omega
  · intro y
    show V c main_v39 (((cfg2.win 4).blk t).view.emb y) = V c main_v39 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 32 + 1 * (y 1).val = (y 1).val; omega

end Region

/-- An entry of the output array is in point `t`'s block iff its row is among the block's 5000 rows (and its column
    among the 32). -/
theorem mem_block3 (t : Fin cfg2.N) (i : S40000x32.Idx) :
    i ∈ ((cfg2.win 5).blk t).view.set ↔ ∀ a : Fin 2, win2_5.index t a * S5000x32.size a ≤ (i a).val ∧ (i a).val < win2_5.index t a * S5000x32.size a + S5000x32.size a := by
  show i ∈ ((View.whole main_v40).slice (win2_5.rect t)).set ↔ _
  rw [View.set_slice_whole, Rect.mem_set_unit]
  exact Iff.rfl

/-- THE EIGHT BLOCKS TILE THE ARRAY: row `n` lies in the block of point `n / 5000`. -/
theorem cover3 (i : S40000x32.Idx) : ∃ t : Fin cfg2.N, (cfg2.win 5).flush t = true ∧ i ∈ ((cfg2.win 5).blk t).view.set := by
  have hi0 : (i 0).val < 40000 := (i 0).isLt
  have hi1 : (i 1).val < 32 := (i 1).isLt
  have hN : grid2.N = 8 := N_2
  let t : Fin cfg2.N := ⟨(i 0).val / 5000, by show (i 0).val / 5000 < grid2.N; omega⟩
  obtain ⟨-, -, -, -, -, -, -, -, -, -, e50, e51⟩ := blockIndex3 t
  have ht : t.val = (i 0).val / 5000 := rfl
  refine ⟨t, flush2_5 t, ?_⟩
  rw [mem_block3]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 32 ≤ (i 1).val ∧ (i 1).val < win2_5.index t (1 : Fin 2) * 32 + 32; omega

/-- THE OUTPUT ARRAY AFTER THE REGION: the whole-array layer of the arrays the region found. -/
theorem final2 (V : (c : Dev nD) → (b : Ref sig .tc) → Buf (Elt Ideal) ((c : Thread nD τ).loc b)) (c : Dev nD) :
    (dat2 (F := Ideal) V c).arrAt 5 cfg2.N = Cert.RefFns.layer3 (F := Ideal) (V c main_v38) (V c main_v28) (V c main_arg9) (V c main_arg11) (V c main_v39) :=
  (dat2 (F := Ideal) V c).arrAt_eq_of_cover 5 _ (fun t _ => flushed2_eq V c t) cover3

end Cert.KernelIdeal.HV
end
-- ==== Proof.Value.Layer4.Payload.lean ====
import proofs.«420548_j8821862826461_1_alg».proof.Proof.Gen.KernelIdeal.Skeleton
import proofs.«420548_j8821862826461_1_alg».proof.Proof.RefFns
import proofs.«420548_j8821862826461_1_alg».proof.Proof.Value.Conv
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HV
open Cert.KernelIdeal Cert.KernelIdeal.Gen
open Idealize.ShloMosaic Idealize.ShloMosaic.TcCoe Idealize.ShloMosaic.ValueIdx
open Idealize.SL.Sem
open scoped BigOperators

/-! # Layer 4 at one entry: the block the kernel's body stores, and the whole-array layer, are both the entry

Both sides are read at row `p` (of a block of 5000 rows, or of the array of 40000 rows) and column `o` as
`convEntry`; the body adds the two products first and the bias last, the whole-array layer adds the bias
between the two products: one exchange of summands. -/

/-! ## The body's product of a 5000×32 block with a 32×16 matrix -/

theorem blockDot4_lhs_0 (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem blockDot4_lhs_1 (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
theorem blockDot4_rhs_0 (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
theorem blockDot4_rhs_1 (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- The product into a zero accumulator, at row `p` and column `o`: the sum over the 32 shared coordinates. -/
theorem blockDot4_apply (a : FVec Ideal S5000x32 .bf16) (w : FVec Ideal S32x16 .bf16) (p : Fin 5000) (o : Fin 16) :
    matmul dot_S5000x32_S32x16_S5000x16_1_0_0_1_n_n none a w (constant (F := Ideal) S5000x16 .f32 0x00000000#32) (ix2 p o)
      = ∑ k : Fin 32, a (ix2 p k) * w (ix2 k o) := by
  simp only [matmul]
  rw [Ideal.matmul_constant_zero_apply, ← Equiv.sum_comp (ValueIdx.contrEquiv1 dot_S5000x32_S32x16_S5000x16_1_0_0_1_n_n 32 rfl rfl).symm]
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx (ix2 p o) ((ValueIdx.contrEquiv1 dot_S5000x32_S32x16_S5000x16_1_0_0_1_n_n 32 rfl rfl).symm k) = ix2 p k := funext fun a => Fin.ext (by
    match a with
    | ⟨0, _⟩ => exact blockDot4_lhs_0 _ _
    | ⟨1, _⟩ => exact (blockDot4_lhs_1 _ _).trans hk)
  have er : dot_S5000x32_S32x16_S5000x16_1_0_0_1_n_n.rhsIdx (ix2 p o) ((ValueIdx.contrEquiv1 dot_S5000x32_S32x16_S5000x16_1_0_0_1_n_n 32 rfl rfl).symm k) = ix2 k o := funext fun a => Fin.ext (by
    match a with
    | ⟨0, _⟩ => exact (blockDot4_rhs_0 _ _).trans hk
    | ⟨1, _⟩ => exact blockDot4_rhs_1 _ _)
  rw [el, er]

/-- THE BODY'S BLOCK AT AN ENTRY: the entry of the layer on the five loaded operands. -/
theorem k3_pay1_apply (x0 x1 : Vec Ideal S5000x32 .f32) (x2 x3 : Vec Ideal S32x16 .f32) (x4 : Vec Ideal S1x16 .f32)
    (p : Fin 5000) (o : Fin 16) :
    k3_pay1 (F := Ideal) x0 x1 x2 x3 x4 (ix2 p o) = convEntry (N := 5000) (K := 32) (O := 16) x0 x1 x2 x3 x4 p o := by
  unfold k3_pay1
  simp only [addf_apply, shapeCast_self]
  rw [blockDot4_apply, blockDot4_apply, broadcastTo_1b_ab_apply]
  simp only [truncf_apply]
  unfold convEntry
  exact add_right_comm _ _ _

/-! ## The whole-array layer's product of the 40000×32 array with a 32×16 matrix -/

theorem arrayDot4_lhs_0 (i : Cert.ReferenceIdeal.S40000x16.Idx) (q : Cert.ReferenceIdeal.dot_S40000x32_S32x16_S40000x16_1_0_0_1_n_n.contr.Idx) :
    (Cert.ReferenceIdeal.dot_S40000x32_S32x16_S40000x16_1_0_0_1_n_n.lhsIdx i q 0).val = (i 0).val := by
  unfold DotDims.lhsIdx
  rw [dif_neg (show ¬(0 : Fin Cert.ReferenceIdeal.S40000x32.rank) ∈ Cert.ReferenceIdeal.dot_S40000x32_S32x16_S40000x16_1_0_0_1_n_n.lhsBatch by decide), dif_pos (show (0 : Fin Cert.ReferenceIdeal.S40000x32.rank) ∈ Cert.ReferenceIdeal.dot_S40000x32_S32x16_S40000x16_1_0_0_1_n_n.lhsNonContracting by decide)]
  rfl
theorem arrayDot4_lhs_1 (i : Cert.ReferenceIdeal.S40000x16.Idx) (q : Cert.ReferenceIdeal.dot_S40000x32_S32x16_S40000x16_1_0_0_1_n_n.contr.Idx) :
    (Cert.ReferenceIdeal.dot_S40000x32_S32x16_S40000x16_1_0_0_1_n_n.lhsIdx i q 1).val = (q ⟨0, by decide⟩).val :=
  Cert.ReferenceIdeal.dot_S40000x32_S32x16_S40000x16_1_0_0_1_n_n.lhsIdx_val_of_single rfl i q
theorem arrayDot4_rhs_0 (i : Cert.ReferenceIdeal.S40000x16.Idx) (q : Cert.ReferenceIdeal.dot_S40000x32_S32x16_S40000x16_1_0_0_1_n_n.contr.Idx) :
    (Cert.ReferenceIdeal.dot_S40000x32_S32x16_S40000x16_1_0_0_1_n_n.rhsIdx i q 0).val = (q ⟨0, by decide⟩).val :=
  Cert.ReferenceIdeal.dot_S40000x32_S32x16_S40000x16_1_0_0_1_n_n.rhsIdx_val_of_single rfl i q
theorem arrayDot4_rhs_1 (i : Cert.ReferenceIdeal.S40000x16.Idx) (q : Cert.ReferenceIdeal.dot_S40000x32_S32x16_S40000x16_1_0_0_1_n_n.contr.Idx) :
    (Cert.ReferenceIdeal.dot_S40000x32_S32x16_S40000x16_1_0_0_1_n_n.rhsIdx i q 1).val = (i 1).val := by
  unfold DotDims.rhsIdx
  rw [dif_neg (show ¬(1 : Fin Cert.ReferenceIdeal.S32x16.rank) ∈ Cert.ReferenceIdeal.dot_S40000x32_S32x16_S40000x16_1_0_0_1_n_n.rhsBatch by decide), dif_pos (show (1 : Fin Cert.ReferenceIdeal.S32x16.rank) ∈ Cert.ReferenceIdeal.dot_S40000x32_S32x16_S40000x16_1_0_0_1_n_n.rhsNonContracting by decide)]
  rfl

/-- The whole-array product at row `n` and column `o`: the sum over the 32 shared coordinates. -/
theorem arrayDot4_apply (a : FVec Ideal Cert.ReferenceIdeal.S40000x32 .f32) (w : FVec Ideal Cert.ReferenceIdeal.S32x16 .f32) (n : Fin 40000) (o : Fin 16) :
    Host.dotGeneral (F := Ideal) Cert.ReferenceIdeal.dot_S40000x32_S32x16_S40000x16_1_0_0_1_n_n none a w (ix2 n o)
      = ∑ k : Fin 32, a (ix2 n k) * w (ix2 k o) := by
  simp only [Host.dotGeneral]
  rw [Ideal.dotGeneral_apply, ← Equiv.sum_comp (ValueIdx.contrEquiv1 Cert.ReferenceIdeal.dot_S40000x32_S32x16_S40000x16_1_0_0_1_n_n 32 rfl rfl).symm]
  refine Finset.sum_congr rfl fun k _ => ?_
  have hk := ValueIdx.contrEquiv1_symm_val Cert.ReferenceIdeal.dot_S40000x32_S32x16_S40000x16_1_0_0_1_n_n 32 rfl rfl k
  have el : Cert.ReferenceIdeal.dot_S40000x32_S32x16_S40000x16_1_0_0_1_n_n.lhsIdx (ix2 n o) ((ValueIdx.contrEquiv1 Cert.ReferenceIdeal.dot_S40000x32_S32x16_S40000x16_1_0_0_1_n_n 32 rfl rfl).symm k) = ix2 n k := funext fun a => Fin.ext (by
    match a with
    | ⟨0, _⟩ => exact arrayDot4_lhs_0 _ _
    | ⟨1, _⟩ => exact (arrayDot4_lhs_1 _ _).trans hk)
  have er : Cert.ReferenceIdeal.dot_S40000x32_S32x16_S40000x16_1_0_0_1_n_n.rhsIdx (ix2 n o) ((ValueIdx.contrEquiv1 Cert.ReferenceIdeal.dot_S40000x32_S32x16_S40000x16_1_0_0_1_n_n 32 rfl rfl).symm k) = ix2 k o := funext fun a => Fin.ext (by
    match a with
    | ⟨0, _⟩ => exact (arrayDot4_rhs_0 _ _).trans hk
    | ⟨1, _⟩ => exact arrayDot4_rhs_1 _ _)
  rw [el, er]

/-- The bias row laid under every row of the array reads, at row `n` and column `o`, the bias at `o`. -/
theorem biasRows4_apply (b : Vec Ideal Cert.ReferenceIdeal.S1x16 .f32) (n : Fin 40000) (o : Fin 16) :
    broadcastInDim Cert.ReferenceIdeal.S40000x16 ![0, 1] Cert.ReferenceIdeal.Gen.bcast_S1x16_S40000x16_0_1 b (ix2 n o) = b (ix2 (0 : Fin 1) o) :=
  broadcastInDim_apply _ Cert.ReferenceIdeal.Gen.bcast_S1x16_S40000x16_0_1 b (ix2 n o) (ix2 (0 : Fin 1) o) (fun a => match a with
    | ⟨0, _⟩ => by show 0 = if (1 : Nat) = 1 then 0 else n.val; rw [if_pos rfl]
    | ⟨1, _⟩ => by show o.val = if (16 : Nat) = 1 then 0 else o.val; rw [if_neg (by decide)])

/-- THE WHOLE-ARRAY LAYER AT AN ENTRY: the entry. -/
theorem layer4_apply (agg h : Vec Ideal Cert.ReferenceIdeal.S40000x32 .f32) (Wr Wo : Vec Ideal Cert.ReferenceIdeal.S32x16 .f32)
    (b : Vec Ideal Cert.ReferenceIdeal.S1x16 .f32) (n : Fin 40000) (o : Fin 16) :
    Cert.RefFns.layer4 (F := Ideal) agg h Wr Wo b (ix2 n o) = convEntry (N := 40000) (K := 32) (O := 16) agg h Wr Wo b n o := by
  unfold Cert.RefFns.layer4
  simp only [addf_apply]
  rw [arrayDot4_apply, arrayDot4_apply, biasRows4_apply]
  rfl

end Cert.KernelIdeal.HV
end
-- ==== Proof.Value.Layer4.lean ====
import proofs.«420548_j8821862826461_1_alg».proof.Proof.KernelIdeal.Region3
import proofs.«420548_j8821862826461_1_alg».proof.Proof.RefFns
import proofs.«420548_j8821862826461_1_alg».proof.Proof.Value.Layer4.Payload
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HV
open Cert.KernelIdeal Cert.KernelIdeal.Gen Cert.KernelIdeal.GenP Cert.KernelIdeal.H
open Idealize.ShloMosaic Idealize.ShloMosaic.TcCoe Idealize.ShloMosaic.ValueIdx
open Idealize.SL.Sem
open Idealize.ShloMosaic.Pipeline (Dat Cfg Window)
open scoped BigOperators

/-! # Layer 4 as one function of the arrays the region finds

The region's grid has 8 points; point `t` reads rows 5000·t … 5000·t+4999 of the aggregated rows and of the node rows,
the two weight matrices and the bias row whole, and writes back rows 5000·t … 5000·t+4999 of the output. Each entry
of a written block is the entry of the layer on the block's rows, which is the layer's entry on the arrays'
rows; the eight blocks tile the 40000 rows; so the output array ends holding the whole-array layer. -/

theorem zeroOffsets4 : (![0, 0] : Fin 2 → Nat) = fun _ => 0 := funext fun a => by fin_cases a <;> rfl

/-- What the body leaves in the output buffer is the block the body stores: one store over the whole buffer, of
    the loads of the five input buffers, each whole. -/
theorem out3_5_eq (x0 x1 : Vec Ideal S5000x32 .f32) (x2 x3 : Vec Ideal S32x16 .f32) (x4 : Vec Ideal S1x16 .f32) :
    out3_5 (F := Ideal) x0 x1 x2 x3 x4 = k3_pay1 (F := Ideal) x0 x1 x2 x3 x4 := by
  unfold out3_5
  rw [View.canon_unit_zero zeroOffsets4]
  simp only [View.ld_unit_zero (S := S5000x32) zeroOffsets4, View.ld_unit_zero (S := S32x16) zeroOffsets4, View.ld_unit_zero (S := S1x16) zeroOffsets4]

/-- ONE ENTRY OF A WRITTEN BLOCK. Blocks `x0`, `x1` that are rows `T·5000 …` of `agg`, `h`, and `x2`, `x3`, `x4` that
    are `Wr`, `Wo`, `b`: the body's block at `j` is the whole-array layer at the entry `i` of row `T·5000 + j₀` and
    column `j₁`. -/
theorem blockEntry4 (x0 x1 : Vec Ideal S5000x32 .f32) (x2 x3 : Vec Ideal S32x16 .f32) (x4 : Vec Ideal S1x16 .f32)
    (agg h : Vec Ideal S40000x32 .f32) (Wr Wo : Vec Ideal S32x16 .f32) (b : Vec Ideal S1x16 .f32)
    (T : Nat) (j : S5000x16.Idx) (i : S40000x16.Idx)
    (hi0 : (i 0).val = T * 5000 + (j 0).val) (hi1 : (i 1).val = (j 1).val)
    (h0 : ∀ (y : S5000x32.Idx) (y' : S40000x32.Idx), (y' 0).val = T * 5000 + (y 0).val → (y' 1).val = (y 1).val → x0 y = agg y')
    (h1 : ∀ (y : S5000x32.Idx) (y' : S40000x32.Idx), (y' 0).val = T * 5000 + (y 0).val → (y' 1).val = (y 1).val → x1 y = h y')
    (h2 : ∀ y : S32x16.Idx, x2 y = Wr y) (h3 : ∀ y : S32x16.Idx, x3 y = Wo y) (h4 : ∀ y : S1x16.Idx, x4 y = b y) :
    k3_pay1 (F := Ideal) x0 x1 x2 x3 x4 j = Cert.RefFns.layer4 (F := Ideal) agg h Wr Wo b i := by
  obtain ⟨p, o, rfl⟩ : ∃ (p : Fin 5000) (o : Fin 16), j = ix2 p o := ⟨j 0, j 1, eq_ix2 j⟩
  obtain ⟨n, o', rfl⟩ : ∃ (n : Fin 40000) (o' : Fin 16), i = ix2 n o' := ⟨i 0, i 1, eq_ix2 i⟩
  have hn : n.val = T * 5000 + p.val := hi0
  have ho : o' = o := Fin.ext hi1
  subst ho
  obtain rfl : x2 = Wr := funext h2
  obtain rfl : x3 = Wo := funext h3
  obtain rfl : x4 = b := funext h4
  rw [k3_pay1_apply, layer4_apply]
  exact (convEntry_congr_rows x0 x1 agg h x2 x3 x4 p n o'
    (fun k => h0 (ix2 p k) (ix2 n k) hn rfl) (fun k => h1 (ix2 p k) (ix2 n k) hn rfl))

section Region
variable (V : (c : Dev nD) → (b : Ref sig .tc) → Buf (Elt Ideal) ((c : Thread nD τ).loc b))

/-- The windows' block indices at point `t`, decided over the grid: the row windows and the output window are at
    block `t` of the rows and block 0 of the columns; the weights and the bias are at block 0 on both axes. -/
theorem blockIndex4 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- WHAT POINT `t` WRITES BACK is block `t` of the whole-array layer of the arrays as the region finds them. -/
theorem flushed3_eq (c : Dev nD) (t : Fin cfg3.N) :
    (dat3 (F := Ideal) V c).flushed 5 t = ((cfg3.win 5).blk t).view.read (Elt Ideal)
      (Cert.RefFns.layer4 (F := Ideal) (V c main_v50) (V c main_v40) (V c main_arg12) (V c main_arg14) (V c main_v51)) := by
  show (cfg3.win 5).cut (grid3.coords t) ((dat3 (F := Ideal) V c).after 5 t) = _
  rw [after3_5, out3_5_eq]
  obtain ⟨e00, e01, e10, e11, e20, e21, e30, e31, e40, e41, e50, e51⟩ := blockIndex4 t
  funext j
  show k3_pay1 (F := Ideal) (iblk3 V c 0 t) (iblk3 V c 1 t) (iblk3 V c 2 t) (iblk3 V c 3 t) (iblk3 V c 4 t) j
    = Cert.RefFns.layer4 (F := Ideal) (V c main_v50) (V c main_v40) (V c main_arg12) (V c main_arg14) (V c main_v51) (((cfg3.win 5).blk t).view.emb j)
  refine blockEntry4 (iblk3 V c 0 t) (iblk3 V c 1 t) (iblk3 V c 2 t) (iblk3 V c 3 t) (iblk3 V c 4 t)
    (V c main_v50) (V c main_v40) (V c main_arg12) (V c main_arg14) (V c main_v51) t.val j (((cfg3.win 5).blk t).view.emb j) ?_ ?_ ?_ ?_ ?_ ?_ ?_
  · show win3_5.index t (0 : Fin 2) * 5000 + 1 * (j 0).val = t.val * 5000 + (j 0).val; omega
  · show win3_5.index t (1 : Fin 2) * 16 + 1 * (j 1).val = (j 1).val; omega
  · intro y y' hy0 hy1
    show V c main_v50 (((cfg3.win 0).blk t).view.emb y) = V c main_v50 y'
    refine congrArg _ (funext fun a => Fin.ext ?_)
    match a with
    | ⟨0, _⟩ => show win3_0.index t (0 : Fin 2) * 5000 + 1 * (y 0).val = (y' 0).val; omega
    | ⟨1, _⟩ => show win3_0.index t (1 : Fin 2) * 32 + 1 * (y 1).val = (y' 1).val; omega
  · intro y y' hy0 hy1
    show V c main_v40 (((cfg3.win 1).blk t).view.emb y) = V c main_v40 y'
    refine congrArg _ (funext fun a => Fin.ext ?_)
    match a with
    | ⟨0, _⟩ => show win3_1.index t (0 : Fin 2) * 5000 + 1 * (y 0).val = (y' 0).val; omega
    | ⟨1, _⟩ => show win3_1.index t (1 : Fin 2) * 32 + 1 * (y 1).val = (y' 1).val; omega
  · intro y
    show V c main_arg12 (((cfg3.win 2).blk t).view.emb y) = V c main_arg12 y
    refine congrArg _ (funext fun a => Fin.ext ?_)
    match a with
    | ⟨0, _⟩ => show win3_2.index t (0 : Fin 2) * 32 + 1 * (y 0).val = (y 0).val; omega
    | ⟨1, _⟩ => show win3_2.index t (1 : Fin 2) * 16 + 1 * (y 1).val = (y 1).val; omega
  · intro y
    show V c main_arg14 (((cfg3.win 3).blk t).view.emb y) = V c main_arg14 y
    refine congrArg _ (funext fun a => Fin.ext ?_)
    match a with
    | ⟨0, _⟩ => show win3_3.index t (0 : Fin 2) * 32 + 1 * (y 0).val = (y 0).val; omega
    | ⟨1, _⟩ => show win3_3.index t (1 : Fin 2) * 16 + 1 * (y 1).val = (y 1).val; omega
  · intro y
    show V c main_v51 (((cfg3.win 4).blk t).view.emb y) = V c main_v51 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 16 + 1 * (y 1).val = (y 1).val; omega

end Region

/-- An entry of the output array is in point `t`'s block iff its row is among the block's 5000 rows (and its column
    among the 16). -/
theorem mem_block4 (t : Fin cfg3.N) (i : S40000x16.Idx) :
    i ∈ ((cfg3.win 5).blk t).view.set ↔ ∀ a : Fin 2, win3_5.index t a * S5000x16.size a ≤ (i a).val ∧ (i a).val < win3_5.index t a * S5000x16.size a + S5000x16.size a := by
  show i ∈ ((View.whole main_v52).slice (win3_5.rect t)).set ↔ _
  rw [View.set_slice_whole, Rect.mem_set_unit]
  exact Iff.rfl

/-- THE EIGHT BLOCKS TILE THE ARRAY: row `n` lies in the block of point `n / 5000`. -/
theorem cover4 (i : S40000x16.Idx) : ∃ t : Fin cfg3.N, (cfg3.win 5).flush t = true ∧ i ∈ ((cfg3.win 5).blk t).view.set := by
  have hi0 : (i 0).val < 40000 := (i 0).isLt
  have hi1 : (i 1).val < 16 := (i 1).isLt
  have hN : grid3.N = 8 := N_3
  let t : Fin cfg3.N := ⟨(i 0).val / 5000, by show (i 0).val / 5000 < grid3.N; omega⟩
  obtain ⟨-, -, -, -, -, -, -, -, -, -, e50, e51⟩ := blockIndex4 t
  have ht : t.val = (i 0).val / 5000 := rfl
  refine ⟨t, flush3_5 t, ?_⟩
  rw [mem_block4]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 16 ≤ (i 1).val ∧ (i 1).val < win3_5.index t (1 : Fin 2) * 16 + 16; omega

/-- THE OUTPUT ARRAY AFTER THE REGION: the whole-array layer of the arrays the region found. -/
theorem final3 (V : (c : Dev nD) → (b : Ref sig .tc) → Buf (Elt Ideal) ((c : Thread nD τ).loc b)) (c : Dev nD) :
    (dat3 (F := Ideal) V c).arrAt 5 cfg3.N = Cert.RefFns.layer4 (F := Ideal) (V c main_v50) (V c main_v40) (V c main_arg12) (V c main_arg14) (V c main_v51) :=
  (dat3 (F := Ideal) V c).arrAt_eq_of_cover 5 _ (fun t _ => flushed3_eq V c t) cover4

end Cert.KernelIdeal.HV
end
-- ==== Proof.Value.LibSegment.lean ====
/-
  The host's accumulating scatter of rows by a column of segment ids, read at one element, and a sum over 40000 rows
  cut into 8 tiles of 5000 rows.

  The scatter takes an operand of G rows and C columns, a column of N integer words (one id per update row) and N update
  rows of C columns. Update element (n, c) is added to operand element (id n, c), the id read as a signed integer;
  a row whose id is negative or at least G is added nowhere. So element (g, f) of the result is the operand's element
  plus the sum, over the rows n whose id is g, of update element (n, f). A signed 32-bit word equals a natural number
  below 2^31 exactly when it is that number's word, which turns the condition on the id into an equation of words.
-/
import proofs.«420548_j8821862826461_1_alg».proof.Proof.RefFns
import Idealize.ShloMosaic.PureOps.Dims
import Idealize.ShloMosaic.PureOps.Ideal
import Idealize.ShloMosaic.Lib.ValueIdx
import Mathlib.Algebra.BigOperators.Group.Finset.Basic
import Mathlib.Algebra.BigOperators.Group.Finset.Piecewise
import Mathlib.Data.Fintype.BigOperators

noncomputable section

open scoped BigOperators

namespace Cert.Seg

open Cert.ReferenceIdeal Cert.ReferenceIdeal.Gen Idealize.ShloMosaic Idealize.ShloMosaic.ValueIdx

/-! ## The dimension numbers of a scatter of rows by one column of ids -/

/-- The dimension numbers of a scatter into G rows of C columns from N update rows of C columns, the row's id in a
    column of N words: the updates' column axis is the window, the operand's row axis is the inserted one and the one
    the id addresses, and the id is the whole index vector. -/
abbrev segDims (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

variable {G N C : Nat} (wf : ScatterDims.WF ⟨2, ![G, C]⟩ ⟨2, ![N, 1]⟩ ⟨2, ![N, C]⟩ [1] [0] [0] 1)

/-- Update element (n, c) reads its id at row n of the id column. -/
theorem seg_siIdx (j : (⟨2, ![N, C]⟩ : Shape).Idx) (c : Fin (segDims G N C wf).scatterDimsToOperandDims.length) :
    (segDims G N C wf).siIdx j c = ix2 (j 0) 0 := by
  funext b
  match b with
  | ⟨0, _⟩ => rfl
  | ⟨1, _⟩ =>
    have hc : c.val = 0 := by have := c.isLt; change c.val < 1 at this; omega
    exact Fin.ext hc

/-- On the row axis the window of update element (n, c) starts at the id of row n, read signed. -/
theorem seg_start0 {w : Nat} (j : (⟨2, ![N, C]⟩ : Shape).Idx) (idx : IVec ⟨2, ![N, 1]⟩ w) :
    (segDims G N C wf).start j idx 0 = (idx (ix2 (j 0) 0)).toInt := by
  unfold ScatterDims.start
  rw [dif_pos (show (0 : Fin 2) ∈ [(0 : Fin 2)] by decide), seg_siIdx]
  rfl

/-- On the column axis the window starts at 0. -/
theorem seg_start1 {w : Nat} (j : (⟨2, ![N, C]⟩ : Shape).Idx) (idx : IVec ⟨2, ![N, 1]⟩ w) :
    (segDims G N C wf).start j idx 1 = 0 := by
  unfold ScatterDims.start
  rw [dif_neg (show (1 : Fin 2) ∉ [(0 : Fin 2)] by decide)]

/-- The row axis is inserted: the window has no extent along it. -/
theorem seg_window0 (j : (⟨2, ![N, C]⟩ : Shape).Idx) : (segDims G N C wf).window j 0 = 0 := by
  have h : (0 : Fin 2) ∉ (List.finRange 2).filter (· ∉ [(0 : Fin 2)]) := by decide
  exact dif_neg h

/-- Along the column axis the window coordinate of update element (n, c) is c. -/
theorem seg_window1 (j : (⟨2, ![N, C]⟩ : Shape).Idx) : (segDims G N C wf).window j 1 = (j 1).val := by
  have h : (1 : Fin 2) ∈ (List.finRange 2).filter (· ∉ [(0 : Fin 2)]) := by decide
  exact (dif_pos h).trans rfl

/-- Update element (n, c) lands on operand element (g, f) exactly when the id of row n, read signed, is g and c is f. -/
theorem seg_resultIdx?_iff {w : Nat} (j : (⟨2, ![N, C]⟩ : Shape).Idx) (idx : IVec ⟨2, ![N, 1]⟩ w) (g : Fin G) (f : Fin C) :
    (segDims G N C wf).resultIdx? j idx = some (ix2 g f) ↔ (idx (ix2 (j 0) 0)).toInt = (g.val : Int) ∧ j 1 = f := by
  have hg := g.isLt
  have hf := f.isLt
  have hj1 := idx2_lt1 j
  unfold ScatterDims.resultIdx?
  split
  · rename_i h
    rw [Option.some.injEq]
    constructor
    · intro he
      have h0 : ((segDims G N C wf).start j idx 0 + ((segDims G N C wf).window j 0 : ℕ)).toNat = g.val :=
        congrArg (fun i : (⟨2, ![G, C]⟩ : Shape).Idx => (i 0).val) he
      have h1 : ((segDims G N C wf).start j idx 1 + ((segDims G N C wf).window j 1 : ℕ)).toNat = f.val :=
        congrArg (fun i : (⟨2, ![G, C]⟩ : Shape).Idx => (i 1).val) he
      have hb : 0 ≤ (segDims G N C wf).start j idx 0 + ((segDims G N C wf).window j 0 : ℕ) := (h 0).1
      rw [seg_start0, seg_window0] at h0 hb
      rw [seg_start1, seg_window1] at h1
      exact ⟨by omega, Fin.ext (by omega)⟩
    · rintro ⟨h0, h1⟩
      have h1' : (j 1).val = f.val := congrArg Fin.val h1
      funext a
      match a with
      | ⟨0, _⟩ =>
        apply Fin.ext
        show ((segDims G N C wf).start j idx 0 + ((segDims G N C wf).window j 0 : ℕ)).toNat = g.val
        rw [seg_start0, seg_window0]; omega
      | ⟨1, _⟩ =>
        apply Fin.ext
        show ((segDims G N C wf).start j idx 1 + ((segDims G N C wf).window j 1 : ℕ)).toNat = f.val
        rw [seg_start1, seg_window1]; omega
  · rename_i h
    constructor
    · intro he; cases he
    · rintro ⟨h0, h1⟩
      have h1' : (j 1).val = f.val := congrArg Fin.val h1
      exfalso; apply h; intro a
      match a with
      | ⟨0, _⟩ =>
        show 0 ≤ (segDims G N C wf).start j idx 0 + ((segDims G N C wf).window j 0 : ℕ) ∧
          (segDims G N C wf).start j idx 0 + ((segDims G N C wf).window j 0 : ℕ) < ((G : ℕ) : Int)
        rw [seg_start0, seg_window0]; omega
      | ⟨1, _⟩ =>
        show 0 ≤ (segDims G N C wf).start j idx 1 + ((segDims G N C wf).window j 1 : ℕ) ∧
          (segDims G N C wf).start j idx 1 + ((segDims G N C wf).window j 1 : ℕ) < ((C : ℕ) : Int)
        rw [seg_start1, seg_window1]; omega

/-! ## The scatter read at one element -/

/-- Element (g, f) of the accumulating scatter is the operand's element plus the sum, over the rows whose id read
    signed is g, of the update's element in column f. -/
theorem seg_scatterAdd {w : Nat} (x : (⟨2, ![G, C]⟩ : Shape).Idx → EReal) (idx : IVec ⟨2, ![N, 1]⟩ w)
    (upd : (⟨2, ![N, C]⟩ : Shape).Idx → EReal) (g : Fin G) (f : Fin C) :
    Ideal.hostScatterAdd (segDims G N C wf) x idx upd (ix2 g f) =
      x (ix2 g f) + ∑ n : Fin N, if (idx (ix2 n 0)).toInt = (g.val : Int) then upd (ix2 n f) else 0 := by
  unfold Ideal.hostScatterAdd
  congr 1
  rw [Finset.sum_filter, sum_idx2]
  refine Finset.sum_congr rfl fun n _ => ?_
  calc _ = ∑ c : Fin C, (if c = f then (if (idx (ix2 n 0)).toInt = (g.val : Int) then upd (ix2 n c) else 0) else 0) :=
        Finset.sum_congr rfl fun c _ => by
          have hiff := seg_resultIdx?_iff wf (ix2 n c) idx g f
          by_cases hc : c = f
          · subst hc
            rw [if_pos rfl]
            exact if_congr (hiff.trans ⟨fun h => h.1, fun h => ⟨h, rfl⟩⟩) rfl rfl
          · rw [if_neg hc]
            exact if_neg (fun h => hc (hiff.1 h).2)
    _ = _ := by rw [Finset.sum_ite_eq' Finset.univ f, if_pos (Finset.mem_univ f)]

/-- A signed 32-bit word equals a natural number below 2^31 exactly when it is that number's word. -/
theorem toInt_eq_natCast_iff (x : BitVec 32) (g : ℕ) (hg : g < 2 ^ 31) : x.toInt = (g : Int) ↔ x = BitVec.ofNat 32 g := by
  have hx := x.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

/-- Element (g, f) of the scatter of 40000 rows of 16 columns into 64 rows by their ids: the operand's element plus the
    sum, over the rows whose id is the word of g, of the update's element in column f. -/
theorem scatterAdd_rows16 (x : (⟨S64x16, .f32⟩ : BufTy).Contents (Elt Ideal)) (bi : (⟨S40000x1, .i32⟩ : BufTy).Contents (Elt Ideal)) (u : (⟨S40000x16, .f32⟩ : BufTy).Contents (Elt Ideal)) (g : Fin 64) (f : Fin 16) :
    Host.scatterAdd (F := Ideal) (φ := .f32) scatter_S64x16_S40000x1_S40000x16_1_0_0_1 x bi u (ix2 g f) = x (ix2 g f) + ∑ n : Fin 40000, if bi (ix2 n 0) = BitVec.ofNat 32 g.val then u (ix2 n f) else 0 := by
  have hd : scatter_S64x16_S40000x1_S40000x16_1_0_0_1 = segDims 64 40000 16 scatter_S64x16_S40000x1_S40000x16_1_0_0_1_wf := rfl
  have h := seg_scatterAdd scatter_S64x16_S40000x1_S40000x16_1_0_0_1_wf x bi u g f
  rw [← hd] at h
  unfold Host.scatterAdd
  rw [Ideal.hostScatterAdd_def, h]
  refine congrArg (x (ix2 g f) + ·) (Finset.sum_congr rfl fun n _ => ?_)
  exact if_congr (toInt_eq_natCast_iff _ g.val (by have := g.isLt; omega)) rfl rfl

/-- Element (g, 0) of the scatter of 40000 rows of one column into 64 rows by their ids: the operand's element plus the
    sum, over the rows whose id is the word of g, of the update's element. -/
theorem scatterAdd_rows1 (x : (⟨S64x1, .f32⟩ : BufTy).Contents (Elt Ideal)) (bi : (⟨S40000x1, .i32⟩ : BufTy).Contents (Elt Ideal)) (u : (⟨S40000x1, .f32⟩ : BufTy).Contents (Elt Ideal)) (g : Fin 64) :
    Host.scatterAdd (F := Ideal) (φ := .f32) scatter_S64x1_S40000x1_S40000x1_1_0_0_1 x bi u (ix2 g 0) = x (ix2 g 0) + ∑ n : Fin 40000, if bi (ix2 n 0) = BitVec.ofNat 32 g.val then u (ix2 n 0) else 0 := by
  have hd : scatter_S64x1_S40000x1_S40000x1_1_0_0_1 = segDims 64 40000 1 scatter_S64x1_S40000x1_S40000x1_1_0_0_1_wf := rfl
  have h := seg_scatterAdd scatter_S64x1_S40000x1_S40000x1_1_0_0_1_wf x bi u g 0
  rw [← hd] at h
  unfold Host.scatterAdd
  rw [Ideal.hostScatterAdd_def, h]
  refine congrArg (x (ix2 g 0) + ·) (Finset.sum_congr rfl fun n _ => ?_)
  exact if_congr (toInt_eq_natCast_iff _ g.val (by have := g.isLt; omega)) rfl rfl

/-! ## A sum over the rows, tile by tile -/

/-- Row 5000 t + r, for a tile t of the 8 and a row r of its 5000: the 40000 rows, each once. -/
def tileRow : Fin 8 × Fin 5000 ≃ Fin 40000 where
  toFun p := ⟨5000 * p.1.val + p.2.val, by have := p.1.isLt; have := p.2.isLt; omega⟩
  invFun n := (⟨n.val / 5000, by have := n.isLt; omega⟩, ⟨n.val % 5000, by omega⟩)
  left_inv p := by
    have h1 := p.1.isLt
    have h2 := p.2.isLt
    refine Prod.ext (Fin.ext ?_) (Fin.ext ?_)
    · show (5000 * p.1.val + p.2.val) / 5000 = p.1.val; omega
    · show (5000 * p.1.val + p.2.val) % 5000 = p.2.val; omega
  right_inv n := by
    apply Fin.ext
    show 5000 * (n.val / 5000) + n.val % 5000 = n.val; omega

/-- a sum over the 40000 rows is the sum over the 8 tiles of the sums over a tile's 5000 rows -/
theorem sum_rows_tiles (φ : Fin 40000 → EReal) : ∑ n : Fin 40000, φ n = ∑ t : Fin 8, ∑ r : Fin 5000, φ ⟨5000 * t.val + r.val, by omega⟩ := by
  rw [← tileRow.sum_comp φ, Fintype.sum_prod_type]
  rfl

end Cert.Seg

end
-- ==== Proof.Value.PoolPayload.lean ====
import proofs.«420548_j8821862826461_1_alg».proof.Proof.KernelIdeal.Pool.Body
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HV
open Cert.KernelIdeal Cert.KernelIdeal.Gen Cert.KernelIdeal.H
open Idealize.ShloMosaic Idealize.ShloMosaic.TcCoe Idealize.ShloMosaic.ValueIdx
open scoped BigOperators

/-! # The pool kernel's arithmetic, read at an index

Every value the pool's body stores, at the extended reals, as a formula in the entries of what it
loaded: the one-hot matrix of a block's graph ids, the two accumulations (row sums and row counts
per graph) and the head (mean, times the weights, plus the bias). -/

/-! ## The three products' operand indices

The accumulations contract the block's 5000 rows (axis 0 of both operands); the head contracts the
16 columns of the means against the 16 rows of the weights. -/

theorem sumsL_0 (i : S64x16.Idx) (q : dot_S5000x64_S5000x16_S64x16_0_0_1_1_n_n.contr.Idx) :
    (dot_S5000x64_S5000x16_S64x16_0_0_1_1_n_n.lhsIdx i q 0).val = (q ⟨0, by decide⟩).val :=
  dot_S5000x64_S5000x16_S64x16_0_0_1_1_n_n.lhsIdx_val_of_single rfl i q
theorem sumsL_1 (i : S64x16.Idx) (q : dot_S5000x64_S5000x16_S64x16_0_0_1_1_n_n.contr.Idx) :
    (dot_S5000x64_S5000x16_S64x16_0_0_1_1_n_n.lhsIdx i q 1).val = (i 0).val := by
  unfold DotDims.lhsIdx
  rw [dif_neg (show ¬(1 : Fin S5000x64.rank) ∈ dot_S5000x64_S5000x16_S64x16_0_0_1_1_n_n.lhsBatch by decide), dif_pos (show (1 : Fin S5000x64.rank) ∈ dot_S5000x64_S5000x16_S64x16_0_0_1_1_n_n.lhsNonContracting by decide)]
  rfl
theorem sumsR_0 (i : S64x16.Idx) (q : dot_S5000x64_S5000x16_S64x16_0_0_1_1_n_n.contr.Idx) :
    (dot_S5000x64_S5000x16_S64x16_0_0_1_1_n_n.rhsIdx i q 0).val = (q ⟨0, by decide⟩).val :=
  dot_S5000x64_S5000x16_S64x16_0_0_1_1_n_n.rhsIdx_val_of_single rfl i q
theorem sumsR_1 (i : S64x16.Idx) (q : dot_S5000x64_S5000x16_S64x16_0_0_1_1_n_n.contr.Idx) :
    (dot_S5000x64_S5000x16_S64x16_0_0_1_1_n_n.rhsIdx i q 1).val = (i 1).val := by
  unfold DotDims.rhsIdx
  rw [dif_neg (show ¬(1 : Fin S5000x16.rank) ∈ dot_S5000x64_S5000x16_S64x16_0_0_1_1_n_n.rhsBatch by decide), dif_pos (show (1 : Fin S5000x16.rank) ∈ dot_S5000x64_S5000x16_S64x16_0_0_1_1_n_n.rhsNonContracting by decide)]
  rfl

/-- The row-sum product into the zero accumulator, at graph `g` and column `f`: the sum over the
    block's rows of the left operand's column `g` times the right operand's column `f`. -/
theorem sums_matmul_apply (lhs : FVec Ideal S5000x64 .bf16) (rhs : FVec Ideal S5000x16 .bf16) (g : Fin 64) (f : Fin 16) :
    FloatOps.matmul dot_S5000x64_S5000x16_S64x16_0_0_1_1_n_n none lhs rhs (constant S64x16 .f32 0x00000000#32) (ix2 g f)
      = ∑ r : Fin 5000, lhs (ix2 r g) * rhs (ix2 r f) := by
  rw [Ideal.matmul_constant_zero_apply, ← Equiv.sum_comp (contrEquiv1 dot_S5000x64_S5000x16_S64x16_0_0_1_1_n_n 5000 rfl rfl).symm]
  refine Finset.sum_congr rfl fun k _ => ?_
  have hk := contrEquiv1_symm_val dot_S5000x64_S5000x16_S64x16_0_0_1_1_n_n 5000 rfl rfl k
  have el : dot_S5000x64_S5000x16_S64x16_0_0_1_1_n_n.lhsIdx (ix2 g f) ((contrEquiv1 dot_S5000x64_S5000x16_S64x16_0_0_1_1_n_n 5000 rfl rfl).symm k) = ix2 k g := funext fun a => Fin.ext (by
    match a with
    | ⟨0, _⟩ => exact (sumsL_0 _ _).trans hk
    | ⟨1, _⟩ => exact sumsL_1 _ _)
  have er : dot_S5000x64_S5000x16_S64x16_0_0_1_1_n_n.rhsIdx (ix2 g f) ((contrEquiv1 dot_S5000x64_S5000x16_S64x16_0_0_1_1_n_n 5000 rfl rfl).symm k) = ix2 k f := funext fun a => Fin.ext (by
    match a with
    | ⟨0, _⟩ => exact (sumsR_0 _ _).trans hk
    | ⟨1, _⟩ => exact sumsR_1 _ _)
  rw [el, er]

theorem countsL_0 (i : S64x1.Idx) (q : dot_S5000x64_S5000x1_S64x1_0_0_1_1_n_n.contr.Idx) :
    (dot_S5000x64_S5000x1_S64x1_0_0_1_1_n_n.lhsIdx i q 0).val = (q ⟨0, by decide⟩).val :=
  dot_S5000x64_S5000x1_S64x1_0_0_1_1_n_n.lhsIdx_val_of_single rfl i q
theorem countsL_1 (i : S64x1.Idx) (q : dot_S5000x64_S5000x1_S64x1_0_0_1_1_n_n.contr.Idx) :
    (dot_S5000x64_S5000x1_S64x1_0_0_1_1_n_n.lhsIdx i q 1).val = (i 0).val := by
  unfold DotDims.lhsIdx
  rw [dif_neg (show ¬(1 : Fin S5000x64.rank) ∈ dot_S5000x64_S5000x1_S64x1_0_0_1_1_n_n.lhsBatch by decide), dif_pos (show (1 : Fin S5000x64.rank) ∈ dot_S5000x64_S5000x1_S64x1_0_0_1_1_n_n.lhsNonContracting by decide)]
  rfl
theorem countsR_0 (i : S64x1.Idx) (q : dot_S5000x64_S5000x1_S64x1_0_0_1_1_n_n.contr.Idx) :
    (dot_S5000x64_S5000x1_S64x1_0_0_1_1_n_n.rhsIdx i q 0).val = (q ⟨0, by decide⟩).val :=
  dot_S5000x64_S5000x1_S64x1_0_0_1_1_n_n.rhsIdx_val_of_single rfl i q
theorem countsR_1 (i : S64x1.Idx) (q : dot_S5000x64_S5000x1_S64x1_0_0_1_1_n_n.contr.Idx) :
    (dot_S5000x64_S5000x1_S64x1_0_0_1_1_n_n.rhsIdx i q 1).val = (i 1).val := by
  unfold DotDims.rhsIdx
  rw [dif_neg (show ¬(1 : Fin S5000x1.rank) ∈ dot_S5000x64_S5000x1_S64x1_0_0_1_1_n_n.rhsBatch by decide), dif_pos (show (1 : Fin S5000x1.rank) ∈ dot_S5000x64_S5000x1_S64x1_0_0_1_1_n_n.rhsNonContracting by decide)]
  rfl

/-- The row-count product into the zero accumulator, at graph `g`: the sum over the block's rows of
    the left operand's column `g` times the right operand's one column. -/
theorem counts_matmul_apply (lhs : FVec Ideal S5000x64 .bf16) (rhs : FVec Ideal S5000x1 .bf16) (g : Fin 64) :
    FloatOps.matmul dot_S5000x64_S5000x1_S64x1_0_0_1_1_n_n none lhs rhs (constant S64x1 .f32 0x00000000#32) (ix2 g (0 : Fin 1))
      = ∑ r : Fin 5000, lhs (ix2 r g) * rhs (ix2 r (0 : Fin 1)) := by
  rw [Ideal.matmul_constant_zero_apply, ← Equiv.sum_comp (contrEquiv1 dot_S5000x64_S5000x1_S64x1_0_0_1_1_n_n 5000 rfl rfl).symm]
  refine Finset.sum_congr rfl fun k _ => ?_
  have hk := contrEquiv1_symm_val dot_S5000x64_S5000x1_S64x1_0_0_1_1_n_n 5000 rfl rfl k
  have el : dot_S5000x64_S5000x1_S64x1_0_0_1_1_n_n.lhsIdx (ix2 g (0 : Fin 1)) ((contrEquiv1 dot_S5000x64_S5000x1_S64x1_0_0_1_1_n_n 5000 rfl rfl).symm k) = ix2 k g := funext fun a => Fin.ext (by
    match a with
    | ⟨0, _⟩ => exact (countsL_0 _ _).trans hk
    | ⟨1, _⟩ => exact countsL_1 _ _)
  have er : dot_S5000x64_S5000x1_S64x1_0_0_1_1_n_n.rhsIdx (ix2 g (0 : Fin 1)) ((contrEquiv1 dot_S5000x64_S5000x1_S64x1_0_0_1_1_n_n 5000 rfl rfl).symm k) = ix2 k (0 : Fin 1) := funext fun a => Fin.ext (by
    match a with
    | ⟨0, _⟩ => exact (countsR_0 _ _).trans hk
    | ⟨1, _⟩ => exact countsR_1 _ _)
  rw [el, er]

theorem headL_0 (i : S64x1.Idx) (q : dot_S64x16_S16x1_S64x1_1_0_0_1_n_n.contr.Idx) :
    (dot_S64x16_S16x1_S64x1_1_0_0_1_n_n.lhsIdx i q 0).val = (i 0).val := by
  unfold DotDims.lhsIdx
  rw [dif_neg (show ¬(0 : Fin S64x16.rank) ∈ dot_S64x16_S16x1_S64x1_1_0_0_1_n_n.lhsBatch by decide), dif_pos (show (0 : Fin S64x16.rank) ∈ dot_S64x16_S16x1_S64x1_1_0_0_1_n_n.lhsNonContracting by decide)]
  rfl
theorem headL_1 (i : S64x1.Idx) (q : dot_S64x16_S16x1_S64x1_1_0_0_1_n_n.contr.Idx) :
    (dot_S64x16_S16x1_S64x1_1_0_0_1_n_n.lhsIdx i q 1).val = (q ⟨0, by decide⟩).val :=
  dot_S64x16_S16x1_S64x1_1_0_0_1_n_n.lhsIdx_val_of_single rfl i q
theorem headR_0 (i : S64x1.Idx) (q : dot_S64x16_S16x1_S64x1_1_0_0_1_n_n.contr.Idx) :
    (dot_S64x16_S16x1_S64x1_1_0_0_1_n_n.rhsIdx i q 0).val = (q ⟨0, by decide⟩).val :=
  dot_S64x16_S16x1_S64x1_1_0_0_1_n_n.rhsIdx_val_of_single rfl i q
theorem headR_1 (i : S64x1.Idx) (q : dot_S64x16_S16x1_S64x1_1_0_0_1_n_n.contr.Idx) :
    (dot_S64x16_S16x1_S64x1_1_0_0_1_n_n.rhsIdx i q 1).val = (i 1).val := by
  unfold DotDims.rhsIdx
  rw [dif_neg (show ¬(1 : Fin S16x1.rank) ∈ dot_S64x16_S16x1_S64x1_1_0_0_1_n_n.rhsBatch by decide), dif_pos (show (1 : Fin S16x1.rank) ∈ dot_S64x16_S16x1_S64x1_1_0_0_1_n_n.rhsNonContracting by decide)]
  rfl

/-- The head's product into the zero accumulator, at graph `g`: the sum over the 16 columns of the
    left operand's row `g` times the right operand's one column. -/
theorem head_matmul_apply (lhs : FVec Ideal S64x16 .bf16) (rhs : FVec Ideal S16x1 .bf16) (g : Fin 64) :
    FloatOps.matmul dot_S64x16_S16x1_S64x1_1_0_0_1_n_n none lhs rhs (constant S64x1 .f32 0x00000000#32) (ix2 g (0 : Fin 1))
      = ∑ k : Fin 16, lhs (ix2 g k) * rhs (ix2 k (0 : Fin 1)) := by
  rw [Ideal.matmul_constant_zero_apply, ← Equiv.sum_comp (contrEquiv1 dot_S64x16_S16x1_S64x1_1_0_0_1_n_n 16 rfl rfl).symm]
  refine Finset.sum_congr rfl fun k _ => ?_
  have hk := contrEquiv1_symm_val dot_S64x16_S16x1_S64x1_1_0_0_1_n_n 16 rfl rfl k
  have el : dot_S64x16_S16x1_S64x1_1_0_0_1_n_n.lhsIdx (ix2 g (0 : Fin 1)) ((contrEquiv1 dot_S64x16_S16x1_S64x1_1_0_0_1_n_n 16 rfl rfl).symm k) = ix2 g k := funext fun a => Fin.ext (by
    match a with
    | ⟨0, _⟩ => exact headL_0 _ _
    | ⟨1, _⟩ => exact (headL_1 _ _).trans hk)
  have er : dot_S64x16_S16x1_S64x1_1_0_0_1_n_n.rhsIdx (ix2 g (0 : Fin 1)) ((contrEquiv1 dot_S64x16_S16x1_S64x1_1_0_0_1_n_n 16 rfl rfl).symm k) = ix2 k (0 : Fin 1) := funext fun a => Fin.ext (by
    match a with
    | ⟨0, _⟩ => exact (headR_0 _ _).trans hk
    | ⟨1, _⟩ => exact headR_1 _ _)
  rw [el, er]

/-! ## The one-hot matrix of a block's graph ids -/

/-- Entry (r, g) of the one-hot matrix: one where row `r`'s id word is the word `g`, zero elsewhere. -/
theorem onehot_apply (x1 : Vec Ideal S5000x1 .i32) (r : Fin 5000) (g : Fin 64) :
    k4_pay3 (F := Ideal) x1 (ix2 r g) = if x1 (ix2 r 0) = BitVec.ofNat 32 g.val then (1 : EReal) else 0 := by
  unfold k4_pay3
  show FloatOps.sitofp (F := Ideal) .f32 ((IntOp.cmpi .eq (broadcastTo S5000x64 (shapeCast S5000x1 x1 shapeCasts_S5000x1_S5000x1) broadcasts_S5000x1_S5000x64 (ix2 r g)) (iota .tc S5000x64 32 [1] iota_S5000x64_d1_w32 (ix2 r g))).setWidth 32) = _
  rw [shapeCast_self, iota_single_apply,
    broadcastTo_apply x1 broadcasts_S5000x1_S5000x64 (ix2 r g) (ix2 r 0) (fun a => match a with
      | ⟨0, _⟩ => by show r.val = if (5000 : Nat) = 1 then 0 else r.val; rw [if_neg (by decide)]
      | ⟨1, _⟩ => by show 0 = if (1 : Nat) = 1 then 0 else g.val; rw [if_pos rfl])]
  show (((BitVec.setWidth 32 (IntOp.cmpi .eq (x1 (ix2 r 0)) (BitVec.ofNat 32 g.val))).toInt : ℝ) : EReal) = _
  by_cases h : x1 (ix2 r 0) = BitVec.ofNat 32 g.val
  · have e : IntOp.cmpi .eq (x1 (ix2 r 0)) (BitVec.ofNat 32 g.val) = 1#1 := by simp [IntOp.cmpi, h]
    rw [if_pos h, e]
    simp
  · have e : IntOp.cmpi .eq (x1 (ix2 r 0)) (BitVec.ofNat 32 g.val) = 0#1 := by
      show BitVec.ofBool (x1 (ix2 r 0) == BitVec.ofNat 32 g.val) = 0#1
      rw [beq_eq_false_iff_ne.mpr h]; rfl
    rw [if_neg h, e]
    simp

/-! ## The two accumulations -/

/-- Scratch 0 after a point, at graph `g` and column `f`: what it held plus the block's rows of
    graph `g`, summed in column `f`. -/
theorem acc0_apply (x0 : Vec Ideal S5000x16 .f32) (x1 : Vec Ideal S5000x1 .i32) (s0 : Vec Ideal S64x16 .f32) (g : Fin 64) (f : Fin 16) :
    acc0 (F := Ideal) x0 x1 s0 (ix2 g f)
      = s0 (ix2 g f) + ∑ r : Fin 5000, (if x1 (ix2 r 0) = BitVec.ofNat 32 g.val then x0 (ix2 r f) else 0) := by
  unfold acc0 k4_pay4
  rw [shapeCast_self]
  show s0 (ix2 g f) + FloatOps.matmul dot_S5000x64_S5000x16_S64x16_0_0_1_1_n_n none (k4_pay3 (F := Ideal) x1) (truncf .bf16 (shapeCast S5000x16 x0 shapeCasts_S5000x16_S5000x16) bitsLt_bf16_f32) (constant S64x16 .f32 0x00000000#32) (ix2 g f) = _
  rw [sums_matmul_apply, shapeCast_self]
  refine congrArg (s0 (ix2 g f) + ·) (Finset.sum_congr rfl fun r _ => ?_)
  rw [onehot_apply]
  show (if x1 (ix2 r 0) = BitVec.ofNat 32 g.val then (1 : EReal) else 0) * x0 (ix2 r f) = _
  by_cases h : x1 (ix2 r 0) = BitVec.ofNat 32 g.val
  · rw [if_pos h, if_pos h, one_mul]
  · rw [if_neg h, if_neg h, zero_mul]

/-- The bf16 word the count's right operand is filled with reads as one. -/
theorem one_bf16 : Ideal.ofBits .bf16 0x3F80#16 = 1 := by
  simp [Ideal.ofBits, Ideal.ieee, -EReal.coe_mul]; norm_num

/-- The f32 word the counts are clamped below by reads as one. -/
theorem one_f32 : Ideal.ofBits .f32 0x3F800000#32 = 1 := by
  simp [Ideal.ofBits, Ideal.ieee, -EReal.coe_mul]; norm_num

/-- What the first point stores into the sums before accumulating: zero everywhere. -/
theorem zero0_apply (i : S64x16.Idx) : zero0 (F := Ideal) i = 0 := by
  unfold zero0 k4_pay1
  rw [shapeCast_self]
  exact Ideal.ofBits_zero_f32

/-- What the first point stores into the counts before accumulating: zero everywhere. -/
theorem zero1_apply (i : S64x1.Idx) : zero1 (F := Ideal) i = 0 := by
  unfold zero1 k4_pay2
  rw [shapeCast_self]
  exact Ideal.ofBits_zero_f32

/-- Scratch 1 after a point, at graph `g`: what it held plus the number of the block's rows of
    graph `g`, as a sum of ones. -/
theorem acc1_apply (x1 : Vec Ideal S5000x1 .i32) (s1 : Vec Ideal S64x1 .f32) (g : Fin 64) :
    acc1 (F := Ideal) x1 s1 (ix2 g (0 : Fin 1))
      = s1 (ix2 g (0 : Fin 1)) + ∑ r : Fin 5000, (if x1 (ix2 r 0) = BitVec.ofNat 32 g.val then (1 : EReal) else 0) := by
  unfold acc1 k4_pay5
  rw [shapeCast_self]
  show s1 (ix2 g (0 : Fin 1)) + FloatOps.matmul dot_S5000x64_S5000x1_S64x1_0_0_1_1_n_n none (k4_pay3 (F := Ideal) x1) (broadcast S5000x1 (Scalar.ofBits (F := Ideal) .bf16 0x3F80#16)) (constant S64x1 .f32 0x00000000#32) (ix2 g (0 : Fin 1)) = _
  rw [counts_matmul_apply]
  refine congrArg (s1 (ix2 g (0 : Fin 1)) + ·) (Finset.sum_congr rfl fun r _ => ?_)
  rw [onehot_apply]
  show (if x1 (ix2 r 0) = BitVec.ofNat 32 g.val then (1 : EReal) else 0) * Ideal.ofBits .bf16 0x3F80#16 = _
  rw [one_bf16, mul_one]

/-! ## The head -/

/-- The output block at graph `g`: the sums' row `g`, each entry divided by the larger of the count and
    one, contracted with the weights' column, plus the bias. -/
theorem head4_apply (s0 : Vec Ideal S64x16 .f32) (s1 : Vec Ideal S64x1 .f32) (x2 : Vec Ideal S16x1 .f32) (x3 : Vec Ideal S1x1 .f32) (g : Fin 64) :
    head4 (F := Ideal) s0 s1 x2 x3 (ix2 g (0 : Fin 1))
      = (∑ k : Fin 16, Ideal.div (s0 (ix2 g k)) (max (s1 (ix2 g (0 : Fin 1))) 1) * x2 (ix2 k (0 : Fin 1)))
        + x3 (ix2 (0 : Fin 1) (0 : Fin 1)) := by
  unfold head4 k4_pay6
  show FloatOps.matmul dot_S64x16_S16x1_S64x1_1_0_0_1_n_n none
        (truncf .bf16 (divf s0 (broadcastTo S64x16 (maximumf s1 (broadcast S64x1 (Scalar.ofBits (F := Ideal) .f32 0x3F800000#32))) broadcasts_S64x1_S64x16)) bitsLt_bf16_f32)
        (truncf .bf16 x2 bitsLt_bf16_f32) (constant S64x1 .f32 0x00000000#32) (ix2 g (0 : Fin 1))
      + broadcastTo S64x1 (shapeCast S1x1 x3 shapeCasts_S1x1_S1x1) broadcasts_S1x1_S64x1 (ix2 g (0 : Fin 1)) = _
  rw [head_matmul_apply, shapeCast_self,
    broadcastTo_apply x3 broadcasts_S1x1_S64x1 (ix2 g (0 : Fin 1)) (ix2 (0 : Fin 1) (0 : Fin 1)) (fun a => match a with
      | ⟨0, _⟩ => by show 0 = if (1 : Nat) = 1 then 0 else g.val; rw [if_pos rfl]
      | ⟨1, _⟩ => by show 0 = if (1 : Nat) = 1 then 0 else 0; rw [if_pos rfl])]
  refine congrArg (· + x3 (ix2 (0 : Fin 1) (0 : Fin 1))) (Finset.sum_congr rfl fun k _ => ?_)
  show Ideal.div (s0 (ix2 g k)) (broadcastTo S64x16 (maximumf s1 (broadcast S64x1 (Scalar.ofBits (F := Ideal) .f32 0x3F800000#32))) broadcasts_S64x1_S64x16 (ix2 g k)) * x2 (ix2 k (0 : Fin 1)) = _
  rw [broadcastTo_apply (maximumf s1 (broadcast S64x1 (Scalar.ofBits (F := Ideal) .f32 0x3F800000#32))) broadcasts_S64x1_S64x16 (ix2 g k) (ix2 g (0 : Fin 1)) (fun a => match a with
      | ⟨0, _⟩ => by show g.val = if (64 : Nat) = 1 then 0 else g.val; rw [if_neg (by decide)]
      | ⟨1, _⟩ => by show 0 = if (1 : Nat) = 1 then 0 else k.val; rw [if_pos rfl])]
  show Ideal.div (s0 (ix2 g k)) (max (s1 (ix2 g (0 : Fin 1))) (Ideal.ofBits .f32 0x3F800000#32)) * x2 (ix2 k (0 : Fin 1)) = _
  rw [one_f32]

end Cert.KernelIdeal.HV
end
-- ==== Proof.Value.PoolBlocks.lean ====
import proofs.«420548_j8821862826461_1_alg».proof.Proof.KernelIdeal.Region4
import Idealize.ShloMosaic.Lib.Pipeline.Value
import Idealize.ShloMosaic.Lib.ValueIdx
set_option maxRecDepth 16384
noncomputable section
namespace Cert.KernelIdeal.HV
open Cert.KernelIdeal Cert.KernelIdeal.Gen Cert.KernelIdeal.GenP Cert.KernelIdeal.H
open Idealize.ShloMosaic Idealize.ShloMosaic.TcCoe Idealize.ShloMosaic.ValueIdx
open Idealize.SL.Sem
open Idealize.ShloMosaic.Pipeline (Dat)
variable {F : FTy → Type} [FloatOps F]

/-! # The pool's blocks as parts of their arrays, and the pooled array at the end

Point `t` of the pool's grid reads rows `5000 t … 5000 t + 4999` of the node rows (40000x16) and of
the graph ids (40000x1); the head's weights (16x1) and bias (1x1) are one block each, the whole
array. The output (64x1) is one block, the whole array, written back after the last point only: so
the array ends holding what the last point stored. -/

section PoolBlocks

variable (V : (c : Dev nD) → (b : Ref sig .tc) → Buf (Elt F) ((c : Thread nD τ).loc b))

/-- The tile's node rows. -/
abbrev rowsBlk (c : Dev nD) (t : Fin cfg4.N) : Vec F S5000x16 .f32 := iblk4 V c 0 t
/-- The tile's graph ids. -/
abbrev idsBlk (c : Dev nD) (t : Fin cfg4.N) : Vec F S5000x1 .i32 := iblk4 V c 1 t
/-- The head's weights, as point `t` reads them. -/
abbrev wfcBlk (c : Dev nD) (t : Fin cfg4.N) : Vec F S16x1 .f32 := iblk4 V c 2 t
/-- The head's bias, as point `t` reads it. -/
abbrev bfcBlk (c : Dev nD) (t : Fin cfg4.N) : Vec F S1x1 .f32 := iblk4 V c 3 t

/-- The windows' block indices over the grid: the two tiled inputs step along axis 0 with the point,
    the weights, the bias and the output stay at block (0, 0). -/
theorem idx4_rows : ∀ t : Fin cfg4.N, win4_0.index t 0 = t.val ∧ win4_0.index t 1 = 0 :=
  (by decide +kernel : ∀ t : Fin grid4.N, _)
theorem idx4_ids : ∀ t : Fin cfg4.N, win4_1.index t 0 = t.val ∧ win4_1.index t 1 = 0 :=
  (by decide +kernel : ∀ t : Fin grid4.N, _)
theorem idx4_wfc : ∀ t : Fin cfg4.N, win4_2.index t 0 = 0 ∧ win4_2.index t 1 = 0 :=
  (by decide +kernel : ∀ t : Fin grid4.N, _)
theorem idx4_bfc : ∀ t : Fin cfg4.N, win4_3.index t 0 = 0 ∧ win4_3.index t 1 = 0 :=
  (by decide +kernel : ∀ t : Fin grid4.N, _)

/-- Row `r` of tile `t` is row `5000 t + r` of the node rows. -/
theorem rowsBlk_apply (c : Dev nD) (t : Fin cfg4.N) (r : Fin 5000) (f : Fin 16) (h : 5000 * t.val + r.val < 40000) :
    rowsBlk V c t (ix2 r f) = (V c main_v52 : S40000x16.Idx → Elt F .f32) (ix2 ⟨5000 * t.val + r.val, h⟩ f) := by
  have hi := idx4_rows t
  unfold rowsBlk iblk4
  rw [View.read_apply]
  show V c main_v52 _ = V c main_v52 _
  congr 1
  funext a
  apply Fin.ext
  match a with
  | ⟨0, _⟩ => show win4_0.index t 0 * 5000 + 1 * r.val = 5000 * t.val + r.val; rw [hi.1]; omega
  | ⟨1, _⟩ => show win4_0.index t 1 * 16 + 1 * f.val = f.val; rw [hi.2]; omega

/-- Row `r` of tile `t`'s ids is row `5000 t + r` of the graph ids. -/
theorem idsBlk_apply (c : Dev nD) (t : Fin cfg4.N) (r : Fin 5000) (h : 5000 * t.val + r.val < 40000) :
    idsBlk V c t (ix2 r 0) = (V c main_v4 : S40000x1.Idx → Elt F .i32) (ix2 ⟨5000 * t.val + r.val, h⟩ 0) := by
  have hi := idx4_ids t
  unfold idsBlk iblk4
  rw [View.read_apply]
  show V c main_v4 _ = V c main_v4 _
  congr 1
  funext a
  apply Fin.ext
  match a with
  | ⟨0, _⟩ => show win4_1.index t 0 * 5000 + 1 * r.val = 5000 * t.val + r.val; rw [hi.1]; omega
  | ⟨1, _⟩ => show win4_1.index t 1 * 1 + 1 * (0 : Fin 1).val = (0 : Fin 1).val; rw [hi.2]; rfl

/-- The weights' one block is the weights. -/
theorem wfcBlk_eq (c : Dev nD) (t : Fin cfg4.N) : wfcBlk V c t = (V c main_arg15 : S16x1.Idx → Elt F .f32) := by
  have hi := idx4_wfc t
  funext y
  unfold wfcBlk iblk4
  rw [View.read_apply]
  show V c main_arg15 _ = V c main_arg15 y
  congr 1
  funext a
  apply Fin.ext
  match a with
  | ⟨0, _⟩ => show win4_2.index t 0 * 16 + 1 * (y 0).val = (y 0).val; rw [hi.1]; omega
  | ⟨1, _⟩ => show win4_2.index t 1 * 1 + 1 * (y 1).val = (y 1).val; rw [hi.2]; omega

/-- The bias's one block is the bias. -/
theorem bfcBlk_eq (c : Dev nD) (t : Fin cfg4.N) : bfcBlk V c t = (V c main_v53 : S1x1.Idx → Elt F .f32) := by
  have hi := idx4_bfc t
  funext y
  unfold bfcBlk iblk4
  rw [View.read_apply]
  show V c main_v53 _ = V c main_v53 y
  congr 1
  funext a
  apply Fin.ext
  match a with
  | ⟨0, _⟩ => show win4_3.index t 0 * 1 + 1 * (y 0).val = (y 0).val; rw [hi.1]; omega
  | ⟨1, _⟩ => show win4_3.index t 1 * 1 + 1 * (y 1).val = (y 1).val; rw [hi.2]; omega

/-- The one write-back, after the last point, writes what that point stored: block (0, 0) of the
    64x1 array read at zero offsets is the array. -/
theorem flushed4_eq (c : Dev nD) (t : Fin cfg4.N) (hf : (cfg4.win 4).flush t = true) :
    (dat4 V c).flushed 4 t = ((cfg4.win 4).blk t).view.read (Elt F) (out4At V c t4_7) := by
  have hN : cfg4.N = 8 := N_4
  have h7 : t.val = 7 := by have := (flush4_4 t).mp hf; have := t.isLt; omega
  obtain rfl : t = t4_7 := Fin.ext h7
  show (cfg4.win 4).cut (grid4.coords t4_7) ((dat4 V c).after 4 t4_7) = _
  rw [after4_4]
  have hz : (fun a => win4_4.index t4_7 a * main_v54.ty.shape.size a) = fun _ => 0 := funext fun a => by fin_cases a <;> decide
  exact (Memref.read_access_unit_zero (Elt F) main_v54 hz (fun a => by rw [congrFun hz a]; simp) (out4At V c t4_7)).symm

/-- The output array after the region is what the last point stored: its one block, the whole
    array, is written back after point 7 and covers every index. -/
theorem arrAt4_last (c : Dev nD) : (dat4 (F := F) V c).arrAt 4 cfg4.N = (out4At V c t4_7 : S64x1.Idx → Elt F .f32) :=
  (dat4 V c).arrAt_eq_of_cover 4 (out4At V c t4_7) (flushed4_eq V c) fun i =>
    ⟨t4_7, (flush4_4 t4_7).mpr rfl, by
      show i ∈ ((View.whole main_v54).slice (win4_4.rect t4_7)).set
      rw [View.set_slice_whole, Rect.mem_set_unit]
      intro a
      have h0 : (i 0 : Nat) < 64 := (i 0).isLt
      have h1 : (i 1 : Nat) < 1 := (i 1).isLt
      match a with
      | ⟨0, _⟩ =>
        show win4_4.index t4_7 0 * win4_4.size 0 ≤ (i 0 : Nat) ∧ (i 0 : Nat) < win4_4.index t4_7 0 * win4_4.size 0 + win4_4.xsize (grid4.coords t4_7) 0
        rw [show win4_4.index t4_7 0 * win4_4.size 0 = 0 from by decide +kernel, show win4_4.xsize (grid4.coords t4_7) 0 = 64 from by decide +kernel]; omega
      | ⟨1, _⟩ =>
        show win4_4.index t4_7 1 * win4_4.size 1 ≤ (i 1 : Nat) ∧ (i 1 : Nat) < win4_4.index t4_7 1 * win4_4.size 1 + win4_4.xsize (grid4.coords t4_7) 1
        rw [show win4_4.index t4_7 1 * win4_4.size 1 = 0 from by decide +kernel, show win4_4.xsize (grid4.coords t4_7) 1 = 1 from by decide +kernel]; omega⟩

end PoolBlocks

end Cert.KernelIdeal.HV
end
-- ==== Proof.Value.PoolRef.lean ====
import proofs.«420548_j8821862826461_1_alg».proof.Proof.RefFns
import proofs.«420548_j8821862826461_1_alg».proof.Proof.Value.LibSegment
import Idealize.ShloMosaic.Lib.Pipeline.Value
import Idealize.ShloMosaic.Lib.ValueIdx
import Idealize.ShloMosaic.PureOps.Ideal.Laws
set_option maxRecDepth 16384
noncomputable section
namespace Cert.PoolRef
open Cert.ReferenceIdeal Cert.ReferenceIdeal.Gen
open Idealize.ShloMosaic Idealize.ShloMosaic.TcCoe Idealize.ShloMosaic.ValueIdx
open scoped BigOperators

/-! # The reference's head, read at a graph

The head of the reference at graph `g`: the per-graph sums' row `g`, each entry divided by the larger
of the graph's count and one, contracted with the weights' column, plus the bias. The sums and the
counts are the host's accumulating scatters, named here and left unopened. -/

/-- The rows of `h` summed per graph id: the accumulating scatter of `h`'s rows into a zero array. -/
def sums (h : (⟨S40000x16, .f32⟩ : BufTy).Contents (Elt Ideal)) (bi : (⟨S40000x1, .i32⟩ : BufTy).Contents (Elt Ideal)) : (⟨S64x16, .f32⟩ : BufTy).Contents (Elt Ideal) :=
  Host.scatterAdd (F := Ideal) (φ := .f32) scatter_S64x16_S40000x1_S40000x16_1_0_0_1 (broadcastInDim S64x16 ![] bcast_S_S64x16 (constant (F := Ideal) S_ .f32 0x00000000#32)) bi h

/-- The rows counted per graph id: the accumulating scatter of a column of ones into a zero column. -/
def counts (bi : (⟨S40000x1, .i32⟩ : BufTy).Contents (Elt Ideal)) : (⟨S64x1, .f32⟩ : BufTy).Contents (Elt Ideal) :=
  Host.scatterAdd (F := Ideal) (φ := .f32) scatter_S64x1_S40000x1_S40000x1_1_0_0_1 (broadcastInDim S64x1 ![] bcast_S_S64x1 (constant (F := Ideal) S_ .f32 0x00000000#32)) bi
    (broadcastInDim S40000x1 ![] bcast_S_S40000x1 (constant (F := Ideal) S_ .f32 0x3F800000#32))

theorem headL_0 (i : S64x1.Idx) (q : dot_S64x16_S16x1_S64x1_1_0_0_1_n_n.contr.Idx) :
    (dot_S64x16_S16x1_S64x1_1_0_0_1_n_n.lhsIdx i q 0).val = (i 0).val := by
  unfold DotDims.lhsIdx
  rw [dif_neg (show ¬(0 : Fin S64x16.rank) ∈ dot_S64x16_S16x1_S64x1_1_0_0_1_n_n.lhsBatch by decide), dif_pos (show (0 : Fin S64x16.rank) ∈ dot_S64x16_S16x1_S64x1_1_0_0_1_n_n.lhsNonContracting by decide)]
  rfl
theorem headL_1 (i : S64x1.Idx) (q : dot_S64x16_S16x1_S64x1_1_0_0_1_n_n.contr.Idx) :
    (dot_S64x16_S16x1_S64x1_1_0_0_1_n_n.lhsIdx i q 1).val = (q ⟨0, by decide⟩).val :=
  dot_S64x16_S16x1_S64x1_1_0_0_1_n_n.lhsIdx_val_of_single rfl i q
theorem headR_0 (i : S64x1.Idx) (q : dot_S64x16_S16x1_S64x1_1_0_0_1_n_n.contr.Idx) :
    (dot_S64x16_S16x1_S64x1_1_0_0_1_n_n.rhsIdx i q 0).val = (q ⟨0, by decide⟩).val :=
  dot_S64x16_S16x1_S64x1_1_0_0_1_n_n.rhsIdx_val_of_single rfl i q
theorem headR_1 (i : S64x1.Idx) (q : dot_S64x16_S16x1_S64x1_1_0_0_1_n_n.contr.Idx) :
    (dot_S64x16_S16x1_S64x1_1_0_0_1_n_n.rhsIdx i q 1).val = (i 1).val := by
  unfold DotDims.rhsIdx
  rw [dif_neg (show ¬(1 : Fin S16x1.rank) ∈ dot_S64x16_S16x1_S64x1_1_0_0_1_n_n.rhsBatch by decide), dif_pos (show (1 : Fin S16x1.rank) ∈ dot_S64x16_S16x1_S64x1_1_0_0_1_n_n.rhsNonContracting by decide)]
  rfl

/-- The head's host product at graph `g`: the sum over the 16 columns of the left operand's row `g`
    times the right operand's one column. -/
theorem head_dot_apply (lhs : FVec Ideal S64x16 .f32) (rhs : FVec Ideal S16x1 .f32) (g : Fin 64) :
    Host.dotGeneral (F := Ideal) (φ₁ := .f32) (φ₂ := .f32) dot_S64x16_S16x1_S64x1_1_0_0_1_n_n none lhs rhs (ix2 g (0 : Fin 1))
      = ∑ k : Fin 16, lhs (ix2 g k) * rhs (ix2 k (0 : Fin 1)) := by
  simp only [Host.dotGeneral]
  rw [Ideal.dotGeneral_apply, ← Equiv.sum_comp (contrEquiv1 dot_S64x16_S16x1_S64x1_1_0_0_1_n_n 16 rfl rfl).symm]
  refine Finset.sum_congr rfl fun k _ => ?_
  have hk := contrEquiv1_symm_val dot_S64x16_S16x1_S64x1_1_0_0_1_n_n 16 rfl rfl k
  have el : dot_S64x16_S16x1_S64x1_1_0_0_1_n_n.lhsIdx (ix2 g (0 : Fin 1)) ((contrEquiv1 dot_S64x16_S16x1_S64x1_1_0_0_1_n_n 16 rfl rfl).symm k) = ix2 g k := funext fun a => Fin.ext (by
    match a with
    | ⟨0, _⟩ => exact headL_0 _ _
    | ⟨1, _⟩ => exact (headL_1 _ _).trans hk)
  have er : dot_S64x16_S16x1_S64x1_1_0_0_1_n_n.rhsIdx (ix2 g (0 : Fin 1)) ((contrEquiv1 dot_S64x16_S16x1_S64x1_1_0_0_1_n_n 16 rfl rfl).symm k) = ix2 k (0 : Fin 1) := funext fun a => Fin.ext (by
    match a with
    | ⟨0, _⟩ => exact (headR_0 _ _).trans hk
    | ⟨1, _⟩ => exact headR_1 _ _)
  rw [el, er]

/-- The head's operations on any sums `S` and counts `Cn`, at graph `g`. -/
theorem head_apply (S : FVec Ideal S64x16 .f32) (Cn : FVec Ideal S64x1 .f32)
    (Wfc : FVec Ideal S16x1 .f32) (b11 : FVec Ideal S1x1 .f32) (g : Fin 64) :
    addf (F := Ideal) (φ := .f32) (Host.dotGeneral (F := Ideal) (φ₁ := .f32) (φ₂ := .f32) dot_S64x16_S16x1_S64x1_1_0_0_1_n_n none
        (Host.divf (F := Ideal) (φ := .f32) S (broadcastInDim S64x16 ![0, 1] bcast_S64x1_S64x16_0_1 (maximumf (F := Ideal) (φ := .f32) Cn (broadcastInDim S64x1 ![] bcast_S_S64x1 (constant (F := Ideal) S_ .f32 0x3F800000#32)))))
        Wfc)
      (broadcastInDim S64x1 ![0, 1] bcast_S1x1_S64x1_0_1 b11) (ix2 g (0 : Fin 1))
      = (∑ k : Fin 16, Ideal.div (S (ix2 g k)) (max (Cn (ix2 g (0 : Fin 1))) (Ideal.ofBits .f32 0x3F800000#32)) * Wfc (ix2 k (0 : Fin 1)))
        + b11 (ix2 (0 : Fin 1) (0 : Fin 1)) := by
  rw [addf_apply, head_dot_apply,
    broadcastInDim_apply _ bcast_S1x1_S64x1_0_1 b11 (ix2 g (0 : Fin 1)) (ix2 (0 : Fin 1) (0 : Fin 1)) (fun a => match a with
      | ⟨0, _⟩ => by show 0 = if (1 : Nat) = 1 then 0 else g.val; rw [if_pos rfl]
      | ⟨1, _⟩ => by show 0 = if (1 : Nat) = 1 then 0 else 0; rw [if_pos rfl])]
  refine congrArg (· + b11 (ix2 (0 : Fin 1) (0 : Fin 1))) (Finset.sum_congr rfl fun k _ => ?_)
  show Ideal.div (S (ix2 g k)) (broadcastInDim S64x16 ![0, 1] bcast_S64x1_S64x16_0_1 (maximumf Cn (broadcastInDim S64x1 ![] bcast_S_S64x1 (constant (F := Ideal) S_ .f32 0x3F800000#32))) (ix2 g k)) * Wfc (ix2 k (0 : Fin 1)) = _
  rw [broadcastInDim_apply _ bcast_S64x1_S64x16_0_1 (maximumf Cn (broadcastInDim S64x1 ![] bcast_S_S64x1 (constant (F := Ideal) S_ .f32 0x3F800000#32))) (ix2 g k) (ix2 g (0 : Fin 1)) (fun a => match a with
      | ⟨0, _⟩ => by show g.val = if (64 : Nat) = 1 then 0 else g.val; rw [if_neg (by decide)]
      | ⟨1, _⟩ => by show 0 = if (1 : Nat) = 1 then 0 else k.val; rw [if_pos rfl])]
  rfl

/-- The reference's head at graph `g`. -/
theorem pool_apply (h : (⟨S40000x16, .f32⟩ : BufTy).Contents (Elt Ideal)) (bi : (⟨S40000x1, .i32⟩ : BufTy).Contents (Elt Ideal))
    (Wfc : (⟨S16x1, .f32⟩ : BufTy).Contents (Elt Ideal)) (b11 : (⟨S1x1, .f32⟩ : BufTy).Contents (Elt Ideal)) (g : Fin 64) :
    Cert.RefFns.pool (F := Ideal) h bi Wfc b11 (ix2 g (0 : Fin 1))
      = (∑ k : Fin 16, Ideal.div (sums h bi (ix2 g k)) (max (counts bi (ix2 g (0 : Fin 1))) (Ideal.ofBits .f32 0x3F800000#32)) * Wfc (ix2 k (0 : Fin 1)))
        + b11 (ix2 (0 : Fin 1) (0 : Fin 1)) := by
  unfold Cert.RefFns.pool
  exact head_apply (sums h bi) (counts bi) Wfc b11 g

/-! ## The sums and the counts, tile by tile -/

/-- The f32 word of the column of ones, and of the lower clamp of the counts, reads as one. -/
theorem one_word : Ideal.ofBits .f32 0x3F800000#32 = 1 := by
  simp [Ideal.ofBits, Ideal.ieee, -EReal.coe_mul]; norm_num

/-- The reference's sums at graph `g` and column `f`: over the 8 tiles of 5000 rows, the rows whose id
    is the word of `g`, summed in column `f`. -/
theorem sums_apply (h : (⟨S40000x16, .f32⟩ : BufTy).Contents (Elt Ideal)) (bi : (⟨S40000x1, .i32⟩ : BufTy).Contents (Elt Ideal)) (g : Fin 64) (f : Fin 16) :
    sums h bi (ix2 g f)
      = ∑ t : Fin 8, ∑ r : Fin 5000, (if bi (ix2 (⟨5000 * t.val + r.val, by omega⟩ : Fin 40000) 0) = BitVec.ofNat 32 g.val then h (ix2 (⟨5000 * t.val + r.val, by omega⟩ : Fin 40000) f) else 0) := by
  unfold sums
  refine (Cert.Seg.scatterAdd_rows16 _ bi h g f).trans ?_
  rw [broadcastInDim_apply _ bcast_S_S64x16 (constant (F := Ideal) S_ .f32 0x00000000#32) (ix2 g f) ix0 (fun a => a.elim0)]
  show Ideal.ofBits .f32 0x00000000#32 + _ = _
  rw [Ideal.ofBits_zero_f32, zero_add]
  exact Cert.Seg.sum_rows_tiles (fun n => if bi (ix2 n 0) = BitVec.ofNat 32 g.val then h (ix2 n f) else 0)

/-- The reference's counts at graph `g`: over the 8 tiles of 5000 rows, one for each row whose id is
    the word of `g`. -/
theorem counts_apply (bi : (⟨S40000x1, .i32⟩ : BufTy).Contents (Elt Ideal)) (g : Fin 64) :
    counts bi (ix2 g (0 : Fin 1))
      = ∑ t : Fin 8, ∑ r : Fin 5000, (if bi (ix2 (⟨5000 * t.val + r.val, by omega⟩ : Fin 40000) 0) = BitVec.ofNat 32 g.val then (1 : EReal) else 0) := by
  unfold counts
  refine (Cert.Seg.scatterAdd_rows1 _ bi _ g).trans ?_
  rw [broadcastInDim_apply _ bcast_S_S64x1 (constant (F := Ideal) S_ .f32 0x00000000#32) (ix2 g (0 : Fin 1)) ix0 (fun a => a.elim0)]
  show Ideal.ofBits .f32 0x00000000#32 + _ = _
  rw [Ideal.ofBits_zero_f32, zero_add]
  refine (Cert.Seg.sum_rows_tiles (fun n => if bi (ix2 n 0) = BitVec.ofNat 32 g.val then
      broadcastInDim S40000x1 ![] bcast_S_S40000x1 (constant (F := Ideal) S_ .f32 0x3F800000#32) (ix2 n (0 : Fin 1)) else 0)).trans ?_
  refine Finset.sum_congr rfl fun t _ => Finset.sum_congr rfl fun r _ => ?_
  rw [broadcastInDim_apply _ bcast_S_S40000x1 (constant (F := Ideal) S_ .f32 0x3F800000#32) (ix2 (⟨5000 * t.val + r.val, by omega⟩ : Fin 40000) (0 : Fin 1)) ix0 (fun a => a.elim0)]
  show (if _ then Ideal.ofBits .f32 0x3F800000#32 else 0) = _
  rw [one_word]

end Cert.PoolRef
end
-- ==== Proof.Value.Pool.lean ====
import proofs.«420548_j8821862826461_1_alg».proof.Proof.KernelIdeal.Region4
import proofs.«420548_j8821862826461_1_alg».proof.Proof.RefFns
import proofs.«420548_j8821862826461_1_alg».proof.Proof.Value.LibSegment
import proofs.«420548_j8821862826461_1_alg».proof.Proof.Value.PoolPayload
import proofs.«420548_j8821862826461_1_alg».proof.Proof.Value.PoolBlocks
import proofs.«420548_j8821862826461_1_alg».proof.Proof.Value.PoolRef
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HV
open Cert.KernelIdeal Cert.KernelIdeal.Gen Cert.KernelIdeal.GenP Cert.KernelIdeal.H
open Idealize.ShloMosaic Idealize.ShloMosaic.TcCoe Idealize.ShloMosaic.ValueIdx
open Idealize.SL.Sem
open Idealize.ShloMosaic.Pipeline (Dat)
open scoped BigOperators

/-! # What the pool leaves in its output array

The pool walks the 40000 node rows in 8 tiles of 5000. After tile `n` its first buffer holds, per
graph `g` and column `f`, the sum over the tiles `0 … n` of the tile's rows whose id is `g`, in column
`f`; its second buffer the number of those rows. After the last tile these are the sums and counts
over all 40000 rows, which are the reference's two scatters; the head (divide by the larger of the
count and one, contract with the weights, add the bias) is the same on both sides. -/

/-! ## A tile's contribution -/

/-- The rows of tile `t` whose id is the word of `g`, summed in column `f` (nothing past the 8 tiles). -/
def tileRows (H : S40000x16.Idx → EReal) (B : S40000x1.Idx → BitVec 32) (g : Fin 64) (f : Fin 16) (t : ℕ) : EReal :=
  if h : t < 8 then
    ∑ r : Fin 5000, (if B (ix2 ⟨5000 * t + r.val, by omega⟩ 0) = BitVec.ofNat 32 g.val then H (ix2 ⟨5000 * t + r.val, by omega⟩ f) else 0)
  else 0

/-- The number of rows of tile `t` whose id is the word of `g`, as a sum of ones. -/
def tileCount (B : S40000x1.Idx → BitVec 32) (g : Fin 64) (t : ℕ) : EReal :=
  if h : t < 8 then
    ∑ r : Fin 5000, (if B (ix2 ⟨5000 * t + r.val, by omega⟩ 0) = BitVec.ofNat 32 g.val then (1 : EReal) else 0)
  else 0

/-- A quantity that starts at zero plus the first tile's part and grows by each next tile's part is
    the sum of the parts so far. -/
theorem chain_sum (s a : ℕ → EReal) (h0 : s 0 = 0 + a 0) (hs : ∀ n, n + 1 < 8 → s (n + 1) = s n + a (n + 1)) :
    ∀ n, n < 8 → s n = ∑ t ∈ Finset.range (n + 1), a t
  | 0, _ => by rw [h0, zero_add, Finset.sum_range_one]
  | n + 1, h => by rw [hs n h, chain_sum s a h0 hs n (by omega), Finset.sum_range_succ _ (n + 1)]

section Pool

variable (V : (c : Dev nD) → (b : Ref sig .tc) → Buf (Elt Ideal) ((c : Thread nD τ).loc b))

/-- One accumulation step of the sums at tile `t`, over the arrays: what was held plus the tile's rows of graph `g`. -/
theorem acc0_tile (c : Dev nD) (t : Fin cfg4.N) (s0 : Vec Ideal S64x16 .f32) (g : Fin 64) (f : Fin 16) :
    acc0 (F := Ideal) (rowsBlk V c t) (idsBlk V c t) s0 (ix2 g f)
      = s0 (ix2 g f) + tileRows (V c main_v52) (V c main_v4) g f t.val := by
  have hN : cfg4.N = 8 := N_4
  have ht : t.val < 8 := by have := t.isLt; omega
  refine (acc0_apply (rowsBlk V c t) (idsBlk V c t) s0 g f).trans ?_
  refine congrArg (s0 (ix2 g f) + ·) ?_
  unfold tileRows
  rw [dif_pos ht]
  refine Finset.sum_congr rfl fun r _ => ?_
  have hr : 5000 * t.val + r.val < 40000 := by have := r.isLt; omega
  rw [idsBlk_apply V c t r hr, rowsBlk_apply V c t r f hr]

/-- One accumulation step of the counts at tile `t`, over the ids array. -/
theorem acc1_tile (c : Dev nD) (t : Fin cfg4.N) (s1 : Vec Ideal S64x1 .f32) (g : Fin 64) :
    acc1 (F := Ideal) (idsBlk V c t) s1 (ix2 g (0 : Fin 1))
      = s1 (ix2 g (0 : Fin 1)) + tileCount (V c main_v4) g t.val := by
  have hN : cfg4.N = 8 := N_4
  have ht : t.val < 8 := by have := t.isLt; omega
  refine (acc1_apply (idsBlk V c t) s1 g).trans ?_
  refine congrArg (s1 (ix2 g (0 : Fin 1)) + ·) ?_
  unfold tileCount
  rw [dif_pos ht]
  refine Finset.sum_congr rfl fun r _ => ?_
  have hr : 5000 * t.val + r.val < 40000 := by have := r.isLt; omega
  rw [idsBlk_apply V c t r hr]

/-! ## The two buffers after tile `n` -/

/-- The sums after tile `n`: the tiles' parts up to `n`. -/
theorem sc0At_apply (c : Dev nD) (g : Fin 64) (f : Fin 16) (n : ℕ) (hn : n < 8) :
    sc0At V c n (ix2 g f) = ∑ t ∈ Finset.range (n + 1), tileRows (V c main_v52) (V c main_v4) g f t := by
  have hN : cfg4.N = 8 := N_4
  refine chain_sum (fun n => sc0At V c n (ix2 g f)) (tileRows (V c main_v52) (V c main_v4) g f) ?_ ?_ n hn
  · show sc0At V c 0 (ix2 g f) = 0 + tileRows (V c main_v52) (V c main_v4) g f 0
    have e : sc0At V c 0 = acc0 (rowsBlk V c t4_0) (idsBlk V c t4_0) zero0 := by rw [sc0At]
    rw [e]
    refine (acc0_tile V c t4_0 zero0 g f).trans ?_
    rw [zero0_apply]
    rfl
  · intro m hm
    show sc0At V c (m + 1) (ix2 g f) = sc0At V c m (ix2 g f) + tileRows (V c main_v52) (V c main_v4) g f (m + 1)
    rw [sc0At_succ V c m (by omega)]
    exact acc0_tile V c ⟨m + 1, by omega⟩ (sc0At V c m) g f

/-- The counts after tile `n`: the tiles' counts up to `n`. -/
theorem sc1At_apply (c : Dev nD) (g : Fin 64) (n : ℕ) (hn : n < 8) :
    sc1At V c n (ix2 g (0 : Fin 1)) = ∑ t ∈ Finset.range (n + 1), tileCount (V c main_v4) g t := by
  have hN : cfg4.N = 8 := N_4
  refine chain_sum (fun n => sc1At V c n (ix2 g (0 : Fin 1))) (tileCount (V c main_v4) g) ?_ ?_ n hn
  · show sc1At V c 0 (ix2 g (0 : Fin 1)) = 0 + tileCount (V c main_v4) g 0
    have e : sc1At V c 0 = acc1 (idsBlk V c t4_0) zero1 := by rw [sc1At]
    rw [e]
    refine (acc1_tile V c t4_0 zero1 g).trans ?_
    rw [zero1_apply]
    rfl
  · intro m hm
    show sc1At V c (m + 1) (ix2 g (0 : Fin 1)) = sc1At V c m (ix2 g (0 : Fin 1)) + tileCount (V c main_v4) g (m + 1)
    rw [sc1At_succ V c m (by omega)]
    exact acc1_tile V c ⟨m + 1, by omega⟩ (sc1At V c m) g

/-! ## After the last tile: the reference's sums and counts -/

/-- After the last tile the sums are the reference's per-graph sums. -/
theorem sums_eq (c : Dev nD) (g : Fin 64) (f : Fin 16) :
    sc0At V c t4_7.val (ix2 g f) = Cert.PoolRef.sums (V c main_v52) (V c main_v4) (ix2 g f) := by
  refine (sc0At_apply V c g f 7 (by decide)).trans ?_
  refine Eq.trans ?_ (Cert.PoolRef.sums_apply (V c main_v52) (V c main_v4) g f).symm
  rw [Finset.sum_range (fun t => tileRows (V c main_v52) (V c main_v4) g f t)]
  refine Finset.sum_congr rfl fun t _ => ?_
  unfold tileRows
  rw [dif_pos t.isLt]

/-- After the last tile the counts are the reference's per-graph counts. -/
theorem counts_eq (c : Dev nD) (g : Fin 64) :
    sc1At V c t4_7.val (ix2 g (0 : Fin 1)) = Cert.PoolRef.counts (V c main_v4) (ix2 g (0 : Fin 1)) := by
  refine (sc1At_apply V c g 7 (by decide)).trans ?_
  refine Eq.trans ?_ (Cert.PoolRef.counts_apply (V c main_v4) g).symm
  rw [Finset.sum_range (fun t => tileCount (V c main_v4) g t)]
  refine Finset.sum_congr rfl fun t _ => ?_
  unfold tileCount
  rw [dif_pos t.isLt]

/-! ## The output array -/

/-- What the last point stores is the reference's head of the node rows, the graph ids, the weights
    and the bias. -/
theorem out4_last_eq (c : Dev nD) :
    (out4At V c t4_7 : S64x1.Idx → Elt Ideal .f32)
      = Cert.RefFns.pool (F := Ideal) (V c main_v52) (V c main_v4) (V c main_arg15) (V c main_v53) := by
  funext i
  obtain ⟨g, z, rfl⟩ : ∃ (g : Fin 64) (z : Fin 1), i = ix2 g z := ⟨i 0, i 1, eq_ix2 i⟩
  obtain rfl : z = 0 := Subsingleton.elim _ _
  refine Eq.trans ?_ (Cert.PoolRef.pool_apply (V c main_v52) (V c main_v4) (V c main_arg15) (V c main_v53) g).symm
  show head4 (sc0At V c t4_7.val) (sc1At V c t4_7.val) (wfcBlk V c t4_7) (bfcBlk V c t4_7) (ix2 g (0 : Fin 1)) = _
  refine (head4_apply (sc0At V c t4_7.val) (sc1At V c t4_7.val) (wfcBlk V c t4_7) (bfcBlk V c t4_7) g).trans ?_
  rw [wfcBlk_eq V c t4_7, bfcBlk_eq V c t4_7, Cert.PoolRef.one_word, counts_eq V c g]
  refine congrArg (· + (V c main_v53 : S1x1.Idx → Elt Ideal .f32) (ix2 (0 : Fin 1) (0 : Fin 1))) (Finset.sum_congr rfl fun k _ => ?_)
  rw [sums_eq V c g k]

/-- THE POOL'S OUTPUT ARRAY after the region is the reference's head. -/
theorem final4 (c : Dev nD) :
    (dat4 (F := Ideal) V c).arrAt 4 cfg4.N = Cert.RefFns.pool (F := Ideal) (V c main_v52) (V c main_v4) (V c main_arg15) (V c main_v53) :=
  (arrAt4_last V c).trans (out4_last_eq V c)

end Pool

end Cert.KernelIdeal.HV
end
-- ==== Proof.Value.Chain.lean ====
/-
  The kernel program's result buffer after the whole run is the reference's result term of the same arguments.
  Layer by layer: a region's output array is the layer's function of the arrays its windows read; those are arguments,
  the previous layer's output, and what the host stretch before the region made of them (the aggregated rows, the bias
  as one row, the graph ids as one column), each of which the reference computes by the same operations; so each
  region's output is the reference's term of that layer, and the last region's output is the reference's result.
-/
import proofs.«420548_j8821862826461_1_alg».proof.Proof.Value.HostReads
import proofs.«420548_j8821862826461_1_alg».proof.Proof.KernelIdeal.Run
import proofs.«420548_j8821862826461_1_alg».proof.Proof.Value.Layer1
import proofs.«420548_j8821862826461_1_alg».proof.Proof.Value.Layer2
import proofs.«420548_j8821862826461_1_alg».proof.Proof.Value.Layer3
import proofs.«420548_j8821862826461_1_alg».proof.Proof.Value.Layer4
import proofs.«420548_j8821862826461_1_alg».proof.Proof.Value.Pool

set_option maxRecDepth 16384

noncomputable section

namespace Cert.KernelIdeal.HV

open Cert.KernelIdeal Cert.KernelIdeal.Gen Cert.KernelIdeal.GenP Cert.KernelIdeal.H
open Idealize.ShloMosaic Idealize.ShloMosaic.TcCoe Idealize.SL.Sem Idealize.ShloMosaic.StableHlo
open Cert.ReferenceIdeal.Read

variable (m : (ℓ : Loc nD τ sig) → Buf (Elt Ideal) ℓ) (c : Dev nD)

-- the launch contents of @main's seventeen arguments on core `c`
set_option quotPrecheck false
local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)
local notation "x13" => m ((c.tc : Thread nD τ).loc main_arg13)
local notation "x14" => m ((c.tc : Thread nD τ).loc main_arg14)
local notation "x15" => m ((c.tc : Thread nD τ).loc main_arg15)
local notation "x16" => m ((c.tc : Thread nD τ).loc main_arg16)

/-! ## What stays as the first host stretch left it

The two rows of the edge array and the graph-id column are written by the first stretch only, and no item writes an
argument: no later stretch's list of written buffers holds them, and a region changes only its own output array. -/

/-- No stretch after the first writes `r`, and `r` is no region's output array. -/
abbrev Later (r : Ref sig .tc) : Prop :=
  r ∉ hostOps1_W ∧ r ∉ hostOps2_W ∧ r ∉ hostOps3_W ∧ r ∉ hostOps4_W
    ∧ r ≠ main_v16 ∧ r ≠ main_v28 ∧ r ≠ main_v40 ∧ r ≠ main_v52

theorem carried2 (r : Ref sig .tc) (h : Later r) : W2 m c r = W1 m c r := W2_of_ne m c r h.2.2.2.2.1
theorem carried3 (r : Ref sig .tc) (h : Later r) : W3 m c r = W1 m c r := (s1_keep (W2 m c) r h.1).trans (carried2 m c r h)
theorem carried4 (r : Ref sig .tc) (h : Later r) : W4 m c r = W1 m c r := (W4_of_ne m c r h.2.2.2.2.2.1).trans (carried3 m c r h)
theorem carried5 (r : Ref sig .tc) (h : Later r) : W5 m c r = W1 m c r := (s2_keep (W4 m c) r h.2.1).trans (carried4 m c r h)
theorem carried6 (r : Ref sig .tc) (h : Later r) : W6 m c r = W1 m c r := (W6_of_ne m c r h.2.2.2.2.2.2.1).trans (carried5 m c r h)
theorem carried7 (r : Ref sig .tc) (h : Later r) : W7 m c r = W1 m c r := (s3_keep (W6 m c) r h.2.2.1).trans (carried6 m c r h)
theorem carried8 (r : Ref sig .tc) (h : Later r) : W8 m c r = W1 m c r := (W8_of_ne m c r h.2.2.2.2.2.2.2).trans (carried7 m c r h)
theorem carried9 (r : Ref sig .tc) (h : Later r) : W9 m c r = W1 m c r := (s4_keep (W8 m c) r h.2.2.2.1).trans (carried8 m c r h)

/-- After the first stretch a buffer it does not write holds its launch contents. -/
theorem W1_arg (r : Ref sig .tc) (h : r ∉ hostOps0_W) : W1 m c r = m ((c.tc : Thread nD τ).loc r) :=
  (GenP.V1_of m c r h).trans rfl

/-- After the first stretch: the source entries, the destination entries, the graph ids as a column. -/
theorem W1_src : W1 m c main_v1 = val_main_v1 (F := Ideal) x1 := s0_src _
theorem W1_dst : W1 m c main_v3 = val_main_v3 (F := Ideal) x1 := s0_dst _
theorem W1_ids : W1 m c main_v4 = val_main_v72 (F := Ideal) x2 := s0_ids _

/-! ## Layer by layer

Each region's output array is the layer function of the five (the head: four) arrays its windows read; each of those is
an argument, the previous layer's output, or what the stretch before the region computed from them; the reference's term
of the same stage is the same function of the same arrays. -/

/-- Layer 1's output. -/
theorem out1 : W2 m c main_v16 = val_main_v20 (F := Ideal) x0 x1 x3 x4 x5 := by
  refine (W2_out m c).trans ((final0 (fun c b => W1 m c b) c).trans ?_)
  show Cert.RefFns.layer1 (W1 m c main_v14) (W1 m c main_arg0) (W1 m c main_arg3) (W1 m c main_arg5) (W1 m c main_v15) = _
  have hagg : W1 m c main_v14 = Cert.RefFns.agg32 (F := Ideal) x0 (val_main_v9 x1) (val_main_v12 x1) := s0_agg _
  have hbias : W1 m c main_v15 = val_main_v15 (F := Ideal) x4 := s0_bias _
  rw [hagg, hbias, W1_arg m c main_arg0 (by decide), W1_arg m c main_arg3 (by decide), W1_arg m c main_arg5 (by decide),
    ref_layer1, ref_agg1]

/-- Layer 2's output. -/
theorem out2 : W4 m c main_v28 = val_main_v37 (F := Ideal) x0 x1 x3 x4 x5 x6 x7 x8 := by
  refine (W4_out m c).trans ((final1 (fun c b => W3 m c b) c).trans ?_)
  show Cert.RefFns.layer2 (W3 m c main_v26) (W3 m c main_v16) (W3 m c main_arg6) (W3 m c main_arg8) (W3 m c main_v27) = _
  have hagg : W3 m c main_v26 = Cert.RefFns.agg128 (F := Ideal) (W2 m c main_v16) (gcol (W2 m c main_v1)) (scol (W2 m c main_v3)) :=
    s1_agg (W2 m c)
  have hbias : W3 m c main_v27 = val_main_v32 (F := Ideal) (W2 m c main_arg7) := s1_bias (W2 m c)
  have hprev : W3 m c main_v16 = W2 m c main_v16 := s1_keep (W2 m c) main_v16 (by decide)
  rw [hagg, hbias, hprev, out1 m c, carried2 m c main_v1 (by decide), W1_src, carried2 m c main_v3 (by decide), W1_dst,
    carried3 m c main_arg6 (by decide), W1_arg m c main_arg6 (by decide),
    carried3 m c main_arg8 (by decide), W1_arg m c main_arg8 (by decide),
    carried2 m c main_arg7 (by decide), W1_arg m c main_arg7 (by decide),
    ref_layer2, ref_agg2, ref_gcol2, ref_scol2]

/-- Layer 3's output. -/
theorem out3 : W6 m c main_v40 = val_main_v54 (F := Ideal) x0 x1 x3 x4 x5 x6 x7 x8 x9 x10 x11 := by
  refine (W6_out m c).trans ((final2 (fun c b => W5 m c b) c).trans ?_)
  show Cert.RefFns.layer3 (W5 m c main_v38) (W5 m c main_v28) (W5 m c main_arg9) (W5 m c main_arg11) (W5 m c main_v39) = _
  have hagg : W5 m c main_v38 = Cert.RefFns.agg64 (F := Ideal) (W4 m c main_v28) (gcol (W4 m c main_v1)) (scol (W4 m c main_v3)) :=
    s2_agg (W4 m c)
  have hbias : W5 m c main_v39 = val_main_v49 (F := Ideal) (W4 m c main_arg10) := s2_bias (W4 m c)
  have hprev : W5 m c main_v28 = W4 m c main_v28 := s2_keep (W4 m c) main_v28 (by decide)
  rw [hagg, hbias, hprev, out2 m c, carried4 m c main_v1 (by decide), W1_src, carried4 m c main_v3 (by decide), W1_dst,
    carried5 m c main_arg9 (by decide), W1_arg m c main_arg9 (by decide),
    carried5 m c main_arg11 (by decide), W1_arg m c main_arg11 (by decide),
    carried4 m c main_arg10 (by decide), W1_arg m c main_arg10 (by decide),
    ref_layer3, ref_agg3, ref_gcol3, ref_scol3]

/-- Layer 4's output. -/
theorem out4 : W8 m c main_v52 = val_main_v70 (F := Ideal) x0 x1 x3 x4 x5 x6 x7 x8 x9 x10 x11 x12 x13 x14 := by
  refine (W8_out m c).trans ((final3 (fun c b => W7 m c b) c).trans ?_)
  show Cert.RefFns.layer4 (W7 m c main_v50) (W7 m c main_v40) (W7 m c main_arg12) (W7 m c main_arg14) (W7 m c main_v51) = _
  have hagg : W7 m c main_v50 = Cert.RefFns.agg32 (F := Ideal) (W6 m c main_v40) (gcol (W6 m c main_v1)) (scol (W6 m c main_v3)) :=
    s3_agg (W6 m c)
  have hbias : W7 m c main_v51 = val_main_v66 (F := Ideal) (W6 m c main_arg13) := s3_bias (W6 m c)
  have hprev : W7 m c main_v40 = W6 m c main_v40 := s3_keep (W6 m c) main_v40 (by decide)
  rw [hagg, hbias, hprev, out3 m c, carried6 m c main_v1 (by decide), W1_src, carried6 m c main_v3 (by decide), W1_dst,
    carried7 m c main_arg12 (by decide), W1_arg m c main_arg12 (by decide),
    carried7 m c main_arg14 (by decide), W1_arg m c main_arg14 (by decide),
    carried6 m c main_arg13 (by decide), W1_arg m c main_arg13 (by decide),
    ref_layer4, ref_agg4, ref_gcol4, ref_scol4]

/-- THE VALUE: the kernel program's result buffer after the whole run is the reference's result term of the launch
    contents of the arguments. -/
theorem kernel_value : W10 (F := Ideal) m c main_v54 = Cert.ReferenceIdeal.Read.val_main_v85 (F := Ideal) x0 x1 x2 x3 x4 x5 x6 x7 x8 x9 x10 x11 x12 x13 x14 x15 x16 := by
  refine (W10_out m c).trans ((final4 (fun c b => W9 m c b) c).trans ?_)
  show Cert.RefFns.pool (W9 m c main_v52) (W9 m c main_v4) (W9 m c main_arg15) (W9 m c main_v53) = _
  have hbias : W9 m c main_v53 = val_main_v83 (F := Ideal) (W8 m c main_arg16) := s4_bias (W8 m c)
  have hprev : W9 m c main_v52 = W8 m c main_v52 := s4_keep (W8 m c) main_v52 (by decide)
  rw [hbias, hprev, out4 m c, carried9 m c main_v4 (by decide), W1_ids,
    carried9 m c main_arg15 (by decide), W1_arg m c main_arg15 (by decide),
    carried8 m c main_arg16 (by decide), W1_arg m c main_arg16 (by decide),
    ref_pool]

end Cert.KernelIdeal.HV

end
-- ==== Proof.lean ====
/-
  The certificate of a four-layer graph network with a mean-pool head. Each layer aggregates, per destination node, the rows
  gathered along the edges, and sends node n to (aggregated n)·W_rel + bias + (row n)·W_root, with a maximum against zero on the
  first three layers; the head sums the last layer's rows per graph, divides by the larger of the graph's node count and one,
  multiplies by the head's weights and adds its bias.

  The kernel program computes each layer in a grid of eight row blocks of 5000 nodes (two matrix products into zero
  accumulators, added, plus the bias row), and the head by accumulating, tile by tile, the products of a one-hot matrix of graph
  ids with the rows (the sums) and with ones (the counts) in two buffers that live across the grid, finishing at the last tile.
  At the ideal instance a change of float format is the identity, so block by block the kernel's sums are the reference's sums
  regrouped (addition of extended reals is commutative and associative; 0·x = 0 and 1·x = x), and the per-graph sums are the
  reference's accumulating scatter read at an index: the two results are one function of the arguments.

  The frames (every execution ends, nothing faults, the arguments end unchanged) are the run of @main's ten items: five host
  stretches and five kernel regions, each region from its body's run at every grid point. The reference's frame and value are
  its operations' run.
-/
import proofs.«420548_j8821862826461_1_alg».proof.Defs
import proofs.«420548_j8821862826461_1_alg».proof.Proof.Gen.Kernel
import proofs.«420548_j8821862826461_1_alg».proof.Proof.Gen.KernelIdeal
import proofs.«420548_j8821862826461_1_alg».proof.Proof.Gen.ReferenceIdeal
import proofs.«420548_j8821862826461_1_alg».proof.Proof.Gen.Pre_finite_inputs
import proofs.«420548_j8821862826461_1_alg».proof.Proof.Kernel.Run
import proofs.«420548_j8821862826461_1_alg».proof.Proof.KernelIdeal.Run
import proofs.«420548_j8821862826461_1_alg».proof.Proof.RefImports
import proofs.«420548_j8821862826461_1_alg».proof.Proof.Value.Chain
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.H.frame m ρ

/-- The idealized program runs and leaves its arguments as launched. -/
theorem frame_kernelIdeal : Cert.frame_KernelIdeal := fun m ρ _ => Cert.KernelIdeal.H.frame m ρ

/-- The reference runs and leaves its arguments as launched: its operations' run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's result term of those arguments. -/
theorem algebraic : Cert.algebraic_KernelIdeal_ReferenceIdeal := by
  intro m ρ m' ρ' _ hagree
  refine ⟨fun c => Cert.KernelIdeal.H.W10 (F := Ideal) m c Cert.KernelIdeal.main_v54, Cert.KernelIdeal.H.run_value m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v85 m' c = Cert.KernelIdeal.H.W10 (F := Ideal) m c Cert.KernelIdeal.main_v54
  rw [Cert.ReferenceIdeal.Read.val_main_v85_eq, Cert.KernelIdeal.HV.kernel_value,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
